-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x32 .f32 .bf16
  ∧ IdealRules.truncf_extf.Statement Cert.KernelIdeal.S1024x32 .f32 .bf16
  ∧ IdealRules.truncf_extf.Statement Cert.KernelIdeal.S1024x8 .f32 .bf16
  ∧ IdealRules.truncf_extf.Statement Cert.KernelIdeal.S1024x8 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S1003x512 : Shape := ⟨2, ![1003, 512]⟩
abbrev S128x512 : Shape := ⟨2, ![128, 512]⟩
abbrev S9000x128 : Shape := ⟨2, ![9000, 128]⟩
abbrev S32x512 : Shape := ⟨2, ![32, 512]⟩
abbrev S40000x32 : Shape := ⟨2, ![40000, 32]⟩
abbrev S8x512 : Shape := ⟨2, ![8, 512]⟩
abbrev S50000x8 : Shape := ⟨2, ![50000, 8]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1003x512 : S_.BroadcastsInDim S1003x512 (![] : Fin 0 → Fin S1003x512.rank)
  reducesTo_S1003x512_S_d0_1 : S1003x512.ReducesTo [0, 1] S_
  bcast_S_S128x512 : S_.BroadcastsInDim S128x512 (![] : Fin 0 → Fin S128x512.rank)
  reducesTo_S128x512_S_d0_1 : S128x512.ReducesTo [0, 1] S_
  bcast_S_S9000x128 : S_.BroadcastsInDim S9000x128 (![] : Fin 0 → Fin S9000x128.rank)
  reducesTo_S9000x128_S_d0_1 : S9000x128.ReducesTo [0, 1] S_
  bcast_S_S32x512 : S_.BroadcastsInDim S32x512 (![] : Fin 0 → Fin S32x512.rank)
  reducesTo_S32x512_S_d0_1 : S32x512.ReducesTo [0, 1] S_
  bcast_S_S40000x32 : S_.BroadcastsInDim S40000x32 (![] : Fin 0 → Fin S40000x32.rank)
  reducesTo_S40000x32_S_d0_1 : S40000x32.ReducesTo [0, 1] S_
  bcast_S_S8x512 : S_.BroadcastsInDim S8x512 (![] : Fin 0 → Fin S8x512.rank)
  reducesTo_S8x512_S_d0_1 : S8x512.ReducesTo [0, 1] S_
  bcast_S_S50000x8 : S_.BroadcastsInDim S50000x8 (![] : Fin 0 → Fin S50000x8.rank)
  reducesTo_S50000x8_S_d0_1 : S50000x8.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg1 : IVec S2048 32) (main_arg8 : FVec F S50000x8 .f32) (main_v33 : IVec S_ 1) : IVec S_ 1 :=
  let main_v34 : FVec F S50000x8 .f32 := Host.absf main_arg8
  let main_cst_12 : FVec F S_ .f32 := constant S_ .f32 0x7F800000#32
  let main_v35 : FVec F S50000x8 .f32 := broadcastInDim S50000x8 ![] bcast_S_S50000x8 main_cst_12
  let main_v36 : IVec S50000x8 1 := cmpf .olt main_v34 main_v35
  let main_c_13 : IVec S_ 1 := constantI S_ 1 1#1
  let main_v37 : IVec S_ 1 := (fun x v => Host.reduce IntOp.andi x v reducesTo_S50000x8_S_d0_1 h_S_) main_v36 main_c_13
  let main_v38 : IVec S_ 1 := andi main_v33 main_v37
  let main_c_14 : IVec S_ 32 := constantI S_ 32 0#32
  let main_v39 : IVec S2048 32 := broadcastInDim S2048 ![] bcast_S_S2048 main_c_14
  let main_v40 : IVec S2048 1 := cmpi .sge main_arg1 main_v39
  let main_c_15 : IVec S_ 1 := constantI S_ 1 1#1
  let main_v41 : IVec S_ 1 := (fun x v => Host.reduce IntOp.andi x v reducesTo_S2048_S_d0 h_S_) main_v40 main_c_15
  let main_v42 : IVec S_ 1 := andi main_v38 main_v41
  main_v42

def fn_part1 {F : FTy → Type} [FloatOps F] (main_arg1 : IVec S2048 32) (main_arg5 : FVec F S32x512 .f32) (main_arg6 : FVec F S40000x32 .f32) (main_arg7 : FVec F S8x512 .f32) (main_arg8 : FVec F S50000x8 .f32) (main_v13 : IVec S_ 1) (main_v16 : IVec S9000x128 1) : IVec S_ 1 :=
  let main_c_5 : IVec S_ 1 := constantI S_ 1 1#1
  let main_v17 : IVec S_ 1 := (fun x v => Host.reduce IntOp.andi x v reducesTo_S9000x128_S_d0_1 h_S_) main_v16 main_c_5
  let main_v18 : IVec S_ 1 := andi main_v13 main_v17
  let main_v19 : FVec F S32x512 .f32 := Host.absf main_arg5
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S40000x32 .f32 := Host.absf main_arg6
  let main_cst_8 : FVec F S_ .f32 := constant S_ .f32 0x7F800000#32
  let main_v25 : FVec F S40000x32 .f32 := broadcastInDim S40000x32 ![] bcast_S_S40000x32 main_cst_8
  let main_v26 : IVec S40000x32 1 := cmpf .olt main_v24 main_v25
  let main_c_9 : IVec S_ 1 := constantI S_ 1 1#1
  let main_v27 : IVec S_ 1 := (fun x v => Host.reduce IntOp.andi x v reducesTo_S40000x32_S_d0_1 h_S_) main_v26 main_c_9
  let main_v28 : IVec S_ 1 := andi main_v23 main_v27
  let main_v29 : FVec F S8x512 .f32 := Host.absf main_arg7
  let main_cst_10 : FVec F S_ .f32 := constant S_ .f32 0x7F800000#32
  let main_v30 : FVec F S8x512 .f32 := broadcastInDim S8x512 ![] bcast_S_S8x512 main_cst_10
  let main_v31 : IVec S8x512 1 := cmpf .olt main_v29 main_v30
  let main_c_11 : IVec S_ 1 := constantI S_ 1 1#1
  let main_v32 : IVec S_ 1 := (fun x v => Host.reduce IntOp.andi x v reducesTo_S8x512_S_d0_1 h_S_) main_v31 main_c_11
  let main_v33 : IVec S_ 1 := andi main_v28 main_v32
  fn_part2 (F := F) main_arg1 main_arg8 main_v33

def fn {F : FTy → Type} [FloatOps F] (main_arg0 : FVec F S2048x512 .f32) (main_arg1 : IVec S2048 32) (main_arg2 : FVec F S1003x512 .f32) (main_arg3 : FVec F S128x512 .f32) (main_arg4 : FVec F S9000x128 .f32) (main_arg5 : FVec F S32x512 .f32) (main_arg6 : FVec F S40000x32 .f32) (main_arg7 : FVec F S8x512 .f32) (main_arg8 : FVec F S50000x8 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S1003x512 .f32 := Host.absf main_arg2
  let main_cst_0 : FVec F S_ .f32 := constant S_ .f32 0x7F800000#32
  let main_v5 : FVec F S1003x512 .f32 := broadcastInDim S1003x512 ![] bcast_S_S1003x512 main_cst_0
  let main_v6 : IVec S1003x512 1 := cmpf .olt main_v4 main_v5
  let main_c_1 : IVec S_ 1 := constantI S_ 1 1#1
  let main_v7 : IVec S_ 1 := (fun x v => Host.reduce IntOp.andi x v reducesTo_S1003x512_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S9000x128 .f32 := Host.absf main_arg4
  let main_cst_4 : FVec F S_ .f32 := constant S_ .f32 0x7F800000#32
  let main_v15 : FVec F S9000x128 .f32 := broadcastInDim S9000x128 ![] bcast_S_S9000x128 main_cst_4
  let main_v16 : IVec S9000x128 1 := cmpf .olt main_v14 main_v15
  fn_part1 (F := F) main_arg1 main_arg5 main_arg6 main_arg7 main_arg8 main_v13 main_v16
-- ==== Kernel.lean ====
abbrev S2048x512 : Shape := ⟨2, ![2048, 512]⟩
abbrev S2048 : Shape := ⟨1, ![2048]⟩
abbrev S1003x512 : Shape := ⟨2, ![1003, 512]⟩
abbrev S128x512 : Shape := ⟨2, ![128, 512]⟩
abbrev S9000x128 : Shape := ⟨2, ![9000, 128]⟩
abbrev S32x512 : Shape := ⟨2, ![32, 512]⟩
abbrev S40000x32 : Shape := ⟨2, ![40000, 32]⟩
abbrev S8x512 : Shape := ⟨2, ![8, 512]⟩
abbrev S50000x8 : Shape := ⟨2, ![50000, 8]⟩
abbrev S_ : Shape := ⟨0, ![]⟩
abbrev S2048x1 : Shape := ⟨2, ![2048, 1]⟩
abbrev S2048x4 : Shape := ⟨2, ![2048, 4]⟩
abbrev S512x512 : Shape := ⟨2, ![512, 512]⟩
abbrev S512x1 : Shape := ⟨2, ![512, 1]⟩
abbrev S512x4 : Shape := ⟨2, ![512, 4]⟩
abbrev S512x1003 : Shape := ⟨2, ![512, 1003]⟩
abbrev S512 : Shape := ⟨1, ![512]⟩
abbrev S2048x3 : Shape := ⟨2, ![2048, 3]⟩
abbrev S2048x128 : Shape := ⟨2, ![2048, 128]⟩
abbrev S1024x512 : Shape := ⟨2, ![1024, 512]⟩
abbrev S1000x128 : Shape := ⟨2, ![1000, 128]⟩
abbrev S1024x128 : Shape := ⟨2, ![1024, 128]⟩
abbrev S1024x1 : Shape := ⟨2, ![1024, 1]⟩
abbrev S1024 : Shape := ⟨1, ![1024]⟩
abbrev S1024x1000 : Shape := ⟨2, ![1024, 1000]⟩
abbrev S2048x32 : Shape := ⟨2, ![2048, 32]⟩
abbrev S1000x32 : Shape := ⟨2, ![1000, 32]⟩
abbrev S1024x32 : Shape := ⟨2, ![1024, 32]⟩
abbrev S2048x8 : Shape := ⟨2, ![2048, 8]⟩
abbrev S1000x8 : Shape := ⟨2, ![1000, 8]⟩
abbrev S1024x8 : Shape := ⟨2, ![1024, 8]⟩

abbrev nBuf : Space → Nat
  | .hbm => 124
  | .vmem => 46
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S1003x512, .f32⟩
  | .hbm, ⟨3, _⟩ => ⟨S128x512, .f32⟩
  | .hbm, ⟨4, _⟩ => ⟨S9000x128, .f32⟩
  | .hbm, ⟨5, _⟩ => ⟨S32x512, .f32⟩
  | .hbm, ⟨6, _⟩ => ⟨S40000x32, .f32⟩
  | .hbm, ⟨7, _⟩ => ⟨S8x512, .f32⟩
  | .hbm, ⟨8, _⟩ => ⟨S50000x8, .f32⟩
  | .hbm, ⟨9, _⟩ => ⟨S2048x512, .bf16⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048x4, .f32⟩
  | .hbm, ⟨15, _⟩ => ⟨S2048x1, .f32⟩
  | .hbm, ⟨16, _⟩ => ⟨S2048, .f32⟩
  | .hbm, ⟨17, _⟩ => ⟨S2048x3, .f32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S2048x128, .f32⟩
  | .hbm, ⟨45, _⟩ => ⟨S2048x1, .f32⟩
  | .hbm, ⟨46, _⟩ => ⟨S2048x1, .f32⟩
  | .hbm, ⟨47, _⟩ => ⟨S2048, .f32⟩
  | .hbm, ⟨48, _⟩ => ⟨S2048, .f32⟩
  | .hbm, ⟨49, _⟩ => ⟨S2048, .f32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S2048, .i1⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x32, .f32⟩
  | .hbm, ⟨78, _⟩ => ⟨S2048x1, .f32⟩
  | .hbm, ⟨79, _⟩ => ⟨S2048x1, .f32⟩
  | .hbm, ⟨80, _⟩ => ⟨S2048, .f32⟩
  | .hbm, ⟨81, _⟩ => ⟨S2048, .f32⟩
  | .hbm, ⟨82, _⟩ => ⟨S2048, .f32⟩
  | .hbm, ⟨83, _⟩ => ⟨S_, .i32⟩
  | .hbm, ⟨84, _⟩ => ⟨S2048, .i32⟩
  | .hbm, ⟨85, _⟩ => ⟨S2048, .i1⟩
  | .hbm, ⟨86, _⟩ => ⟨S_, .i32⟩
  | .hbm, ⟨87, _⟩ => ⟨S2048, .i32⟩
  | .hbm, ⟨88, _⟩ => ⟨S2048, .i1⟩
  | .hbm, ⟨89, _⟩ => ⟨S2048, .i1⟩
  | .hbm, ⟨90, _⟩ => ⟨S2048, .f32⟩
  | .hbm, ⟨91, _⟩ => ⟨S_, .i32⟩
  | .hbm, ⟨92, _⟩ => ⟨S2048, .i32⟩
  | .hbm, ⟨93, _⟩ => ⟨S2048, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S_, .i32⟩
  | .hbm, ⟨100, _⟩ => ⟨S2048, .i32⟩
  | .hbm, ⟨101, _⟩ => ⟨S2048, .i32⟩
  | .hbm, ⟨102, _⟩ => ⟨S_, .i32⟩
  | .hbm, ⟨103, _⟩ => ⟨S2048, .i32⟩
  | .hbm, ⟨104, _⟩ => ⟨S2048, .i1⟩
  | .hbm, ⟨105, _⟩ => ⟨S_, .i32⟩
  | .hbm, ⟨106, _⟩ => ⟨S2048, .i32⟩
  | .hbm, ⟨107, _⟩ => ⟨S2048, .i32⟩
  | .hbm, ⟨108, _⟩ => ⟨S2048, .i32⟩
  | .hbm, ⟨109, _⟩ => ⟨S2048x1, .i32⟩
  | .hbm, ⟨110, _⟩ => ⟨S2048x8, .f32⟩
  | .hbm, ⟨111, _⟩ => ⟨S2048x1, .f32⟩
  | .hbm, ⟨112, _⟩ => ⟨S2048x1, .f32⟩
  | .hbm, ⟨113, _⟩ => ⟨S2048, .f32⟩
  | .hbm, ⟨114, _⟩ => ⟨S2048, .f32⟩
  | .hbm, ⟨115, _⟩ => ⟨S2048, .f32⟩
  | .hbm, ⟨116, _⟩ => ⟨S_, .i32⟩
  | .hbm, ⟨117, _⟩ => ⟨S2048, .i32⟩
  | .hbm, ⟨118, _⟩ => ⟨S2048, .i1⟩
  | .hbm, ⟨119, _⟩ => ⟨S_, .i32⟩
  | .hbm, ⟨120, _⟩ => ⟨S2048, .i32⟩
  | .hbm, ⟨121, _⟩ => ⟨S2048, .i1⟩
  | .hbm, ⟨122, _⟩ => ⟨S2048, .i1⟩
  | .hbm, ⟨123, _⟩ => ⟨S2048, .f32⟩
  | .local _ .vmem, ⟨0, _⟩ => ⟨S512x512, .bf16⟩
  | .local _ .vmem, ⟨1, _⟩ => ⟨S512x512, .bf16⟩
  | .local _ .vmem, ⟨2, _⟩ => ⟨S1003x512, .f32⟩
  | .local _ .vmem, ⟨3, _⟩ => ⟨S512x1, .i32⟩
  | .local _ .vmem, ⟨4, _⟩ => ⟨S512x1, .i32⟩
  | .local _ .vmem, ⟨5, _⟩ => ⟨S512x4, .f32⟩
  | .local _ .vmem, ⟨6, _⟩ => ⟨S512x4, .f32⟩
  | .local _ .vmem, ⟨7, _⟩ => ⟨S1024x512, .bf16⟩
  | .local _ .vmem, ⟨8, _⟩ => ⟨S1024x512, .bf16⟩
  | .local _ .vmem, ⟨9, _⟩ => ⟨S128x512, .f32⟩
  | .local _ .vmem, ⟨10, _⟩ => ⟨S1000x128, .f32⟩
  | .local _ .vmem, ⟨11, _⟩ => ⟨S1000x128, .f32⟩
  | .local _ .vmem, ⟨12, _⟩ => ⟨S1024x128, .f32⟩
  | .local _ .vmem, ⟨13, _⟩ => ⟨S1024x128, .f32⟩
  | .local _ .vmem, ⟨14, _⟩ => ⟨S1024x1, .f32⟩
  | .local _ .vmem, ⟨15, _⟩ => ⟨S1024x1, .f32⟩
  | .local _ .vmem, ⟨16, _⟩ => ⟨S1024x128, .bf16⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x512, .bf16⟩
  | .local _ .vmem, ⟨21, _⟩ => ⟨S1024x512, .bf16⟩
  | .local _ .vmem, ⟨22, _⟩ => ⟨S32x512, .f32⟩
  | .local _ .vmem, ⟨23, _⟩ => ⟨S1000x32, .f32⟩
  | .local _ .vmem, ⟨24, _⟩ => ⟨S1000x32, .f32⟩
  | .local _ .vmem, ⟨25, _⟩ => ⟨S1024x32, .f32⟩
  | .local _ .vmem, ⟨26, _⟩ => ⟨S1024x32, .f32⟩
  | .local _ .vmem, ⟨27, _⟩ => ⟨S1024x1, .f32⟩
  | .local _ .vmem, ⟨28, _⟩ => ⟨S1024x1, .f32⟩
  | .local _ .vmem, ⟨29, _⟩ => ⟨S1024x32, .bf16⟩
  | .local _ .vmem, ⟨30, _⟩ => ⟨S1024x1, .f32⟩
  | .local _ .vmem, ⟨31, _⟩ => ⟨S1024x1, .f32⟩
  | .local _ .vmem, ⟨32, _⟩ => ⟨S1024x1, .f32⟩
  | .local _ .vmem, ⟨33, _⟩ => ⟨S1024x512, .bf16⟩
  | .local _ .vmem, ⟨34, _⟩ => ⟨S1024x512, .bf16⟩
  | .local _ .vmem, ⟨35, _⟩ => ⟨S8x512, .f32⟩
  | .local _ .vmem, ⟨36, _⟩ => ⟨S1000x8, .f32⟩
  | .local _ .vmem, ⟨37, _⟩ => ⟨S1000x8, .f32⟩
  | .local _ .vmem, ⟨38, _⟩ => ⟨S1024x8, .f32⟩
  | .local _ .vmem, ⟨39, _⟩ => ⟨S1024x8, .f32⟩
  | .local _ .vmem, ⟨40, _⟩ => ⟨S1024x1, .f32⟩
  | .local _ .vmem, ⟨41, _⟩ => ⟨S1024x1, .f32⟩
  | .local _ .vmem, ⟨42, _⟩ => ⟨S1024x8, .bf16⟩
  | .local _ .vmem, ⟨43, _⟩ => ⟨S1024x1, .f32⟩
  | .local _ .vmem, ⟨44, _⟩ => ⟨S1024x1, .f32⟩
  | .local _ .vmem, ⟨45, _⟩ => ⟨S1024x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_c_5 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_c_9 : Ref sig .tc := ⟨.hbm, 61, rfl⟩
abbrev main_c_10 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v34 : Ref sig .tc := ⟨.hbm, 68, rfl⟩
abbrev main_c_11 : Ref sig .tc := ⟨.hbm, 69, rfl⟩
abbrev main_v35 : Ref sig .tc := ⟨.hbm, 70, rfl⟩
abbrev main_v36 : Ref sig .tc := ⟨.hbm, 71, rfl⟩
abbrev main_c_12 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_13 : Ref sig .tc := ⟨.hbm, 83, rfl⟩
abbrev main_v47 : Ref sig .tc := ⟨.hbm, 84, rfl⟩
abbrev main_v48 : Ref sig .tc := ⟨.hbm, 85, rfl⟩
abbrev main_c_14 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_15 : Ref sig .tc := ⟨.hbm, 91, rfl⟩
abbrev main_v53 : Ref sig .tc := ⟨.hbm, 92, rfl⟩
abbrev main_v54 : Ref sig .tc := ⟨.hbm, 93, rfl⟩
abbrev main_c_16 : Ref sig .tc := ⟨.hbm, 94, rfl⟩
abbrev main_c_17 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v55 : Ref sig .tc := ⟨.hbm, 101, rfl⟩
abbrev main_c_18 : Ref sig .tc := ⟨.hbm, 102, rfl⟩
abbrev main_v56 : Ref sig .tc := ⟨.hbm, 103, rfl⟩
abbrev main_v57 : Ref sig .tc := ⟨.hbm, 104, rfl⟩
abbrev main_c_19 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_20 : Ref sig .tc := ⟨.hbm, 116, rfl⟩
abbrev main_v68 : Ref sig .tc := ⟨.hbm, 117, rfl⟩
abbrev main_v69 : Ref sig .tc := ⟨.hbm, 118, rfl⟩
abbrev main_c_21 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc2_scratch1 : Ref sig .tc := ⟨.vmem, 30, rfl⟩
abbrev cc2_scratch2 : Ref sig .tc := ⟨.vmem, 31, rfl⟩
abbrev cc2_scratch3 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_scratch0 : Ref sig .tc := ⟨.vmem, 42, rfl⟩
abbrev cc3_scratch1 : Ref sig .tc := ⟨.vmem, 43, rfl⟩
abbrev cc3_scratch2 : Ref sig .tc := ⟨.vmem, 44, rfl⟩
abbrev cc3_scratch3 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1003x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 9], ![false, false]⟩

def k1_cond2 (i : grid1.Coords) : BitVec 1 :=
  let arg1 : BitVec 32 := BitVec.ofNat 32 (i 1).val
  let c8_i32 : BitVec 32 := 8#32
  let v28 : BitVec 1 := Scalar.cmpi .eq arg1 c8_i32
  let v29 : BitVec 32 := Scalar.extui v28
  let c0_i32_16 : BitVec 32 := 0#32
  let v30 : BitVec 1 := Scalar.cmpi .ne v29 c0_i32_16
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 40], ![false, false]⟩

def k2_cond2 (i : grid2.Coords) : BitVec 1 :=
  let arg1 : BitVec 32 := BitVec.ofNat 32 (i 1).val
  let c39_i32 : BitVec 32 := 39#32
  let v28 : BitVec 1 := Scalar.cmpi .eq arg1 c39_i32
  let v29 : BitVec 32 := Scalar.extui v28
  let c0_i32_16 : BitVec 32 := 0#32
  let v30 : BitVec 1 := Scalar.cmpi .ne v29 c0_i32_16
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S32x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2, 50], ![false, false]⟩

def k3_cond2 (i : grid3.Coords) : BitVec 1 :=
  let arg1 : BitVec 32 := BitVec.ofNat 32 (i 1).val
  let c49_i32 : BitVec 32 := 49#32
  let v28 : BitVec 1 := Scalar.cmpi .eq arg1 c49_i32
  let v29 : BitVec 32 := Scalar.extui v28
  let c0_i32_16 : BitVec 32 := 0#32
  let v30 : BitVec 1 := Scalar.cmpi .ne v29 c0_i32_16
  v30

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S8x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bitsLt_bf16_f32 : FTy.bits .bf16 < FTy.bits .f32
  bcast_S_S2048 : S_.BroadcastsInDim S2048 (![] : Fin 0 → Fin S2048.rank)
  shapeCasts_S2048_S2048x1 : S2048.ShapeCasts S2048x1
  inb_S1003x512_S1003x512_0_0 : ∀ a, (![0, 0] : Fin 2 → Nat) a + S1003x512.size a ≤ S1003x512.size a
  h_S1003x512 : 0 < S1003x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x1003_S512 : S512x1003.Reduces [1] S512
  shapeCasts_S512_S512x1 : S512.ShapeCasts S512x1
  broadcasts_S512x1_S512x1003 : S512x1.Broadcasts S512x1003
  iota_S512x1003_d1_w32 : S512x1003.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  slices_S512x1003_o0_1000_S512x1 : S512x1003.Slices ![0, 1000] S512x1
  slices_S512x1003_o0_1001_S512x1 : S512x1003.Slices ![0, 1001] S512x1
  slices_S512x1003_o0_1002_S512x1 : S512x1003.Slices ![0, 1002] S512x1
  concatenates_S512x1_S512x1_S512x1_S512x1_S512x4_d1 : Shape.Concatenates [S512x1, S512x1, S512x1, S512x1] S512x4 1
  inb_S512x4_S512x4_0_0 : ∀ a, (![0, 0] : Fin 2 → Nat) a + S512x4.size a ≤ S512x4.size a
  h_S512x4 : 0 < S512x4.numel
  slices_S2048x4_S2048x1_0_0 : S2048x4.Slices ![0, 0] S2048x1
  shapeCasts_S2048x1_S2048 : S2048x1.ShapeCasts S2048
  slices_S2048x4_S2048x3_0_1 : S2048x4.Slices ![0, 1] S2048x3
  bcast_S2048_S2048x1_0 : S2048.BroadcastsInDim S2048x1 (![0] : Fin 1 → Fin S2048x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S128x512_S128x512_0_0 : ∀ a, (![0, 0] : Fin 2 → Nat) a + S128x512.size a ≤ S128x512.size a
  h_S128x512 : 0 < S128x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  reduces_S1024x128_S1024 : S1024x128.Reduces [1] S1024
  shapeCasts_S1024_S1024x1 : S1024.ShapeCasts S1024x1
  inb_S1000x128_S1000x128_0_0 : ∀ a, (![0, 0] : Fin 2 → Nat) a + S1000x128.size a ≤ S1000x128.size a
  h_S1000x128 : 0 < S1000x128.numel
  reduces_S1024x1000_S1024 : S1024x1000.Reduces [1] S1024
  broadcasts_S1024x1_S1024x1000 : S1024x1.Broadcasts S1024x1000
  slices_S2048x3_S2048x1_0_0 : S2048x3.Slices ![0, 0] S2048x1
  inb_S32x512_S32x512_0_0 : ∀ a, (![0, 0] : Fin 2 → Nat) a + S32x512.size a ≤ S32x512.size a
  h_S32x512 : 0 < S32x512.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  packedbf16_S1024x32_S1024x32_0_0 : (Rect.unit (s := S1024x32) ![0, 0] S1024x32.size inb_S1024x32_S1024x32_0_0).PackedRows (EltTy.packing .bf16)
  reduces_S1024x32_S1024 : S1024x32.Reduces [1] S1024
  inb_S1000x32_S1000x32_0_0 : ∀ a, (![0, 0] : Fin 2 → Nat) a + S1000x32.size a ≤ S1000x32.size a
  h_S1000x32 : 0 < S1000x32.numel
  slices_S2048x3_S2048x1_0_1 : S2048x3.Slices ![0, 1] S2048x1
  inb_S8x512_S8x512_0_0 : ∀ a, (![0, 0] : Fin 2 → Nat) a + S8x512.size a ≤ S8x512.size a
  h_S8x512 : 0 < S8x512.numel
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  packedbf16_S1024x8_S1024x8_0_0 : (Rect.unit (s := S1024x8) ![0, 0] S1024x8.size inb_S1024x8_S1024x8_0_0).PackedRows (EltTy.packing .bf16)
  reduces_S1024x8_S1024 : S1024x8.Reduces [1] S1024
  inb_S1000x8_S1000x8_0_0 : ∀ a, (![0, 0] : Fin 2 → Nat) a + S1000x8.size a ≤ S1000x8.size a
  h_S1000x8 : 0 < S1000x8.numel
  slices_S2048x3_S2048x1_0_2 : S2048x3.Slices ![0, 2] S2048x1
  dot_S512x512_S1003x512_S512x1003_1_1_0_0_n_n_wf : DotDims.WF S512x512 S1003x512 S512x1003 [1] [1] [0] [0] [] []
  gather_S9000x128_S2048x1_S2048x128_1_0_n_n_0_1_1128_wf : GatherDims.WF S9000x128 S2048x1 S2048x128 [1] [0] [] [0] [] 1 ![1, 128]
  dot_S1024x512_S128x512_S1024x128_1_1_0_0_n_n_wf : DotDims.WF S1024x512 S128x512 S1024x128 [1] [1] [0] [0] [] []
  dot_S1024x128_S1000x128_S1024x1000_1_1_0_0_n_n_wf : DotDims.WF S1024x128 S1000x128 S1024x1000 [1] [1] [0] [0] [] []
  gather_S40000x32_S2048x1_S2048x32_1_0_n_n_0_1_132_wf : GatherDims.WF S40000x32 S2048x1 S2048x32 [1] [0] [] [0] [] 1 ![1, 32]
  dot_S1024x512_S32x512_S1024x32_1_1_0_0_n_n_wf : DotDims.WF S1024x512 S32x512 S1024x32 [1] [1] [0] [0] [] []
  dot_S1024x32_S1000x32_S1024x1000_1_1_0_0_n_n_wf : DotDims.WF S1024x32 S1000x32 S1024x1000 [1] [1] [0] [0] [] []
  gather_S50000x8_S2048x1_S2048x8_1_0_n_n_0_1_18_wf : GatherDims.WF S50000x8 S2048x1 S2048x8 [1] [0] [] [0] [] 1 ![1, 8]
  dot_S1024x512_S8x512_S1024x8_1_1_0_0_n_n_wf : DotDims.WF S1024x512 S8x512 S1024x8 [1] [1] [0] [0] [] []
  dot_S1024x8_S1000x8_S1024x1000_1_1_0_0_n_n_wf : DotDims.WF S1024x8 S1000x8 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .bf16 = 32 ∨ (Rect.block (s := S2048x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1003x512.size a ≤ S1003x512.size a
  hwx0_1 : ∀ i : grid0.Coords, EltTy.bits .f32 = 32 ∨ (Rect.block (s := S1003x512) S1003x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .i32 = 32 ∨ (Rect.block (s := S2048x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S2048x4.size a
  hwx0_3 : ∀ i : grid0.Coords, EltTy.bits .f32 = 32 ∨ (Rect.block (s := S2048x4) S512x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x512.size a
  hwx1_0 : ∀ i : grid1.Coords, EltTy.bits .bf16 = 32 ∨ (Rect.block (s := S2048x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S9000x128.size a
  hwx1_2 : ∀ i : grid1.Coords, EltTy.bits .f32 = 32 ∨ (Rect.block (s := S9000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S2048x128.size a
  hwx1_3 : ∀ i : grid1.Coords, EltTy.bits .f32 = 32 ∨ (Rect.block (s := S2048x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S2048x1.size a
  hwx1_4 : ∀ i : grid1.Coords, EltTy.bits .f32 = 32 ∨ (Rect.block (s := S2048x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S2048x512.size a
  hwx2_0 : ∀ i : grid2.Coords, EltTy.bits .bf16 = 32 ∨ (Rect.block (s := S2048x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x512.size a ≤ S32x512.size a
  hwx2_1 : ∀ i : grid2.Coords, EltTy.bits .f32 = 32 ∨ (Rect.block (s := S32x512) S32x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x32.size a ≤ S40000x32.size a
  hwx2_2 : ∀ i : grid2.Coords, EltTy.bits .f32 = 32 ∨ (Rect.block (s := S40000x32) S1000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x32.size a ≤ S2048x32.size a
  hwx2_3 : ∀ i : grid2.Coords, EltTy.bits .f32 = 32 ∨ (Rect.block (s := S2048x32) S1024x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S2048x1.size a
  hwx2_4 : ∀ i : grid2.Coords, EltTy.bits .f32 = 32 ∨ (Rect.block (s := S2048x1) S1024x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S2048x512.size a
  hwx3_0 : ∀ i : grid3.Coords, EltTy.bits .bf16 = 32 ∨ (Rect.block (s := S2048x512) S1024x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x512.size a ≤ S8x512.size a
  hwx3_1 : ∀ i : grid3.Coords, EltTy.bits .f32 = 32 ∨ (Rect.block (s := S8x512) S8x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x8.size a ≤ S50000x8.size a
  hwx3_2 : ∀ i : grid3.Coords, EltTy.bits .f32 = 32 ∨ (Rect.block (s := S50000x8) S1000x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x8.size a ≤ S2048x8.size a
  hwx3_3 : ∀ i : grid3.Coords, EltTy.bits .f32 = 32 ∨ (Rect.block (s := S2048x8) S1024x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1.size a ≤ S2048x1.size a
  hwx3_4 : ∀ i : grid3.Coords, EltTy.bits .f32 = 32 ∨ (Rect.block (s := S2048x1) S1024x1.size (cc3_transform_4 i) (hinb3_4 i)).WholeWords (EltTy.packing .f32)

variable [Facts₀]

def dot_S512x512_S1003x512_S512x1003_1_1_0_0_n_n : DotDims S512x512 S1003x512 S512x1003 where
  lhsContracting := [1]
  rhsContracting := [1]
  lhsNonContracting := [0]
  rhsNonContracting := [0]
  lhsBatch := []
  rhsBatch := []
  wf := dot_S512x512_S1003x512_S512x1003_1_1_0_0_n_n_wf
def gather_S9000x128_S2048x1_S2048x128_1_0_n_n_0_1_1128 : GatherDims S9000x128 S2048x1 S2048x128 where
  offsetDims := [1]
  collapsedSliceDims := [0]
  operandBatchingDims := []
  startIndicesBatchingDims := []
  startIndexMap := [0]
  indexVectorDim := 1
  sliceSizes := ![1, 128]
  wf := gather_S9000x128_S2048x1_S2048x128_1_0_n_n_0_1_1128_wf
def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S1000x128_S1024x1000_1_1_0_0_n_n : DotDims S1024x128 S1000x128 S1024x1000 where
  lhsContracting := [1]
  rhsContracting := [1]
  lhsNonContracting := [0]
  rhsNonContracting := [0]
  lhsBatch := []
  rhsBatch := []
  wf := dot_S1024x128_S1000x128_S1024x1000_1_1_0_0_n_n_wf
def gather_S40000x32_S2048x1_S2048x32_1_0_n_n_0_1_132 : GatherDims S40000x32 S2048x1 S2048x32 where
  offsetDims := [1]
  collapsedSliceDims := [0]
  operandBatchingDims := []
  startIndicesBatchingDims := []
  startIndexMap := [0]
  indexVectorDim := 1
  sliceSizes := ![1, 32]
  wf := gather_S40000x32_S2048x1_S2048x32_1_0_n_n_0_1_132_wf
def dot_S1024x512_S32x512_S1024x32_1_1_0_0_n_n : DotDims S1024x512 S32x512 S1024x32 where
  lhsContracting := [1]
  rhsContracting := [1]
  lhsNonContracting := [0]
  rhsNonContracting := [0]
  lhsBatch := []
  rhsBatch := []
  wf := dot_S1024x512_S32x512_S1024x32_1_1_0_0_n_n_wf
def dot_S1024x32_S1000x32_S1024x1000_1_1_0_0_n_n : DotDims S1024x32 S1000x32 S1024x1000 where
  lhsContracting := [1]
  rhsContracting := [1]
  lhsNonContracting := [0]
  rhsNonContracting := [0]
  lhsBatch := []
  rhsBatch := []
  wf := dot_S1024x32_S1000x32_S1024x1000_1_1_0_0_n_n_wf
def gather_S50000x8_S2048x1_S2048x8_1_0_n_n_0_1_18 : GatherDims S50000x8 S2048x1 S2048x8 where
  offsetDims := [1]
  collapsedSliceDims := [0]
  operandBatchingDims := []
  startIndicesBatchingDims := []
  startIndexMap := [0]
  indexVectorDim := 1
  sliceSizes := ![1, 8]
  wf := gather_S50000x8_S2048x1_S2048x8_1_0_n_n_0_1_18_wf
def dot_S1024x512_S8x512_S1024x8_1_1_0_0_n_n : DotDims S1024x512 S8x512 S1024x8 where
  lhsContracting := [1]
  rhsContracting := [1]
  lhsNonContracting := [0]
  rhsNonContracting := [0]
  lhsBatch := []
  rhsBatch := []
  wf := dot_S1024x512_S8x512_S1024x8_1_1_0_0_n_n_wf
def dot_S1024x8_S1000x8_S1024x1000_1_1_0_0_n_n : DotDims S1024x8 S1000x8 S1024x1000 where
  lhsContracting := [1]
  rhsContracting := [1]
  lhsNonContracting := [0]
  rhsNonContracting := [0]
  lhsBatch := []
  rhsBatch := []
  wf := dot_S1024x8_S1000x8_S1024x1000_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1003x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1024x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v0) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S8x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S1000x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1024x8.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1024x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S2048x512 : Shape := ⟨2, ![2048, 512]⟩
abbrev S2048 : Shape := ⟨1, ![2048]⟩
abbrev S1003x512 : Shape := ⟨2, ![1003, 512]⟩
abbrev S128x512 : Shape := ⟨2, ![128, 512]⟩
abbrev S9000x128 : Shape := ⟨2, ![9000, 128]⟩
abbrev S32x512 : Shape := ⟨2, ![32, 512]⟩
abbrev S40000x32 : Shape := ⟨2, ![40000, 32]⟩
abbrev S8x512 : Shape := ⟨2, ![8, 512]⟩
abbrev S50000x8 : Shape := ⟨2, ![50000, 8]⟩
abbrev S512x1003 : Shape := ⟨2, ![512, 1003]⟩
abbrev S2048x1003 : Shape := ⟨2, ![2048, 1003]⟩
abbrev S_ : Shape := ⟨0, ![]⟩
abbrev S2048x1 : Shape := ⟨2, ![2048, 1]⟩
abbrev S2048x2 : Shape := ⟨2, ![2048, 2]⟩
abbrev S512x128 : Shape := ⟨2, ![512, 128]⟩
abbrev S2048x128 : Shape := ⟨2, ![2048, 128]⟩
abbrev S128x9000 : Shape := ⟨2, ![128, 9000]⟩
abbrev S2048x9000 : Shape := ⟨2, ![2048, 9000]⟩
abbrev S512x32 : Shape := ⟨2, ![512, 32]⟩
abbrev S2048x32 : Shape := ⟨2, ![2048, 32]⟩
abbrev S32x40000 : Shape := ⟨2, ![32, 40000]⟩
abbrev S2048x40000 : Shape := ⟨2, ![2048, 40000]⟩
abbrev S512x8 : Shape := ⟨2, ![512, 8]⟩
abbrev S2048x8 : Shape := ⟨2, ![2048, 8]⟩
abbrev S8x50000 : Shape := ⟨2, ![8, 50000]⟩
abbrev S2048x50000 : Shape := ⟨2, ![2048, 50000]⟩

abbrev nBuf : Space → Nat
  | .hbm => 232
  | .vmem => 0
  | .smem => 0
  | _ => 0

abbrev hbmTy0_0 (i : Nat) : BufTy := match i % 128 with
  | 0 => ⟨S2048x512, .f32⟩
  | 1 => ⟨S2048, .i32⟩
  | 2 => ⟨S1003x512, .f32⟩
  | 3 => ⟨S128x512, .f32⟩
  | 4 => ⟨S9000x128, .f32⟩
  | 5 => ⟨S32x512, .f32⟩
  | 6 => ⟨S40000x32, .f32⟩
  | 7 => ⟨S8x512, .f32⟩
  | 8 => ⟨S50000x8, .f32⟩
  | 9 => ⟨S2048, .i32⟩
  | 10 => ⟨S512x1003, .f32⟩
  | 11 => ⟨S2048x1003, .f32⟩
  | 12 => ⟨S_, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S2048x1003, .f32⟩
  | 19 => ⟨S2048x1003, .f32⟩
  | 20 => ⟨S2048x1003, .f32⟩
  | 21 => ⟨S_, .f32⟩
  | 22 => ⟨S2048, .f32⟩
  | 23 => ⟨S2048x1, .f32⟩
  | 24 => ⟨S2048x1, .f32⟩
  | 25 => ⟨S2048x1003, .f32⟩
  | 26 => ⟨S2048x1003, .f32⟩
  | 27 => ⟨S_, .i32⟩
  | 28 => ⟨S2048, .i32⟩
  | 29 => ⟨S2048, .i1⟩
  | 30 => ⟨S_, .i32⟩
  | 31 => ⟨S2048, .i32⟩
  | 32 => ⟨S2048, .i32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S2048x1, .i32⟩
  | 49 => ⟨S2048x2, .i32⟩
  | 50 => ⟨S2048, .f32⟩
  | 51 => ⟨S_, .f32⟩
  | 52 => ⟨S_, .f32⟩
  | 53 => ⟨S2048, .f32⟩
  | 54 => ⟨S2048, .f32⟩
  | 55 => ⟨S512x128, .f32⟩
  | 56 => ⟨S2048x128, .f32⟩
  | 57 => ⟨S128x9000, .f32⟩
  | 58 => ⟨S2048x9000, .f32⟩
  | 59 => ⟨S_, .f32⟩
  | 60 => ⟨S2048, .f32⟩
  | 61 => ⟨S_, .f32⟩
  | 62 => ⟨S2048, .f32⟩
  | 63 => ⟨S2048, .f32⟩
  | 64 => ⟨S2048x1, .f32⟩
  | 65 => ⟨S2048x9000, .f32⟩
  | 66 => ⟨S2048x9000, .f32⟩
  | 67 => ⟨S2048x9000, .f32⟩
  | 68 => ⟨S_, .f32⟩
  | 69 => ⟨S2048, .f32⟩
  | 70 => ⟨S2048x1, .f32⟩
  | 71 => ⟨S2048x1, .f32⟩
  | 72 => ⟨S2048x9000, .f32⟩
  | 73 => ⟨S2048x9000, .f32⟩
  | 74 => ⟨S_, .i32⟩
  | 75 => ⟨S2048, .i32⟩
  | 76 => ⟨S2048, .i32⟩
  | 77 => ⟨S_, .i32⟩
  | 78 => ⟨S_, .i32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S2048x1, .f32⟩
  | 86 => ⟨S2048, .f32⟩
  | 87 => ⟨S_, .i32⟩
  | 88 => ⟨S2048, .i32⟩
  | 89 => ⟨S2048, .i1⟩
  | 90 => ⟨S_, .i32⟩
  | 91 => ⟨S2048, .i32⟩
  | 92 => ⟨S2048, .i32⟩
  | 93 => ⟨S2048, .i32⟩
  | 94 => ⟨S_, .i32⟩
  | 95 => ⟨S2048, .i32⟩
  | 96 => ⟨S2048, .i1⟩
  | 97 => ⟨S_, .i32⟩
  | 98 => ⟨S2048, .i32⟩
  | 99 => ⟨S2048, .i32⟩
  | 100 => ⟨S2048, .i32⟩
  | 101 => ⟨S2048x1, .i32⟩
  | 102 => ⟨S2048x1, .i32⟩
  | 103 => ⟨S2048x2, .i32⟩
  | 104 => ⟨S2048, .f32⟩
  | 105 => ⟨S2048, .f32⟩
  | 106 => ⟨S_, .i32⟩
  | 107 => ⟨S2048, .i32⟩
  | 108 => ⟨S2048, .i1⟩
  | 109 => ⟨S_, .i32⟩
  | 110 => ⟨S2048, .i32⟩
  | 111 => ⟨S2048, .i1⟩
  | 112 => ⟨S2048, .i1⟩
  | 113 => ⟨S2048, .f32⟩
  | 114 => ⟨S512x32, .f32⟩
  | 115 => ⟨S2048x32, .f32⟩
  | 116 => ⟨S32x40000, .f32⟩
  | 117 => ⟨S2048x40000, .f32⟩
  | 118 => ⟨S_, .f32⟩
  | 119 => ⟨S2048, .f32⟩
  | 120 => ⟨S_, .f32⟩
  | 121 => ⟨S2048, .f32⟩
  | 122 => ⟨S2048, .f32⟩
  | 123 => ⟨S2048x1, .f32⟩
  | 124 => ⟨S2048x40000, .f32⟩
  | 125 => ⟨S2048x40000, .f32⟩
  | 126 => ⟨S2048x40000, .f32⟩
  | 127 => ⟨S_, .f32⟩
  | _ => ⟨S2048x512, .f32⟩

abbrev hbmTy0_1 (i : Nat) : BufTy := match i % 128 with
  | 0 => ⟨S2048, .f32⟩
  | 1 => ⟨S2048x1, .f32⟩
  | 2 => ⟨S2048x1, .f32⟩
  | 3 => ⟨S2048x40000, .f32⟩
  | 4 => ⟨S2048x40000, .f32⟩
  | 5 => ⟨S_, .i32⟩
  | 6 => ⟨S2048, .i32⟩
  | 7 => ⟨S2048, .i32⟩
  | 8 => ⟨S_, .i32⟩
  | 9 => ⟨S_, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S2048x1, .f32⟩
  | 17 => ⟨S2048, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S_, .i32⟩
  | 29 => ⟨S2048, .i32⟩
  | 30 => ⟨S2048, .i32⟩
  | 31 => ⟨S2048, .i32⟩
  | 32 => ⟨S2048x1, .i32⟩
  | 33 => ⟨S2048x1, .i32⟩
  | 34 => ⟨S2048x2, .i32⟩
  | 35 => ⟨S2048, .f32⟩
  | 36 => ⟨S2048, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i1⟩
  | 43 => ⟨S2048, .i1⟩
  | 44 => ⟨S2048, .f32⟩
  | 45 => ⟨S512x8, .f32⟩
  | 46 => ⟨S2048x8, .f32⟩
  | 47 => ⟨S8x50000, .f32⟩
  | 48 => ⟨S2048x50000, .f32⟩
  | 49 => ⟨S_, .f32⟩
  | 50 => ⟨S2048, .f32⟩
  | 51 => ⟨S_, .f32⟩
  | 52 => ⟨S2048, .f32⟩
  | 53 => ⟨S2048, .f32⟩
  | 54 => ⟨S2048x1, .f32⟩
  | 55 => ⟨S2048x50000, .f32⟩
  | 56 => ⟨S2048x50000, .f32⟩
  | 57 => ⟨S2048x50000, .f32⟩
  | 58 => ⟨S_, .f32⟩
  | 59 => ⟨S2048, .f32⟩
  | 60 => ⟨S2048x1, .f32⟩
  | 61 => ⟨S2048x1, .f32⟩
  | 62 => ⟨S2048x50000, .f32⟩
  | 63 => ⟨S2048x50000, .f32⟩
  | 64 => ⟨S_, .i32⟩
  | 65 => ⟨S2048, .i32⟩
  | 66 => ⟨S2048, .i32⟩
  | 67 => ⟨S_, .i32⟩
  | 68 => ⟨S_, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i32⟩
  | 75 => ⟨S2048x1, .f32⟩
  | 76 => ⟨S2048, .f32⟩
  | 77 => ⟨S_, .i32⟩
  | 78 => ⟨S2048, .i32⟩
  | 79 => ⟨S2048, .i1⟩
  | 80 => ⟨S_, .i32⟩
  | 81 => ⟨S2048, .i32⟩
  | 82 => ⟨S2048, .i32⟩
  | 83 => ⟨S2048, .i32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S2048x1, .i32⟩
  | 93 => ⟨S2048x2, .i32⟩
  | 94 => ⟨S2048, .f32⟩
  | 95 => ⟨S2048, .f32⟩
  | 96 => ⟨S_, .i32⟩
  | 97 => ⟨S2048, .i32⟩
  | 98 => ⟨S2048, .i1⟩
  | 99 => ⟨S_, .i32⟩
  | 100 => ⟨S2048, .i32⟩
  | 101 => ⟨S2048, .i1⟩
  | 102 => ⟨S2048, .i1⟩
  | 103 => ⟨S2048, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_c_4 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call2_cst : Ref sig .tc := ⟨.hbm, 59, rfl⟩
abbrev main_call2_v0 : Ref sig .tc := ⟨.hbm, 60, rfl⟩
abbrev main_call2_cst_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_cst_1 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_v27 : Ref sig .tc := ⟨.hbm, 73, rfl⟩
abbrev main_c_5 : Ref sig .tc := ⟨.hbm, 74, rfl⟩
abbrev main_v28 : Ref sig .tc := ⟨.hbm, 75, rfl⟩
abbrev main_v29 : Ref sig .tc := ⟨.hbm, 76, rfl⟩
abbrev main_c_6 : Ref sig .tc := ⟨.hbm, 77, rfl⟩
abbrev main_c_7 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_c_8 : Ref sig .tc := ⟨.hbm, 87, rfl⟩
abbrev main_v33 : Ref sig .tc := ⟨.hbm, 88, rfl⟩
abbrev main_v34 : Ref sig .tc := ⟨.hbm, 89, rfl⟩
abbrev main_c_9 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_10 : Ref sig .tc := ⟨.hbm, 94, rfl⟩
abbrev main_v38 : Ref sig .tc := ⟨.hbm, 95, rfl⟩
abbrev main_v39 : Ref sig .tc := ⟨.hbm, 96, rfl⟩
abbrev main_c_11 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_c_12 : Ref sig .tc := ⟨.hbm, 106, rfl⟩
abbrev main_v48 : Ref sig .tc := ⟨.hbm, 107, rfl⟩
abbrev main_v49 : Ref sig .tc := ⟨.hbm, 108, rfl⟩
abbrev main_c_13 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_call5_cst : Ref sig .tc := ⟨.hbm, 118, rfl⟩
abbrev main_call5_v0 : Ref sig .tc := ⟨.hbm, 119, rfl⟩
abbrev main_call5_cst_0 : Ref sig .tc := ⟨.hbm, 120, rfl⟩
abbrev main_call5_v1 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_v6 : Ref sig .tc := ⟨.hbm, 126, rfl⟩
abbrev main_call5_cst_1 : Ref sig .tc := ⟨.hbm, 127, rfl⟩
abbrev main_call5_v7 : Ref sig .tc := ⟨.hbm, 128, rfl⟩
abbrev main_call5_v8 : Ref sig .tc := ⟨.hbm, 129, rfl⟩
abbrev main_call5_v9 : Ref sig .tc := ⟨.hbm, 130, rfl⟩
abbrev main_call5_v10 : Ref sig .tc := ⟨.hbm, 131, rfl⟩
abbrev main_v58 : Ref sig .tc := ⟨.hbm, 132, rfl⟩
abbrev main_c_14 : Ref sig .tc := ⟨.hbm, 133, rfl⟩
abbrev main_v59 : Ref sig .tc := ⟨.hbm, 134, rfl⟩
abbrev main_v60 : Ref sig .tc := ⟨.hbm, 135, rfl⟩
abbrev main_c_15 : Ref sig .tc := ⟨.hbm, 136, rfl⟩
abbrev main_c_16 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_c_17 : Ref sig .tc := ⟨.hbm, 146, rfl⟩
abbrev main_v64 : Ref sig .tc := ⟨.hbm, 147, rfl⟩
abbrev main_v65 : Ref sig .tc := ⟨.hbm, 148, rfl⟩
abbrev main_c_18 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_c_19 : Ref sig .tc := ⟨.hbm, 153, rfl⟩
abbrev main_v69 : Ref sig .tc := ⟨.hbm, 154, rfl⟩
abbrev main_v70 : Ref sig .tc := ⟨.hbm, 155, rfl⟩
abbrev main_c_20 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_c_21 : Ref sig .tc := ⟨.hbm, 165, rfl⟩
abbrev main_v79 : Ref sig .tc := ⟨.hbm, 166, rfl⟩
abbrev main_v80 : Ref sig .tc := ⟨.hbm, 167, rfl⟩
abbrev main_c_22 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_call8_cst : Ref sig .tc := ⟨.hbm, 177, rfl⟩
abbrev main_call8_v0 : Ref sig .tc := ⟨.hbm, 178, rfl⟩
abbrev main_call8_cst_0 : Ref sig .tc := ⟨.hbm, 179, rfl⟩
abbrev main_call8_v1 : Ref sig .tc := ⟨.hbm, 180, rfl⟩
abbrev main_call8_v2 : Ref sig .tc := ⟨.hbm, 181, rfl⟩
abbrev main_call8_v3 : Ref sig .tc := ⟨.hbm, 182, rfl⟩
abbrev main_call8_v4 : Ref sig .tc := ⟨.hbm, 183, rfl⟩
abbrev main_call8_v5 : Ref sig .tc := ⟨.hbm, 184, rfl⟩
abbrev main_call8_v6 : Ref sig .tc := ⟨.hbm, 185, rfl⟩
abbrev main_call8_cst_1 : Ref sig .tc := ⟨.hbm, 186, rfl⟩
abbrev main_call8_v7 : Ref sig .tc := ⟨.hbm, 187, rfl⟩
abbrev main_call8_v8 : Ref sig .tc := ⟨.hbm, 188, rfl⟩
abbrev main_call8_v9 : Ref sig .tc := ⟨.hbm, 189, rfl⟩
abbrev main_call8_v10 : Ref sig .tc := ⟨.hbm, 190, rfl⟩
abbrev main_v89 : Ref sig .tc := ⟨.hbm, 191, rfl⟩
abbrev main_c_23 : Ref sig .tc := ⟨.hbm, 192, rfl⟩
abbrev main_v90 : Ref sig .tc := ⟨.hbm, 193, rfl⟩
abbrev main_v91 : Ref sig .tc := ⟨.hbm, 194, rfl⟩
abbrev main_c_24 : Ref sig .tc := ⟨.hbm, 195, rfl⟩
abbrev main_c_25 : Ref sig .tc := ⟨.hbm, 196, rfl⟩
abbrev main_call9_v0 : Ref sig .tc := ⟨.hbm, 197, rfl⟩
abbrev main_call9_v1 : Ref sig .tc := ⟨.hbm, 198, rfl⟩
abbrev main_call9_v2 : Ref sig .tc := ⟨.hbm, 199, rfl⟩
abbrev main_call9_v3 : Ref sig .tc := ⟨.hbm, 200, rfl⟩
abbrev main_call9_v4 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_c_26 : Ref sig .tc := ⟨.hbm, 205, rfl⟩
abbrev main_v95 : Ref sig .tc := ⟨.hbm, 206, rfl⟩
abbrev main_v96 : Ref sig .tc := ⟨.hbm, 207, rfl⟩
abbrev main_c_27 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_c_28 : Ref sig .tc := ⟨.hbm, 212, rfl⟩
abbrev main_v100 : Ref sig .tc := ⟨.hbm, 213, rfl⟩
abbrev main_v101 : Ref sig .tc := ⟨.hbm, 214, rfl⟩
abbrev main_c_29 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_c_30 : Ref sig .tc := ⟨.hbm, 224, rfl⟩
abbrev main_v110 : Ref sig .tc := ⟨.hbm, 225, rfl⟩
abbrev main_v111 : Ref sig .tc := ⟨.hbm, 226, rfl⟩
abbrev main_c_31 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩

abbrev nD : Nat := 1
abbrev τ : Topo := Topo.v7x

variable {F : FTy → Type} [FloatOps F]

class Facts₀ : Prop where
  transposes_S1003x512_S512x1003_1_0 : S1003x512.Transposes [1, 0] S512x1003
  reducesTo_S2048x1003_S2048_d1 : S2048x1003.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1003_0_1 : S2048x1.BroadcastsInDim S2048x1003 (![0, 1] : Fin 2 → Fin S2048x1003.rank)
  concatenates_S2048x1_S2048x1_S2048x2_d1 : Shape.Concatenates [S2048x1, S2048x1] S2048x2 1
  transposes_S128x512_S512x128_1_0 : S128x512.Transposes [1, 0] S512x128
  transposes_S9000x128_S128x9000_1_0 : S9000x128.Transposes [1, 0] S128x9000
  reducesTo_S2048x9000_S2048_d1 : S2048x9000.ReducesTo [1] S2048
  bcast_S2048x1_S2048x9000_0_1 : S2048x1.BroadcastsInDim S2048x9000 (![0, 1] : Fin 2 → Fin S2048x9000.rank)
  slices_S2048x1003_S2048x1_0_1000 : S2048x1003.Slices ![0, 1000] S2048x1
  shapeCasts_S2048x1_S2048 : S2048x1.ShapeCasts S2048
  transposes_S32x512_S512x32_1_0 : S32x512.Transposes [1, 0] S512x32
  transposes_S40000x32_S32x40000_1_0 : S40000x32.Transposes [1, 0] S32x40000
  reducesTo_S2048x40000_S2048_d1 : S2048x40000.ReducesTo [1] S2048
  bcast_S2048x1_S2048x40000_0_1 : S2048x1.BroadcastsInDim S2048x40000 (![0, 1] : Fin 2 → Fin S2048x40000.rank)
  slices_S2048x1003_S2048x1_0_1001 : S2048x1003.Slices ![0, 1001] S2048x1
  transposes_S8x512_S512x8_1_0 : S8x512.Transposes [1, 0] S512x8
  transposes_S50000x8_S8x50000_1_0 : S50000x8.Transposes [1, 0] S8x50000
  reducesTo_S2048x50000_S2048_d1 : S2048x50000.ReducesTo [1] S2048
  bcast_S2048x1_S2048x50000_0_1 : S2048x1.BroadcastsInDim S2048x50000 (![0, 1] : Fin 2 → Fin S2048x50000.rank)
  slices_S2048x1003_S2048x1_0_1002 : S2048x1003.Slices ![0, 1002] S2048x1
  dot_S2048x512_S512x1003_S2048x1003_1_0_0_1_n_n_wf : DotDims.WF S2048x512 S512x1003 S2048x1003 [1] [0] [0] [1] [] []
  gather_S2048x1003_S2048x2_S2048_n_01_n_n_01_1_11_wf : GatherDims.WF S2048x1003 S2048x2 S2048 [] [0, 1] [] [0, 1] [] 1 ![1, 1]
  dot_S2048x512_S512x128_S2048x128_1_0_0_1_n_n_wf : DotDims.WF S2048x512 S512x128 S2048x128 [1] [0] [0] [1] [] []
  dot_S2048x128_S128x9000_S2048x9000_1_0_0_1_n_n_wf : DotDims.WF S2048x128 S128x9000 S2048x9000 [1] [0] [0] [1] [] []
  gather_S2048x9000_S2048x2_S2048_n_01_n_n_01_1_11_wf : GatherDims.WF S2048x9000 S2048x2 S2048 [] [0, 1] [] [0, 1] [] 1 ![1, 1]
  dot_S2048x512_S512x32_S2048x32_1_0_0_1_n_n_wf : DotDims.WF S2048x512 S512x32 S2048x32 [1] [0] [0] [1] [] []
  dot_S2048x32_S32x40000_S2048x40000_1_0_0_1_n_n_wf : DotDims.WF S2048x32 S32x40000 S2048x40000 [1] [0] [0] [1] [] []
  gather_S2048x40000_S2048x2_S2048_n_01_n_n_01_1_11_wf : GatherDims.WF S2048x40000 S2048x2 S2048 [] [0, 1] [] [0, 1] [] 1 ![1, 1]
  dot_S2048x512_S512x8_S2048x8_1_0_0_1_n_n_wf : DotDims.WF S2048x512 S512x8 S2048x8 [1] [0] [0] [1] [] []
  dot_S2048x8_S8x50000_S2048x50000_1_0_0_1_n_n_wf : DotDims.WF S2048x8 S8x50000 S2048x50000 [1] [0] [0] [1] [] []
  gather_S2048x50000_S2048x2_S2048_n_01_n_n_01_1_11_wf : GatherDims.WF S2048x50000 S2048x2 S2048 [] [0, 1] [] [0, 1] [] 1 ![1, 1]

variable [Facts₀]

def dot_S2048x512_S512x1003_S2048x1003_1_0_0_1_n_n : DotDims S2048x512 S512x1003 S2048x1003 where
  lhsContracting := [1]
  rhsContracting := [0]
  lhsNonContracting := [0]
  rhsNonContracting := [1]
  lhsBatch := []
  rhsBatch := []
  wf := dot_S2048x512_S512x1003_S2048x1003_1_0_0_1_n_n_wf
def gather_S2048x1003_S2048x2_S2048_n_01_n_n_01_1_11 : GatherDims S2048x1003 S2048x2 S2048 where
  offsetDims := []
  collapsedSliceDims := [0, 1]
  operandBatchingDims := []
  startIndicesBatchingDims := []
  startIndexMap := [0, 1]
  indexVectorDim := 1
  sliceSizes := ![1, 1]
  wf := gather_S2048x1003_S2048x2_S2048_n_01_n_n_01_1_11_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x9000_S2048x9000_1_0_0_1_n_n : DotDims S2048x128 S128x9000 S2048x9000 where
  lhsContracting := [1]
  rhsContracting := [0]
  lhsNonContracting := [0]
  rhsNonContracting := [1]
  lhsBatch := []
  rhsBatch := []
  wf := dot_S2048x128_S128x9000_S2048x9000_1_0_0_1_n_n_wf
def gather_S2048x9000_S2048x2_S2048_n_01_n_n_01_1_11 : GatherDims S2048x9000 S2048x2 S2048 where
  offsetDims := []
  collapsedSliceDims := [0, 1]
  operandBatchingDims := []
  startIndicesBatchingDims := []
  startIndexMap := [0, 1]
  indexVectorDim := 1
  sliceSizes := ![1, 1]
  wf := gather_S2048x9000_S2048x2_S2048_n_01_n_n_01_1_11_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x40000_S2048x40000_1_0_0_1_n_n : DotDims S2048x32 S32x40000 S2048x40000 where
  lhsContracting := [1]
  rhsContracting := [0]
  lhsNonContracting := [0]
  rhsNonContracting := [1]
  lhsBatch := []
  rhsBatch := []
  wf := dot_S2048x32_S32x40000_S2048x40000_1_0_0_1_n_n_wf
def gather_S2048x40000_S2048x2_S2048_n_01_n_n_01_1_11 : GatherDims S2048x40000 S2048x2 S2048 where
  offsetDims := []
  collapsedSliceDims := [0, 1]
  operandBatchingDims := []
  startIndicesBatchingDims := []
  startIndexMap := [0, 1]
  indexVectorDim := 1
  sliceSizes := ![1, 1]
  wf := gather_S2048x40000_S2048x2_S2048_n_01_n_n_01_1_11_wf
def dot_S2048x512_S512x8_S2048x8_1_0_0_1_n_n : DotDims S2048x512 S512x8 S2048x8 where
  lhsContracting := [1]
  rhsContracting := [0]
  lhsNonContracting := [0]
  rhsNonContracting := [1]
  lhsBatch := []
  rhsBatch := []
  wf := dot_S2048x512_S512x8_S2048x8_1_0_0_1_n_n_wf
def dot_S2048x8_S8x50000_S2048x50000_1_0_0_1_n_n : DotDims S2048x8 S8x50000 S2048x50000 where
  lhsContracting := [1]
  rhsContracting := [0]
  lhsNonContracting := [0]
  rhsNonContracting := [1]
  lhsBatch := []
  rhsBatch := []
  wf := dot_S2048x8_S8x50000_S2048x50000_1_0_0_1_n_n_wf
def gather_S2048x50000_S2048x2_S2048_n_01_n_n_01_1_11 : GatherDims S2048x50000 S2048x2 S2048 where
  offsetDims := []
  collapsedSliceDims := [0, 1]
  operandBatchingDims := []
  startIndicesBatchingDims := []
  startIndexMap := [0, 1]
  indexVectorDim := 1
  sliceSizes := ![1, 1]
  wf := gather_S2048x50000_S2048x2_S2048_n_01_n_n_01_1_11_wf

class Facts : Prop extends Facts₀ where

variable [Facts]
-- ==== Proof.KB.R0.lean ====
/- The frame data of region 0 of @main (custom_call 0, the head kernel, pipeline 0 on the grid (4,)), at any
   float type and at a PARAMETER: the TensorCore's buffer contents when the region is entered. Each window's block
   at a point; what the body finds in its three input windows (their blocks, fetched there or found in place); what
   it leaves in the output window (one store of the whole block, made after a load of the same buffer whose value
   nothing reads); the body's triple; the pipeline's proof data and the body obligation at every point. -/
import proofs.«416376_j65790309040722_2_alg».proof.Proof.Gen.Kernel.Launch
import proofs.«416376_j65790309040722_2_alg».proof.Proof.Gen.Kernel.Skeleton
import proofs.«416376_j65790309040722_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each through the whole buffer -/

/-- Offsets (0, 0), however spelt, are the zero offsets. -/
theorem off0_zero : (![0, 0] : Fin 2 → ℕ) = fun _ => 0 := by
  funext a; fin_cases a <;> rfl

abbrev r0_0 : Rect S512x512 := Rect.unit (s := S512x512) ![0, 0] S512x512.size inb_S512x512_S512x512_0_0
abbrev r0_1 : Rect S1003x512 := Rect.unit (s := S1003x512) ![0, 0] S1003x512.size inb_S1003x512_S1003x512_0_0
abbrev r0_2 : Rect S512x1 := Rect.unit (s := S512x1) ![0, 0] S512x1.size inb_S512x1_S512x1_0_0
abbrev r0_3 : Rect S512x4 := Rect.unit (s := S512x4) ![0, 0] S512x4.size inb_S512x4_S512x4_0_0

/-! ## What the body leaves in the output window's buffer -/

/-- Window 3's staging buffer after the body, from the input windows' blocks (x0 the activations' block, x1 the
    head weights, x2 the relative targets' block): its one store, of the payload of the three loads. -/
def out0_3 (x0 : Vec F S512x512 .bf16) (x1 : Vec F S1003x512 .f32) (x2 : Vec F S512x1 .i32) : Vec F S512x4 .f32 :=
  View.canon [⟨r0_3, k0_pay1 (View.ld x1 r0_1) (View.ld x0 r0_0) (View.ld x2 r0_2)⟩]

/-- The store covers the block whole and each load reads its buffer whole: the buffer is left at the payload of
    the blocks themselves. -/
theorem out0_3_eq (x0 : Vec F S512x512 .bf16) (x1 : Vec F S1003x512 .f32) (x2 : Vec F S512x1 .i32) :
    out0_3 x0 x1 x2 = k0_pay1 x1 x0 x2 := by
  unfold out0_3
  rw [View.canon_unit_zero off0_zero, View.ld_unit_zero off0_zero, View.ld_unit_zero off0_zero,
    View.ld_unit_zero off0_zero]

/-- The one store covers the buffer. -/
theorem cover0_3 (p0 : Vec F S512x4 .f32) (y : S512x4.Idx) :
    ∃ pc ∈ ([⟨r0_3, p0⟩] : List (View.Piece (Elt F) S512x4 .f32)), y ∈ pc.1.set :=
  ⟨_, List.mem_singleton_self _, View.mem_set_unit_zero off0_zero inb_S512x4_S512x4_0_0 y⟩

/-! ## The body's triple -/

set_option maxHeartbeats 1000000 in
/-- The kernel body on whole staging memrefs — the three inputs' at read contents x0, x1, x2, the output's at
    anything — runs to the continuation holding the inputs' as they were and the output's at out0_3 of them. The
    body reads the output buffer once before it stores it; the value read reaches no store, and the store, which
    covers the buffer, leaves its payload whatever was there. -/
theorem sound_kernel0 (c : Dev nD) (E : Set ℕ) (i : grid0.Coords)
    (arg1 : Memref sig .tc .vmem S512x512 .bf16) (harg1 : arg1.IsWhole) (arg2 : Memref sig .tc .vmem S1003x512 .f32) (harg2 : arg2.IsWhole)
    (arg3 : Memref sig .tc .vmem S512x1 .i32) (harg3 : arg3.IsWhole) (arg4 : Memref sig .tc .vmem S512x4 .f32) (harg4 : arg4.IsWhole)
    (x0 : Vec F S512x512 .bf16) (x1 : Vec F S1003x512 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__head_kernel i arg1 harg1 arg2 harg2 arg3 harg3 arg4 harg4) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and the output's at out0_3 of the three input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not: an input the
    pipeline does not fetch at a point has not moved its block index since the point before (the head weights'
    index is constant: fetched at the first point, found in place at the others), and the body leaves every
    input's block in place. The windows are uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point t: the invariant, what the core owes, and each window's current staging
    buffer at what it then holds, the windows one by one; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, the output's holds whatever the pipeline
    left there, so the body's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1Runs.lean ====
import proofs.«416376_j65790309040722_2_alg».proof.Proof.Gen.Kernel.Launch
import proofs.«416376_j65790309040722_2_alg».proof.Proof.Gen.Kernel.Skeleton
import proofs.«416376_j65790309040722_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1, `cc1__tail_kernel`, pipeline 1): what its body's runs are stated over, and the runs

The grid is (2, 9): point `t` has coordinates `(t / 9, t % 9)`. The body's two conditionals read the second coordinate
only: the first is taken where it is 0, the second where it is 8. So three control cases: A (first taken, second not),
B (neither), C (second taken, first not). -/

/-! ## The body's branch conditions -/

/-- The condition of the body's first `scf.if` (`k1_h1`), from the grid coordinates (the skeleton's scalar chain
    substituted). -/
abbrev cond1_0 (i : grid1.Coords) : Prop := (Scalar.cmpi .ne (Scalar.extui (Scalar.cmpi .eq (BitVec.ofNat 32 (i 1).val) 0#32)) 0#32) = 1#1
/-- It holds at the points ≡ 0 (mod 9) — decided over the grid. -/
theorem hcond1_0 : ∀ t : Fin cfg1.N, cond1_0 (grid1.coords t) ↔ t.val % 9 = 0 :=
  (by decide +kernel : ∀ t : Fin grid1.N, cond1_0 (grid1.coords t) ↔ t.val % 9 = 0)

/-- The condition of the body's second `scf.if` (`k1_h2`). -/
abbrev cond1_1 (i : grid1.Coords) : Prop := k1_cond2 i = 1#1
/-- It holds at the points ≡ 8 (mod 9) — decided over the grid. -/
theorem hcond1_1 : ∀ t : Fin cfg1.N, cond1_1 (grid1.coords t) ↔ t.val % 9 = 8 :=
  (by decide +kernel : ∀ t : Fin grid1.N, cond1_1 (grid1.coords t) ↔ t.val % 9 = 8)

/-! ## Where the windows are idle (the printed configuration's table `Cfg.idle`) -/

/-- Windows 0 to 3 are inputs: never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the points of case A the configuration calls output 4 idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B the configuration calls output 4 idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C the configuration calls output 4 live: the case stores into it. -/
theorem liveAt1_4_C : ∀ t : Fin cfg1.N, ¬cond1_0 (grid1.coords t) → cond1_1 (grid1.coords t) → cfg1.idle 4 (grid1.coords t) = false := by decide +kernel

/-! ## The staging and scratch memrefs -/

/-- One staging buffer of output window 4, through which its contents are stated (the choice does not matter:
    `View.read_writes_of_cover`). -/
abbrev VO1_4 : View sig .tc .vmem S1024x1 .f32 := (Memref.whole cc1_stg4_0 : Memref sig .tc .vmem S1024x1 .f32).view
/-- Each window's current staging memref at point `t`, spelled as the pipeline passes it (`bodyAt1`), and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the hidden layer
    (`arg7`), the running maximum (`arg8`), the running sum (`arg9`) and the target's logit (`arg10`). -/
abbrev scM1_0 : Memref sig .tc .vmem S1024x128 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1 .f32 := Memref.whole cc1_scratch3
/-- The scratch operands as views: what each holds between points is stated through them. -/
abbrev VS1_0 : View sig .tc .vmem S1024x128 .bf16 := scM1_0.view
abbrev VS1_1 : View sig .tc .vmem S1024x1 .f32 := scM1_1.view
abbrev VS1_2 : View sig .tc .vmem S1024x1 .f32 := scM1_2.view
abbrev VS1_3 : View sig .tc .vmem S1024x1 .f32 := scM1_3.view

/-- The class invariant of region 1 with the four scratch operands as memrefs owned at some contents, the core's other
    scoped buffers unopened (`Gen.scopedRest1_split`; `owns_whole`): what the body obligation hands the run and takes
    back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3])
          ∗ (∃ r, prngReg c r)) := by
  unfold Pipeline.ΦA; rw [scopedRest1_split]; simp only [scM1_0, scM1_1, scM1_2, scM1_3, owns_whole]; try rfl

/-! ## The kernel body on any whole memrefs, case by case: a subtype the run finds -/

-- (the run's proof term is large: the definition's epilogue walks it past the default budget)
set_option maxHeartbeats 4000000 in
/-- CASE A (first conditional taken, second not: the points ≡ 0 mod 9). On whole memrefs — the inputs' at their
    contents `x·`, the output's (idle here) at contents `xi4` handed back untouched, each scratch at anything (each is
    stored whole before it is read) — the body runs to the continuation holding the inputs' and the output's as they
    were and each scratch with its pieces written (`LS·`, last first). The pieces are the witness the run finds. -/
noncomputable def kernelRun1_A (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) :
    Σ' (L4 : List (View.Piece (Elt F) S1024x1 .f32)) (LS7 : List (View.Piece (Elt F) S1024x128 .bf16)) (LS8 : List (View.Piece (Elt F) S1024x1 .f32)) (LS9 : List (View.Piece (Elt F) S1024x1 .f32)), { LS10 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__tail_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    isplitl [HS9]; · iexists _; iexact HS9
    iexists _; iexact HS10

set_option maxHeartbeats 4000000 in
/-- CASE B (neither conditional taken: the points ≡ 1, …, 7 mod 9). On whole memrefs — the inputs' at `x·`, the
    output's (idle here) at `xi4` handed back untouched, the scratch at what the point before left (`xs·`) — the body
    runs to the continuation holding the inputs', the output's, the hidden layer (`arg7`, only read) and the target's
    logit (`arg10`, untouched) as they were, and the running maximum (`arg8`) and sum (`arg9`) with their pieces written. -/
noncomputable def kernelRun1_B (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc1__tail_kernel i arg2 harg2 arg3 harg3 arg4 harg4 arg5 harg5 arg6 harg6 arg7 harg7 arg8 harg8 arg9 harg9 arg10 harg10) K } := by
  refine ⟨[], ?_, ?_, fun xi4 E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

set_option maxHeartbeats 4000000 in
/-- CASE C (second conditional taken, first not: the points ≡ 8 mod 9). On whole memrefs — the inputs' at `x·`, the
    output's at anything (it is stored whole), the scratch at what the point before left (`xs·`) — the body runs to the
    continuation holding the inputs', the hidden layer (`arg7`) and the target's logit (`arg10`), both only read, as
    they were, and the output's buffer, the running maximum (`arg8`) and sum (`arg9`) with their pieces written. -/
noncomputable def kernelRun1_C (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc1__tail_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

end Cert.Kernel.Hand

end
-- ==== Proof.KB.R1.lean ====
/- The frame data of region 1 of @main (custom_call 1, the first tail kernel, pipeline 1 on the grid (2, 9)), at any
   float type and at a PARAMETER: the TensorCore's buffer contents when the region is entered. The body keeps four
   scratch buffers from point to point (the hidden layer, the running maximum, the running sum, the target's logit):
   it fills all four at the first column tile of a row tile, updates the maximum and the sum at every column tile,
   and stores the output block at the last. So what the output's staging buffer and the four scratch buffers hold
   after each point is an accumulation along the grid, case by case; the region's invariant carries the scratch at
   the accumulated contents; the proof data, the body obligation at every point, and the invariant's two ends. -/
import proofs.«416376_j65790309040722_2_alg».proof.Proof.KB.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves in the output's buffer and in the scratch buffers

Each case's run names, per buffer it stores into, the pieces it writes (last first). What the buffer then holds is
those pieces read back over anything, once they cover it. -/
/-- Case A stores nothing into the output's buffer (the window is idle at its points and not written back there):
    no pieces, a placeholder nothing consults. -/
def out1_A_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 hc1 x0 x1 x2 x3).1)

/-- Case A's pieces for the hidden layer's scratch cover it. -/
theorem scover1_A_7 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.1 S1024x128.size (by sl_kernel_rfl) y
/-- What case A leaves in the hidden layer's scratch: its pieces read back. -/
def sout1_A_7 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x128 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3).2.1)

/-- Case A's pieces for the running maximum's scratch cover it. -/
theorem scover1_A_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.1 S1024x1.size (by sl_kernel_rfl) y
/-- What case A leaves in the running maximum's scratch. -/
def sout1_A_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3).2.2.1)

/-- Case A's pieces for the running sum's scratch cover it. -/
theorem scover1_A_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y
/-- What case A leaves in the running sum's scratch. -/
def sout1_A_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3).2.2.2.1)

/-- Case A's pieces for the target logit's scratch cover it. -/
theorem scover1_A_10 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.2.1 S1024x1.size (by sl_kernel_rfl) y
/-- What case A leaves in the target logit's scratch. -/
def sout1_A_10 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VS1_3.read (Elt F) (VS1_3.writes (Elt F) VS1_3.junk (kernelRun1_A c i arg2 harg2 arg3 harg3 arg4 harg4 arg5 harg5 arg6 harg6 arg7 harg7 arg8 harg8 arg9 harg9 arg10 harg10 hc0 hc1 x0 x1 x2 x3).2.2.2.2.1)

/-- Case B stores nothing into the output's buffer either: a placeholder nothing consults. -/
def out1_B_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 hc1 x0 x1 x2 x3 xs7 xs8 xs9 xs10).1)

/-- Case B's pieces for the running maximum's scratch cover it. -/
theorem scover1_B_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case B leaves in the running maximum's scratch, over what the point before left in the scratch buffers. -/
def sout1_B_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 xs7 xs8 xs9 xs10).2.1)

/-- Case B's pieces for the running sum's scratch cover it. -/
theorem scover1_B_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case B leaves in the running sum's scratch. -/
def sout1_B_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 xs7 xs8 xs9 xs10).2.2.1)

/-- Case C's pieces for the output's buffer cover its block. -/
theorem cover1_C_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 xs7 xs8 xs9 xs10).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs7 xs8 xs9 xs10).1 S1024x1.size (by sl_kernel_rfl) y
/-- What case C leaves in the output's staging buffer: its pieces read back. -/
def out1_C_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 x0 x1 x2 x3 xs7 xs8 xs9 xs10).1)

/-- Case C's pieces for the running maximum's scratch cover it. -/
theorem scover1_C_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case C leaves in the running maximum's scratch. -/
def sout1_C_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 xs7 xs8 xs9 xs10).2.1)

/-- Case C's pieces for the running sum's scratch cover it. -/
theorem scover1_C_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case C leaves in the running sum's scratch. -/
def sout1_C_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 xs7 xs8 xs9 xs10).2.2.1)

/-! ## What the output's buffer and the scratch buffers hold after each point -/

/-- The output's staging buffer, then the four scratch buffers (hidden layer, running maximum, running sum, target's
    logit). -/
abbrev Outs1 (F : FTy → Type) [FloatOps F] : Type :=
  Vec F S1024x1 .f32 × Vec F S1024x128 .bf16 × Vec F S1024x1 .f32 × Vec F S1024x1 .f32 × Vec F S1024x1 .f32

/-- A point of case A (the first column tile of a row tile): every scratch buffer is filled from the point's input
    blocks alone; the output component is the placeholder. -/
def caseA1 (c : Dev nD) (t : Fin cfg1.N) (h0 : t.val % 9 = 0) (h1 : ¬t.val % 9 = 8) : Outs1 F :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_7 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_8 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_9 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_10 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t))

/-- A point of case B (a column tile neither first nor last), over what the point before left (p): the running
    maximum and sum are updated; the hidden layer and the target's logit stay; the output component is the
    placeholder. -/
def caseB1 (c : Dev nD) (t : Fin cfg1.N) (h0 : ¬t.val % 9 = 0) (h1 : ¬t.val % 9 = 8) (p : Outs1 F) : Outs1 F :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   p.2.1,
   sout1_B_8 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   sout1_B_9 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   p.2.2.2.2)

/-- A point of case C (the last column tile of a row tile), over what the point before left (p): as case B, and the
    output block is stored. -/
def caseC1 (c : Dev nD) (t : Fin cfg1.N) (h0 : ¬t.val % 9 = 0) (h1 : t.val % 9 = 8) (p : Outs1 F) : Outs1 F :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   p.2.1,
   sout1_C_8 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_9 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   p.2.2.2.2)

/-- THE ACCUMULATION: what the output's staging buffer and the four scratch buffers hold after the body at position n
    — the case the point is in (by its second coordinate, n mod 9), over what position n - 1 left. The two conditions
    never hold together. -/
def outsAt1 (c : Dev nD) : (n : ℕ) → n < cfg1.N → Outs1 F
  | 0, hn => caseA1 V c ⟨0, hn⟩ (Nat.zero_mod _) (fun h => by (try dsimp only at h); omega)
  | n + 1, hn =>
    if h0 : (n + 1) % 9 = 0 then
      if h1 : (n + 1) % 9 = 8 then False.elim (by omega)
      else caseA1 V c ⟨n + 1, hn⟩ h0 h1
    else
      if h1 : (n + 1) % 9 = 8 then caseC1 V c ⟨n + 1, hn⟩ h0 h1 (outsAt1 c n (Nat.lt_of_succ_lt hn))
      else caseB1 V c ⟨n + 1, hn⟩ h0 h1 (outsAt1 c n (Nat.lt_of_succ_lt hn))

/-- The accumulation at a point of case A. -/
theorem outsAt1_A (c : Dev nD) (t : Fin cfg1.N) (h0 : t.val % 9 = 0) (h1 : ¬t.val % 9 = 8) :
    outsAt1 V c t.val t.isLt = caseA1 V c t h0 h1 := by
  obtain ⟨n, hn⟩ := t
  cases n with
  | zero => exact rfl
  | succ n => exact (dif_pos h0).trans ((dif_neg h1).trans rfl)

/-- The accumulation at a point of case B, over the point before. -/
theorem outsAt1_B (c : Dev nD) (t : Fin cfg1.N) (h0 : ¬t.val % 9 = 0) (h1 : ¬t.val % 9 = 8) :
    outsAt1 V c t.val t.isLt
      = caseB1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C, over the point before. -/
theorem outsAt1_C (c : Dev nD) (t : Fin cfg1.N) (h0 : ¬t.val % 9 = 0) (h1 : t.val % 9 = 8) :
    outsAt1 V c t.val t.isLt
      = caseC1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four scratch buffers at named contents, the core's other scoped buffers unopened, the generator register at
    some state. -/
def scratchAt1 (c : Dev nD) (p : Outs1 F) : sProp 𝕄 :=
  iprop(iprop(iprop(owns (c : Thread nD τ) scM1_0 fullShare p.2.1 ∗ owns (c : Thread nD τ) scM1_1 fullShare p.2.2.1 ∗ owns (c : Thread nD τ) scM1_2 fullShare p.2.2.2.1 ∗ owns (c : Thread nD τ) scM1_3 fullShare p.2.2.2.2)
      ∗ Pipeline.scopedRestBut (Ix := Unit) (Name := ℕ) (U := UR sig nD τ) (Lvl := ℕ) (Val := Elt F) spec1 c [cc1_scratch0, cc1_scratch1, cc1_scratch2, cc1_scratch3])
      ∗ (∃ r, prngReg c r))

/-- The invariant before position n: before the first point the class's (every scratch buffer at anything);
    afterwards each scratch buffer at what the point before left in it. -/
def PhiS1 (c : Dev nD) : (n : ℕ) → n ≤ cfg1.N → sProp 𝕄
  | 0, _ => Pipeline.ΦA spec1 c
  | n + 1, hn => scratchAt1 c (outsAt1 V c n hn)

theorem PhiS1_zero (c : Dev nD) (n : ℕ) (h : n ≤ cfg1.N) (hz : n = 0) : PhiS1 V c n h = Pipeline.ΦA spec1 c := by
  subst hz; rfl

/-- After point n (before point n + 1): the scratch buffers at that point's contents. -/
theorem PhiS1_succ (c : Dev nD) (n : ℕ) (hn : n < cfg1.N) :
    PhiS1 V c (n + 1) hn = scratchAt1 c (outsAt1 V c n hn) := rfl

/-- Before a point that is not the first: the scratch buffers at what the point before left. -/
theorem PhiS1_pos (c : Dev nD) (n : ℕ) (h : n ≤ cfg1.N) (hz : n ≠ 0) :
    PhiS1 V c n h = scratchAt1 c (outsAt1 V c (n - 1) (by omega)) := by
  cases n with
  | zero => exact absurd rfl hz
  | succ n => rfl

/-- Named contents are some contents: the invariant after any point gives the class's back. -/
theorem scratchAt1_forget (c : Dev nD) (p : Outs1 F) : scratchAt1 c p ⊢ (Pipeline.ΦA spec1 c : sProp 𝕄) := by
  rw [PhiA1_eq]; unfold scratchAt1
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-! ## The pipeline's proof data -/

/-- The proof data of pipeline 1 on core c: the arrays as the region finds them; after the body at point t each
    input's buffer at its block and the output's at the accumulation's first component; the invariant PhiS1; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not: an input the pipeline
    does not fetch at a point has not moved its block index since the point before, and the body leaves every input's
    block in place. The windows are uncut and the inputs never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation, at a generic point -/

/-- What the body is called with at point t: the invariant, what the core owes, and each window's current staging
    buffer at what it then holds, the windows one by one; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The invariant at any point's start gives the class's: before the first point it is the class's, afterwards named
    contents are some contents. (What a case that takes every scratch buffer at anything needs of it.) -/
theorem Phi_open1 (c : Dev nD) (t : Fin cfg1.N) : (dat1 V c).Φ t.castSucc ⊢ (Pipeline.ΦA spec1 c : sProp 𝕄) := by
  rw [PhiS1_castSucc V c t]
  by_cases hz : t.val = 0
  · rw [PhiS1_zero V c _ _ hz]
  · rw [PhiS1_pos V c _ _ hz]; exact scratchAt1_forget c _

set_option maxHeartbeats 4000000 in
/-- The body at a point of case A. The inputs' buffers hold their blocks; the output's window is idle there and not
    written back, so its buffer goes through as found; every scratch buffer is handed over at whatever it holds (at
    anything before the first point, at what the point before left afterwards) and comes back at this point's
    contents, its pieces covering it. -/
theorem sound_body1_A (c : Dev nD) (t : Fin cfg1.N) (h0 : t.val % 9 = 0) (h1 : ¬t.val % 9 = 8) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
  rw [outsAt1_A V c t h0 h1]
  unfold scratchAt1 caseA1 sout1_A_7 sout1_A_8 sout1_A_9 sout1_A_10; (try dsimp only)
  have hΦ := Phi_open1 V c t
  rw [PhiA1_eq] at hΦ
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨HS0, HS1, HS2, HS3⟩, Hr⟩, Hg⟩
  iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0 HS1 HS2 HS3]
      · isplitl [HS0]
        · unfold owns; iexists _; isplitr
          swap; · iexact HS0
          ipureintro; exact View.read_writes_of_cover _ _ _ _ _ (scover1_A_7 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_8 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_9 c _ _ _ _ _ _ _ _ _ _ _ _ _ _ _ _ _ _ _ _ _ _ _ _ _)
        unfold owns; iexists _; isplitr
        swap; · iexact HS3
        ipureintro; exact View.read_writes_of_cover _ _ _ _ _ (scover1_A_10 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case B. As case A for the inputs and the idle output; the scratch buffers are handed over at
    what the point before left (a case B point is never the first): the hidden layer and the target's logit come back
    as they were, the running maximum and sum at this point's contents. -/
theorem sound_body1_B (c : Dev nD) (t : Fin cfg1.N) (h0 : ¬t.val % 9 = 0) (h1 : ¬t.val % 9 = 8) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
  rw [outsAt1_B V c t h0 h1]
  have hz : t.val ≠ 0 := fun hz => h0 (by rw [hz])
  rw [PhiS1_castSucc V c t, PhiS1_pos V c _ _ hz]
  unfold scratchAt1 caseB1 sout1_B_8 sout1_B_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover1_B_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case C. As case B for the scratch buffers; the output's window is live there: its buffer
    is handed over at whatever it holds and comes back at the stored block, its pieces covering it. -/
theorem sound_body1_C (c : Dev nD) (t : Fin cfg1.N) (h0 : ¬t.val % 9 = 0) (h1 : t.val % 9 = 8) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4_C t (fun h => h0 ((hcond1_0 t).mp h)) ((hcond1_1 t).mpr h1)], after1_4]
  rw [outsAt1_C V c t h0 h1]
  have hz : t.val ≠ 0 := fun hz => h0 (by rw [hz])
  rw [PhiS1_castSucc V c t, PhiS1_pos V c _ _ hz]
  unfold scratchAt1 caseC1 out1_C_4 sout1_C_8 sout1_C_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ _).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover1_C_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_C_4 c _ _ _ _ _ _ _ _ _ _ _ _ _ _ _ _ _ _ _ _ _ _ _ _ _ _ _ _ _)

/-- The body at any point: the point's second coordinate says which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 9 = 0
  · exact sound_body1_A V c t h0 (by omega)
  · by_cases h1 : t.val % 9 = 8
    · exact sound_body1_C V c t h0 h1
    · exact sound_body1_B V c t h0 h1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  exact scratchAt1_forget c _

/-- The same after the last point. -/
theorem hout1 (c : Dev nD) : (dat1 V c).Φ (Fin.last cfg1.N) ⊢ Pipeline.ΦA spec1 c :=
  Phi_out1 V c _ (by rw [Fin.val_last]; have : cfg1.N = 18 := N_1; omega)

end Cert.Kernel.Hand

end
-- ==== Proof.KB.R2Runs.lean ====
import proofs.«416376_j65790309040722_2_alg».proof.Proof.Gen.Kernel.Launch
import proofs.«416376_j65790309040722_2_alg».proof.Proof.Gen.Kernel.Skeleton
import proofs.«416376_j65790309040722_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1, `cc2__tail_kernel`, pipeline 1): what its body's runs are stated over, and the runs

The grid is (2, 40): point `t` has coordinates `(t / 40, t % 40)`. The body's two conditionals read the second coordinate
only: the first is taken where it is 0, the second where it is 39. So three control cases: A (first taken, second not),
B (neither), C (second taken, first not). -/

/-! ## The body's branch conditions -/

/-- The condition of the body's first `scf.if` (`k2_h1`), from the grid coordinates (the skeleton's scalar chain
    substituted). -/
abbrev cond2_0 (i : grid2.Coords) : Prop := (Scalar.cmpi .ne (Scalar.extui (Scalar.cmpi .eq (BitVec.ofNat 32 (i 1).val) 0#32)) 0#32) = 1#1
/-- It holds at the points ≡ 0 (mod 40) — decided over the grid. -/
theorem hcond2_0 : ∀ t : Fin cfg2.N, cond2_0 (grid2.coords t) ↔ t.val % 40 = 0 :=
  (by decide +kernel : ∀ t : Fin grid2.N, cond2_0 (grid2.coords t) ↔ t.val % 40 = 0)

/-- The condition of the body's second `scf.if` (`k2_h2`). -/
abbrev cond2_1 (i : grid2.Coords) : Prop := k2_cond2 i = 1#1
/-- It holds at the points ≡ 8 (mod 40) — decided over the grid. -/
theorem hcond2_1 : ∀ t : Fin cfg2.N, cond2_1 (grid2.coords t) ↔ t.val % 40 = 39 :=
  (by decide +kernel : ∀ t : Fin grid2.N, cond2_1 (grid2.coords t) ↔ t.val % 40 = 39)

/-! ## Where the windows are idle (the printed configuration's table `Cfg.idle`) -/

/-- Windows 0 to 3 are inputs: never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At the points of case A the configuration calls output 4 idle: the case stores nothing into it. -/
theorem idleAt2_4_A : ∀ t : Fin cfg2.N, cond2_0 (grid2.coords t) → ¬cond2_1 (grid2.coords t) → cfg2.idle 4 (grid2.coords t) = true := by decide +kernel
/-- At the points of case A the pipeline does not write output 4's block back. -/
theorem noFlush2_4_A : ∀ t : Fin cfg2.N, cond2_0 (grid2.coords t) → ¬cond2_1 (grid2.coords t) → (cfg2.win 4).flush t = false := by decide +kernel
/-- At the points of case B the configuration calls output 4 idle: the case stores nothing into it. -/
theorem idleAt2_4_B : ∀ t : Fin cfg2.N, ¬cond2_0 (grid2.coords t) → ¬cond2_1 (grid2.coords t) → cfg2.idle 4 (grid2.coords t) = true := by decide +kernel
/-- At the points of case B the pipeline does not write output 4's block back. -/
theorem noFlush2_4_B : ∀ t : Fin cfg2.N, ¬cond2_0 (grid2.coords t) → ¬cond2_1 (grid2.coords t) → (cfg2.win 4).flush t = false := by decide +kernel
/-- At the points of case C the configuration calls output 4 live: the case stores into it. -/
theorem liveAt2_4_C : ∀ t : Fin cfg2.N, ¬cond2_0 (grid2.coords t) → cond2_1 (grid2.coords t) → cfg2.idle 4 (grid2.coords t) = false := by decide +kernel

/-! ## The staging and scratch memrefs -/

/-- One staging buffer of output window 4, through which its contents are stated (the choice does not matter:
    `View.read_writes_of_cover`). -/
abbrev VO2_4 : View sig .tc .vmem S1024x1 .f32 := (Memref.whole cc2_stg4_0 : Memref sig .tc .vmem S1024x1 .f32).view
/-- Each window's current staging memref at point `t`, spelled as the pipeline passes it (`bodyAt2`), and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
/-- The scratch operands: whole scoped buffers of the kernel's own, passed beside the windows — the hidden layer
    (`arg7`), the running maximum (`arg8`), the running sum (`arg9`) and the target's logit (`arg10`). -/
abbrev scM2_0 : Memref sig .tc .vmem S1024x32 .bf16 := Memref.whole cc2_scratch0
abbrev scM2_1 : Memref sig .tc .vmem S1024x1 .f32 := Memref.whole cc2_scratch1
abbrev scM2_2 : Memref sig .tc .vmem S1024x1 .f32 := Memref.whole cc2_scratch2
abbrev scM2_3 : Memref sig .tc .vmem S1024x1 .f32 := Memref.whole cc2_scratch3
/-- The scratch operands as views: what each holds between points is stated through them. -/
abbrev VS2_0 : View sig .tc .vmem S1024x32 .bf16 := scM2_0.view
abbrev VS2_1 : View sig .tc .vmem S1024x1 .f32 := scM2_1.view
abbrev VS2_2 : View sig .tc .vmem S1024x1 .f32 := scM2_2.view
abbrev VS2_3 : View sig .tc .vmem S1024x1 .f32 := scM2_3.view

/-- The class invariant of region 1 with the four scratch operands as memrefs owned at some contents, the core's other
    scoped buffers unopened (`Gen.scopedRest2_split`; `owns_whole`): what the body obligation hands the run and takes
    back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d))
          ∗ Pipeline.scopedRestBut (Ix := Unit) (Name := ℕ) (U := UR sig nD τ) (Lvl := ℕ) (Val := Elt F) spec2 c [cc2_scratch0, cc2_scratch1, cc2_scratch2, cc2_scratch3])
          ∗ (∃ r, prngReg c r)) := by
  unfold Pipeline.ΦA; rw [scopedRest2_split]; simp only [scM2_0, scM2_1, scM2_2, scM2_3, owns_whole]; try rfl

/-! ## The kernel body on any whole memrefs, case by case: a subtype the run finds -/

-- (the run's proof term is large: the definition's epilogue walks it past the default budget)
set_option maxHeartbeats 4000000 in
/-- CASE A (first conditional taken, second not: the points ≡ 0 mod 40). On whole memrefs — the inputs' at their
    contents `x·`, the output's (idle here) at contents `xi4` handed back untouched, each scratch at anything (each is
    stored whole before it is read) — the body runs to the continuation holding the inputs' and the output's as they
    were and each scratch with its pieces written (`LS·`, last first). The pieces are the witness the run finds. -/
noncomputable def kernelRun2_A (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) :
    Σ' (L4 : List (View.Piece (Elt F) S1024x1 .f32)) (LS7 : List (View.Piece (Elt F) S1024x32 .bf16)) (LS8 : List (View.Piece (Elt F) S1024x1 .f32)) (LS9 : List (View.Piece (Elt F) S1024x1 .f32)), { LS10 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc2__tail_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc2__tail_kernel_eq_skeleton]; unfold cc2__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    isplitl [HS9]; · iexists _; iexact HS9
    iexists _; iexact HS10

set_option maxHeartbeats 4000000 in
/-- CASE B (neither conditional taken: the points ≡ 1, …, 7 mod 40). On whole memrefs — the inputs' at `x·`, the
    output's (idle here) at `xi4` handed back untouched, the scratch at what the point before left (`xs·`) — the body
    runs to the continuation holding the inputs', the output's, the hidden layer (`arg7`, only read) and the target's
    logit (`arg10`, untouched) as they were, and the running maximum (`arg8`) and sum (`arg9`) with their pieces written. -/
noncomputable def kernelRun2_B (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc2__tail_kernel i arg2 harg2 arg3 harg3 arg4 harg4 arg5 harg5 arg6 harg6 arg7 harg7 arg8 harg8 arg9 harg9 arg10 harg10) K } := by
  refine ⟨[], ?_, ?_, fun xi4 E K => ?run⟩
  case run =>
    simp only [cc2__tail_kernel_eq_skeleton]; unfold cc2__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

set_option maxHeartbeats 4000000 in
/-- CASE C (second conditional taken, first not: the points ≡ 8 mod 40). On whole memrefs — the inputs' at `x·`, the
    output's at anything (it is stored whole), the scratch at what the point before left (`xs·`) — the body runs to the
    continuation holding the inputs', the hidden layer (`arg7`) and the target's logit (`arg10`), both only read, as
    they were, and the output's buffer, the running maximum (`arg8`) and sum (`arg9`) with their pieces written. -/
noncomputable def kernelRun2_C (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc2__tail_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc2__tail_kernel_eq_skeleton]; unfold cc2__tail_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

end Cert.Kernel.Hand

end
-- ==== Proof.KB.R2.lean ====
/- The frame data of region 1 of @main (custom_call 1, the first tail kernel, pipeline 1 on the grid (2, 40)), at any
   float type and at a PARAMETER: the TensorCore's buffer contents when the region is entered. The body keeps four
   scratch buffers from point to point (the hidden layer, the running maximum, the running sum, the target's logit):
   it fills all four at the first column tile of a row tile, updates the maximum and the sum at every column tile,
   and stores the output block at the last. So what the output's staging buffer and the four scratch buffers hold
   after each point is an accumulation along the grid, case by case; the region's invariant carries the scratch at
   the accumulated contents; the proof data, the body obligation at every point, and the invariant's two ends. -/
import proofs.«416376_j65790309040722_2_alg».proof.Proof.KB.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What each case leaves in the output's buffer and in the scratch buffers

Each case's run names, per buffer it stores into, the pieces it writes (last first). What the buffer then holds is
those pieces read back over anything, once they cover it. -/
/-- Case A stores nothing into the output's buffer (the window is idle at its points and not written back there):
    no pieces, a placeholder nothing consults. -/
def out2_A_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VO2_4.read (Elt F) (VO2_4.writes (Elt F) VO2_4.junk (kernelRun2_A c i arg2 harg2 arg3 harg3 arg4 harg4 arg5 harg5 arg6 harg6 arg7 harg7 arg8 harg8 arg9 harg9 arg10 harg10 hc0 hc1 x0 x1 x2 x3).1)

/-- Case A's pieces for the hidden layer's scratch cover it. -/
theorem scover2_A_7 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x32.Idx) :
    ∃ pc ∈ (kernelRun2_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.1 S1024x32.size (by sl_kernel_rfl) y
/-- What case A leaves in the hidden layer's scratch: its pieces read back. -/
def sout2_A_7 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x32 .bf16 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2 x3).2.1)

/-- Case A's pieces for the running maximum's scratch cover it. -/
theorem scover2_A_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x1.Idx) :
    ∃ pc ∈ (kernelRun2_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.2.1 S1024x1.size (by sl_kernel_rfl) y
/-- What case A leaves in the running maximum's scratch. -/
def sout2_A_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 hc0 hc1 x0 x1 x2 x3).2.2.1)

/-- Case A's pieces for the running sum's scratch cover it. -/
theorem scover2_A_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x1.Idx) :
    ∃ pc ∈ (kernelRun2_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y
/-- What case A leaves in the running sum's scratch. -/
def sout2_A_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 hc0 hc1 x0 x1 x2 x3).2.2.2.1)

/-- Case A's pieces for the target logit's scratch cover it. -/
theorem scover2_A_10 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x1.Idx) :
    ∃ pc ∈ (kernelRun2_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.2.2.2.1 S1024x1.size (by sl_kernel_rfl) y
/-- What case A leaves in the target logit's scratch. -/
def sout2_A_10 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 hc0 hc1 x0 x1 x2 x3).2.2.2.2.1)

/-- Case B stores nothing into the output's buffer either: a placeholder nothing consults. -/
def out2_B_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VO2_4.read (Elt F) (VO2_4.writes (Elt F) VO2_4.junk (kernelRun2_B c i arg2 harg2 arg3 harg3 arg4 harg4 arg5 harg5 arg6 harg6 arg7 harg7 arg8 harg8 arg9 harg9 arg10 harg10 hc0 hc1 x0 x1 x2 x3 xs7 xs8 xs9 xs10).1)

/-- Case B's pieces for the running maximum's scratch cover it. -/
theorem scover2_B_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case B leaves in the running maximum's scratch, over what the point before left in the scratch buffers. -/
def sout2_B_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 hc0 hc1 x0 x1 x2 x3 xs7 xs8 xs9 xs10).2.1)

/-- Case B's pieces for the running sum's scratch cover it. -/
theorem scover2_B_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case B leaves in the running sum's scratch. -/
def sout2_B_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 hc0 hc1 x0 x1 x2 x3 xs7 xs8 xs9 xs10).2.2.1)

/-- Case C's pieces for the output's buffer cover its block. -/
theorem cover2_C_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 hc0 hc1 x0 x1 x2 x3 xs7 xs8 xs9 xs10).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 xs7 xs8 xs9 xs10).1 S1024x1.size (by sl_kernel_rfl) y
/-- What case C leaves in the output's staging buffer: its pieces read back. -/
def out2_C_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VO2_4.read (Elt F) (VO2_4.writes (Elt F) VO2_4.junk (kernelRun2_C c i arg2 harg2 arg3 harg3 arg4 harg4 arg5 harg5 arg6 harg6 arg7 harg7 arg8 harg8 arg9 harg9 arg10 harg10 hc0 hc1 x0 x1 x2 x3 xs7 xs8 xs9 xs10).1)

/-- Case C's pieces for the running maximum's scratch cover it. -/
theorem scover2_C_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case C leaves in the running maximum's scratch. -/
def sout2_C_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 hc0 hc1 x0 x1 x2 x3 xs7 xs8 xs9 xs10).2.1)

/-- Case C's pieces for the running sum's scratch cover it. -/
theorem scover2_C_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case C leaves in the running sum's scratch. -/
def sout2_C_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 hc0 hc1 x0 x1 x2 x3 xs7 xs8 xs9 xs10).2.2.1)

/-! ## What the output's buffer and the scratch buffers hold after each point -/

/-- The output's staging buffer, then the four scratch buffers (hidden layer, running maximum, running sum, target's
    logit). -/
abbrev Outs2 (F : FTy → Type) [FloatOps F] : Type :=
  Vec F S1024x1 .f32 × Vec F S1024x32 .bf16 × Vec F S1024x1 .f32 × Vec F S1024x1 .f32 × Vec F S1024x1 .f32

/-- A point of case A (the first column tile of a row tile): every scratch buffer is filled from the point's input
    blocks alone; the output component is the placeholder. -/
def caseA2 (c : Dev nD) (t : Fin cfg2.N) (h0 : t.val % 40 = 0) (h1 : ¬t.val % 40 = 39) : Outs2 F :=
  (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_7 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_8 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_9 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_10 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t))

/-- A point of case B (a column tile neither first nor last), over what the point before left (p): the running
    maximum and sum are updated; the hidden layer and the target's logit stay; the output component is the
    placeholder. -/
def caseB2 (c : Dev nD) (t : Fin cfg2.N) (h0 : ¬t.val % 40 = 0) (h1 : ¬t.val % 40 = 39) (p : Outs2 F) : Outs2 F :=
  (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2.1 p.2.2.2.2,
   p.2.1,
   sout2_B_8 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2.1 p.2.2.2.2,
   sout2_B_9 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2.1 p.2.2.2.2,
   p.2.2.2.2)

/-- A point of case C (the last column tile of a row tile), over what the point before left (p): as case B, and the
    output block is stored. -/
def caseC2 (c : Dev nD) (t : Fin cfg2.N) (h0 : ¬t.val % 40 = 0) (h1 : t.val % 40 = 39) (p : Outs2 F) : Outs2 F :=
  (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2.1 p.2.2.2.2,
   p.2.1,
   sout2_C_8 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2.1 p.2.2.2.2,
   sout2_C_9 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2.1 p.2.2.2.2,
   p.2.2.2.2)

/-- THE ACCUMULATION: what the output's staging buffer and the four scratch buffers hold after the body at position n
    — the case the point is in (by its second coordinate, n mod 40), over what position n - 1 left. The two conditions
    never hold together. -/
def outsAt2 (c : Dev nD) : (n : ℕ) → n < cfg2.N → Outs2 F
  | 0, hn => caseA2 V c ⟨0, hn⟩ (Nat.zero_mod _) (fun h => by (try dsimp only at h); omega)
  | n + 1, hn =>
    if h0 : (n + 1) % 40 = 0 then
      if h1 : (n + 1) % 40 = 39 then False.elim (by omega)
      else caseA2 V c ⟨n + 1, hn⟩ h0 h1
    else
      if h1 : (n + 1) % 40 = 39 then caseC2 V c ⟨n + 1, hn⟩ h0 h1 (outsAt2 c n (Nat.lt_of_succ_lt hn))
      else caseB2 V c ⟨n + 1, hn⟩ h0 h1 (outsAt2 c n (Nat.lt_of_succ_lt hn))

/-- The accumulation at a point of case A. -/
theorem outsAt2_A (c : Dev nD) (t : Fin cfg2.N) (h0 : t.val % 40 = 0) (h1 : ¬t.val % 40 = 39) :
    outsAt2 V c t.val t.isLt = caseA2 V c t h0 h1 := by
  obtain ⟨n, hn⟩ := t
  cases n with
  | zero => exact rfl
  | succ n => exact (dif_pos h0).trans ((dif_neg h1).trans rfl)

/-- The accumulation at a point of case B, over the point before. -/
theorem outsAt2_B (c : Dev nD) (t : Fin cfg2.N) (h0 : ¬t.val % 40 = 0) (h1 : ¬t.val % 40 = 39) :
    outsAt2 V c t.val t.isLt
      = caseB2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C, over the point before. -/
theorem outsAt2_C (c : Dev nD) (t : Fin cfg2.N) (h0 : ¬t.val % 40 = 0) (h1 : t.val % 40 = 39) :
    outsAt2 V c t.val t.isLt
      = caseC2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four scratch buffers at named contents, the core's other scoped buffers unopened, the generator register at
    some state. -/
def scratchAt2 (c : Dev nD) (p : Outs2 F) : sProp 𝕄 :=
  iprop(iprop(iprop(owns (c : Thread nD τ) scM2_0 fullShare p.2.1 ∗ owns (c : Thread nD τ) scM2_1 fullShare p.2.2.1 ∗ owns (c : Thread nD τ) scM2_2 fullShare p.2.2.2.1 ∗ owns (c : Thread nD τ) scM2_3 fullShare p.2.2.2.2)
      ∗ Pipeline.scopedRestBut (Ix := Unit) (Name := ℕ) (U := UR sig nD τ) (Lvl := ℕ) (Val := Elt F) spec2 c [cc2_scratch0, cc2_scratch1, cc2_scratch2, cc2_scratch3])
      ∗ (∃ r, prngReg c r))

/-- The invariant before position n: before the first point the class's (every scratch buffer at anything);
    afterwards each scratch buffer at what the point before left in it. -/
def PhiS2 (c : Dev nD) : (n : ℕ) → n ≤ cfg2.N → sProp 𝕄
  | 0, _ => Pipeline.ΦA spec2 c
  | n + 1, hn => scratchAt2 c (outsAt2 V c n hn)

theorem PhiS2_zero (c : Dev nD) (n : ℕ) (h : n ≤ cfg2.N) (hz : n = 0) : PhiS2 V c n h = Pipeline.ΦA spec2 c := by
  subst hz; rfl

/-- After point n (before point n + 1): the scratch buffers at that point's contents. -/
theorem PhiS2_succ (c : Dev nD) (n : ℕ) (hn : n < cfg2.N) :
    PhiS2 V c (n + 1) hn = scratchAt2 c (outsAt2 V c n hn) := rfl

/-- Before a point that is not the first: the scratch buffers at what the point before left. -/
theorem PhiS2_pos (c : Dev nD) (n : ℕ) (h : n ≤ cfg2.N) (hz : n ≠ 0) :
    PhiS2 V c n h = scratchAt2 c (outsAt2 V c (n - 1) (by omega)) := by
  cases n with
  | zero => exact absurd rfl hz
  | succ n => rfl

/-- Named contents are some contents: the invariant after any point gives the class's back. -/
theorem scratchAt2_forget (c : Dev nD) (p : Outs2 F) : scratchAt2 c p ⊢ (Pipeline.ΦA spec2 c : sProp 𝕄) := by
  rw [PhiA2_eq]; unfold scratchAt2
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-! ## The pipeline's proof data -/

/-- The proof data of pipeline 1 on core c: the arrays as the region finds them; after the body at point t each
    input's buffer at its block and the output's at the accumulation's first component; the invariant PhiS2; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not: an input the pipeline
    does not fetch at a point has not moved its block index since the point before, and the body leaves every input's
    block in place. The windows are uncut and the inputs never idle. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic point -/

/-- What the body is called with at point t: the invariant, what the core owes, and each window's current staging
    buffer at what it then holds, the windows one by one; -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- The invariant at any point's start gives the class's: before the first point it is the class's, afterwards named
    contents are some contents. (What a case that takes every scratch buffer at anything needs of it.) -/
theorem Phi_open2 (c : Dev nD) (t : Fin cfg2.N) : (dat2 V c).Φ t.castSucc ⊢ (Pipeline.ΦA spec2 c : sProp 𝕄) := by
  rw [PhiS2_castSucc V c t]
  by_cases hz : t.val = 0
  · rw [PhiS2_zero V c _ _ hz]
  · rw [PhiS2_pos V c _ _ hz]; exact scratchAt2_forget c _

set_option maxHeartbeats 4000000 in
/-- The body at a point of case A. The inputs' buffers hold their blocks; the output's window is idle there and not
    written back, so its buffer goes through as found; every scratch buffer is handed over at whatever it holds (at
    anything before the first point, at what the point before left afterwards) and comes back at this point's
    contents, its pieces covering it. -/
theorem sound_body2_A (c : Dev nD) (t : Fin cfg2.N) (h0 : t.val % 40 = 0) (h1 : ¬t.val % 40 = 39) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
  rw [outsAt2_A V c t h0 h1]
  unfold scratchAt2 caseA2 sout2_A_7 sout2_A_8 sout2_A_9 sout2_A_10; (try dsimp only)
  have hΦ := Phi_open2 V c t
  rw [PhiA2_eq] at hΦ
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨HS0, HS1, HS2, HS3⟩, Hr⟩, Hg⟩
  iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0 HS1 HS2 HS3]
      · isplitl [HS0]
        · unfold owns; iexists _; isplitr
          swap; · iexact HS0
          ipureintro; exact View.read_writes_of_cover _ _ _ _ _ (scover2_A_7 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_8 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_9 c _ _ _ _ _ _ _ _ _ _ _ _ _ _ _ _ _ _ _ _ _ _ _ _ _)
        unfold owns; iexists _; isplitr
        swap; · iexact HS3
        ipureintro; exact View.read_writes_of_cover _ _ _ _ _ (scover2_A_10 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case B. As case A for the inputs and the idle output; the scratch buffers are handed over at
    what the point before left (a case B point is never the first): the hidden layer and the target's logit come back
    as they were, the running maximum and sum at this point's contents. -/
theorem sound_body2_B (c : Dev nD) (t : Fin cfg2.N) (h0 : ¬t.val % 40 = 0) (h1 : ¬t.val % 40 = 39) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
  rw [outsAt2_B V c t h0 h1]
  have hz : t.val ≠ 0 := fun hz => h0 (by rw [hz])
  rw [PhiS2_castSucc V c t, PhiS2_pos V c _ _ hz]
  unfold scratchAt2 caseB2 sout2_B_8 sout2_B_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _ _).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover2_B_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_B_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case C. As case B for the scratch buffers; the output's window is live there: its buffer
    is handed over at whatever it holds and comes back at the stored block, its pieces covering it. -/
theorem sound_body2_C (c : Dev nD) (t : Fin cfg2.N) (h0 : ¬t.val % 40 = 0) (h1 : t.val % 40 = 39) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4_C t (fun h => h0 ((hcond2_0 t).mp h)) ((hcond2_1 t).mpr h1)], after2_4]
  rw [outsAt2_C V c t h0 h1]
  have hz : t.val ≠ 0 := fun hz => h0 (by rw [hz])
  rw [PhiS2_castSucc V c t, PhiS2_pos V c _ _ hz]
  unfold scratchAt2 caseC2 out2_C_4 sout2_C_8 sout2_C_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _ _).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover2_C_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_C_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_C_4 c _ _ _ _ _ _ _ _ _ _ _ _ _ _ _ _ _ _ _ _ _ _ _ _ _ _ _ _ _)

/-- The body at any point: the point's second coordinate says which case it is in. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 40 = 0
  · exact sound_body2_A V c t h0 (by omega)
  · by_cases h1 : t.val % 40 = 39
    · exact sound_body2_C V c t h0 h1
    · exact sound_body2_B V c t h0 h1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch buffers' named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  exact scratchAt2_forget c _

/-- The same after the last point. -/
theorem hout2 (c : Dev nD) : (dat2 V c).Φ (Fin.last cfg2.N) ⊢ Pipeline.ΦA spec2 c :=
  Phi_out2 V c _ (by rw [Fin.val_last]; have : cfg2.N = 80 := N_2; omega)

end Cert.Kernel.Hand

end
-- ==== Proof.KB.R3Runs.lean ====
import proofs.«416376_j65790309040722_2_alg».proof.Proof.Gen.Kernel.Launch
import proofs.«416376_j65790309040722_2_alg».proof.Proof.Gen.Kernel.Skeleton
import proofs.«416376_j65790309040722_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1, `cc3__tail_kernel`, pipeline 1): what its body's runs are stated over, and the runs

The grid is (2, 50): point `t` has coordinates `(t / 50, t % 50)`. The body's two conditionals read the second coordinate
only: the first is taken where it is 0, the second where it is 49. So three control cases: A (first taken, second not),
B (neither), C (second taken, first not). -/

/-! ## The body's branch conditions -/

/-- The condition of the body's first `scf.if` (`k3_h1`), from the grid coordinates (the skeleton's scalar chain
    substituted). -/
abbrev cond3_0 (i : grid3.Coords) : Prop := (Scalar.cmpi .ne (Scalar.extui (Scalar.cmpi .eq (BitVec.ofNat 32 (i 1).val) 0#32)) 0#32) = 1#1
/-- It holds at the points ≡ 0 (mod 50) — decided over the grid. -/
theorem hcond3_0 : ∀ t : Fin cfg3.N, cond3_0 (grid3.coords t) ↔ t.val % 50 = 0 :=
  (by decide +kernel : ∀ t : Fin grid3.N, cond3_0 (grid3.coords t) ↔ t.val % 50 = 0)

/-- The condition of the body's second `scf.if` (`k3_h2`). -/
abbrev cond3_1 (i : grid3.Coords) : Prop := k3_cond2 i = 1#1
/-- It holds at the points ≡ 8 (mod 50) — decided over the grid. -/
theorem hcond3_1 : ∀ t : Fin cfg3.N, cond3_1 (grid3.coords t) ↔ t.val % 50 = 49 :=
  (by decide +kernel : ∀ t : Fin grid3.N, cond3_1 (grid3.coords t) ↔ t.val % 50 = 49)

/-! ## Where the windows are idle (the printed configuration's table `Cfg.idle`) -/

/-- Windows 0 to 3 are inputs: never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the points of case A the configuration calls output 4 idle: the case stores nothing into it. -/
theorem idleAt3_4_A : ∀ t : Fin cfg3.N, cond3_0 (grid3.coords t) → ¬cond3_1 (grid3.coords t) → cfg3.idle 4 (grid3.coords t) = true := by decide +kernel
/-- At the points of case A the pipeline does not write output 4's block back. -/
theorem noFlush3_4_A : ∀ t : Fin cfg3.N, cond3_0 (grid3.coords t) → ¬cond3_1 (grid3.coords t) → (cfg3.win 4).flush t = false := by decide +kernel
/-- At the points of case B the configuration calls output 4 idle: the case stores nothing into it. -/
theorem idleAt3_4_B : ∀ t : Fin cfg3.N, ¬cond3_0 (grid3.coords t) → ¬cond3_1 (grid3.coords t) → cfg3.idle 4 (grid3.coords t) = true := by decide +kernel
/-- At the points of case B the pipeline does not write output 4's block back. -/
theorem noFlush3_4_B : ∀ t : Fin cfg3.N, ¬cond3_0 (grid3.coords t) → ¬cond3_1 (grid3.coords t) → (cfg3.win 4).flush t = false := by decide +kernel
/-- At the points of case C the configuration calls output 4 live: the case stores into it. -/
theorem liveAt3_4_C : ∀ t : Fin cfg3.N, ¬cond3_0 (grid3.coords t) → cond3_1 (grid3.coords t) → cfg3.idle 4 (grid3.coords t) = false := by decide +kernel

/-! ## The staging and scratch memrefs -/

/-- One staging buffer of output window 4, through which its contents are stated (the choice does not matter:
    `View.read_writes_of_cover`). -/
abbrev VO3_4 : View sig .tc .vmem S1024x1 .f32 := (Memref.whole cc3_stg4_0 : Memref sig .tc .vmem S1024x1 .f32).view
/-- Each window's current staging memref at point `t`, spelled as the pipeline passes it (`bodyAt3`), and its wholeness. -/
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1000x8 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x8 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1 .f32 := win3_4.stage (cfg3.slots t 4)
abbrev hs3_4 (t : Fin cfg3.N) : (ms3_4 t).IsWhole := hstage3_4 ((cfg3.slots t 4).cast nbuf3_4)
/-- The scratch operands: whole scoped buffers of the kernel's own, passed beside the windows — the hidden layer
    (`arg7`), the running maximum (`arg8`), the running sum (`arg9`) and the target's logit (`arg10`). -/
abbrev scM3_0 : Memref sig .tc .vmem S1024x8 .bf16 := Memref.whole cc3_scratch0
abbrev scM3_1 : Memref sig .tc .vmem S1024x1 .f32 := Memref.whole cc3_scratch1
abbrev scM3_2 : Memref sig .tc .vmem S1024x1 .f32 := Memref.whole cc3_scratch2
abbrev scM3_3 : Memref sig .tc .vmem S1024x1 .f32 := Memref.whole cc3_scratch3
/-- The scratch operands as views: what each holds between points is stated through them. -/
abbrev VS3_0 : View sig .tc .vmem S1024x8 .bf16 := scM3_0.view
abbrev VS3_1 : View sig .tc .vmem S1024x1 .f32 := scM3_1.view
abbrev VS3_2 : View sig .tc .vmem S1024x1 .f32 := scM3_2.view
abbrev VS3_3 : View sig .tc .vmem S1024x1 .f32 := scM3_3.view

/-- The class invariant of region 1 with the four scratch operands as memrefs owned at some contents, the core's other
    scoped buffers unopened (`Gen.scopedRest3_split`; `owns_whole`): what the body obligation hands the run and takes
    back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d))
          ∗ Pipeline.scopedRestBut (Ix := Unit) (Name := ℕ) (U := UR sig nD τ) (Lvl := ℕ) (Val := Elt F) spec3 c [cc3_scratch0, cc3_scratch1, cc3_scratch2, cc3_scratch3])
          ∗ (∃ r, prngReg c r)) := by
  unfold Pipeline.ΦA; rw [scopedRest3_split]; simp only [scM3_0, scM3_1, scM3_2, scM3_3, owns_whole]; try rfl

/-! ## The kernel body on any whole memrefs, case by case: a subtype the run finds -/

-- (the run's proof term is large: the definition's epilogue walks it past the default budget)
set_option maxHeartbeats 4000000 in
/-- CASE A (first conditional taken, second not: the points ≡ 0 mod 50). On whole memrefs — the inputs' at their
    contents `x·`, the output's (idle here) at contents `xi4` handed back untouched, each scratch at anything (each is
    stored whole before it is read) — the body runs to the continuation holding the inputs' and the output's as they
    were and each scratch with its pieces written (`LS·`, last first). The pieces are the witness the run finds. -/
noncomputable def kernelRun3_A (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) :
    Σ' (L4 : List (View.Piece (Elt F) S1024x1 .f32)) (LS7 : List (View.Piece (Elt F) S1024x8 .bf16)) (LS8 : List (View.Piece (Elt F) S1024x1 .f32)) (LS9 : List (View.Piece (Elt F) S1024x1 .f32)), { LS10 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc3__tail_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc3__tail_kernel_eq_skeleton]; unfold cc3__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    isplitl [HS9]; · iexists _; iexact HS9
    iexists _; iexact HS10

set_option maxHeartbeats 4000000 in
/-- CASE B (neither conditional taken: the points ≡ 1, …, 7 mod 50). On whole memrefs — the inputs' at `x·`, the
    output's (idle here) at `xi4` handed back untouched, the scratch at what the point before left (`xs·`) — the body
    runs to the continuation holding the inputs', the output's, the hidden layer (`arg7`, only read) and the target's
    logit (`arg10`, untouched) as they were, and the running maximum (`arg8`) and sum (`arg9`) with their pieces written. -/
noncomputable def kernelRun3_B (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc3__tail_kernel i arg2 harg2 arg3 harg3 arg4 harg4 arg5 harg5 arg6 harg6 arg7 harg7 arg8 harg8 arg9 harg9 arg10 harg10) K } := by
  refine ⟨[], ?_, ?_, fun xi4 E K => ?run⟩
  case run =>
    simp only [cc3__tail_kernel_eq_skeleton]; unfold cc3__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

set_option maxHeartbeats 4000000 in
/-- CASE C (second conditional taken, first not: the points ≡ 8 mod 50). On whole memrefs — the inputs' at `x·`, the
    output's at anything (it is stored whole), the scratch at what the point before left (`xs·`) — the body runs to the
    continuation holding the inputs', the hidden layer (`arg7`) and the target's logit (`arg10`), both only read, as
    they were, and the output's buffer, the running maximum (`arg8`) and sum (`arg9`) with their pieces written. -/
noncomputable def kernelRun3_C (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc3__tail_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc3__tail_kernel_eq_skeleton]; unfold cc3__tail_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

end Cert.Kernel.Hand

end
-- ==== Proof.KB.R3.lean ====
/- The frame data of region 1 of @main (custom_call 1, the first tail kernel, pipeline 1 on the grid (2, 50)), at any
   float type and at a PARAMETER: the TensorCore's buffer contents when the region is entered. The body keeps four
   scratch buffers from point to point (the hidden layer, the running maximum, the running sum, the target's logit):
   it fills all four at the first column tile of a row tile, updates the maximum and the sum at every column tile,
   and stores the output block at the last. So what the output's staging buffer and the four scratch buffers hold
   after each point is an accumulation along the grid, case by case; the region's invariant carries the scratch at
   the accumulated contents; the proof data, the body obligation at every point, and the invariant's two ends. -/
import proofs.«416376_j65790309040722_2_alg».proof.Proof.KB.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What each case leaves in the output's buffer and in the scratch buffers

Each case's run names, per buffer it stores into, the pieces it writes (last first). What the buffer then holds is
those pieces read back over anything, once they cover it. -/
/-- Case A stores nothing into the output's buffer (the window is idle at its points and not written back there):
    no pieces, a placeholder nothing consults. -/
def out3_A_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VO3_4.read (Elt F) (VO3_4.writes (Elt F) VO3_4.junk (kernelRun3_A c i arg2 harg2 arg3 harg3 arg4 harg4 arg5 harg5 arg6 harg6 arg7 harg7 arg8 harg8 arg9 harg9 arg10 harg10 hc0 hc1 x0 x1 x2 x3).1)

/-- Case A's pieces for the hidden layer's scratch cover it. -/
theorem scover3_A_7 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x8.Idx) :
    ∃ pc ∈ (kernelRun3_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.1 S1024x8.size (by sl_kernel_rfl) y
/-- What case A leaves in the hidden layer's scratch: its pieces read back. -/
def sout3_A_7 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x8 .bf16 :=
  VS3_0.read (Elt F) (VS3_0.writes (Elt F) VS3_0.junk (kernelRun3_A c i arg2 harg2 arg3 harg3 arg4 harg4 arg5 harg5 arg6 harg6 arg7 harg7 arg8 harg8 arg9 harg9 arg10 harg10 hc0 hc1 x0 x1 x2 x3).2.1)

/-- Case A's pieces for the running maximum's scratch cover it. -/
theorem scover3_A_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x1.Idx) :
    ∃ pc ∈ (kernelRun3_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.2.1 S1024x1.size (by sl_kernel_rfl) y
/-- What case A leaves in the running maximum's scratch. -/
def sout3_A_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 hc0 hc1 x0 x1 x2 x3).2.2.1)

/-- Case A's pieces for the running sum's scratch cover it. -/
theorem scover3_A_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x1.Idx) :
    ∃ pc ∈ (kernelRun3_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y
/-- What case A leaves in the running sum's scratch. -/
def sout3_A_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 hc0 hc1 x0 x1 x2 x3).2.2.2.1)

/-- Case A's pieces for the target logit's scratch cover it. -/
theorem scover3_A_10 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x1.Idx) :
    ∃ pc ∈ (kernelRun3_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.2.2.2.1 S1024x1.size (by sl_kernel_rfl) y
/-- What case A leaves in the target logit's scratch. -/
def sout3_A_10 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VS3_3.read (Elt F) (VS3_3.writes (Elt F) VS3_3.junk (kernelRun3_A c i arg2 harg2 arg3 harg3 arg4 harg4 arg5 harg5 arg6 harg6 arg7 harg7 arg8 harg8 arg9 harg9 arg10 harg10 hc0 hc1 x0 x1 x2 x3).2.2.2.2.1)

/-- Case B stores nothing into the output's buffer either: a placeholder nothing consults. -/
def out3_B_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VO3_4.read (Elt F) (VO3_4.writes (Elt F) VO3_4.junk (kernelRun3_B c i arg2 harg2 arg3 harg3 arg4 harg4 arg5 harg5 arg6 harg6 arg7 harg7 arg8 harg8 arg9 harg9 arg10 harg10 hc0 hc1 x0 x1 x2 x3 xs7 xs8 xs9 xs10).1)

/-- Case B's pieces for the running maximum's scratch cover it. -/
theorem scover3_B_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_B c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case B leaves in the running maximum's scratch, over what the point before left in the scratch buffers. -/
def sout3_B_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 hc0 hc1 x0 x1 x2 x3 xs7 xs8 xs9 xs10).2.1)

/-- Case B's pieces for the running sum's scratch cover it. -/
theorem scover3_B_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_B c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case B leaves in the running sum's scratch. -/
def sout3_B_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 hc0 hc1 x0 x1 x2 x3 xs7 xs8 xs9 xs10).2.2.1)

/-- Case C's pieces for the output's buffer cover its block. -/
theorem cover3_C_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_C c i arg2 harg2 arg3 harg3 arg4 harg4 arg5 harg5 arg6 harg6 arg7 harg7 arg8 harg8 arg9 harg9 arg10 harg10 hc0 hc1 x0 x1 x2 x3 xs7 xs8 xs9 xs10).1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 xs7 xs8 xs9 xs10).1 S1024x1.size (by sl_kernel_rfl) y
/-- What case C leaves in the output's staging buffer: its pieces read back. -/
def out3_C_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VO3_4.read (Elt F) (VO3_4.writes (Elt F) VO3_4.junk (kernelRun3_C c i arg2 harg2 arg3 harg3 arg4 harg4 arg5 harg5 arg6 harg6 arg7 harg7 arg8 harg8 arg9 harg9 arg10 harg10 hc0 hc1 x0 x1 x2 x3 xs7 xs8 xs9 xs10).1)

/-- Case C's pieces for the running maximum's scratch cover it. -/
theorem scover3_C_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_C c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case C leaves in the running maximum's scratch. -/
def sout3_C_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 hc0 hc1 x0 x1 x2 x3 xs7 xs8 xs9 xs10).2.1)

/-- Case C's pieces for the running sum's scratch cover it. -/
theorem scover3_C_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_C c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case C leaves in the running sum's scratch. -/
def sout3_C_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 hc0 hc1 x0 x1 x2 x3 xs7 xs8 xs9 xs10).2.2.1)

/-! ## What the output's buffer and the scratch buffers hold after each point -/

/-- The output's staging buffer, then the four scratch buffers (hidden layer, running maximum, running sum, target's
    logit). -/
abbrev Outs3 (F : FTy → Type) [FloatOps F] : Type :=
  Vec F S1024x1 .f32 × Vec F S1024x8 .bf16 × Vec F S1024x1 .f32 × Vec F S1024x1 .f32 × Vec F S1024x1 .f32

/-- A point of case A (the first column tile of a row tile): every scratch buffer is filled from the point's input
    blocks alone; the output component is the placeholder. -/
def caseA3 (c : Dev nD) (t : Fin cfg3.N) (h0 : t.val % 50 = 0) (h1 : ¬t.val % 50 = 49) : Outs3 F :=
  (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_7 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_8 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_9 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_10 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t))

/-- A point of case B (a column tile neither first nor last), over what the point before left (p): the running
    maximum and sum are updated; the hidden layer and the target's logit stay; the output component is the
    placeholder. -/
def caseB3 (c : Dev nD) (t : Fin cfg3.N) (h0 : ¬t.val % 50 = 0) (h1 : ¬t.val % 50 = 49) (p : Outs3 F) : Outs3 F :=
  (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) p.2.1 p.2.2.1 p.2.2.2.1 p.2.2.2.2,
   p.2.1,
   sout3_B_8 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) p.2.1 p.2.2.1 p.2.2.2.1 p.2.2.2.2,
   sout3_B_9 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) p.2.1 p.2.2.1 p.2.2.2.1 p.2.2.2.2,
   p.2.2.2.2)

/-- A point of case C (the last column tile of a row tile), over what the point before left (p): as case B, and the
    output block is stored. -/
def caseC3 (c : Dev nD) (t : Fin cfg3.N) (h0 : ¬t.val % 50 = 0) (h1 : t.val % 50 = 49) (p : Outs3 F) : Outs3 F :=
  (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) p.2.1 p.2.2.1 p.2.2.2.1 p.2.2.2.2,
   p.2.1,
   sout3_C_8 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) p.2.1 p.2.2.1 p.2.2.2.1 p.2.2.2.2,
   sout3_C_9 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) p.2.1 p.2.2.1 p.2.2.2.1 p.2.2.2.2,
   p.2.2.2.2)

/-- THE ACCUMULATION: what the output's staging buffer and the four scratch buffers hold after the body at position n
    — the case the point is in (by its second coordinate, n mod 50), over what position n - 1 left. The two conditions
    never hold together. -/
def outsAt3 (c : Dev nD) : (n : ℕ) → n < cfg3.N → Outs3 F
  | 0, hn => caseA3 V c ⟨0, hn⟩ (Nat.zero_mod _) (fun h => by (try dsimp only at h); omega)
  | n + 1, hn =>
    if h0 : (n + 1) % 50 = 0 then
      if h1 : (n + 1) % 50 = 49 then False.elim (by omega)
      else caseA3 V c ⟨n + 1, hn⟩ h0 h1
    else
      if h1 : (n + 1) % 50 = 49 then caseC3 V c ⟨n + 1, hn⟩ h0 h1 (outsAt3 c n (Nat.lt_of_succ_lt hn))
      else caseB3 V c ⟨n + 1, hn⟩ h0 h1 (outsAt3 c n (Nat.lt_of_succ_lt hn))

/-- The accumulation at a point of case A. -/
theorem outsAt3_A (c : Dev nD) (t : Fin cfg3.N) (h0 : t.val % 50 = 0) (h1 : ¬t.val % 50 = 49) :
    outsAt3 V c t.val t.isLt = caseA3 V c t h0 h1 := by
  obtain ⟨n, hn⟩ := t
  cases n with
  | zero => exact rfl
  | succ n => exact (dif_pos h0).trans ((dif_neg h1).trans rfl)

/-- The accumulation at a point of case B, over the point before. -/
theorem outsAt3_B (c : Dev nD) (t : Fin cfg3.N) (h0 : ¬t.val % 50 = 0) (h1 : ¬t.val % 50 = 49) :
    outsAt3 V c t.val t.isLt
      = caseB3 V c t h0 h1 (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C, over the point before. -/
theorem outsAt3_C (c : Dev nD) (t : Fin cfg3.N) (h0 : ¬t.val % 50 = 0) (h1 : t.val % 50 = 49) :
    outsAt3 V c t.val t.isLt
      = caseC3 V c t h0 h1 (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four scratch buffers at named contents, the core's other scoped buffers unopened, the generator register at
    some state. -/
def scratchAt3 (c : Dev nD) (p : Outs3 F) : sProp 𝕄 :=
  iprop(iprop(iprop(owns (c : Thread nD τ) scM3_0 fullShare p.2.1 ∗ owns (c : Thread nD τ) scM3_1 fullShare p.2.2.1 ∗ owns (c : Thread nD τ) scM3_2 fullShare p.2.2.2.1 ∗ owns (c : Thread nD τ) scM3_3 fullShare p.2.2.2.2)
      ∗ Pipeline.scopedRestBut (Ix := Unit) (Name := ℕ) (U := UR sig nD τ) (Lvl := ℕ) (Val := Elt F) spec3 c [cc3_scratch0, cc3_scratch1, cc3_scratch2, cc3_scratch3])
      ∗ (∃ r, prngReg c r))

/-- The invariant before position n: before the first point the class's (every scratch buffer at anything);
    afterwards each scratch buffer at what the point before left in it. -/
def PhiS3 (c : Dev nD) : (n : ℕ) → n ≤ cfg3.N → sProp 𝕄
  | 0, _ => Pipeline.ΦA spec3 c
  | n + 1, hn => scratchAt3 c (outsAt3 V c n hn)

theorem PhiS3_zero (c : Dev nD) (n : ℕ) (h : n ≤ cfg3.N) (hz : n = 0) : PhiS3 V c n h = Pipeline.ΦA spec3 c := by
  subst hz; rfl

/-- After point n (before point n + 1): the scratch buffers at that point's contents. -/
theorem PhiS3_succ (c : Dev nD) (n : ℕ) (hn : n < cfg3.N) :
    PhiS3 V c (n + 1) hn = scratchAt3 c (outsAt3 V c n hn) := rfl

/-- Before a point that is not the first: the scratch buffers at what the point before left. -/
theorem PhiS3_pos (c : Dev nD) (n : ℕ) (h : n ≤ cfg3.N) (hz : n ≠ 0) :
    PhiS3 V c n h = scratchAt3 c (outsAt3 V c (n - 1) (by omega)) := by
  cases n with
  | zero => exact absurd rfl hz
  | succ n => rfl

/-- Named contents are some contents: the invariant after any point gives the class's back. -/
theorem scratchAt3_forget (c : Dev nD) (p : Outs3 F) : scratchAt3 c p ⊢ (Pipeline.ΦA spec3 c : sProp 𝕄) := by
  rw [PhiA3_eq]; unfold scratchAt3
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-! ## The pipeline's proof data -/

/-- The proof data of pipeline 1 on core c: the arrays as the region finds them; after the body at point t each
    input's buffer at its block and the output's at the accumulation's first component; the invariant PhiS3; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not: an input the pipeline
    does not fetch at a point has not moved its block index since the point before, and the body leaves every input's
    block in place. The windows are uncut and the inputs never idle. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body obligation, at a generic point -/

/-- What the body is called with at point t: the invariant, what the core owes, and each window's current staging
    buffer at what it then holds, the windows one by one; -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

/-- The invariant at any point's start gives the class's: before the first point it is the class's, afterwards named
    contents are some contents. (What a case that takes every scratch buffer at anything needs of it.) -/
theorem Phi_open3 (c : Dev nD) (t : Fin cfg3.N) : (dat3 V c).Φ t.castSucc ⊢ (Pipeline.ΦA spec3 c : sProp 𝕄) := by
  rw [PhiS3_castSucc V c t]
  by_cases hz : t.val = 0
  · rw [PhiS3_zero V c _ _ hz]
  · rw [PhiS3_pos V c _ _ hz]; exact scratchAt3_forget c _

set_option maxHeartbeats 4000000 in
/-- The body at a point of case A. The inputs' buffers hold their blocks; the output's window is idle there and not
    written back, so its buffer goes through as found; every scratch buffer is handed over at whatever it holds (at
    anything before the first point, at what the point before left afterwards) and comes back at this point's
    contents, its pieces covering it. -/
theorem sound_body3_A (c : Dev nD) (t : Fin cfg3.N) (h0 : t.val % 50 = 0) (h1 : ¬t.val % 50 = 49) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
  rw [outsAt3_A V c t h0 h1]
  unfold scratchAt3 caseA3 sout3_A_7 sout3_A_8 sout3_A_9 sout3_A_10; (try dsimp only)
  have hΦ := Phi_open3 V c t
  rw [PhiA3_eq] at hΦ
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨HS0, HS1, HS2, HS3⟩, Hr⟩, Hg⟩
  iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0 HS1 HS2 HS3]
      · isplitl [HS0]
        · unfold owns; iexists _; isplitr
          swap; · iexact HS0
          ipureintro; exact View.read_writes_of_cover _ _ _ _ _ (scover3_A_7 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover3_A_8 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover3_A_9 c _ _ _ _ _ _ _ _ _ _ _ _ _ _ _ _ _ _ _ _ _ _ _ _ _)
        unfold owns; iexists _; isplitr
        swap; · iexact HS3
        ipureintro; exact View.read_writes_of_cover _ _ _ _ _ (scover3_A_10 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case B. As case A for the inputs and the idle output; the scratch buffers are handed over at
    what the point before left (a case B point is never the first): the hidden layer and the target's logit come back
    as they were, the running maximum and sum at this point's contents. -/
theorem sound_body3_B (c : Dev nD) (t : Fin cfg3.N) (h0 : ¬t.val % 50 = 0) (h1 : ¬t.val % 50 = 49) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
  rw [outsAt3_B V c t h0 h1]
  have hz : t.val ≠ 0 := fun hz => h0 (by rw [hz])
  rw [PhiS3_castSucc V c t, PhiS3_pos V c _ _ hz]
  unfold scratchAt3 caseB3 sout3_B_8 sout3_B_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ _ _).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover3_B_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover3_B_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case C. As case B for the scratch buffers; the output's window is live there: its buffer
    is handed over at whatever it holds and comes back at the stored block, its pieces covering it. -/
theorem sound_body3_C (c : Dev nD) (t : Fin cfg3.N) (h0 : ¬t.val % 50 = 0) (h1 : t.val % 50 = 49) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4_C t (fun h => h0 ((hcond3_0 t).mp h)) ((hcond3_1 t).mpr h1)], after3_4]
  rw [outsAt3_C V c t h0 h1]
  have hz : t.val ≠ 0 := fun hz => h0 (by rw [hz])
  rw [PhiS3_castSucc V c t, PhiS3_pos V c _ _ hz]
  unfold scratchAt3 caseC3 out3_C_4 sout3_C_8 sout3_C_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ _ _).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover3_C_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover3_C_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3_C_4 c _ _ _ _ _ _ _ _ _ _ _ _ _ _ _ _ _ _ _ _ _ _ _ _ _ _ _ _ _)

/-- The body at any point: the point's second coordinate says which case it is in. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val % 50 = 0
  · exact sound_body3_A V c t h0 (by omega)
  · by_cases h1 : t.val % 50 = 49
    · exact sound_body3_C V c t h0 h1
    · exact sound_body3_B V c t h0 h1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch buffers' named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  exact scratchAt3_forget c _

/-- The same after the last point. -/
theorem hout3 (c : Dev nD) : (dat3 V c).Φ (Fin.last cfg3.N) ⊢ Pipeline.ΦA spec3 c :=
  Phi_out3 V c _ (by rw [Fin.val_last]; have : cfg3.N = 100 := N_3; omega)

end Cert.Kernel.Hand

end
-- ==== Proof.KB.Run.lean ====
/-
  @main of the program as the list of its 22 host stretches and 4 kernel regions, run from the launch to the return.

  The contents of the core's unscoped buffers are followed item by item from the launch memory: a host stretch
  replaces them by what its operations compute from them; a kernel region changes one array only, the array of its
  output window, which ends holding the write-backs of all the grid's points folded in point order. Every other array
  a region stages is an input and is left as found. The valuations so obtained are `W1 … W22`; the four arrays the
  regions leave are `O0 … O3`.

  Each region is entered with every unscoped buffer whole at the valuation before it, the generator register at some
  state and nothing owed; its windows' arrays are split out of the buffers, the rest bypasses the region, the
  register and the scoped scratch make the region's invariant at the first point and are given back at the last, and
  the arrays are put back among the buffers at the valuation after it.

  The module is stated over ABSTRACT proof data for the four regions: for each region, a family of proof data indexed
  by the contents the region is entered from, whose entry contents are read off that valuation, which holds every
  array at the full share, owes nothing at any point, meets the body obligation, and whose invariant at the first
  and last points is the region invariant of the class (scoped scratch at some contents, generator register at some
  state). Nothing else about the data is used.

  The run: every weakly fair execution of @main from a memory with zero counters terminates, and in every final
  memory the result's buffer holds `W22 c main_v73` and the nine arguments hold what they were launched with.
-/
import proofs.«416376_j65790309040722_2_alg».proof.Proof.Gen.Kernel.Launch
import proofs.«416376_j65790309040722_2_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, read at its references: what a region's proof data are indexed by. -/
abbrev Val : Type := (c : Dev nD) → (b : Ref sig .tc) → Buf (Elt F) ((c : Thread nD τ).loc b)

section Run

/-! ## The regions' proof data, abstractly -/

variable
  (D0 : Val (F := F) → (c : Dev nD) → Dat τ (Elt F) Unit ℕ (UR sig nD τ) ℕ cfg0 c)
  (D1 : Val (F := F) → (c : Dev nD) → Dat τ (Elt F) Unit ℕ (UR sig nD τ) ℕ cfg1 c)
  (D2 : Val (F := F) → (c : Dev nD) → Dat τ (Elt F) Unit ℕ (UR sig nD τ) ℕ cfg2 c)
  (D3 : Val (F := F) → (c : Dev nD) → Dat τ (Elt F) Unit ℕ (UR sig nD τ) ℕ cfg3 c)
  (m : (ℓ : Loc nD τ sig) → Buf (Elt F) ℓ)

/-! ## The buffers' contents between items -/

/-- After `hostOps0`: what region 0 is entered from. -/
abbrev W1 (c : Dev nD) : Valuation τ sig (Elt F) := V1 m c
/-- What region 0 leaves in its output window's array `main_v4`: every point's write-back folded. -/
def O0 (c : Dev nD) : Buf (Elt F) ((c : Thread nD τ).loc main_v4) := (D0 (fun c b => W1 m c b) c).arrAt 3 cfg0.N
/-- After region 0. -/
def W2 (c : Dev nD) : Valuation τ sig (Elt F) := Function.update (W1 m c) main_v4 (O0 D0 m c)
abbrev W3 (c : Dev nD) : Valuation τ sig (Elt F) := StableHlo.after hostOps1 (W2 D0 m c)
abbrev W4 (c : Dev nD) : Valuation τ sig (Elt F) := StableHlo.after hostOps1_1 (W3 D0 m c)
abbrev W5 (c : Dev nD) : Valuation τ sig (Elt F) := StableHlo.after hostOps1_2 (W4 D0 m c)
abbrev W6 (c : Dev nD) : Valuation τ sig (Elt F) := StableHlo.after hostOps1_3 (W5 D0 m c)
/-- After `hostOps1_4`: what region 1 is entered from. -/
abbrev W7 (c : Dev nD) : Valuation τ sig (Elt F) := StableHlo.after hostOps1_4 (W6 D0 m c)
/-- What region 1 leaves in its output window's array `main_v21`. -/
def O1 (c : Dev nD) : Buf (Elt F) ((c : Thread nD τ).loc main_v21) := (D1 (fun c b => W7 D0 m c b) c).arrAt 4 cfg1.N
/-- After region 1. -/
def W8 (c : Dev nD) : Valuation τ sig (Elt F) := Function.update (W7 D0 m c) main_v21 (O1 D0 D1 m c)
abbrev W9 (c : Dev nD) : Valuation τ sig (Elt F) := StableHlo.after hostOps2 (W8 D0 D1 m c)
abbrev W10 (c : Dev nD) : Valuation τ sig (Elt F) := StableHlo.after hostOps2_1 (W9 D0 D1 m c)
abbrev W11 (c : Dev nD) : Valuation τ sig (Elt F) := StableHlo.after hostOps2_2 (W10 D0 D1 m c)
abbrev W12 (c : Dev nD) : Valuation τ sig (Elt F) := StableHlo.after hostOps2_3 (W11 D0 D1 m c)
/-- After `hostOps2_4`: what region 2 is entered from. -/
abbrev W13 (c : Dev nD) : Valuation τ sig (Elt F) := StableHlo.after hostOps2_4 (W12 D0 D1 m c)
/-- What region 2 leaves in its output window's array `main_v42`. -/
def O2 (c : Dev nD) : Buf (Elt F) ((c : Thread nD τ).loc main_v42) := (D2 (fun c b => W13 D0 D1 m c b) c).arrAt 4 cfg2.N
/-- After region 2. -/
def W14 (c : Dev nD) : Valuation τ sig (Elt F) := Function.update (W13 D0 D1 m c) main_v42 (O2 D0 D1 D2 m c)
abbrev W15 (c : Dev nD) : Valuation τ sig (Elt F) := StableHlo.after hostOps3 (W14 D0 D1 D2 m c)
abbrev W16 (c : Dev nD) : Valuation τ sig (Elt F) := StableHlo.after hostOps3_1 (W15 D0 D1 D2 m c)
abbrev W17 (c : Dev nD) : Valuation τ sig (Elt F) := StableHlo.after hostOps3_2 (W16 D0 D1 D2 m c)
abbrev W18 (c : Dev nD) : Valuation τ sig (Elt F) := StableHlo.after hostOps3_3 (W17 D0 D1 D2 m c)
/-- After `hostOps3_4`: what region 3 is entered from. -/
abbrev W19 (c : Dev nD) : Valuation τ sig (Elt F) := StableHlo.after hostOps3_4 (W18 D0 D1 D2 m c)
/-- What region 3 leaves in its output window's array `main_v63`. -/
def O3 (c : Dev nD) : Buf (Elt F) ((c : Thread nD τ).loc main_v63) := (D3 (fun c b => W19 D0 D1 D2 m c b) c).arrAt 4 cfg3.N
/-- After region 3. -/
def W20 (c : Dev nD) : Valuation τ sig (Elt F) := Function.update (W19 D0 D1 D2 m c) main_v63 (O3 D0 D1 D2 D3 m c)
abbrev W21 (c : Dev nD) : Valuation τ sig (Elt F) := StableHlo.after hostOps4 (W20 D0 D1 D2 D3 m c)
/-- After the last stretch: what the final memory holds in the unscoped buffers. -/
abbrev W22 (c : Dev nD) : Valuation τ sig (Elt F) := StableHlo.after hostOps4_1 (W21 D0 D1 D2 D3 m c)

/-- What the regions leave, as the unknowns the item-by-item valuations `V0 … V22` are written over: after a region,
    the whole valuation after it (read at the one reference the region may change). -/
def outs : Outs (F := F) := fun J r c =>
  match J with
  | 2 => W2 D0 m c r
  | 8 => W8 D0 D1 m c r
  | 14 => W14 D0 D1 D2 m c r
  | 20 => W20 D0 D1 D2 D3 m c r
  | _ => V0 m c r

theorem outs_2 (c : Dev nD) : outs D0 D1 D2 D3 m 2 main_v4 c = O0 D0 m c := by
  show W2 D0 m c main_v4 = _
  unfold W2; exact Function.update_self _ _ _
theorem outs_8 (c : Dev nD) : outs D0 D1 D2 D3 m 8 main_v21 c = O1 D0 D1 m c := by
  show W8 D0 D1 m c main_v21 = _
  unfold W8; exact Function.update_self _ _ _
theorem outs_14 (c : Dev nD) : outs D0 D1 D2 D3 m 14 main_v42 c = O2 D0 D1 D2 m c := by
  show W14 D0 D1 D2 m c main_v42 = _
  unfold W14; exact Function.update_self _ _ _
theorem outs_20 (c : Dev nD) : outs D0 D1 D2 D3 m 20 main_v63 c = O3 D0 D1 D2 D3 m c := by
  show W20 D0 D1 D2 D3 m c main_v63 = _
  unfold W20; exact Function.update_self _ _ _

/-! The item-by-item valuations at these unknowns are the chain above. -/
theorem V1_eq (c : Dev nD) : V1 m c = W1 m c := rfl
theorem V2_eq (c : Dev nD) : V2 m (outs D0 D1 D2 D3 m) c = W2 D0 m c := by
  show Function.update (V1 m c) main_v4 (outs D0 D1 D2 D3 m 2 main_v4 c) = _
  rw [outs_2]; rfl
theorem V7_eq (c : Dev nD) : V7 m (outs D0 D1 D2 D3 m) c = W7 D0 m c :=
  congrArg (fun v => StableHlo.after hostOps1_4 (StableHlo.after hostOps1_3 (StableHlo.after hostOps1_2 (StableHlo.after hostOps1_1 (StableHlo.after hostOps1 v))))) (V2_eq D0 D1 D2 D3 m c)
theorem V8_eq (c : Dev nD) : V8 m (outs D0 D1 D2 D3 m) c = W8 D0 D1 m c := by
  show Function.update (V7 m (outs D0 D1 D2 D3 m) c) main_v21 (outs D0 D1 D2 D3 m 8 main_v21 c) = _
  rw [outs_8, V7_eq]; rfl
theorem V13_eq (c : Dev nD) : V13 m (outs D0 D1 D2 D3 m) c = W13 D0 D1 m c :=
  congrArg (fun v => StableHlo.after hostOps2_4 (StableHlo.after hostOps2_3 (StableHlo.after hostOps2_2 (StableHlo.after hostOps2_1 (StableHlo.after hostOps2 v))))) (V8_eq D0 D1 D2 D3 m c)
theorem V14_eq (c : Dev nD) : V14 m (outs D0 D1 D2 D3 m) c = W14 D0 D1 D2 m c := by
  show Function.update (V13 m (outs D0 D1 D2 D3 m) c) main_v42 (outs D0 D1 D2 D3 m 14 main_v42 c) = _
  rw [outs_14, V13_eq]; rfl
theorem V19_eq (c : Dev nD) : V19 m (outs D0 D1 D2 D3 m) c = W19 D0 D1 D2 m c :=
  congrArg (fun v => StableHlo.after hostOps3_4 (StableHlo.after hostOps3_3 (StableHlo.after hostOps3_2 (StableHlo.after hostOps3_1 (StableHlo.after hostOps3 v))))) (V14_eq D0 D1 D2 D3 m c)
theorem V20_eq (c : Dev nD) : V20 m (outs D0 D1 D2 D3 m) c = W20 D0 D1 D2 D3 m c := by
  show Function.update (V19 m (outs D0 D1 D2 D3 m) c) main_v63 (outs D0 D1 D2 D3 m 20 main_v63 c) = _
  rw [outs_20, V19_eq]; rfl
theorem V22_eq (c : Dev nD) : V22 m (outs D0 D1 D2 D3 m) c = W22 D0 D1 D2 D3 m c :=
  congrArg (fun v => StableHlo.after hostOps4_1 (StableHlo.after hostOps4 v)) (V20_eq D0 D1 D2 D3 m c)

/-! ## What is assumed of the proof data -/

variable
  (hA0 : ∀ (V : Val (F := F)) (c : Dev nD) (w : Fin cfg0.W), (D0 V c).A w = V c (Pipeline.arrRef spec0 w))
  (hq0 : ∀ (V : Val (F := F)) (c : Dev nD) (w : Fin cfg0.W), (D0 V c).q w = fullShare)
  (how0 : ∀ (V : Val (F := F)) (c : Dev nD) (t : Fin (cfg0.N + 1)), (D0 V c).owed t = 0)
  (hrec0 : ∀ (V : Val (F := F)) (c : Dev nD), (D0 V c).recorded 0 = Set.univ)
  (hb0 : ∀ (V : Val (F := F)) (c : Dev nD), BodyObligation (D0 V c) (defs₀ (F := F)) Variants.none () Set.univ)
  (hin0 : ∀ (V : Val (F := F)) (c : Dev nD), (Pipeline.ΦA spec0 c : sProp (MT nD τ sig Unit (Elt F) ℕ (UR sig nD τ) ℕ)) ⊢ (D0 V c).Φ 0)
  (hout0 : ∀ (V : Val (F := F)) (c : Dev nD), (D0 V c).Φ (Fin.last cfg0.N) ⊢ (Pipeline.ΦA spec0 c : sProp (MT nD τ sig Unit (Elt F) ℕ (UR sig nD τ) ℕ)))
  (hA1 : ∀ (V : Val (F := F)) (c : Dev nD) (w : Fin cfg1.W), (D1 V c).A w = V c (Pipeline.arrRef spec1 w))
  (hq1 : ∀ (V : Val (F := F)) (c : Dev nD) (w : Fin cfg1.W), (D1 V c).q w = fullShare)
  (how1 : ∀ (V : Val (F := F)) (c : Dev nD) (t : Fin (cfg1.N + 1)), (D1 V c).owed t = 0)
  (hrec1 : ∀ (V : Val (F := F)) (c : Dev nD), (D1 V c).recorded 0 = Set.univ)
  (hb1 : ∀ (V : Val (F := F)) (c : Dev nD), BodyObligation (D1 V c) (defs₀ (F := F)) Variants.none () Set.univ)
  (hin1 : ∀ (V : Val (F := F)) (c : Dev nD), (Pipeline.ΦA spec1 c : sProp (MT nD τ sig Unit (Elt F) ℕ (UR sig nD τ) ℕ)) ⊢ (D1 V c).Φ 0)
  (hout1 : ∀ (V : Val (F := F)) (c : Dev nD), (D1 V c).Φ (Fin.last cfg1.N) ⊢ (Pipeline.ΦA spec1 c : sProp (MT nD τ sig Unit (Elt F) ℕ (UR sig nD τ) ℕ)))
  (hA2 : ∀ (V : Val (F := F)) (c : Dev nD) (w : Fin cfg2.W), (D2 V c).A w = V c (Pipeline.arrRef spec2 w))
  (hq2 : ∀ (V : Val (F := F)) (c : Dev nD) (w : Fin cfg2.W), (D2 V c).q w = fullShare)
  (how2 : ∀ (V : Val (F := F)) (c : Dev nD) (t : Fin (cfg2.N + 1)), (D2 V c).owed t = 0)
  (hrec2 : ∀ (V : Val (F := F)) (c : Dev nD), (D2 V c).recorded 0 = Set.univ)
  (hb2 : ∀ (V : Val (F := F)) (c : Dev nD), BodyObligation (D2 V c) (defs₀ (F := F)) Variants.none () Set.univ)
  (hin2 : ∀ (V : Val (F := F)) (c : Dev nD), (Pipeline.ΦA spec2 c : sProp (MT nD τ sig Unit (Elt F) ℕ (UR sig nD τ) ℕ)) ⊢ (D2 V c).Φ 0)
  (hout2 : ∀ (V : Val (F := F)) (c : Dev nD), (D2 V c).Φ (Fin.last cfg2.N) ⊢ (Pipeline.ΦA spec2 c : sProp (MT nD τ sig Unit (Elt F) ℕ (UR sig nD τ) ℕ)))
  (hA3 : ∀ (V : Val (F := F)) (c : Dev nD) (w : Fin cfg3.W), (D3 V c).A w = V c (Pipeline.arrRef spec3 w))
  (hq3 : ∀ (V : Val (F := F)) (c : Dev nD) (w : Fin cfg3.W), (D3 V c).q w = fullShare)
  (how3 : ∀ (V : Val (F := F)) (c : Dev nD) (t : Fin (cfg3.N + 1)), (D3 V c).owed t = 0)
  (hrec3 : ∀ (V : Val (F := F)) (c : Dev nD), (D3 V c).recorded 0 = Set.univ)
  (hb3 : ∀ (V : Val (F := F)) (c : Dev nD), BodyObligation (D3 V c) (defs₀ (F := F)) Variants.none () Set.univ)
  (hin3 : ∀ (V : Val (F := F)) (c : Dev nD), (Pipeline.ΦA spec3 c : sProp (MT nD τ sig Unit (Elt F) ℕ (UR sig nD τ) ℕ)) ⊢ (D3 V c).Φ 0)
  (hout3 : ∀ (V : Val (F := F)) (c : Dev nD), (D3 V c).Φ (Fin.last cfg3.N) ⊢ (Pipeline.ΦA spec3 c : sProp (MT nD τ sig Unit (Elt F) ℕ (UR sig nD τ) ℕ)))

/-! ## The proof data family and the thread state -/

/-- Every pipeline's proof data, each at the contents its region is entered from. -/
def pdats : (p : Fin 4) → (c : Dev nD) → Dat τ (Elt F) Unit ℕ (UR sig nD τ) ℕ (cfgs p) c
  | ⟨0, _⟩ => fun c => D0 (fun c b => W1 m c b) c
  | ⟨1, _⟩ => fun c => D1 (fun c b => W7 D0 m c b) c
  | ⟨2, _⟩ => fun c => D2 (fun c b => W13 D0 D1 m c b) c
  | ⟨3, _⟩ => fun c => D3 (fun c b => W19 D0 D1 D2 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- The rest beside the buffers, the same between any two items. -/
abbrev E : Fin 5 → Dev nD → sProp 𝕄 := fun _ c => R c

/-! ## A kernel region over the thread state, stated once for any pipeline of the program

The thread state between two items is: every unscoped buffer whole at a valuation, beside `R`. A region is entered from
the valuation `Win` and left at `Wout`. What is used of the pipeline's proof data `pd p c`: its entry contents are
`Win` read at the windows' arrays; every array is held at the full share; nothing is owed at any point and nothing bounds
the recorded waits at entry; the body obligation; the invariant at the first and last points is the class's region
invariant; and the two facts relating `Wout` to `Win` — at the windows' arrays `Wout` holds what the write-backs
leave, elsewhere it is `Win`. -/

section Region

variable (pd : (p : Fin 4) → (c : Dev nD) → Dat τ (Elt F) Unit ℕ (UR sig nD τ) ℕ (cfgs p) c)
  (p : Fin 4) (launch : Pipeline.LaunchFacts (nD := nD) (τ := τ) cfgs p)
  (Win Wout : Dev nD → Valuation τ sig (Elt F))
  (hAp : ∀ (c : Dev nD) (w : Fin (cfgs p).W), (pd p c).A w = Win c (Pipeline.arrRef (cfgs p).spec w))
  (hqp : ∀ (c : Dev nD) (w : Fin (cfgs p).W), (pd p c).q w = fullShare)
  (howp : ∀ (c : Dev nD) (t : Fin ((cfgs p).N + 1)), (pd p c).owed t = 0)
  (hrecp : ∀ c : Dev nD, (pd p c).recorded 0 = Set.univ)
  (hbp : ∀ c : Dev nD, BodyObligation (pd p c) (defs₀ (F := F)) Variants.none () Set.univ)
  (hinp : ∀ c : Dev nD, (Pipeline.ΦA (cfgs p).spec c : sProp (MT nD τ sig Unit (Elt F) ℕ (UR sig nD τ) ℕ)) ⊢ (pd p c).Φ 0)
  (houtp : ∀ c : Dev nD, (pd p c).Φ (Fin.last (cfgs p).N) ⊢ (Pipeline.ΦA (cfgs p).spec c : sProp (MT nD τ sig Unit (Elt F) ℕ (UR sig nD τ) ℕ)))
  (hFp : ∀ (c : Dev nD) (w : Fin (cfgs p).W), (pd p c).arrAt w (cfgs p).N = Wout c (Pipeline.arrRef (cfgs p).spec w))
  (hrestp : ∀ (c : Dev nD) (b : Ref sig .tc), b ∉ Finset.univ.image (Pipeline.arrRef (cfgs p).spec) → Wout c b = Win c b)

include launch hAp in
/-- A region all of whose windows are inputs but one, `o`, which it writes: if `Wout` is `Win` updated at `o`'s array
    with the write-backs of every point folded, then at each window's array `Wout` holds what the pipeline leaves there
    (an input's array is never written back and is no other window's array), and off the arrays it is `Win`. -/
theorem exit_of_single_output (o : Fin (cfgs p).W)
    (hio : ∀ w : Fin (cfgs p).W, w ≠ o → ((cfgs p).win w).isOut = false)
    (hW : ∀ c : Dev nD, Wout c = Function.update (Win c) (Proc.devRef .tc (Pipeline.arrRef (cfgs p).spec o)) ((pd p c).arrAt o (cfgs p).N)) :
    (∀ (c : Dev nD) (w : Fin (cfgs p).W), (pd p c).arrAt w (cfgs p).N = Wout c (Pipeline.arrRef (cfgs p).spec w))
    ∧ (∀ (c : Dev nD) (b : Ref sig .tc), b ∉ Finset.univ.image (Pipeline.arrRef (cfgs p).spec) → Wout c b = Win c b) := by
  refine ⟨fun c w => ?_, fun c b hb => ?_⟩
  · rw [hW c]
    by_cases hw : w = o
    · subst hw; exact Eq.symm (Function.update_self _ _ _)
    · have hne : (Proc.devRef .tc (Pipeline.arrRef (cfgs p).spec w) : DevRef τ sig) ≠ Proc.devRef .tc (Pipeline.arrRef (cfgs p).spec o) :=
        StableHlo.devRef_ne_of_ne fun e => hw (launch.win.arr_inj e)
      rw [(pd p c).arrAt_in w (hio w hw), hAp c w]
      exact (Function.update_of_ne hne _ _).symm
  · have hne : (Proc.devRef .tc b : DevRef τ sig) ≠ Proc.devRef .tc (Pipeline.arrRef (cfgs p).spec o) :=
      StableHlo.devRef_ne_of_ne fun (e : b = Pipeline.arrRef (cfgs p).spec o) =>
        hb (e ▸ Finset.mem_image_of_mem (Pipeline.arrRef (cfgs p).spec) (Finset.mem_univ o))
    rw [hW c]
    exact Function.update_of_ne hne _ _

/-- THE REGION over the thread state. Its windows' arrays are split out of the unscoped buffers at entry and put back at
    the exit contents; every other unscoped buffer bypasses it; the generator register goes into the region's invariant
    with the scoped scratch and comes back with it; nothing is owed; the kernel has no semaphore of its own. -/
def regOf : Pipeline.RegionSeg (pcfgs (F := F)) adm pd () defs₀ 𝒱₀ L lv p where
  win := launch.win.to₀
  block_pos := launch.block_pos
  stage_whole := launch.stage_whole
  K := PEmpty
  osem k := k.elim
  ho := Pipeline.OwnSemFacts.none _
  hbody c := (hbp c).loose
  hwaits := Pipeline.hwaits_of_owed_zero _ _ _ _ L lv p howp
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm pd launch.win launch.arr_whole c
      ((pd p c).share_full (hqp c)) (fun b => Win c b) (hAp c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howp c 0, hrecp c]
      icases HO with ⟨%W, HO⟩; iexists W; isplitr; · ipureintro; exact fun _ _ => Or.inl trivial
      iexact HO
    isplitl [Hp]; · iexact Hp
    iexact Hrest
  hin c := by
    refine BIBase.Entails.trans ?_ (hinp c)
    unfold Pipeline.ΦA
    iintro ⟨Hp, -, Hr⟩
    isplitl [Hr]; · iexact Hr
    iexact Hp
  hout c := by
    rw [Pipeline.ownSems0_none]
    refine BIBase.Entails.trans (houtp c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pd ((pd p c).share_full (hqp c))
      (fun b => Win c b) (fun b => Wout c b) ((pd p c).arrAt · (cfgs p).N) (hFp c) (hrestp c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howp c]
    icases HO with ⟨%W, -, HO⟩; iexists W; iexact HO

end Region

/-! ## The four regions -/

/-- REGION 0: entered from `W1`, left at `W2`; its output is window 3, whose array is `main_v4`. -/
def reg0 : Pipeline.RegionSeg (pcfgs (F := F)) adm (pdats D0 D1 D2 D3 m) () defs₀ 𝒱₀ L lv 0 :=
  have hx := exit_of_single_output (pdats D0 D1 D2 D3 m) 0 launch0 (W1 m) (W2 D0 m)
    (fun c w => hA0 (fun c b => W1 m c b) c w) 3 (by decide) (fun c => rfl)
  regOf (pdats D0 D1 D2 D3 m) 0 launch0 (W1 m) (W2 D0 m)
    (fun c w => hA0 (fun c b => W1 m c b) c w) (fun c w => hq0 (fun c b => W1 m c b) c w) (fun c t => how0 (fun c b => W1 m c b) c t)
    (fun c => hrec0 (fun c b => W1 m c b) c) (fun c => hb0 (fun c b => W1 m c b) c)
    (fun c => hin0 (fun c b => W1 m c b) c) (fun c => hout0 (fun c b => W1 m c b) c) hx.1 hx.2

/-- REGION 1: entered from `W7`, left at `W8`; its output is window 4, whose array is `main_v21`. -/
def reg1 : Pipeline.RegionSeg (pcfgs (F := F)) adm (pdats D0 D1 D2 D3 m) () defs₀ 𝒱₀ L lv 1 :=
  have hx := exit_of_single_output (pdats D0 D1 D2 D3 m) 1 launch1 (W7 D0 m) (W8 D0 D1 m)
    (fun c w => hA1 (fun c b => W7 D0 m c b) c w) 4 (by decide) (fun c => rfl)
  regOf (pdats D0 D1 D2 D3 m) 1 launch1 (W7 D0 m) (W8 D0 D1 m)
    (fun c w => hA1 (fun c b => W7 D0 m c b) c w) (fun c w => hq1 (fun c b => W7 D0 m c b) c w) (fun c t => how1 (fun c b => W7 D0 m c b) c t)
    (fun c => hrec1 (fun c b => W7 D0 m c b) c) (fun c => hb1 (fun c b => W7 D0 m c b) c)
    (fun c => hin1 (fun c b => W7 D0 m c b) c) (fun c => hout1 (fun c b => W7 D0 m c b) c) hx.1 hx.2

/-- REGION 2: entered from `W13`, left at `W14`; its output is window 4, whose array is `main_v42`. -/
def reg2 : Pipeline.RegionSeg (pcfgs (F := F)) adm (pdats D0 D1 D2 D3 m) () defs₀ 𝒱₀ L lv 2 :=
  have hx := exit_of_single_output (pdats D0 D1 D2 D3 m) 2 launch2 (W13 D0 D1 m) (W14 D0 D1 D2 m)
    (fun c w => hA2 (fun c b => W13 D0 D1 m c b) c w) 4 (by decide) (fun c => rfl)
  regOf (pdats D0 D1 D2 D3 m) 2 launch2 (W13 D0 D1 m) (W14 D0 D1 D2 m)
    (fun c w => hA2 (fun c b => W13 D0 D1 m c b) c w) (fun c w => hq2 (fun c b => W13 D0 D1 m c b) c w) (fun c t => how2 (fun c b => W13 D0 D1 m c b) c t)
    (fun c => hrec2 (fun c b => W13 D0 D1 m c b) c) (fun c => hb2 (fun c b => W13 D0 D1 m c b) c)
    (fun c => hin2 (fun c b => W13 D0 D1 m c b) c) (fun c => hout2 (fun c b => W13 D0 D1 m c b) c) hx.1 hx.2

/-- REGION 3: entered from `W19`, left at `W20`; its output is window 4, whose array is `main_v63`. -/
def reg3 : Pipeline.RegionSeg (pcfgs (F := F)) adm (pdats D0 D1 D2 D3 m) () defs₀ 𝒱₀ L lv 3 :=
  have hx := exit_of_single_output (pdats D0 D1 D2 D3 m) 3 launch3 (W19 D0 D1 D2 m) (W20 D0 D1 D2 D3 m)
    (fun c w => hA3 (fun c b => W19 D0 D1 D2 m c b) c w) 4 (by decide) (fun c => rfl)
  regOf (pdats D0 D1 D2 D3 m) 3 launch3 (W19 D0 D1 D2 m) (W20 D0 D1 D2 D3 m)
    (fun c w => hA3 (fun c b => W19 D0 D1 D2 m c b) c w) (fun c w => hq3 (fun c b => W19 D0 D1 D2 m c b) c w) (fun c t => how3 (fun c b => W19 D0 D1 D2 m c b) c t)
    (fun c => hrec3 (fun c b => W19 D0 D1 D2 m c b) c) (fun c => hb3 (fun c b => W19 D0 D1 D2 m c b) c)
    (fun c => hin3 (fun c b => W19 D0 D1 D2 m c b) c) (fun c => hout3 (fun c b => W19 D0 D1 D2 m c b) c) hx.1 hx.2

/-! ## The launch -/

/-- The rest beside the buffers ends owing nothing. -/
theorem hE4 (c : Dev nD) : E (F := F) 4 c ⊢ (iprop(∃ W, owes (c : Thread nD τ) (0 : CellTallies nD τ sig Unit) W) : sProp 𝕄) := by
  iintro ⟨-, H⟩; iexact H

include hA0 hq0 how0 hrec0 hb0 hin0 hout0 hA1 hq1 how1 hrec1 hb1 hin1 hout1 hA2 hq2 how2 hrec2 hb2 hin2 hout2 hA3 hq3 how3 hrec3 hb3 hin3 hout3 in
-- the library's launch finds its implicit arguments by unifying its conclusion with this one, which takes unfolding plain
-- definitions in a metavariable's type
set_option backward.isDefEq.respectTransparency.types false in
/-- THE RUN: from any memory with zero counters every weakly fair execution of @main terminates, and every final memory
    holds the result's buffer at `W22 c main_v73` and each of the nine arguments as launched. @main is the list of its 22
    host stretches and 4 regions; the thread states chain (a host stretch leaves the next valuation by name, a region is
    entered from and left at the valuations of the chain above); the launch deals every unscoped buffer at the launch
    memory, the generator register and the core owing nothing; at the end the unscoped buffers are read against the final
    memory: the result at the last valuation, each argument through the fact that no item writes it. -/
theorem run_main (ρ : Dev nD → PrngReg) :
    θ_run defs (onTc (τ := τ) (main (F := F))) ⟨m, fun _ => 0, ρ⟩ (fun r => ∀ c : Dev nD,
      r.2.mem ((c.tc : Thread nD τ).loc main_v73) = W22 D0 D1 D2 D3 m c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hpre0 : ∀ c : Dev nD, iprop(StableHlo.held (c : Thread nD τ) (Pipeline.ucRefs τ sig) (V1 m c) ∗ E 0 c) ⊢ (reg0 D0 D1 D2 D3 m hA0 hq0 how0 hrec0 hb0 hin0 hout0).pre c := fun c => .rfl
  have hpost0 : ∀ c : Dev nD, (reg0 D0 D1 D2 D3 m hA0 hq0 how0 hrec0 hb0 hin0 hout0).post c ⊢ iprop(StableHlo.held (c : Thread nD τ) (Pipeline.ucRefs τ sig) (V2 m (outs D0 D1 D2 D3 m) c) ∗ E 1 c) := fun c => by
    rw [V2_eq]; exact .rfl
  have hpre1 : ∀ c : Dev nD, iprop(StableHlo.held (c : Thread nD τ) (Pipeline.ucRefs τ sig) (V7 m (outs D0 D1 D2 D3 m) c) ∗ E 1 c) ⊢ (reg1 D0 D1 D2 D3 m hA1 hq1 how1 hrec1 hb1 hin1 hout1).pre c := fun c => by
    rw [V7_eq]; exact .rfl
  have hpost1 : ∀ c : Dev nD, (reg1 D0 D1 D2 D3 m hA1 hq1 how1 hrec1 hb1 hin1 hout1).post c ⊢ iprop(StableHlo.held (c : Thread nD τ) (Pipeline.ucRefs τ sig) (V8 m (outs D0 D1 D2 D3 m) c) ∗ E 2 c) := fun c => by
    rw [V8_eq]; exact .rfl
  have hpre2 : ∀ c : Dev nD, iprop(StableHlo.held (c : Thread nD τ) (Pipeline.ucRefs τ sig) (V13 m (outs D0 D1 D2 D3 m) c) ∗ E 2 c) ⊢ (reg2 D0 D1 D2 D3 m hA2 hq2 how2 hrec2 hb2 hin2 hout2).pre c := fun c => by
    rw [V13_eq]; exact .rfl
  have hpost2 : ∀ c : Dev nD, (reg2 D0 D1 D2 D3 m hA2 hq2 how2 hrec2 hb2 hin2 hout2).post c ⊢ iprop(StableHlo.held (c : Thread nD τ) (Pipeline.ucRefs τ sig) (V14 m (outs D0 D1 D2 D3 m) c) ∗ E 3 c) := fun c => by
    rw [V14_eq]; exact .rfl
  have hpre3 : ∀ c : Dev nD, iprop(StableHlo.held (c : Thread nD τ) (Pipeline.ucRefs τ sig) (V19 m (outs D0 D1 D2 D3 m) c) ∗ E 3 c) ⊢ (reg3 D0 D1 D2 D3 m hA3 hq3 how3 hrec3 hb3 hin3 hout3).pre c := fun c => by
    rw [V19_eq]; exact .rfl
  have hpost3 : ∀ c : Dev nD, (reg3 D0 D1 D2 D3 m hA3 hq3 how3 hrec3 hb3 hin3 hout3).post c ⊢ iprop(StableHlo.held (c : Thread nD τ) (Pipeline.ucRefs τ sig) (V20 m (outs D0 D1 D2 D3 m) c) ∗ E 4 c) := fun c => by
    rw [V20_eq]; exact .rfl
  refine Pipeline.θ_run_regions_kit_dev (pcfgs (F := F)) adm (pdats D0 D1 D2 D3 m) () cellOf_inj emb₁ defs₀ 𝒱₀ L lv m ρ main
    (segs m (outs D0 D1 D2 D3 m) 𝒱₀ L lv E () (pdats D0 D1 D2 D3 m) (reg0 D0 D1 D2 D3 m hA0 hq0 how0 hrec0 hb0 hin0 hout0) (reg1 D0 D1 D2 D3 m hA1 hq1 how1 hrec1 hb1 hin1 hout1) (reg2 D0 D1 D2 D3 m hA2 hq2 how2 hrec2 hb2 hin2 hout2) (reg3 D0 D1 D2 D3 m hA3 hq3 how3 hrec3 hb3 hin3 hout3))
    (fun c Q => by
      rewrite [main_chain c, Pipeline.Seg.run_eq_chain,
        show ((segs m (outs D0 D1 D2 D3 m) 𝒱₀ L lv E () (pdats D0 D1 D2 D3 m) (reg0 D0 D1 D2 D3 m hA0 hq0 how0 hrec0 hb0 hin0 hout0) (reg1 D0 D1 D2 D3 m hA1 hq1 how1 hrec1 hb1 hin1 hout1) (reg2 D0 D1 D2 D3 m hA2 hq2 how2 hrec2 hb2 hin2 hout2) (reg3 D0 D1 D2 D3 m hA3 hq3 how3 hrec3 hb3 hin3 hout3)) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V22 m (outs D0 D1 D2 D3 m) c))
    (hch := fun c => ⟨.rfl, hpre0 c, hpost0 c, .rfl, .rfl, .rfl, .rfl, hpre1 c, hpost1 c, .rfl, .rfl, .rfl, .rfl, hpre2 c, hpost2 c, .rfl, .rfl, .rfl, .rfl, hpre3 c, hpost3 c, .rfl, sep_mono .rfl (hE4 c)⟩)
    (hinit := ?_)
    (QY := fun c s => s.mem ((c.tc : Thread nD τ).loc main_v73) = W22 D0 D1 D2 D3 m c main_v73
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: on each core the unscoped buffers are held at the launch memory, the register is at its launch state,
    -- nothing is owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's buffer read off the last valuation, each argument's through the items that do not write it
    unfold StableHlo.held
    iintro ⟨Hh, HSI⟩
    ihave Hr := (pointsTo_read_all (Pipeline.ucRefs τ sig) (fun b => ((c : Thread nD τ).1, b)) (V22 m (outs D0 D1 D2 D3 m) c) s') $$ [Hh HSI]
    · isplitl [Hh] <;> iassumption
    icases Hr with ⟨%h, HSI⟩
    imodintro
    isplitr
    · ipureintro
      exact ⟨(h (Proc.devRef .tc main_v73) (Finset.mem_filter.mpr ⟨StableHlo.devRef_mem_tcRefs main_v73, by decide⟩)).trans (congrFun (V22_eq D0 D1 D2 D3 m c) _),
        (h (Proc.devRef .tc main_arg0) (Finset.mem_filter.mpr ⟨StableHlo.devRef_mem_tcRefs main_arg0, by decide⟩)).trans (V22_main_arg0 m (outs D0 D1 D2 D3 m) c),
        (h (Proc.devRef .tc main_arg1) (Finset.mem_filter.mpr ⟨StableHlo.devRef_mem_tcRefs main_arg1, by decide⟩)).trans (V22_main_arg1 m (outs D0 D1 D2 D3 m) c),
        (h (Proc.devRef .tc main_arg2) (Finset.mem_filter.mpr ⟨StableHlo.devRef_mem_tcRefs main_arg2, by decide⟩)).trans (V22_main_arg2 m (outs D0 D1 D2 D3 m) c),
        (h (Proc.devRef .tc main_arg3) (Finset.mem_filter.mpr ⟨StableHlo.devRef_mem_tcRefs main_arg3, by decide⟩)).trans (V22_main_arg3 m (outs D0 D1 D2 D3 m) c),
        (h (Proc.devRef .tc main_arg4) (Finset.mem_filter.mpr ⟨StableHlo.devRef_mem_tcRefs main_arg4, by decide⟩)).trans (V22_main_arg4 m (outs D0 D1 D2 D3 m) c),
        (h (Proc.devRef .tc main_arg5) (Finset.mem_filter.mpr ⟨StableHlo.devRef_mem_tcRefs main_arg5, by decide⟩)).trans (V22_main_arg5 m (outs D0 D1 D2 D3 m) c),
        (h (Proc.devRef .tc main_arg6) (Finset.mem_filter.mpr ⟨StableHlo.devRef_mem_tcRefs main_arg6, by decide⟩)).trans (V22_main_arg6 m (outs D0 D1 D2 D3 m) c),
        (h (Proc.devRef .tc main_arg7) (Finset.mem_filter.mpr ⟨StableHlo.devRef_mem_tcRefs main_arg7, by decide⟩)).trans (V22_main_arg7 m (outs D0 D1 D2 D3 m) c),
        (h (Proc.devRef .tc main_arg8) (Finset.mem_filter.mpr ⟨StableHlo.devRef_mem_tcRefs main_arg8, by decide⟩)).trans (V22_main_arg8 m (outs D0 D1 D2 D3 m) c)⟩
    · iexact HSI

/-- info: 'Cert.Kernel.Hand.run_main' depends on axioms: [propext, Classical.choice, Quot.sound] -/
#guard_msgs in #print axioms run_main

end Run

end Cert.Kernel.Hand

end
-- ==== Proof.KB.Inst.lean ====
/-
  The launch of the kernel program at the four regions' proof data: region 0's (the head kernel, one case) and
  regions 1–3's (the tail kernel with its carried running maximum, running sum, hidden block and gathered product),
  handed to the several-regions run. The run ends with the result buffer at the last valuation of the chain and
  the nine arguments as launched.
-/
import proofs.«416376_j65790309040722_2_alg».proof.Proof.KB.R0
import proofs.«416376_j65790309040722_2_alg».proof.Proof.KB.R1
import proofs.«416376_j65790309040722_2_alg».proof.Proof.KB.R2
import proofs.«416376_j65790309040722_2_alg».proof.Proof.KB.R3
import proofs.«416376_j65790309040722_2_alg».proof.Proof.KB.Run

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

/-- The result buffer after the run, on core `c`: the last valuation of the chain at the four regions' proof data. -/
abbrev resultAt (m : (ℓ : Loc nD τ sig) → Buf (Elt F) ℓ) (c : Dev nD) : Buf (Elt F) ((c.tc : Thread nD τ).loc main_v73) :=
  W22 (F := F) dat0 dat1 dat2 dat3 m c main_v73

/-- Every weakly fair execution of @main terminates, the result buffer ends at `resultAt` and the nine arguments end as
    launched. -/
theorem run_inst (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v73) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_main (F := F) dat0 dat1 dat2 dat3 m
    A_eq0 (fun _ _ _ => rfl) (fun _ _ _ => rfl) (fun _ _ => rfl) body_obligation0 (fun _ _ => BI.Entails.refl _) (fun _ _ => BI.Entails.refl _)
    A_eq1 (fun _ _ _ => rfl) (fun _ _ _ => rfl) (fun _ _ => rfl) body_obligation1 hin1 hout1
    A_eq2 (fun _ _ _ => rfl) (fun _ _ _ => rfl) (fun _ _ => rfl) body_obligation2 hin2 hout2
    A_eq3 (fun _ _ _ => rfl) (fun _ _ _ => rfl) (fun _ _ => rfl) body_obligation3 hin3 hout3 ρ

end Cert.Kernel.Hand

end
-- ==== Proof.KI.R0.lean ====
/- The frame data of region 0 of @main (custom_call 0, the head kernel, pipeline 0 on the grid (4,)), at any
   float type and at a PARAMETER: the TensorCore's buffer contents when the region is entered. Each window's block
   at a point; what the body finds in its three input windows (their blocks, fetched there or found in place); what
   it leaves in the output window (one store of the whole block, made after a load of the same buffer whose value
   nothing reads); the body's triple; the pipeline's proof data and the body obligation at every point. -/
import proofs.«416376_j65790309040722_2_alg».proof.Proof.Gen.KernelIdeal.Launch
import proofs.«416376_j65790309040722_2_alg».proof.Proof.Gen.KernelIdeal.Skeleton
import proofs.«416376_j65790309040722_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each through the whole buffer -/

/-- Offsets (0, 0), however spelt, are the zero offsets. -/
theorem off0_zero : (![0, 0] : Fin 2 → ℕ) = fun _ => 0 := by
  funext a; fin_cases a <;> rfl

abbrev r0_0 : Rect S512x512 := Rect.unit (s := S512x512) ![0, 0] S512x512.size inb_S512x512_S512x512_0_0
abbrev r0_1 : Rect S1003x512 := Rect.unit (s := S1003x512) ![0, 0] S1003x512.size inb_S1003x512_S1003x512_0_0
abbrev r0_2 : Rect S512x1 := Rect.unit (s := S512x1) ![0, 0] S512x1.size inb_S512x1_S512x1_0_0
abbrev r0_3 : Rect S512x4 := Rect.unit (s := S512x4) ![0, 0] S512x4.size inb_S512x4_S512x4_0_0

/-! ## What the body leaves in the output window's buffer -/

/-- Window 3's staging buffer after the body, from the input windows' blocks (x0 the activations' block, x1 the
    head weights, x2 the relative targets' block): its one store, of the payload of the three loads. -/
def out0_3 (x0 : Vec F S512x512 .bf16) (x1 : Vec F S1003x512 .f32) (x2 : Vec F S512x1 .i32) : Vec F S512x4 .f32 :=
  View.canon [⟨r0_3, k0_pay1 (View.ld x1 r0_1) (View.ld x0 r0_0) (View.ld x2 r0_2)⟩]

/-- The store covers the block whole and each load reads its buffer whole: the buffer is left at the payload of
    the blocks themselves. -/
theorem out0_3_eq (x0 : Vec F S512x512 .bf16) (x1 : Vec F S1003x512 .f32) (x2 : Vec F S512x1 .i32) :
    out0_3 x0 x1 x2 = k0_pay1 x1 x0 x2 := by
  unfold out0_3
  rw [View.canon_unit_zero off0_zero, View.ld_unit_zero off0_zero, View.ld_unit_zero off0_zero,
    View.ld_unit_zero off0_zero]

/-- The one store covers the buffer. -/
theorem cover0_3 (p0 : Vec F S512x4 .f32) (y : S512x4.Idx) :
    ∃ pc ∈ ([⟨r0_3, p0⟩] : List (View.Piece (Elt F) S512x4 .f32)), y ∈ pc.1.set :=
  ⟨_, List.mem_singleton_self _, View.mem_set_unit_zero off0_zero inb_S512x4_S512x4_0_0 y⟩

/-! ## The body's triple -/

set_option maxHeartbeats 1000000 in
/-- The kernel body on whole staging memrefs — the three inputs' at read contents x0, x1, x2, the output's at
    anything — runs to the continuation holding the inputs' as they were and the output's at out0_3 of them. The
    body reads the output buffer once before it stores it; the value read reaches no store, and the store, which
    covers the buffer, leaves its payload whatever was there. -/
theorem sound_kernel0 (c : Dev nD) (E : Set ℕ) (i : grid0.Coords)
    (arg1 : Memref sig .tc .vmem S512x512 .bf16) (harg1 : arg1.IsWhole) (arg2 : Memref sig .tc .vmem S1003x512 .f32) (harg2 : arg2.IsWhole)
    (arg3 : Memref sig .tc .vmem S512x1 .i32) (harg3 : arg3.IsWhole) (arg4 : Memref sig .tc .vmem S512x4 .f32) (harg4 : arg4.IsWhole)
    (x0 : Vec F S512x512 .bf16) (x1 : Vec F S1003x512 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__head_kernel i arg1 harg1 arg2 harg2 arg3 harg3 arg4 harg4) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and the output's at out0_3 of the three input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not: an input the
    pipeline does not fetch at a point has not moved its block index since the point before (the head weights'
    index is constant: fetched at the first point, found in place at the others), and the body leaves every
    input's block in place. The windows are uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at point t: the invariant, what the core owes, and each window's current staging
    buffer at what it then holds, the windows one by one; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, the output's holds whatever the pipeline
    left there, so the body's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«416376_j65790309040722_2_alg».proof.Proof.Gen.KernelIdeal.Launch
import proofs.«416376_j65790309040722_2_alg».proof.Proof.Gen.KernelIdeal.Skeleton
import proofs.«416376_j65790309040722_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1, `cc1__tail_kernel`, pipeline 1): what its body's runs are stated over, and the runs

The grid is (2, 9): point `t` has coordinates `(t / 9, t % 9)`. The body's two conditionals read the second coordinate
only: the first is taken where it is 0, the second where it is 8. So three control cases: A (first taken, second not),
B (neither), C (second taken, first not). -/

/-! ## The body's branch conditions -/

/-- The condition of the body's first `scf.if` (`k1_h1`), from the grid coordinates (the skeleton's scalar chain
    substituted). -/
abbrev cond1_0 (i : grid1.Coords) : Prop := (Scalar.cmpi .ne (Scalar.extui (Scalar.cmpi .eq (BitVec.ofNat 32 (i 1).val) 0#32)) 0#32) = 1#1
/-- It holds at the points ≡ 0 (mod 9) — decided over the grid. -/
theorem hcond1_0 : ∀ t : Fin cfg1.N, cond1_0 (grid1.coords t) ↔ t.val % 9 = 0 :=
  (by decide +kernel : ∀ t : Fin grid1.N, cond1_0 (grid1.coords t) ↔ t.val % 9 = 0)

/-- The condition of the body's second `scf.if` (`k1_h2`). -/
abbrev cond1_1 (i : grid1.Coords) : Prop := k1_cond2 i = 1#1
/-- It holds at the points ≡ 8 (mod 9) — decided over the grid. -/
theorem hcond1_1 : ∀ t : Fin cfg1.N, cond1_1 (grid1.coords t) ↔ t.val % 9 = 8 :=
  (by decide +kernel : ∀ t : Fin grid1.N, cond1_1 (grid1.coords t) ↔ t.val % 9 = 8)

/-! ## Where the windows are idle (the printed configuration's table `Cfg.idle`) -/

/-- Windows 0 to 3 are inputs: never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the points of case A the configuration calls output 4 idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B the configuration calls output 4 idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C the configuration calls output 4 live: the case stores into it. -/
theorem liveAt1_4_C : ∀ t : Fin cfg1.N, ¬cond1_0 (grid1.coords t) → cond1_1 (grid1.coords t) → cfg1.idle 4 (grid1.coords t) = false := by decide +kernel

/-! ## The staging and scratch memrefs -/

/-- One staging buffer of output window 4, through which its contents are stated (the choice does not matter:
    `View.read_writes_of_cover`). -/
abbrev VO1_4 : View sig .tc .vmem S1024x1 .f32 := (Memref.whole cc1_stg4_0 : Memref sig .tc .vmem S1024x1 .f32).view
/-- Each window's current staging memref at point `t`, spelled as the pipeline passes it (`bodyAt1`), and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the hidden layer
    (`arg7`), the running maximum (`arg8`), the running sum (`arg9`) and the target's logit (`arg10`). -/
abbrev scM1_0 : Memref sig .tc .vmem S1024x128 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x1 .f32 := Memref.whole cc1_scratch3
/-- The scratch operands as views: what each holds between points is stated through them. -/
abbrev VS1_0 : View sig .tc .vmem S1024x128 .bf16 := scM1_0.view
abbrev VS1_1 : View sig .tc .vmem S1024x1 .f32 := scM1_1.view
abbrev VS1_2 : View sig .tc .vmem S1024x1 .f32 := scM1_2.view
abbrev VS1_3 : View sig .tc .vmem S1024x1 .f32 := scM1_3.view

/-- The class invariant of region 1 with the four scratch operands as memrefs owned at some contents, the core's other
    scoped buffers unopened (`Gen.scopedRest1_split`; `owns_whole`): what the body obligation hands the run and takes
    back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3])
          ∗ (∃ r, prngReg c r)) := by
  unfold Pipeline.ΦA; rw [scopedRest1_split]; simp only [scM1_0, scM1_1, scM1_2, scM1_3, owns_whole]; try rfl

/-! ## The kernel body on any whole memrefs, case by case: a subtype the run finds -/

-- (the run's proof term is large: the definition's epilogue walks it past the default budget)
set_option maxHeartbeats 4000000 in
/-- CASE A (first conditional taken, second not: the points ≡ 0 mod 9). On whole memrefs — the inputs' at their
    contents `x·`, the output's (idle here) at contents `xi4` handed back untouched, each scratch at anything (each is
    stored whole before it is read) — the body runs to the continuation holding the inputs' and the output's as they
    were and each scratch with its pieces written (`LS·`, last first). The pieces are the witness the run finds. -/
noncomputable def kernelRun1_A (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) :
    Σ' (L4 : List (View.Piece (Elt F) S1024x1 .f32)) (LS7 : List (View.Piece (Elt F) S1024x128 .bf16)) (LS8 : List (View.Piece (Elt F) S1024x1 .f32)) (LS9 : List (View.Piece (Elt F) S1024x1 .f32)), { LS10 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc1__tail_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    isplitl [HS9]; · iexists _; iexact HS9
    iexists _; iexact HS10

set_option maxHeartbeats 4000000 in
/-- CASE B (neither conditional taken: the points ≡ 1, …, 7 mod 9). On whole memrefs — the inputs' at `x·`, the
    output's (idle here) at `xi4` handed back untouched, the scratch at what the point before left (`xs·`) — the body
    runs to the continuation holding the inputs', the output's, the hidden layer (`arg7`, only read) and the target's
    logit (`arg10`, untouched) as they were, and the running maximum (`arg8`) and sum (`arg9`) with their pieces written. -/
noncomputable def kernelRun1_B (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc1__tail_kernel i arg2 harg2 arg3 harg3 arg4 harg4 arg5 harg5 arg6 harg6 arg7 harg7 arg8 harg8 arg9 harg9 arg10 harg10) K } := by
  refine ⟨[], ?_, ?_, fun xi4 E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

set_option maxHeartbeats 4000000 in
/-- CASE C (second conditional taken, first not: the points ≡ 8 mod 9). On whole memrefs — the inputs' at `x·`, the
    output's at anything (it is stored whole), the scratch at what the point before left (`xs·`) — the body runs to the
    continuation holding the inputs', the hidden layer (`arg7`) and the target's logit (`arg10`), both only read, as
    they were, and the output's buffer, the running maximum (`arg8`) and sum (`arg9`) with their pieces written. -/
noncomputable def kernelRun1_C (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc1__tail_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__tail_kernel_eq_skeleton]; unfold cc1__tail_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

end Cert.KernelIdeal.Hand

end
-- ==== Proof.KI.R1.lean ====
/- The frame data of region 1 of @main (custom_call 1, the first tail kernel, pipeline 1 on the grid (2, 9)), at any
   float type and at a PARAMETER: the TensorCore's buffer contents when the region is entered. The body keeps four
   scratch buffers from point to point (the hidden layer, the running maximum, the running sum, the target's logit):
   it fills all four at the first column tile of a row tile, updates the maximum and the sum at every column tile,
   and stores the output block at the last. So what the output's staging buffer and the four scratch buffers hold
   after each point is an accumulation along the grid, case by case; the region's invariant carries the scratch at
   the accumulated contents; the proof data, the body obligation at every point, and the invariant's two ends. -/
import proofs.«416376_j65790309040722_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case leaves in the output's buffer and in the scratch buffers

Each case's run names, per buffer it stores into, the pieces it writes (last first). What the buffer then holds is
those pieces read back over anything, once they cover it. -/
/-- Case A stores nothing into the output's buffer (the window is idle at its points and not written back there):
    no pieces, a placeholder nothing consults. -/
def out1_A_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 hc1 x0 x1 x2 x3).1)

/-- Case A's pieces for the hidden layer's scratch cover it. -/
theorem scover1_A_7 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.1 S1024x128.size (by sl_kernel_rfl) y
/-- What case A leaves in the hidden layer's scratch: its pieces read back. -/
def sout1_A_7 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x128 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3).2.1)

/-- Case A's pieces for the running maximum's scratch cover it. -/
theorem scover1_A_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.1 S1024x1.size (by sl_kernel_rfl) y
/-- What case A leaves in the running maximum's scratch. -/
def sout1_A_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3).2.2.1)

/-- Case A's pieces for the running sum's scratch cover it. -/
theorem scover1_A_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y
/-- What case A leaves in the running sum's scratch. -/
def sout1_A_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3).2.2.2.1)

/-- Case A's pieces for the target logit's scratch cover it. -/
theorem scover1_A_10 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3).2.2.2.2.1 S1024x1.size (by sl_kernel_rfl) y
/-- What case A leaves in the target logit's scratch. -/
def sout1_A_10 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) : Vec F S1024x1 .f32 :=
  VS1_3.read (Elt F) (VS1_3.writes (Elt F) VS1_3.junk (kernelRun1_A c i arg2 harg2 arg3 harg3 arg4 harg4 arg5 harg5 arg6 harg6 arg7 harg7 arg8 harg8 arg9 harg9 arg10 harg10 hc0 hc1 x0 x1 x2 x3).2.2.2.2.1)

/-- Case B stores nothing into the output's buffer either: a placeholder nothing consults. -/
def out1_B_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 hc1 x0 x1 x2 x3 xs7 xs8 xs9 xs10).1)

/-- Case B's pieces for the running maximum's scratch cover it. -/
theorem scover1_B_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case B leaves in the running maximum's scratch, over what the point before left in the scratch buffers. -/
def sout1_B_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 xs7 xs8 xs9 xs10).2.1)

/-- Case B's pieces for the running sum's scratch cover it. -/
theorem scover1_B_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case B leaves in the running sum's scratch. -/
def sout1_B_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 xs7 xs8 xs9 xs10).2.2.1)

/-- Case C's pieces for the output's buffer cover its block. -/
theorem cover1_C_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 xs7 xs8 xs9 xs10).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs7 xs8 xs9 xs10).1 S1024x1.size (by sl_kernel_rfl) y
/-- What case C leaves in the output's staging buffer: its pieces read back. -/
def out1_C_4 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 hc0 hc1 x0 x1 x2 x3 xs7 xs8 xs9 xs10).1)

/-- Case C's pieces for the running maximum's scratch cover it. -/
theorem scover1_C_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case C leaves in the running maximum's scratch. -/
def sout1_C_8 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 xs7 xs8 xs9 xs10).2.1)

/-- Case C's pieces for the running sum's scratch cover it. -/
theorem scover1_C_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case C leaves in the running sum's scratch. -/
def sout1_C_9 (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) : Vec F S1024x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 xs7 xs8 xs9 xs10).2.2.1)

/-! ## What the output's buffer and the scratch buffers hold after each point -/

/-- The output's staging buffer, then the four scratch buffers (hidden layer, running maximum, running sum, target's
    logit). -/
abbrev Outs1 (F : FTy → Type) [FloatOps F] : Type :=
  Vec F S1024x1 .f32 × Vec F S1024x128 .bf16 × Vec F S1024x1 .f32 × Vec F S1024x1 .f32 × Vec F S1024x1 .f32

/-- A point of case A (the first column tile of a row tile): every scratch buffer is filled from the point's input
    blocks alone; the output component is the placeholder. -/
def caseA1 (c : Dev nD) (t : Fin cfg1.N) (h0 : t.val % 9 = 0) (h1 : ¬t.val % 9 = 8) : Outs1 F :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_7 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_8 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_9 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_10 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t))

/-- A point of case B (a column tile neither first nor last), over what the point before left (p): the running
    maximum and sum are updated; the hidden layer and the target's logit stay; the output component is the
    placeholder. -/
def caseB1 (c : Dev nD) (t : Fin cfg1.N) (h0 : ¬t.val % 9 = 0) (h1 : ¬t.val % 9 = 8) (p : Outs1 F) : Outs1 F :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   p.2.1,
   sout1_B_8 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   sout1_B_9 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   p.2.2.2.2)

/-- A point of case C (the last column tile of a row tile), over what the point before left (p): as case B, and the
    output block is stored. -/
def caseC1 (c : Dev nD) (t : Fin cfg1.N) (h0 : ¬t.val % 9 = 0) (h1 : t.val % 9 = 8) (p : Outs1 F) : Outs1 F :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   p.2.1,
   sout1_C_8 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_9 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   p.2.2.2.2)

/-- THE ACCUMULATION: what the output's staging buffer and the four scratch buffers hold after the body at position n
    — the case the point is in (by its second coordinate, n mod 9), over what position n - 1 left. The two conditions
    never hold together. -/
def outsAt1 (c : Dev nD) : (n : ℕ) → n < cfg1.N → Outs1 F
  | 0, hn => caseA1 V c ⟨0, hn⟩ (Nat.zero_mod _) (fun h => by (try dsimp only at h); omega)
  | n + 1, hn =>
    if h0 : (n + 1) % 9 = 0 then
      if h1 : (n + 1) % 9 = 8 then False.elim (by omega)
      else caseA1 V c ⟨n + 1, hn⟩ h0 h1
    else
      if h1 : (n + 1) % 9 = 8 then caseC1 V c ⟨n + 1, hn⟩ h0 h1 (outsAt1 c n (Nat.lt_of_succ_lt hn))
      else caseB1 V c ⟨n + 1, hn⟩ h0 h1 (outsAt1 c n (Nat.lt_of_succ_lt hn))

/-- The accumulation at a point of case A. -/
theorem outsAt1_A (c : Dev nD) (t : Fin cfg1.N) (h0 : t.val % 9 = 0) (h1 : ¬t.val % 9 = 8) :
    outsAt1 V c t.val t.isLt = caseA1 V c t h0 h1 := by
  obtain ⟨n, hn⟩ := t
  cases n with
  | zero => exact rfl
  | succ n => exact (dif_pos h0).trans ((dif_neg h1).trans rfl)

/-- The accumulation at a point of case B, over the point before. -/
theorem outsAt1_B (c : Dev nD) (t : Fin cfg1.N) (h0 : ¬t.val % 9 = 0) (h1 : ¬t.val % 9 = 8) :
    outsAt1 V c t.val t.isLt
      = caseB1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C, over the point before. -/
theorem outsAt1_C (c : Dev nD) (t : Fin cfg1.N) (h0 : ¬t.val % 9 = 0) (h1 : t.val % 9 = 8) :
    outsAt1 V c t.val t.isLt
      = caseC1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four scratch buffers at named contents, the core's other scoped buffers unopened, the generator register at
    some state. -/
def scratchAt1 (c : Dev nD) (p : Outs1 F) : sProp 𝕄 :=
  iprop(iprop(iprop(owns (c : Thread nD τ) scM1_0 fullShare p.2.1 ∗ owns (c : Thread nD τ) scM1_1 fullShare p.2.2.1 ∗ owns (c : Thread nD τ) scM1_2 fullShare p.2.2.2.1 ∗ owns (c : Thread nD τ) scM1_3 fullShare p.2.2.2.2)
      ∗ Pipeline.scopedRestBut (Ix := Unit) (Name := ℕ) (U := UR sig nD τ) (Lvl := ℕ) (Val := Elt F) spec1 c [cc1_scratch0, cc1_scratch1, cc1_scratch2, cc1_scratch3])
      ∗ (∃ r, prngReg c r))

/-- The invariant before position n: before the first point the class's (every scratch buffer at anything);
    afterwards each scratch buffer at what the point before left in it. -/
def PhiS1 (c : Dev nD) : (n : ℕ) → n ≤ cfg1.N → sProp 𝕄
  | 0, _ => Pipeline.ΦA spec1 c
  | n + 1, hn => scratchAt1 c (outsAt1 V c n hn)

theorem PhiS1_zero (c : Dev nD) (n : ℕ) (h : n ≤ cfg1.N) (hz : n = 0) : PhiS1 V c n h = Pipeline.ΦA spec1 c := by
  subst hz; rfl

/-- After point n (before point n + 1): the scratch buffers at that point's contents. -/
theorem PhiS1_succ (c : Dev nD) (n : ℕ) (hn : n < cfg1.N) :
    PhiS1 V c (n + 1) hn = scratchAt1 c (outsAt1 V c n hn) := rfl

/-- Before a point that is not the first: the scratch buffers at what the point before left. -/
theorem PhiS1_pos (c : Dev nD) (n : ℕ) (h : n ≤ cfg1.N) (hz : n ≠ 0) :
    PhiS1 V c n h = scratchAt1 c (outsAt1 V c (n - 1) (by omega)) := by
  cases n with
  | zero => exact absurd rfl hz
  | succ n => rfl

/-- Named contents are some contents: the invariant after any point gives the class's back. -/
theorem scratchAt1_forget (c : Dev nD) (p : Outs1 F) : scratchAt1 c p ⊢ (Pipeline.ΦA spec1 c : sProp 𝕄) := by
  rw [PhiA1_eq]; unfold scratchAt1
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-! ## The pipeline's proof data -/

/-- The proof data of pipeline 1 on core c: the arrays as the region finds them; after the body at point t each
    input's buffer at its block and the output's at the accumulation's first component; the invariant PhiS1; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not: an input the pipeline
    does not fetch at a point has not moved its block index since the point before, and the body leaves every input's
    block in place. The windows are uncut and the inputs never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation, at a generic point -/

/-- What the body is called with at point t: the invariant, what the core owes, and each window's current staging
    buffer at what it then holds, the windows one by one; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The invariant at any point's start gives the class's: before the first point it is the class's, afterwards named
    contents are some contents. (What a case that takes every scratch buffer at anything needs of it.) -/
theorem Phi_open1 (c : Dev nD) (t : Fin cfg1.N) : (dat1 V c).Φ t.castSucc ⊢ (Pipeline.ΦA spec1 c : sProp 𝕄) := by
  rw [PhiS1_castSucc V c t]
  by_cases hz : t.val = 0
  · rw [PhiS1_zero V c _ _ hz]
  · rw [PhiS1_pos V c _ _ hz]; exact scratchAt1_forget c _

set_option maxHeartbeats 4000000 in
/-- The body at a point of case A. The inputs' buffers hold their blocks; the output's window is idle there and not
    written back, so its buffer goes through as found; every scratch buffer is handed over at whatever it holds (at
    anything before the first point, at what the point before left afterwards) and comes back at this point's
    contents, its pieces covering it. -/
theorem sound_body1_A (c : Dev nD) (t : Fin cfg1.N) (h0 : t.val % 9 = 0) (h1 : ¬t.val % 9 = 8) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
  rw [outsAt1_A V c t h0 h1]
  unfold scratchAt1 caseA1 sout1_A_7 sout1_A_8 sout1_A_9 sout1_A_10; (try dsimp only)
  have hΦ := Phi_open1 V c t
  rw [PhiA1_eq] at hΦ
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨HS0, HS1, HS2, HS3⟩, Hr⟩, Hg⟩
  iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0 HS1 HS2 HS3]
      · isplitl [HS0]
        · unfold owns; iexists _; isplitr
          swap; · iexact HS0
          ipureintro; exact View.read_writes_of_cover _ _ _ _ _ (scover1_A_7 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_8 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_9 c _ _ _ _ _ _ _ _ _ _ _ _ _ _ _ _ _ _ _ _ _ _ _ _ _)
        unfold owns; iexists _; isplitr
        swap; · iexact HS3
        ipureintro; exact View.read_writes_of_cover _ _ _ _ _ (scover1_A_10 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case B. As case A for the inputs and the idle output; the scratch buffers are handed over at
    what the point before left (a case B point is never the first): the hidden layer and the target's logit come back
    as they were, the running maximum and sum at this point's contents. -/
theorem sound_body1_B (c : Dev nD) (t : Fin cfg1.N) (h0 : ¬t.val % 9 = 0) (h1 : ¬t.val % 9 = 8) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
  rw [outsAt1_B V c t h0 h1]
  have hz : t.val ≠ 0 := fun hz => h0 (by rw [hz])
  rw [PhiS1_castSucc V c t, PhiS1_pos V c _ _ hz]
  unfold scratchAt1 caseB1 sout1_B_8 sout1_B_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover1_B_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case C. As case B for the scratch buffers; the output's window is live there: its buffer
    is handed over at whatever it holds and comes back at the stored block, its pieces covering it. -/
theorem sound_body1_C (c : Dev nD) (t : Fin cfg1.N) (h0 : ¬t.val % 9 = 0) (h1 : t.val % 9 = 8) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4_C t (fun h => h0 ((hcond1_0 t).mp h)) ((hcond1_1 t).mpr h1)], after1_4]
  rw [outsAt1_C V c t h0 h1]
  have hz : t.val ≠ 0 := fun hz => h0 (by rw [hz])
  rw [PhiS1_castSucc V c t, PhiS1_pos V c _ _ hz]
  unfold scratchAt1 caseC1 out1_C_4 sout1_C_8 sout1_C_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ _).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover1_C_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_C_4 c _ _ _ _ _ _ _ _ _ _ _ _ _ _ _ _ _ _ _ _ _ _ _ _ _ _ _ _ _)

/-- The body at any point: the point's second coordinate says which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 9 = 0
  · exact sound_body1_A V c t h0 (by omega)
  · by_cases h1 : t.val % 9 = 8
    · exact sound_body1_C V c t h0 h1
    · exact sound_body1_B V c t h0 h1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  exact scratchAt1_forget c _

/-- The same after the last point. -/
theorem hout1 (c : Dev nD) : (dat1 V c).Φ (Fin.last cfg1.N) ⊢ Pipeline.ΦA spec1 c :=
  Phi_out1 V c _ (by rw [Fin.val_last]; have : cfg1.N = 18 := N_1; omega)

end Cert.KernelIdeal.Hand

end
-- ==== Proof.KI.R2Runs.lean ====
import proofs.«416376_j65790309040722_2_alg».proof.Proof.Gen.KernelIdeal.Launch
import proofs.«416376_j65790309040722_2_alg».proof.Proof.Gen.KernelIdeal.Skeleton
import proofs.«416376_j65790309040722_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1, `cc2__tail_kernel`, pipeline 1): what its body's runs are stated over, and the runs

The grid is (2, 40): point `t` has coordinates `(t / 40, t % 40)`. The body's two conditionals read the second coordinate
only: the first is taken where it is 0, the second where it is 39. So three control cases: A (first taken, second not),
B (neither), C (second taken, first not). -/

/-! ## The body's branch conditions -/

/-- The condition of the body's first `scf.if` (`k2_h1`), from the grid coordinates (the skeleton's scalar chain
    substituted). -/
abbrev cond2_0 (i : grid2.Coords) : Prop := (Scalar.cmpi .ne (Scalar.extui (Scalar.cmpi .eq (BitVec.ofNat 32 (i 1).val) 0#32)) 0#32) = 1#1
/-- It holds at the points ≡ 0 (mod 40) — decided over the grid. -/
theorem hcond2_0 : ∀ t : Fin cfg2.N, cond2_0 (grid2.coords t) ↔ t.val % 40 = 0 :=
  (by decide +kernel : ∀ t : Fin grid2.N, cond2_0 (grid2.coords t) ↔ t.val % 40 = 0)

/-- The condition of the body's second `scf.if` (`k2_h2`). -/
abbrev cond2_1 (i : grid2.Coords) : Prop := k2_cond2 i = 1#1
/-- It holds at the points ≡ 8 (mod 40) — decided over the grid. -/
theorem hcond2_1 : ∀ t : Fin cfg2.N, cond2_1 (grid2.coords t) ↔ t.val % 40 = 39 :=
  (by decide +kernel : ∀ t : Fin grid2.N, cond2_1 (grid2.coords t) ↔ t.val % 40 = 39)

/-! ## Where the windows are idle (the printed configuration's table `Cfg.idle`) -/

/-- Windows 0 to 3 are inputs: never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At the points of case A the configuration calls output 4 idle: the case stores nothing into it. -/
theorem idleAt2_4_A : ∀ t : Fin cfg2.N, cond2_0 (grid2.coords t) → ¬cond2_1 (grid2.coords t) → cfg2.idle 4 (grid2.coords t) = true := by decide +kernel
/-- At the points of case A the pipeline does not write output 4's block back. -/
theorem noFlush2_4_A : ∀ t : Fin cfg2.N, cond2_0 (grid2.coords t) → ¬cond2_1 (grid2.coords t) → (cfg2.win 4).flush t = false := by decide +kernel
/-- At the points of case B the configuration calls output 4 idle: the case stores nothing into it. -/
theorem idleAt2_4_B : ∀ t : Fin cfg2.N, ¬cond2_0 (grid2.coords t) → ¬cond2_1 (grid2.coords t) → cfg2.idle 4 (grid2.coords t) = true := by decide +kernel
/-- At the points of case B the pipeline does not write output 4's block back. -/
theorem noFlush2_4_B : ∀ t : Fin cfg2.N, ¬cond2_0 (grid2.coords t) → ¬cond2_1 (grid2.coords t) → (cfg2.win 4).flush t = false := by decide +kernel
/-- At the points of case C the configuration calls output 4 live: the case stores into it. -/
theorem liveAt2_4_C : ∀ t : Fin cfg2.N, ¬cond2_0 (grid2.coords t) → cond2_1 (grid2.coords t) → cfg2.idle 4 (grid2.coords t) = false := by decide +kernel

/-! ## The staging and scratch memrefs -/

/-- One staging buffer of output window 4, through which its contents are stated (the choice does not matter:
    `View.read_writes_of_cover`). -/
abbrev VO2_4 : View sig .tc .vmem S1024x1 .f32 := (Memref.whole cc2_stg4_0 : Memref sig .tc .vmem S1024x1 .f32).view
/-- Each window's current staging memref at point `t`, spelled as the pipeline passes it (`bodyAt2`), and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
/-- The scratch operands: whole scoped buffers of the kernel's own, passed beside the windows — the hidden layer
    (`arg7`), the running maximum (`arg8`), the running sum (`arg9`) and the target's logit (`arg10`). -/
abbrev scM2_0 : Memref sig .tc .vmem S1024x32 .bf16 := Memref.whole cc2_scratch0
abbrev scM2_1 : Memref sig .tc .vmem S1024x1 .f32 := Memref.whole cc2_scratch1
abbrev scM2_2 : Memref sig .tc .vmem S1024x1 .f32 := Memref.whole cc2_scratch2
abbrev scM2_3 : Memref sig .tc .vmem S1024x1 .f32 := Memref.whole cc2_scratch3
/-- The scratch operands as views: what each holds between points is stated through them. -/
abbrev VS2_0 : View sig .tc .vmem S1024x32 .bf16 := scM2_0.view
abbrev VS2_1 : View sig .tc .vmem S1024x1 .f32 := scM2_1.view
abbrev VS2_2 : View sig .tc .vmem S1024x1 .f32 := scM2_2.view
abbrev VS2_3 : View sig .tc .vmem S1024x1 .f32 := scM2_3.view

/-- The class invariant of region 1 with the four scratch operands as memrefs owned at some contents, the core's other
    scoped buffers unopened (`Gen.scopedRest2_split`; `owns_whole`): what the body obligation hands the run and takes
    back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d))
          ∗ Pipeline.scopedRestBut (Ix := Unit) (Name := ℕ) (U := UR sig nD τ) (Lvl := ℕ) (Val := Elt F) spec2 c [cc2_scratch0, cc2_scratch1, cc2_scratch2, cc2_scratch3])
          ∗ (∃ r, prngReg c r)) := by
  unfold Pipeline.ΦA; rw [scopedRest2_split]; simp only [scM2_0, scM2_1, scM2_2, scM2_3, owns_whole]; try rfl

/-! ## The kernel body on any whole memrefs, case by case: a subtype the run finds -/

-- (the run's proof term is large: the definition's epilogue walks it past the default budget)
set_option maxHeartbeats 4000000 in
/-- CASE A (first conditional taken, second not: the points ≡ 0 mod 40). On whole memrefs — the inputs' at their
    contents `x·`, the output's (idle here) at contents `xi4` handed back untouched, each scratch at anything (each is
    stored whole before it is read) — the body runs to the continuation holding the inputs' and the output's as they
    were and each scratch with its pieces written (`LS·`, last first). The pieces are the witness the run finds. -/
noncomputable def kernelRun2_A (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) :
    Σ' (L4 : List (View.Piece (Elt F) S1024x1 .f32)) (LS7 : List (View.Piece (Elt F) S1024x32 .bf16)) (LS8 : List (View.Piece (Elt F) S1024x1 .f32)) (LS9 : List (View.Piece (Elt F) S1024x1 .f32)), { LS10 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc2__tail_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc2__tail_kernel_eq_skeleton]; unfold cc2__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    isplitl [HS9]; · iexists _; iexact HS9
    iexists _; iexact HS10

set_option maxHeartbeats 4000000 in
/-- CASE B (neither conditional taken: the points ≡ 1, …, 7 mod 40). On whole memrefs — the inputs' at `x·`, the
    output's (idle here) at `xi4` handed back untouched, the scratch at what the point before left (`xs·`) — the body
    runs to the continuation holding the inputs', the output's, the hidden layer (`arg7`, only read) and the target's
    logit (`arg10`, untouched) as they were, and the running maximum (`arg8`) and sum (`arg9`) with their pieces written. -/
noncomputable def kernelRun2_B (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc2__tail_kernel i arg2 harg2 arg3 harg3 arg4 harg4 arg5 harg5 arg6 harg6 arg7 harg7 arg8 harg8 arg9 harg9 arg10 harg10) K } := by
  refine ⟨[], ?_, ?_, fun xi4 E K => ?run⟩
  case run =>
    simp only [cc2__tail_kernel_eq_skeleton]; unfold cc2__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

set_option maxHeartbeats 4000000 in
/-- CASE C (second conditional taken, first not: the points ≡ 8 mod 40). On whole memrefs — the inputs' at `x·`, the
    output's at anything (it is stored whole), the scratch at what the point before left (`xs·`) — the body runs to the
    continuation holding the inputs', the hidden layer (`arg7`) and the target's logit (`arg10`), both only read, as
    they were, and the output's buffer, the running maximum (`arg8`) and sum (`arg9`) with their pieces written. -/
noncomputable def kernelRun2_C (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc2__tail_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc2__tail_kernel_eq_skeleton]; unfold cc2__tail_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

end Cert.KernelIdeal.Hand

end
-- ==== Proof.KI.R2.lean ====
/- The frame data of region 1 of @main (custom_call 1, the first tail kernel, pipeline 1 on the grid (2, 40)), at any
   float type and at a PARAMETER: the TensorCore's buffer contents when the region is entered. The body keeps four
   scratch buffers from point to point (the hidden layer, the running maximum, the running sum, the target's logit):
   it fills all four at the first column tile of a row tile, updates the maximum and the sum at every column tile,
   and stores the output block at the last. So what the output's staging buffer and the four scratch buffers hold
   after each point is an accumulation along the grid, case by case; the region's invariant carries the scratch at
   the accumulated contents; the proof data, the body obligation at every point, and the invariant's two ends. -/
import proofs.«416376_j65790309040722_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What each case leaves in the output's buffer and in the scratch buffers

Each case's run names, per buffer it stores into, the pieces it writes (last first). What the buffer then holds is
those pieces read back over anything, once they cover it. -/
/-- Case A stores nothing into the output's buffer (the window is idle at its points and not written back there):
    no pieces, a placeholder nothing consults. -/
def out2_A_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VO2_4.read (Elt F) (VO2_4.writes (Elt F) VO2_4.junk (kernelRun2_A c i arg2 harg2 arg3 harg3 arg4 harg4 arg5 harg5 arg6 harg6 arg7 harg7 arg8 harg8 arg9 harg9 arg10 harg10 hc0 hc1 x0 x1 x2 x3).1)

/-- Case A's pieces for the hidden layer's scratch cover it. -/
theorem scover2_A_7 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x32.Idx) :
    ∃ pc ∈ (kernelRun2_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.1 S1024x32.size (by sl_kernel_rfl) y
/-- What case A leaves in the hidden layer's scratch: its pieces read back. -/
def sout2_A_7 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x32 .bf16 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2 x3).2.1)

/-- Case A's pieces for the running maximum's scratch cover it. -/
theorem scover2_A_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x1.Idx) :
    ∃ pc ∈ (kernelRun2_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.2.1 S1024x1.size (by sl_kernel_rfl) y
/-- What case A leaves in the running maximum's scratch. -/
def sout2_A_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 hc0 hc1 x0 x1 x2 x3).2.2.1)

/-- Case A's pieces for the running sum's scratch cover it. -/
theorem scover2_A_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x1.Idx) :
    ∃ pc ∈ (kernelRun2_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y
/-- What case A leaves in the running sum's scratch. -/
def sout2_A_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 hc0 hc1 x0 x1 x2 x3).2.2.2.1)

/-- Case A's pieces for the target logit's scratch cover it. -/
theorem scover2_A_10 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) (y : S1024x1.Idx) :
    ∃ pc ∈ (kernelRun2_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3).2.2.2.2.1 S1024x1.size (by sl_kernel_rfl) y
/-- What case A leaves in the target logit's scratch. -/
def sout2_A_10 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) : Vec F S1024x1 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 hc0 hc1 x0 x1 x2 x3).2.2.2.2.1)

/-- Case B stores nothing into the output's buffer either: a placeholder nothing consults. -/
def out2_B_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VO2_4.read (Elt F) (VO2_4.writes (Elt F) VO2_4.junk (kernelRun2_B c i arg2 harg2 arg3 harg3 arg4 harg4 arg5 harg5 arg6 harg6 arg7 harg7 arg8 harg8 arg9 harg9 arg10 harg10 hc0 hc1 x0 x1 x2 x3 xs7 xs8 xs9 xs10).1)

/-- Case B's pieces for the running maximum's scratch cover it. -/
theorem scover2_B_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case B leaves in the running maximum's scratch, over what the point before left in the scratch buffers. -/
def sout2_B_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 hc0 hc1 x0 x1 x2 x3 xs7 xs8 xs9 xs10).2.1)

/-- Case B's pieces for the running sum's scratch cover it. -/
theorem scover2_B_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_B c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case B leaves in the running sum's scratch. -/
def sout2_B_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 hc0 hc1 x0 x1 x2 x3 xs7 xs8 xs9 xs10).2.2.1)

/-- Case C's pieces for the output's buffer cover its block. -/
theorem cover2_C_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 hc0 hc1 x0 x1 x2 x3 xs7 xs8 xs9 xs10).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 xs7 xs8 xs9 xs10).1 S1024x1.size (by sl_kernel_rfl) y
/-- What case C leaves in the output's staging buffer: its pieces read back. -/
def out2_C_4 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VO2_4.read (Elt F) (VO2_4.writes (Elt F) VO2_4.junk (kernelRun2_C c i arg2 harg2 arg3 harg3 arg4 harg4 arg5 harg5 arg6 harg6 arg7 harg7 arg8 harg8 arg9 harg9 arg10 harg10 hc0 hc1 x0 x1 x2 x3 xs7 xs8 xs9 xs10).1)

/-- Case C's pieces for the running maximum's scratch cover it. -/
theorem scover2_C_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case C leaves in the running maximum's scratch. -/
def sout2_C_8 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 hc0 hc1 x0 x1 x2 x3 xs7 xs8 xs9 xs10).2.1)

/-- Case C's pieces for the running sum's scratch cover it. -/
theorem scover2_C_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) (y : S1024x1.Idx) :
    ∃ pc ∈ (kernelRun2_C c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case C leaves in the running sum's scratch. -/
def sout2_C_9 (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) : Vec F S1024x1 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 hc0 hc1 x0 x1 x2 x3 xs7 xs8 xs9 xs10).2.2.1)

/-! ## What the output's buffer and the scratch buffers hold after each point -/

/-- The output's staging buffer, then the four scratch buffers (hidden layer, running maximum, running sum, target's
    logit). -/
abbrev Outs2 (F : FTy → Type) [FloatOps F] : Type :=
  Vec F S1024x1 .f32 × Vec F S1024x32 .bf16 × Vec F S1024x1 .f32 × Vec F S1024x1 .f32 × Vec F S1024x1 .f32

/-- A point of case A (the first column tile of a row tile): every scratch buffer is filled from the point's input
    blocks alone; the output component is the placeholder. -/
def caseA2 (c : Dev nD) (t : Fin cfg2.N) (h0 : t.val % 40 = 0) (h1 : ¬t.val % 40 = 39) : Outs2 F :=
  (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_7 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_8 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_9 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
   sout2_A_10 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t))

/-- A point of case B (a column tile neither first nor last), over what the point before left (p): the running
    maximum and sum are updated; the hidden layer and the target's logit stay; the output component is the
    placeholder. -/
def caseB2 (c : Dev nD) (t : Fin cfg2.N) (h0 : ¬t.val % 40 = 0) (h1 : ¬t.val % 40 = 39) (p : Outs2 F) : Outs2 F :=
  (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2.1 p.2.2.2.2,
   p.2.1,
   sout2_B_8 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2.1 p.2.2.2.2,
   sout2_B_9 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) p.2.1 p.2.2.1 p.2.2.2.1 p.2.2.2.2,
   p.2.2.2.2)

/-- A point of case C (the last column tile of a row tile), over what the point before left (p): as case B, and the
    output block is stored. -/
def caseC2 (c : Dev nD) (t : Fin cfg2.N) (h0 : ¬t.val % 40 = 0) (h1 : t.val % 40 = 39) (p : Outs2 F) : Outs2 F :=
  (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2.1 p.2.2.2.2,
   p.2.1,
   sout2_C_8 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2.1 p.2.2.2.2,
   sout2_C_9 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) p.2.1 p.2.2.1 p.2.2.2.1 p.2.2.2.2,
   p.2.2.2.2)

/-- THE ACCUMULATION: what the output's staging buffer and the four scratch buffers hold after the body at position n
    — the case the point is in (by its second coordinate, n mod 40), over what position n - 1 left. The two conditions
    never hold together. -/
def outsAt2 (c : Dev nD) : (n : ℕ) → n < cfg2.N → Outs2 F
  | 0, hn => caseA2 V c ⟨0, hn⟩ (Nat.zero_mod _) (fun h => by (try dsimp only at h); omega)
  | n + 1, hn =>
    if h0 : (n + 1) % 40 = 0 then
      if h1 : (n + 1) % 40 = 39 then False.elim (by omega)
      else caseA2 V c ⟨n + 1, hn⟩ h0 h1
    else
      if h1 : (n + 1) % 40 = 39 then caseC2 V c ⟨n + 1, hn⟩ h0 h1 (outsAt2 c n (Nat.lt_of_succ_lt hn))
      else caseB2 V c ⟨n + 1, hn⟩ h0 h1 (outsAt2 c n (Nat.lt_of_succ_lt hn))

/-- The accumulation at a point of case A. -/
theorem outsAt2_A (c : Dev nD) (t : Fin cfg2.N) (h0 : t.val % 40 = 0) (h1 : ¬t.val % 40 = 39) :
    outsAt2 V c t.val t.isLt = caseA2 V c t h0 h1 := by
  obtain ⟨n, hn⟩ := t
  cases n with
  | zero => exact rfl
  | succ n => exact (dif_pos h0).trans ((dif_neg h1).trans rfl)

/-- The accumulation at a point of case B, over the point before. -/
theorem outsAt2_B (c : Dev nD) (t : Fin cfg2.N) (h0 : ¬t.val % 40 = 0) (h1 : ¬t.val % 40 = 39) :
    outsAt2 V c t.val t.isLt
      = caseB2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C, over the point before. -/
theorem outsAt2_C (c : Dev nD) (t : Fin cfg2.N) (h0 : ¬t.val % 40 = 0) (h1 : t.val % 40 = 39) :
    outsAt2 V c t.val t.isLt
      = caseC2 V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four scratch buffers at named contents, the core's other scoped buffers unopened, the generator register at
    some state. -/
def scratchAt2 (c : Dev nD) (p : Outs2 F) : sProp 𝕄 :=
  iprop(iprop(iprop(owns (c : Thread nD τ) scM2_0 fullShare p.2.1 ∗ owns (c : Thread nD τ) scM2_1 fullShare p.2.2.1 ∗ owns (c : Thread nD τ) scM2_2 fullShare p.2.2.2.1 ∗ owns (c : Thread nD τ) scM2_3 fullShare p.2.2.2.2)
      ∗ Pipeline.scopedRestBut (Ix := Unit) (Name := ℕ) (U := UR sig nD τ) (Lvl := ℕ) (Val := Elt F) spec2 c [cc2_scratch0, cc2_scratch1, cc2_scratch2, cc2_scratch3])
      ∗ (∃ r, prngReg c r))

/-- The invariant before position n: before the first point the class's (every scratch buffer at anything);
    afterwards each scratch buffer at what the point before left in it. -/
def PhiS2 (c : Dev nD) : (n : ℕ) → n ≤ cfg2.N → sProp 𝕄
  | 0, _ => Pipeline.ΦA spec2 c
  | n + 1, hn => scratchAt2 c (outsAt2 V c n hn)

theorem PhiS2_zero (c : Dev nD) (n : ℕ) (h : n ≤ cfg2.N) (hz : n = 0) : PhiS2 V c n h = Pipeline.ΦA spec2 c := by
  subst hz; rfl

/-- After point n (before point n + 1): the scratch buffers at that point's contents. -/
theorem PhiS2_succ (c : Dev nD) (n : ℕ) (hn : n < cfg2.N) :
    PhiS2 V c (n + 1) hn = scratchAt2 c (outsAt2 V c n hn) := rfl

/-- Before a point that is not the first: the scratch buffers at what the point before left. -/
theorem PhiS2_pos (c : Dev nD) (n : ℕ) (h : n ≤ cfg2.N) (hz : n ≠ 0) :
    PhiS2 V c n h = scratchAt2 c (outsAt2 V c (n - 1) (by omega)) := by
  cases n with
  | zero => exact absurd rfl hz
  | succ n => rfl

/-- Named contents are some contents: the invariant after any point gives the class's back. -/
theorem scratchAt2_forget (c : Dev nD) (p : Outs2 F) : scratchAt2 c p ⊢ (Pipeline.ΦA spec2 c : sProp 𝕄) := by
  rw [PhiA2_eq]; unfold scratchAt2
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-! ## The pipeline's proof data -/

/-- The proof data of pipeline 1 on core c: the arrays as the region finds them; after the body at point t each
    input's buffer at its block and the output's at the accumulation's first component; the invariant PhiS2; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not: an input the pipeline
    does not fetch at a point has not moved its block index since the point before, and the body leaves every input's
    block in place. The windows are uncut and the inputs never idle. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation, at a generic point -/

/-- What the body is called with at point t: the invariant, what the core owes, and each window's current staging
    buffer at what it then holds, the windows one by one; -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- The invariant at any point's start gives the class's: before the first point it is the class's, afterwards named
    contents are some contents. (What a case that takes every scratch buffer at anything needs of it.) -/
theorem Phi_open2 (c : Dev nD) (t : Fin cfg2.N) : (dat2 V c).Φ t.castSucc ⊢ (Pipeline.ΦA spec2 c : sProp 𝕄) := by
  rw [PhiS2_castSucc V c t]
  by_cases hz : t.val = 0
  · rw [PhiS2_zero V c _ _ hz]
  · rw [PhiS2_pos V c _ _ hz]; exact scratchAt2_forget c _

set_option maxHeartbeats 4000000 in
/-- The body at a point of case A. The inputs' buffers hold their blocks; the output's window is idle there and not
    written back, so its buffer goes through as found; every scratch buffer is handed over at whatever it holds (at
    anything before the first point, at what the point before left afterwards) and comes back at this point's
    contents, its pieces covering it. -/
theorem sound_body2_A (c : Dev nD) (t : Fin cfg2.N) (h0 : t.val % 40 = 0) (h1 : ¬t.val % 40 = 39) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
  rw [outsAt2_A V c t h0 h1]
  unfold scratchAt2 caseA2 sout2_A_7 sout2_A_8 sout2_A_9 sout2_A_10; (try dsimp only)
  have hΦ := Phi_open2 V c t
  rw [PhiA2_eq] at hΦ
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨HS0, HS1, HS2, HS3⟩, Hr⟩, Hg⟩
  iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0 HS1 HS2 HS3]
      · isplitl [HS0]
        · unfold owns; iexists _; isplitr
          swap; · iexact HS0
          ipureintro; exact View.read_writes_of_cover _ _ _ _ _ (scover2_A_7 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_8 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_9 c _ _ _ _ _ _ _ _ _ _ _ _ _ _ _ _ _ _ _ _ _ _ _ _ _)
        unfold owns; iexists _; isplitr
        swap; · iexact HS3
        ipureintro; exact View.read_writes_of_cover _ _ _ _ _ (scover2_A_10 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case B. As case A for the inputs and the idle output; the scratch buffers are handed over at
    what the point before left (a case B point is never the first): the hidden layer and the target's logit come back
    as they were, the running maximum and sum at this point's contents. -/
theorem sound_body2_B (c : Dev nD) (t : Fin cfg2.N) (h0 : ¬t.val % 40 = 0) (h1 : ¬t.val % 40 = 39) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
  rw [outsAt2_B V c t h0 h1]
  have hz : t.val ≠ 0 := fun hz => h0 (by rw [hz])
  rw [PhiS2_castSucc V c t, PhiS2_pos V c _ _ hz]
  unfold scratchAt2 caseB2 sout2_B_8 sout2_B_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _ _ _).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover2_B_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_B_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case C. As case B for the scratch buffers; the output's window is live there: its buffer
    is handed over at whatever it holds and comes back at the stored block, its pieces covering it. -/
theorem sound_body2_C (c : Dev nD) (t : Fin cfg2.N) (h0 : ¬t.val % 40 = 0) (h1 : t.val % 40 = 39) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4_C t (fun h => h0 ((hcond2_0 t).mp h)) ((hcond2_1 t).mpr h1)], after2_4]
  rw [outsAt2_C V c t h0 h1]
  have hz : t.val ≠ 0 := fun hz => h0 (by rw [hz])
  rw [PhiS2_castSucc V c t, PhiS2_pos V c _ _ hz]
  unfold scratchAt2 caseC2 out2_C_4 sout2_C_8 sout2_C_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _ _ _).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover2_C_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_C_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_C_4 c _ _ _ _ _ _ _ _ _ _ _ _ _ _ _ _ _ _ _ _ _ _ _ _ _ _ _ _ _)

/-- The body at any point: the point's second coordinate says which case it is in. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 40 = 0
  · exact sound_body2_A V c t h0 (by omega)
  · by_cases h1 : t.val % 40 = 39
    · exact sound_body2_C V c t h0 h1
    · exact sound_body2_B V c t h0 h1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch buffers' named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  exact scratchAt2_forget c _

/-- The same after the last point. -/
theorem hout2 (c : Dev nD) : (dat2 V c).Φ (Fin.last cfg2.N) ⊢ Pipeline.ΦA spec2 c :=
  Phi_out2 V c _ (by rw [Fin.val_last]; have : cfg2.N = 80 := N_2; omega)

end Cert.KernelIdeal.Hand

end
-- ==== Proof.KI.R3Runs.lean ====
import proofs.«416376_j65790309040722_2_alg».proof.Proof.Gen.KernelIdeal.Launch
import proofs.«416376_j65790309040722_2_alg».proof.Proof.Gen.KernelIdeal.Skeleton
import proofs.«416376_j65790309040722_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (custom_call 1, `cc3__tail_kernel`, pipeline 1): what its body's runs are stated over, and the runs

The grid is (2, 50): point `t` has coordinates `(t / 50, t % 50)`. The body's two conditionals read the second coordinate
only: the first is taken where it is 0, the second where it is 49. So three control cases: A (first taken, second not),
B (neither), C (second taken, first not). -/

/-! ## The body's branch conditions -/

/-- The condition of the body's first `scf.if` (`k3_h1`), from the grid coordinates (the skeleton's scalar chain
    substituted). -/
abbrev cond3_0 (i : grid3.Coords) : Prop := (Scalar.cmpi .ne (Scalar.extui (Scalar.cmpi .eq (BitVec.ofNat 32 (i 1).val) 0#32)) 0#32) = 1#1
/-- It holds at the points ≡ 0 (mod 50) — decided over the grid. -/
theorem hcond3_0 : ∀ t : Fin cfg3.N, cond3_0 (grid3.coords t) ↔ t.val % 50 = 0 :=
  (by decide +kernel : ∀ t : Fin grid3.N, cond3_0 (grid3.coords t) ↔ t.val % 50 = 0)

/-- The condition of the body's second `scf.if` (`k3_h2`). -/
abbrev cond3_1 (i : grid3.Coords) : Prop := k3_cond2 i = 1#1
/-- It holds at the points ≡ 8 (mod 50) — decided over the grid. -/
theorem hcond3_1 : ∀ t : Fin cfg3.N, cond3_1 (grid3.coords t) ↔ t.val % 50 = 49 :=
  (by decide +kernel : ∀ t : Fin grid3.N, cond3_1 (grid3.coords t) ↔ t.val % 50 = 49)

/-! ## Where the windows are idle (the printed configuration's table `Cfg.idle`) -/

/-- Windows 0 to 3 are inputs: never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the points of case A the configuration calls output 4 idle: the case stores nothing into it. -/
theorem idleAt3_4_A : ∀ t : Fin cfg3.N, cond3_0 (grid3.coords t) → ¬cond3_1 (grid3.coords t) → cfg3.idle 4 (grid3.coords t) = true := by decide +kernel
/-- At the points of case A the pipeline does not write output 4's block back. -/
theorem noFlush3_4_A : ∀ t : Fin cfg3.N, cond3_0 (grid3.coords t) → ¬cond3_1 (grid3.coords t) → (cfg3.win 4).flush t = false := by decide +kernel
/-- At the points of case B the configuration calls output 4 idle: the case stores nothing into it. -/
theorem idleAt3_4_B : ∀ t : Fin cfg3.N, ¬cond3_0 (grid3.coords t) → ¬cond3_1 (grid3.coords t) → cfg3.idle 4 (grid3.coords t) = true := by decide +kernel
/-- At the points of case B the pipeline does not write output 4's block back. -/
theorem noFlush3_4_B : ∀ t : Fin cfg3.N, ¬cond3_0 (grid3.coords t) → ¬cond3_1 (grid3.coords t) → (cfg3.win 4).flush t = false := by decide +kernel
/-- At the points of case C the configuration calls output 4 live: the case stores into it. -/
theorem liveAt3_4_C : ∀ t : Fin cfg3.N, ¬cond3_0 (grid3.coords t) → cond3_1 (grid3.coords t) → cfg3.idle 4 (grid3.coords t) = false := by decide +kernel

/-! ## The staging and scratch memrefs -/

/-- One staging buffer of output window 4, through which its contents are stated (the choice does not matter:
    `View.read_writes_of_cover`). -/
abbrev VO3_4 : View sig .tc .vmem S1024x1 .f32 := (Memref.whole cc3_stg4_0 : Memref sig .tc .vmem S1024x1 .f32).view
/-- Each window's current staging memref at point `t`, spelled as the pipeline passes it (`bodyAt3`), and its wholeness. -/
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1000x8 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x8 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1 .f32 := win3_4.stage (cfg3.slots t 4)
abbrev hs3_4 (t : Fin cfg3.N) : (ms3_4 t).IsWhole := hstage3_4 ((cfg3.slots t 4).cast nbuf3_4)
/-- The scratch operands: whole scoped buffers of the kernel's own, passed beside the windows — the hidden layer
    (`arg7`), the running maximum (`arg8`), the running sum (`arg9`) and the target's logit (`arg10`). -/
abbrev scM3_0 : Memref sig .tc .vmem S1024x8 .bf16 := Memref.whole cc3_scratch0
abbrev scM3_1 : Memref sig .tc .vmem S1024x1 .f32 := Memref.whole cc3_scratch1
abbrev scM3_2 : Memref sig .tc .vmem S1024x1 .f32 := Memref.whole cc3_scratch2
abbrev scM3_3 : Memref sig .tc .vmem S1024x1 .f32 := Memref.whole cc3_scratch3
/-- The scratch operands as views: what each holds between points is stated through them. -/
abbrev VS3_0 : View sig .tc .vmem S1024x8 .bf16 := scM3_0.view
abbrev VS3_1 : View sig .tc .vmem S1024x1 .f32 := scM3_1.view
abbrev VS3_2 : View sig .tc .vmem S1024x1 .f32 := scM3_2.view
abbrev VS3_3 : View sig .tc .vmem S1024x1 .f32 := scM3_3.view

/-- The class invariant of region 1 with the four scratch operands as memrefs owned at some contents, the core's other
    scoped buffers unopened (`Gen.scopedRest3_split`; `owns_whole`): what the body obligation hands the run and takes
    back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d))
          ∗ Pipeline.scopedRestBut (Ix := Unit) (Name := ℕ) (U := UR sig nD τ) (Lvl := ℕ) (Val := Elt F) spec3 c [cc3_scratch0, cc3_scratch1, cc3_scratch2, cc3_scratch3])
          ∗ (∃ r, prngReg c r)) := by
  unfold Pipeline.ΦA; rw [scopedRest3_split]; simp only [scM3_0, scM3_1, scM3_2, scM3_3, owns_whole]; try rfl

/-! ## The kernel body on any whole memrefs, case by case: a subtype the run finds -/

-- (the run's proof term is large: the definition's epilogue walks it past the default budget)
set_option maxHeartbeats 4000000 in
/-- CASE A (first conditional taken, second not: the points ≡ 0 mod 50). On whole memrefs — the inputs' at their
    contents `x·`, the output's (idle here) at contents `xi4` handed back untouched, each scratch at anything (each is
    stored whole before it is read) — the body runs to the continuation holding the inputs' and the output's as they
    were and each scratch with its pieces written (`LS·`, last first). The pieces are the witness the run finds. -/
noncomputable def kernelRun3_A (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) :
    Σ' (L4 : List (View.Piece (Elt F) S1024x1 .f32)) (LS7 : List (View.Piece (Elt F) S1024x8 .bf16)) (LS8 : List (View.Piece (Elt F) S1024x1 .f32)) (LS9 : List (View.Piece (Elt F) S1024x1 .f32)), { LS10 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc3__tail_kernel i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc3__tail_kernel_eq_skeleton]; unfold cc3__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    isplitl [HS9]; · iexists _; iexact HS9
    iexists _; iexact HS10

set_option maxHeartbeats 4000000 in
/-- CASE B (neither conditional taken: the points ≡ 1, …, 7 mod 50). On whole memrefs — the inputs' at `x·`, the
    output's (idle here) at `xi4` handed back untouched, the scratch at what the point before left (`xs·`) — the body
    runs to the continuation holding the inputs', the output's, the hidden layer (`arg7`, only read) and the target's
    logit (`arg10`, untouched) as they were, and the running maximum (`arg8`) and sum (`arg9`) with their pieces written. -/
noncomputable def kernelRun3_B (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc3__tail_kernel i arg2 harg2 arg3 harg3 arg4 harg4 arg5 harg5 arg6 harg6 arg7 harg7 arg8 harg8 arg9 harg9 arg10 harg10) K } := by
  refine ⟨[], ?_, ?_, fun xi4 E K => ?run⟩
  case run =>
    simp only [cc3__tail_kernel_eq_skeleton]; unfold cc3__tail_kernel_skel
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

set_option maxHeartbeats 4000000 in
/-- CASE C (second conditional taken, first not: the points ≡ 8 mod 50). On whole memrefs — the inputs' at `x·`, the
    output's at anything (it is stored whole), the scratch at what the point before left (`xs·`) — the body runs to the
    continuation holding the inputs', the hidden layer (`arg7`) and the target's logit (`arg10`), both only read, as
    they were, and the output's buffer, the running maximum (`arg8`) and sum (`arg9`) with their pieces written. -/
noncomputable def kernelRun3_C (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    Σ' (L4 : List (View.Piece (Elt F) S1024x1 .f32)) (LS8 : List (View.Piece (Elt F) S1024x1 .f32)), { LS9 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9 ∗ owns (c : Thread nD τ) arg10 fullShare xs10
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs7 ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9) ∗ owns (c : Thread nD τ) arg10 fullShare xs10) -∗ K ⟨⟩))
          ⊢ wp frame (wpE (defs₀ (F := F)) Variants.none c none) E (cc3__tail_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc3__tail_kernel_eq_skeleton]; unfold cc3__tail_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, ⟨%fs10, %hfs10, HS10⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    isplitl [HS9]; · iexists _; iexact HS9
    iexists _; isplitr; · ipureintro; exact harg10.read_unread _
    iexact HS10

end Cert.KernelIdeal.Hand

end
-- ==== Proof.KI.R3.lean ====
/- The frame data of region 1 of @main (custom_call 1, the first tail kernel, pipeline 1 on the grid (2, 50)), at any
   float type and at a PARAMETER: the TensorCore's buffer contents when the region is entered. The body keeps four
   scratch buffers from point to point (the hidden layer, the running maximum, the running sum, the target's logit):
   it fills all four at the first column tile of a row tile, updates the maximum and the sum at every column tile,
   and stores the output block at the last. So what the output's staging buffer and the four scratch buffers hold
   after each point is an accumulation along the grid, case by case; the region's invariant carries the scratch at
   the accumulated contents; the proof data, the body obligation at every point, and the invariant's two ends. -/
import proofs.«416376_j65790309040722_2_alg».proof.Proof.KI.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What each case leaves in the output's buffer and in the scratch buffers

Each case's run names, per buffer it stores into, the pieces it writes (last first). What the buffer then holds is
those pieces read back over anything, once they cover it. -/
/-- Case A stores nothing into the output's buffer (the window is idle at its points and not written back there):
    no pieces, a placeholder nothing consults. -/
def out3_A_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VO3_4.read (Elt F) (VO3_4.writes (Elt F) VO3_4.junk (kernelRun3_A c i arg2 harg2 arg3 harg3 arg4 harg4 arg5 harg5 arg6 harg6 arg7 harg7 arg8 harg8 arg9 harg9 arg10 harg10 hc0 hc1 x0 x1 x2 x3).1)

/-- Case A's pieces for the hidden layer's scratch cover it. -/
theorem scover3_A_7 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x8.Idx) :
    ∃ pc ∈ (kernelRun3_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.1 S1024x8.size (by sl_kernel_rfl) y
/-- What case A leaves in the hidden layer's scratch: its pieces read back. -/
def sout3_A_7 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x8 .bf16 :=
  VS3_0.read (Elt F) (VS3_0.writes (Elt F) VS3_0.junk (kernelRun3_A c i arg2 harg2 arg3 harg3 arg4 harg4 arg5 harg5 arg6 harg6 arg7 harg7 arg8 harg8 arg9 harg9 arg10 harg10 hc0 hc1 x0 x1 x2 x3).2.1)

/-- Case A's pieces for the running maximum's scratch cover it. -/
theorem scover3_A_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x1.Idx) :
    ∃ pc ∈ (kernelRun3_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.2.1 S1024x1.size (by sl_kernel_rfl) y
/-- What case A leaves in the running maximum's scratch. -/
def sout3_A_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 hc0 hc1 x0 x1 x2 x3).2.2.1)

/-- Case A's pieces for the running sum's scratch cover it. -/
theorem scover3_A_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x1.Idx) :
    ∃ pc ∈ (kernelRun3_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.2.2.1 S1024x1.size (by sl_kernel_rfl) y
/-- What case A leaves in the running sum's scratch. -/
def sout3_A_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 hc0 hc1 x0 x1 x2 x3).2.2.2.1)

/-- Case A's pieces for the target logit's scratch cover it. -/
theorem scover3_A_10 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) (y : S1024x1.Idx) :
    ∃ pc ∈ (kernelRun3_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3).2.2.2.2.1 S1024x1.size (by sl_kernel_rfl) y
/-- What case A leaves in the target logit's scratch. -/
def sout3_A_10 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) : Vec F S1024x1 .f32 :=
  VS3_3.read (Elt F) (VS3_3.writes (Elt F) VS3_3.junk (kernelRun3_A c i arg2 harg2 arg3 harg3 arg4 harg4 arg5 harg5 arg6 harg6 arg7 harg7 arg8 harg8 arg9 harg9 arg10 harg10 hc0 hc1 x0 x1 x2 x3).2.2.2.2.1)

/-- Case B stores nothing into the output's buffer either: a placeholder nothing consults. -/
def out3_B_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VO3_4.read (Elt F) (VO3_4.writes (Elt F) VO3_4.junk (kernelRun3_B c i arg2 harg2 arg3 harg3 arg4 harg4 arg5 harg5 arg6 harg6 arg7 harg7 arg8 harg8 arg9 harg9 arg10 harg10 hc0 hc1 x0 x1 x2 x3 xs7 xs8 xs9 xs10).1)

/-- Case B's pieces for the running maximum's scratch cover it. -/
theorem scover3_B_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_B c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case B leaves in the running maximum's scratch, over what the point before left in the scratch buffers. -/
def sout3_B_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 hc0 hc1 x0 x1 x2 x3 xs7 xs8 xs9 xs10).2.1)

/-- Case B's pieces for the running sum's scratch cover it. -/
theorem scover3_B_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_B c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case B leaves in the running sum's scratch. -/
def sout3_B_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 hc0 hc1 x0 x1 x2 x3 xs7 xs8 xs9 xs10).2.2.1)

/-- Case C's pieces for the output's buffer cover its block. -/
theorem cover3_C_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_C c i arg2 harg2 arg3 harg3 arg4 harg4 arg5 harg5 arg6 harg6 arg7 harg7 arg8 harg8 arg9 harg9 arg10 harg10 hc0 hc1 x0 x1 x2 x3 xs7 xs8 xs9 xs10).1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 xs7 xs8 xs9 xs10).1 S1024x1.size (by sl_kernel_rfl) y
/-- What case C leaves in the output's staging buffer: its pieces read back. -/
def out3_C_4 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VO3_4.read (Elt F) (VO3_4.writes (Elt F) VO3_4.junk (kernelRun3_C c i arg2 harg2 arg3 harg3 arg4 harg4 arg5 harg5 arg6 harg6 arg7 harg7 arg8 harg8 arg9 harg9 arg10 harg10 hc0 hc1 x0 x1 x2 x3 xs7 xs8 xs9 xs10).1)

/-- Case C's pieces for the running maximum's scratch cover it. -/
theorem scover3_C_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_C c i arg2 harg2 arg3 harg3 arg4 harg4 arg5 harg5 arg6 harg6 arg7 harg7 arg8 harg8 arg9 harg9 arg10 harg10 hc0 hc1 x0 x1 x2 x3 xs7 xs8 xs9 xs10).2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 xs7 xs8 xs9 xs10).2.1 S1024x1.size (by sl_kernel_rfl) y
/-- What case C leaves in the running maximum's scratch. -/
def sout3_C_8 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 hc0 hc1 x0 x1 x2 x3 xs7 xs8 xs9 xs10).2.1)

/-- Case C's pieces for the running sum's scratch cover it. -/
theorem scover3_C_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) (y : S1024x1.Idx) :
    ∃ pc ∈ (kernelRun3_C c i arg2 harg2 arg3 harg3 arg4 harg4 arg5 harg5 arg6 harg6 arg7 harg7 arg8 harg8 arg9 harg9 arg10 harg10 hc0 hc1 x0 x1 x2 x3 xs7 xs8 xs9 xs10).2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 xs7 xs8 xs9 xs10).2.2.1 S1024x1.size (by sl_kernel_rfl) y
/-- What case C leaves in the running sum's scratch. -/
def sout3_C_9 (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) : Vec F S1024x1 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 hc0 hc1 x0 x1 x2 x3 xs7 xs8 xs9 xs10).2.2.1)

/-! ## What the output's buffer and the scratch buffers hold after each point -/

/-- The output's staging buffer, then the four scratch buffers (hidden layer, running maximum, running sum, target's
    logit). -/
abbrev Outs3 (F : FTy → Type) [FloatOps F] : Type :=
  Vec F S1024x1 .f32 × Vec F S1024x8 .bf16 × Vec F S1024x1 .f32 × Vec F S1024x1 .f32 × Vec F S1024x1 .f32

/-- A point of case A (the first column tile of a row tile): every scratch buffer is filled from the point's input
    blocks alone; the output component is the placeholder. -/
def caseA3 (c : Dev nD) (t : Fin cfg3.N) (h0 : t.val % 50 = 0) (h1 : ¬t.val % 50 = 49) : Outs3 F :=
  (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_7 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_8 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_9 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
   sout3_A_10 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t))

/-- A point of case B (a column tile neither first nor last), over what the point before left (p): the running
    maximum and sum are updated; the hidden layer and the target's logit stay; the output component is the
    placeholder. -/
def caseB3 (c : Dev nD) (t : Fin cfg3.N) (h0 : ¬t.val % 50 = 0) (h1 : ¬t.val % 50 = 49) (p : Outs3 F) : Outs3 F :=
  (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) p.2.1 p.2.2.1 p.2.2.2.1 p.2.2.2.2,
   p.2.1,
   sout3_B_8 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) p.2.1 p.2.2.1 p.2.2.2.1 p.2.2.2.2,
   sout3_B_9 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) p.2.1 p.2.2.1 p.2.2.2.1 p.2.2.2.2,
   p.2.2.2.2)

/-- A point of case C (the last column tile of a row tile), over what the point before left (p): as case B, and the
    output block is stored. -/
def caseC3 (c : Dev nD) (t : Fin cfg3.N) (h0 : ¬t.val % 50 = 0) (h1 : t.val % 50 = 49) (p : Outs3 F) : Outs3 F :=
  (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) p.2.1 p.2.2.1 p.2.2.2.1 p.2.2.2.2,
   p.2.1,
   sout3_C_8 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) p.2.1 p.2.2.1 p.2.2.2.1 p.2.2.2.2,
   sout3_C_9 c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) p.2.1 p.2.2.1 p.2.2.2.1 p.2.2.2.2,
   p.2.2.2.2)

/-- THE ACCUMULATION: what the output's staging buffer and the four scratch buffers hold after the body at position n
    — the case the point is in (by its second coordinate, n mod 50), over what position n - 1 left. The two conditions
    never hold together. -/
def outsAt3 (c : Dev nD) : (n : ℕ) → n < cfg3.N → Outs3 F
  | 0, hn => caseA3 V c ⟨0, hn⟩ (Nat.zero_mod _) (fun h => by (try dsimp only at h); omega)
  | n + 1, hn =>
    if h0 : (n + 1) % 50 = 0 then
      if h1 : (n + 1) % 50 = 49 then False.elim (by omega)
      else caseA3 V c ⟨n + 1, hn⟩ h0 h1
    else
      if h1 : (n + 1) % 50 = 49 then caseC3 V c ⟨n + 1, hn⟩ h0 h1 (outsAt3 c n (Nat.lt_of_succ_lt hn))
      else caseB3 V c ⟨n + 1, hn⟩ h0 h1 (outsAt3 c n (Nat.lt_of_succ_lt hn))

/-- The accumulation at a point of case A. -/
theorem outsAt3_A (c : Dev nD) (t : Fin cfg3.N) (h0 : t.val % 50 = 0) (h1 : ¬t.val % 50 = 49) :
    outsAt3 V c t.val t.isLt = caseA3 V c t h0 h1 := by
  obtain ⟨n, hn⟩ := t
  cases n with
  | zero => exact rfl
  | succ n => exact (dif_pos h0).trans ((dif_neg h1).trans rfl)

/-- The accumulation at a point of case B, over the point before. -/
theorem outsAt3_B (c : Dev nD) (t : Fin cfg3.N) (h0 : ¬t.val % 50 = 0) (h1 : ¬t.val % 50 = 49) :
    outsAt3 V c t.val t.isLt
      = caseB3 V c t h0 h1 (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C, over the point before. -/
theorem outsAt3_C (c : Dev nD) (t : Fin cfg3.N) (h0 : ¬t.val % 50 = 0) (h1 : t.val % 50 = 49) :
    outsAt3 V c t.val t.isLt
      = caseC3 V c t h0 h1 (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four scratch buffers at named contents, the core's other scoped buffers unopened, the generator register at
    some state. -/
def scratchAt3 (c : Dev nD) (p : Outs3 F) : sProp 𝕄 :=
  iprop(iprop(iprop(owns (c : Thread nD τ) scM3_0 fullShare p.2.1 ∗ owns (c : Thread nD τ) scM3_1 fullShare p.2.2.1 ∗ owns (c : Thread nD τ) scM3_2 fullShare p.2.2.2.1 ∗ owns (c : Thread nD τ) scM3_3 fullShare p.2.2.2.2)
      ∗ Pipeline.scopedRestBut (Ix := Unit) (Name := ℕ) (U := UR sig nD τ) (Lvl := ℕ) (Val := Elt F) spec3 c [cc3_scratch0, cc3_scratch1, cc3_scratch2, cc3_scratch3])
      ∗ (∃ r, prngReg c r))

/-- The invariant before position n: before the first point the class's (every scratch buffer at anything);
    afterwards each scratch buffer at what the point before left in it. -/
def PhiS3 (c : Dev nD) : (n : ℕ) → n ≤ cfg3.N → sProp 𝕄
  | 0, _ => Pipeline.ΦA spec3 c
  | n + 1, hn => scratchAt3 c (outsAt3 V c n hn)

theorem PhiS3_zero (c : Dev nD) (n : ℕ) (h : n ≤ cfg3.N) (hz : n = 0) : PhiS3 V c n h = Pipeline.ΦA spec3 c := by
  subst hz; rfl

/-- After point n (before point n + 1): the scratch buffers at that point's contents. -/
theorem PhiS3_succ (c : Dev nD) (n : ℕ) (hn : n < cfg3.N) :
    PhiS3 V c (n + 1) hn = scratchAt3 c (outsAt3 V c n hn) := rfl

/-- Before a point that is not the first: the scratch buffers at what the point before left. -/
theorem PhiS3_pos (c : Dev nD) (n : ℕ) (h : n ≤ cfg3.N) (hz : n ≠ 0) :
    PhiS3 V c n h = scratchAt3 c (outsAt3 V c (n - 1) (by omega)) := by
  cases n with
  | zero => exact absurd rfl hz
  | succ n => rfl

/-- Named contents are some contents: the invariant after any point gives the class's back. -/
theorem scratchAt3_forget (c : Dev nD) (p : Outs3 F) : scratchAt3 c p ⊢ (Pipeline.ΦA spec3 c : sProp 𝕄) := by
  rw [PhiA3_eq]; unfold scratchAt3
  iintro ⟨⟨⟨HS0, HS1, HS2, HS3⟩, Hr⟩, Hg⟩
  isplitl [HS0 HS1 HS2 HS3 Hr]
  · isplitl [HS0 HS1 HS2 HS3]
    · isplitl [HS0]; · iexists _; iexact HS0
      isplitl [HS1]; · iexists _; iexact HS1
      isplitl [HS2]; · iexists _; iexact HS2
      iexists _; iexact HS3
    iexact Hr
  iexact Hg

/-! ## The pipeline's proof data -/

/-- The proof data of pipeline 1 on core c: the arrays as the region finds them; after the body at point t each
    input's buffer at its block and the output's at the accumulation's first component; the invariant PhiS3; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not: an input the pipeline
    does not fetch at a point has not moved its block index since the point before, and the body leaves every input's
    block in place. The windows are uncut and the inputs never idle. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The body obligation, at a generic point -/

/-- What the body is called with at point t: the invariant, what the core owes, and each window's current staging
    buffer at what it then holds, the windows one by one; -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

/-- The invariant at any point's start gives the class's: before the first point it is the class's, afterwards named
    contents are some contents. (What a case that takes every scratch buffer at anything needs of it.) -/
theorem Phi_open3 (c : Dev nD) (t : Fin cfg3.N) : (dat3 V c).Φ t.castSucc ⊢ (Pipeline.ΦA spec3 c : sProp 𝕄) := by
  rw [PhiS3_castSucc V c t]
  by_cases hz : t.val = 0
  · rw [PhiS3_zero V c _ _ hz]
  · rw [PhiS3_pos V c _ _ hz]; exact scratchAt3_forget c _

set_option maxHeartbeats 4000000 in
/-- The body at a point of case A. The inputs' buffers hold their blocks; the output's window is idle there and not
    written back, so its buffer goes through as found; every scratch buffer is handed over at whatever it holds (at
    anything before the first point, at what the point before left afterwards) and comes back at this point's
    contents, its pieces covering it. -/
theorem sound_body3_A (c : Dev nD) (t : Fin cfg3.N) (h0 : t.val % 50 = 0) (h1 : ¬t.val % 50 = 49) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
  rw [outsAt3_A V c t h0 h1]
  unfold scratchAt3 caseA3 sout3_A_7 sout3_A_8 sout3_A_9 sout3_A_10; (try dsimp only)
  have hΦ := Phi_open3 V c t
  rw [PhiA3_eq] at hΦ
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨HS0, HS1, HS2, HS3⟩, Hr⟩, Hg⟩
  iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t)).2.2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%es0, HS0⟩, ⟨%es1, HS1⟩, ⟨%es2, HS2⟩, ⟨%es3, HS3⟩⟩
  isplitl [HS0 HS1 HS2 HS3 Hr Hg]
  · isplitl [HS0 HS1 HS2 HS3 Hr]
    · isplitl [HS0 HS1 HS2 HS3]
      · isplitl [HS0]
        · unfold owns; iexists _; isplitr
          swap; · iexact HS0
          ipureintro; exact View.read_writes_of_cover _ _ _ _ _ (scover3_A_7 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover3_A_8 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover3_A_9 c _ _ _ _ _ _ _ _ _ _ _ _ _ _ _ _ _ _ _ _ _ _ _ _ _)
        unfold owns; iexists _; isplitr
        swap; · iexact HS3
        ipureintro; exact View.read_writes_of_cover _ _ _ _ _ (scover3_A_10 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case B. As case A for the inputs and the idle output; the scratch buffers are handed over at
    what the point before left (a case B point is never the first): the hidden layer and the target's logit come back
    as they were, the running maximum and sum at this point's contents. -/
theorem sound_body3_B (c : Dev nD) (t : Fin cfg3.N) (h0 : ¬t.val % 50 = 0) (h1 : ¬t.val % 50 = 49) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
  rw [outsAt3_B V c t h0 h1]
  have hz : t.val ≠ 0 := fun hz => h0 (by rw [hz])
  rw [PhiS3_castSucc V c t, PhiS3_pos V c _ _ hz]
  unfold scratchAt3 caseB3 sout3_B_8 sout3_B_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _ _ _ _).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover3_B_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover3_B_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case C. As case B for the scratch buffers; the output's window is live there: its buffer
    is handed over at whatever it holds and comes back at the stored block, its pieces covering it. -/
theorem sound_body3_C (c : Dev nD) (t : Fin cfg3.N) (h0 : ¬t.val % 50 = 0) (h1 : t.val % 50 = 49) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4_C t (fun h => h0 ((hcond3_0 t).mp h)) ((hcond3_1 t).mpr h1)], after3_4]
  rw [outsAt3_C V c t h0 h1]
  have hz : t.val ≠ 0 := fun hz => h0 (by rw [hz])
  rw [PhiS3_castSucc V c t, PhiS3_pos V c _ _ hz]
  unfold scratchAt3 caseC3 out3_C_4 sout3_C_8 sout3_C_9; (try dsimp only)
  iintro ⟨⟨⟨⟨HS0, HS1, HS2, HS3⟩, Hr⟩, Hg⟩, Ho, ⟨%d0, H0⟩, ⟨%d1, H1⟩, ⟨%d2, H2⟩, ⟨%d3, H3⟩, ⟨%d4, H4⟩⟩
  iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) _ _ _ _).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, HS0, ⟨%es1, HS1⟩, ⟨%es2, HS2⟩, HS3⟩
  isplitl [HS0 HS1 HS2 HS3 Hr Hg]
  · isplitl [HS0 HS1 HS2 HS3 Hr]
    · isplitl [HS0 HS1 HS2 HS3]
      · isplitl [HS0]; · iexact HS0
        isplitl [HS1]
        · unfold owns; iexists _; isplitr
          swap; · iexact HS1
          ipureintro; exact View.read_writes_of_cover _ _ _ _ _ (scover3_C_8 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover3_C_9 c _ _ _ _ _ _ _ _ _ _ _ _ _ _ _ _ _ _ _ _ _ _ _ _ _ _ _ _ _)
        iexact HS3
      iexact Hr
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3_C_4 c _ _ _ _ _ _ _ _ _ _ _ _ _ _ _ _ _ _ _ _ _ _ _ _ _ _ _ _ _)

/-- The body at any point: the point's second coordinate says which case it is in. -/
theorem sound_body3 (c : Dev nD) (t : Fin cfg3.N) :
    bodyPre3 V c t ⊢ wp frame (wpE (defs₀ (F := F)) Variants.none c none) Set.univ (bodyAt3 t) (fun _ => bodyPost3 V c t) := by
  by_cases h0 : t.val % 50 = 0
  · exact sound_body3_A V c t h0 (by omega)
  · by_cases h1 : t.val % 50 = 49
    · exact sound_body3_C V c t h0 h1
    · exact sound_body3_B V c t h0 h1

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch buffers' named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  exact scratchAt3_forget c _

/-- The same after the last point. -/
theorem hout3 (c : Dev nD) : (dat3 V c).Φ (Fin.last cfg3.N) ⊢ Pipeline.ΦA spec3 c :=
  Phi_out3 V c _ (by rw [Fin.val_last]; have : cfg3.N = 100 := N_3; omega)

end Cert.KernelIdeal.Hand

end
-- ==== Proof.KI.Run.lean ====
/-
  @main of the program as the list of its 22 host stretches and 4 kernel regions, run from the launch to the return.

  The contents of the core's unscoped buffers are followed item by item from the launch memory: a host stretch
  replaces them by what its operations compute from them; a kernel region changes one array only, the array of its
  output window, which ends holding the write-backs of all the grid's points folded in point order. Every other array
  a region stages is an input and is left as found. The valuations so obtained are `W1 … W22`; the four arrays the
  regions leave are `O0 … O3`.

  Each region is entered with every unscoped buffer whole at the valuation before it, the generator register at some
  state and nothing owed; its windows' arrays are split out of the buffers, the rest bypasses the region, the
  register and the scoped scratch make the region's invariant at the first point and are given back at the last, and
  the arrays are put back among the buffers at the valuation after it.

  The module is stated over ABSTRACT proof data for the four regions: for each region, a family of proof data indexed
  by the contents the region is entered from, whose entry contents are read off that valuation, which holds every
  array at the full share, owes nothing at any point, meets the body obligation, and whose invariant at the first
  and last points is the region invariant of the class (scoped scratch at some contents, generator register at some
  state). Nothing else about the data is used.

  The run: every weakly fair execution of @main from a memory with zero counters terminates, and in every final
  memory the result's buffer holds `W22 c main_v73` and the nine arguments hold what they were launched with.
-/
import proofs.«416376_j65790309040722_2_alg».proof.Proof.Gen.KernelIdeal.Launch
import proofs.«416376_j65790309040722_2_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, read at its references: what a region's proof data are indexed by. -/
abbrev Val : Type := (c : Dev nD) → (b : Ref sig .tc) → Buf (Elt F) ((c : Thread nD τ).loc b)

section Run

/-! ## The regions' proof data, abstractly -/

variable
  (D0 : Val (F := F) → (c : Dev nD) → Dat τ (Elt F) Unit ℕ (UR sig nD τ) ℕ cfg0 c)
  (D1 : Val (F := F) → (c : Dev nD) → Dat τ (Elt F) Unit ℕ (UR sig nD τ) ℕ cfg1 c)
  (D2 : Val (F := F) → (c : Dev nD) → Dat τ (Elt F) Unit ℕ (UR sig nD τ) ℕ cfg2 c)
  (D3 : Val (F := F) → (c : Dev nD) → Dat τ (Elt F) Unit ℕ (UR sig nD τ) ℕ cfg3 c)
  (m : (ℓ : Loc nD τ sig) → Buf (Elt F) ℓ)

/-! ## The buffers' contents between items -/

/-- After `hostOps0`: what region 0 is entered from. -/
abbrev W1 (c : Dev nD) : Valuation τ sig (Elt F) := V1 m c
/-- What region 0 leaves in its output window's array `main_v4`: every point's write-back folded. -/
def O0 (c : Dev nD) : Buf (Elt F) ((c : Thread nD τ).loc main_v4) := (D0 (fun c b => W1 m c b) c).arrAt 3 cfg0.N
/-- After region 0. -/
def W2 (c : Dev nD) : Valuation τ sig (Elt F) := Function.update (W1 m c) main_v4 (O0 D0 m c)
abbrev W3 (c : Dev nD) : Valuation τ sig (Elt F) := StableHlo.after hostOps1 (W2 D0 m c)
abbrev W4 (c : Dev nD) : Valuation τ sig (Elt F) := StableHlo.after hostOps1_1 (W3 D0 m c)
abbrev W5 (c : Dev nD) : Valuation τ sig (Elt F) := StableHlo.after hostOps1_2 (W4 D0 m c)
abbrev W6 (c : Dev nD) : Valuation τ sig (Elt F) := StableHlo.after hostOps1_3 (W5 D0 m c)
/-- After `hostOps1_4`: what region 1 is entered from. -/
abbrev W7 (c : Dev nD) : Valuation τ sig (Elt F) := StableHlo.after hostOps1_4 (W6 D0 m c)
/-- What region 1 leaves in its output window's array `main_v21`. -/
def O1 (c : Dev nD) : Buf (Elt F) ((c : Thread nD τ).loc main_v21) := (D1 (fun c b => W7 D0 m c b) c).arrAt 4 cfg1.N
/-- After region 1. -/
def W8 (c : Dev nD) : Valuation τ sig (Elt F) := Function.update (W7 D0 m c) main_v21 (O1 D0 D1 m c)
abbrev W9 (c : Dev nD) : Valuation τ sig (Elt F) := StableHlo.after hostOps2 (W8 D0 D1 m c)
abbrev W10 (c : Dev nD) : Valuation τ sig (Elt F) := StableHlo.after hostOps2_1 (W9 D0 D1 m c)
abbrev W11 (c : Dev nD) : Valuation τ sig (Elt F) := StableHlo.after hostOps2_2 (W10 D0 D1 m c)
abbrev W12 (c : Dev nD) : Valuation τ sig (Elt F) := StableHlo.after hostOps2_3 (W11 D0 D1 m c)
/-- After `hostOps2_4`: what region 2 is entered from. -/
abbrev W13 (c : Dev nD) : Valuation τ sig (Elt F) := StableHlo.after hostOps2_4 (W12 D0 D1 m c)
/-- What region 2 leaves in its output window's array `main_v42`. -/
def O2 (c : Dev nD) : Buf (Elt F) ((c : Thread nD τ).loc main_v42) := (D2 (fun c b => W13 D0 D1 m c b) c).arrAt 4 cfg2.N
/-- After region 2. -/
def W14 (c : Dev nD) : Valuation τ sig (Elt F) := Function.update (W13 D0 D1 m c) main_v42 (O2 D0 D1 D2 m c)
abbrev W15 (c : Dev nD) : Valuation τ sig (Elt F) := StableHlo.after hostOps3 (W14 D0 D1 D2 m c)
abbrev W16 (c : Dev nD) : Valuation τ sig (Elt F) := StableHlo.after hostOps3_1 (W15 D0 D1 D2 m c)
abbrev W17 (c : Dev nD) : Valuation τ sig (Elt F) := StableHlo.after hostOps3_2 (W16 D0 D1 D2 m c)
abbrev W18 (c : Dev nD) : Valuation τ sig (Elt F) := StableHlo.after hostOps3_3 (W17 D0 D1 D2 m c)
/-- After `hostOps3_4`: what region 3 is entered from. -/
abbrev W19 (c : Dev nD) : Valuation τ sig (Elt F) := StableHlo.after hostOps3_4 (W18 D0 D1 D2 m c)
/-- What region 3 leaves in its output window's array `main_v63`. -/
def O3 (c : Dev nD) : Buf (Elt F) ((c : Thread nD τ).loc main_v63) := (D3 (fun c b => W19 D0 D1 D2 m c b) c).arrAt 4 cfg3.N
/-- After region 3. -/
def W20 (c : Dev nD) : Valuation τ sig (Elt F) := Function.update (W19 D0 D1 D2 m c) main_v63 (O3 D0 D1 D2 D3 m c)
abbrev W21 (c : Dev nD) : Valuation τ sig (Elt F) := StableHlo.after hostOps4 (W20 D0 D1 D2 D3 m c)
/-- After the last stretch: what the final memory holds in the unscoped buffers. -/
abbrev W22 (c : Dev nD) : Valuation τ sig (Elt F) := StableHlo.after hostOps4_1 (W21 D0 D1 D2 D3 m c)

/-- What the regions leave, as the unknowns the item-by-item valuations `V0 … V22` are written over: after a region,
    the whole valuation after it (read at the one reference the region may change). -/
def outs : Outs (F := F) := fun J r c =>
  match J with
  | 2 => W2 D0 m c r
  | 8 => W8 D0 D1 m c r
  | 14 => W14 D0 D1 D2 m c r
  | 20 => W20 D0 D1 D2 D3 m c r
  | _ => V0 m c r

theorem outs_2 (c : Dev nD) : outs D0 D1 D2 D3 m 2 main_v4 c = O0 D0 m c := by
  show W2 D0 m c main_v4 = _
  unfold W2; exact Function.update_self _ _ _
theorem outs_8 (c : Dev nD) : outs D0 D1 D2 D3 m 8 main_v21 c = O1 D0 D1 m c := by
  show W8 D0 D1 m c main_v21 = _
  unfold W8; exact Function.update_self _ _ _
theorem outs_14 (c : Dev nD) : outs D0 D1 D2 D3 m 14 main_v42 c = O2 D0 D1 D2 m c := by
  show W14 D0 D1 D2 m c main_v42 = _
  unfold W14; exact Function.update_self _ _ _
theorem outs_20 (c : Dev nD) : outs D0 D1 D2 D3 m 20 main_v63 c = O3 D0 D1 D2 D3 m c := by
  show W20 D0 D1 D2 D3 m c main_v63 = _
  unfold W20; exact Function.update_self _ _ _

/-! The item-by-item valuations at these unknowns are the chain above. -/
theorem V1_eq (c : Dev nD) : V1 m c = W1 m c := rfl
theorem V2_eq (c : Dev nD) : V2 m (outs D0 D1 D2 D3 m) c = W2 D0 m c := by
  show Function.update (V1 m c) main_v4 (outs D0 D1 D2 D3 m 2 main_v4 c) = _
  rw [outs_2]; rfl
theorem V7_eq (c : Dev nD) : V7 m (outs D0 D1 D2 D3 m) c = W7 D0 m c :=
  congrArg (fun v => StableHlo.after hostOps1_4 (StableHlo.after hostOps1_3 (StableHlo.after hostOps1_2 (StableHlo.after hostOps1_1 (StableHlo.after hostOps1 v))))) (V2_eq D0 D1 D2 D3 m c)
theorem V8_eq (c : Dev nD) : V8 m (outs D0 D1 D2 D3 m) c = W8 D0 D1 m c := by
  show Function.update (V7 m (outs D0 D1 D2 D3 m) c) main_v21 (outs D0 D1 D2 D3 m 8 main_v21 c) = _
  rw [outs_8, V7_eq]; rfl
theorem V13_eq (c : Dev nD) : V13 m (outs D0 D1 D2 D3 m) c = W13 D0 D1 m c :=
  congrArg (fun v => StableHlo.after hostOps2_4 (StableHlo.after hostOps2_3 (StableHlo.after hostOps2_2 (StableHlo.after hostOps2_1 (StableHlo.after hostOps2 v))))) (V8_eq D0 D1 D2 D3 m c)
theorem V14_eq (c : Dev nD) : V14 m (outs D0 D1 D2 D3 m) c = W14 D0 D1 D2 m c := by
  show Function.update (V13 m (outs D0 D1 D2 D3 m) c) main_v42 (outs D0 D1 D2 D3 m 14 main_v42 c) = _
  rw [outs_14, V13_eq]; rfl
theorem V19_eq (c : Dev nD) : V19 m (outs D0 D1 D2 D3 m) c = W19 D0 D1 D2 m c :=
  congrArg (fun v => StableHlo.after hostOps3_4 (StableHlo.after hostOps3_3 (StableHlo.after hostOps3_2 (StableHlo.after hostOps3_1 (StableHlo.after hostOps3 v))))) (V14_eq D0 D1 D2 D3 m c)
theorem V20_eq (c : Dev nD) : V20 m (outs D0 D1 D2 D3 m) c = W20 D0 D1 D2 D3 m c := by
  show Function.update (V19 m (outs D0 D1 D2 D3 m) c) main_v63 (outs D0 D1 D2 D3 m 20 main_v63 c) = _
  rw [outs_20, V19_eq]; rfl
theorem V22_eq (c : Dev nD) : V22 m (outs D0 D1 D2 D3 m) c = W22 D0 D1 D2 D3 m c :=
  congrArg (fun v => StableHlo.after hostOps4_1 (StableHlo.after hostOps4 v)) (V20_eq D0 D1 D2 D3 m c)

/-! ## What is assumed of the proof data -/

variable
  (hA0 : ∀ (V : Val (F := F)) (c : Dev nD) (w : Fin cfg0.W), (D0 V c).A w = V c (Pipeline.arrRef spec0 w))
  (hq0 : ∀ (V : Val (F := F)) (c : Dev nD) (w : Fin cfg0.W), (D0 V c).q w = fullShare)
  (how0 : ∀ (V : Val (F := F)) (c : Dev nD) (t : Fin (cfg0.N + 1)), (D0 V c).owed t = 0)
  (hrec0 : ∀ (V : Val (F := F)) (c : Dev nD), (D0 V c).recorded 0 = Set.univ)
  (hb0 : ∀ (V : Val (F := F)) (c : Dev nD), BodyObligation (D0 V c) (defs₀ (F := F)) Variants.none () Set.univ)
  (hin0 : ∀ (V : Val (F := F)) (c : Dev nD), (Pipeline.ΦA spec0 c : sProp (MT nD τ sig Unit (Elt F) ℕ (UR sig nD τ) ℕ)) ⊢ (D0 V c).Φ 0)
  (hout0 : ∀ (V : Val (F := F)) (c : Dev nD), (D0 V c).Φ (Fin.last cfg0.N) ⊢ (Pipeline.ΦA spec0 c : sProp (MT nD τ sig Unit (Elt F) ℕ (UR sig nD τ) ℕ)))
  (hA1 : ∀ (V : Val (F := F)) (c : Dev nD) (w : Fin cfg1.W), (D1 V c).A w = V c (Pipeline.arrRef spec1 w))
  (hq1 : ∀ (V : Val (F := F)) (c : Dev nD) (w : Fin cfg1.W), (D1 V c).q w = fullShare)
  (how1 : ∀ (V : Val (F := F)) (c : Dev nD) (t : Fin (cfg1.N + 1)), (D1 V c).owed t = 0)
  (hrec1 : ∀ (V : Val (F := F)) (c : Dev nD), (D1 V c).recorded 0 = Set.univ)
  (hb1 : ∀ (V : Val (F := F)) (c : Dev nD), BodyObligation (D1 V c) (defs₀ (F := F)) Variants.none () Set.univ)
  (hin1 : ∀ (V : Val (F := F)) (c : Dev nD), (Pipeline.ΦA spec1 c : sProp (MT nD τ sig Unit (Elt F) ℕ (UR sig nD τ) ℕ)) ⊢ (D1 V c).Φ 0)
  (hout1 : ∀ (V : Val (F := F)) (c : Dev nD), (D1 V c).Φ (Fin.last cfg1.N) ⊢ (Pipeline.ΦA spec1 c : sProp (MT nD τ sig Unit (Elt F) ℕ (UR sig nD τ) ℕ)))
  (hA2 : ∀ (V : Val (F := F)) (c : Dev nD) (w : Fin cfg2.W), (D2 V c).A w = V c (Pipeline.arrRef spec2 w))
  (hq2 : ∀ (V : Val (F := F)) (c : Dev nD) (w : Fin cfg2.W), (D2 V c).q w = fullShare)
  (how2 : ∀ (V : Val (F := F)) (c : Dev nD) (t : Fin (cfg2.N + 1)), (D2 V c).owed t = 0)
  (hrec2 : ∀ (V : Val (F := F)) (c : Dev nD), (D2 V c).recorded 0 = Set.univ)
  (hb2 : ∀ (V : Val (F := F)) (c : Dev nD), BodyObligation (D2 V c) (defs₀ (F := F)) Variants.none () Set.univ)
  (hin2 : ∀ (V : Val (F := F)) (c : Dev nD), (Pipeline.ΦA spec2 c : sProp (MT nD τ sig Unit (Elt F) ℕ (UR sig nD τ) ℕ)) ⊢ (D2 V c).Φ 0)
  (hout2 : ∀ (V : Val (F := F)) (c : Dev nD), (D2 V c).Φ (Fin.last cfg2.N) ⊢ (Pipeline.ΦA spec2 c : sProp (MT nD τ sig Unit (Elt F) ℕ (UR sig nD τ) ℕ)))
  (hA3 : ∀ (V : Val (F := F)) (c : Dev nD) (w : Fin cfg3.W), (D3 V c).A w = V c (Pipeline.arrRef spec3 w))
  (hq3 : ∀ (V : Val (F := F)) (c : Dev nD) (w : Fin cfg3.W), (D3 V c).q w = fullShare)
  (how3 : ∀ (V : Val (F := F)) (c : Dev nD) (t : Fin (cfg3.N + 1)), (D3 V c).owed t = 0)
  (hrec3 : ∀ (V : Val (F := F)) (c : Dev nD), (D3 V c).recorded 0 = Set.univ)
  (hb3 : ∀ (V : Val (F := F)) (c : Dev nD), BodyObligation (D3 V c) (defs₀ (F := F)) Variants.none () Set.univ)
  (hin3 : ∀ (V : Val (F := F)) (c : Dev nD), (Pipeline.ΦA spec3 c : sProp (MT nD τ sig Unit (Elt F) ℕ (UR sig nD τ) ℕ)) ⊢ (D3 V c).Φ 0)
  (hout3 : ∀ (V : Val (F := F)) (c : Dev nD), (D3 V c).Φ (Fin.last cfg3.N) ⊢ (Pipeline.ΦA spec3 c : sProp (MT nD τ sig Unit (Elt F) ℕ (UR sig nD τ) ℕ)))

/-! ## The proof data family and the thread state -/

/-- Every pipeline's proof data, each at the contents its region is entered from. -/
def pdats : (p : Fin 4) → (c : Dev nD) → Dat τ (Elt F) Unit ℕ (UR sig nD τ) ℕ (cfgs p) c
  | ⟨0, _⟩ => fun c => D0 (fun c b => W1 m c b) c
  | ⟨1, _⟩ => fun c => D1 (fun c b => W7 D0 m c b) c
  | ⟨2, _⟩ => fun c => D2 (fun c b => W13 D0 D1 m c b) c
  | ⟨3, _⟩ => fun c => D3 (fun c b => W19 D0 D1 D2 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- The rest beside the buffers, the same between any two items. -/
abbrev E : Fin 5 → Dev nD → sProp 𝕄 := fun _ c => R c

/-! ## A kernel region over the thread state, stated once for any pipeline of the program

The thread state between two items is: every unscoped buffer whole at a valuation, beside `R`. A region is entered from
the valuation `Win` and left at `Wout`. What is used of the pipeline's proof data `pd p c`: its entry contents are
`Win` read at the windows' arrays; every array is held at the full share; nothing is owed at any point and nothing bounds
the recorded waits at entry; the body obligation; the invariant at the first and last points is the class's region
invariant; and the two facts relating `Wout` to `Win` — at the windows' arrays `Wout` holds what the write-backs
leave, elsewhere it is `Win`. -/

section Region

variable (pd : (p : Fin 4) → (c : Dev nD) → Dat τ (Elt F) Unit ℕ (UR sig nD τ) ℕ (cfgs p) c)
  (p : Fin 4) (launch : Pipeline.LaunchFacts (nD := nD) (τ := τ) cfgs p)
  (Win Wout : Dev nD → Valuation τ sig (Elt F))
  (hAp : ∀ (c : Dev nD) (w : Fin (cfgs p).W), (pd p c).A w = Win c (Pipeline.arrRef (cfgs p).spec w))
  (hqp : ∀ (c : Dev nD) (w : Fin (cfgs p).W), (pd p c).q w = fullShare)
  (howp : ∀ (c : Dev nD) (t : Fin ((cfgs p).N + 1)), (pd p c).owed t = 0)
  (hrecp : ∀ c : Dev nD, (pd p c).recorded 0 = Set.univ)
  (hbp : ∀ c : Dev nD, BodyObligation (pd p c) (defs₀ (F := F)) Variants.none () Set.univ)
  (hinp : ∀ c : Dev nD, (Pipeline.ΦA (cfgs p).spec c : sProp (MT nD τ sig Unit (Elt F) ℕ (UR sig nD τ) ℕ)) ⊢ (pd p c).Φ 0)
  (houtp : ∀ c : Dev nD, (pd p c).Φ (Fin.last (cfgs p).N) ⊢ (Pipeline.ΦA (cfgs p).spec c : sProp (MT nD τ sig Unit (Elt F) ℕ (UR sig nD τ) ℕ)))
  (hFp : ∀ (c : Dev nD) (w : Fin (cfgs p).W), (pd p c).arrAt w (cfgs p).N = Wout c (Pipeline.arrRef (cfgs p).spec w))
  (hrestp : ∀ (c : Dev nD) (b : Ref sig .tc), b ∉ Finset.univ.image (Pipeline.arrRef (cfgs p).spec) → Wout c b = Win c b)

include launch hAp in
/-- A region all of whose windows are inputs but one, `o`, which it writes: if `Wout` is `Win` updated at `o`'s array
    with the write-backs of every point folded, then at each window's array `Wout` holds what the pipeline leaves there
    (an input's array is never written back and is no other window's array), and off the arrays it is `Win`. -/
theorem exit_of_single_output (o : Fin (cfgs p).W)
    (hio : ∀ w : Fin (cfgs p).W, w ≠ o → ((cfgs p).win w).isOut = false)
    (hW : ∀ c : Dev nD, Wout c = Function.update (Win c) (Proc.devRef .tc (Pipeline.arrRef (cfgs p).spec o)) ((pd p c).arrAt o (cfgs p).N)) :
    (∀ (c : Dev nD) (w : Fin (cfgs p).W), (pd p c).arrAt w (cfgs p).N = Wout c (Pipeline.arrRef (cfgs p).spec w))
    ∧ (∀ (c : Dev nD) (b : Ref sig .tc), b ∉ Finset.univ.image (Pipeline.arrRef (cfgs p).spec) → Wout c b = Win c b) := by
  refine ⟨fun c w => ?_, fun c b hb => ?_⟩
  · rw [hW c]
    by_cases hw : w = o
    · subst hw; exact Eq.symm (Function.update_self _ _ _)
    · have hne : (Proc.devRef .tc (Pipeline.arrRef (cfgs p).spec w) : DevRef τ sig) ≠ Proc.devRef .tc (Pipeline.arrRef (cfgs p).spec o) :=
        StableHlo.devRef_ne_of_ne fun e => hw (launch.win.arr_inj e)
      rw [(pd p c).arrAt_in w (hio w hw), hAp c w]
      exact (Function.update_of_ne hne _ _).symm
  · have hne : (Proc.devRef .tc b : DevRef τ sig) ≠ Proc.devRef .tc (Pipeline.arrRef (cfgs p).spec o) :=
      StableHlo.devRef_ne_of_ne fun (e : b = Pipeline.arrRef (cfgs p).spec o) =>
        hb (e ▸ Finset.mem_image_of_mem (Pipeline.arrRef (cfgs p).spec) (Finset.mem_univ o))
    rw [hW c]
    exact Function.update_of_ne hne _ _

/-- THE REGION over the thread state. Its windows' arrays are split out of the unscoped buffers at entry and put back at
    the exit contents; every other unscoped buffer bypasses it; the generator register goes into the region's invariant
    with the scoped scratch and comes back with it; nothing is owed; the kernel has no semaphore of its own. -/
def regOf : Pipeline.RegionSeg (pcfgs (F := F)) adm pd () defs₀ 𝒱₀ L lv p where
  win := launch.win.to₀
  block_pos := launch.block_pos
  stage_whole := launch.stage_whole
  K := PEmpty
  osem k := k.elim
  ho := Pipeline.OwnSemFacts.none _
  hbody c := (hbp c).loose
  hwaits := Pipeline.hwaits_of_owed_zero _ _ _ _ L lv p howp
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm pd launch.win launch.arr_whole c
      ((pd p c).share_full (hqp c)) (fun b => Win c b) (hAp c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howp c 0, hrecp c]
      icases HO with ⟨%W, HO⟩; iexists W; isplitr; · ipureintro; exact fun _ _ => Or.inl trivial
      iexact HO
    isplitl [Hp]; · iexact Hp
    iexact Hrest
  hin c := by
    refine BIBase.Entails.trans ?_ (hinp c)
    unfold Pipeline.ΦA
    iintro ⟨Hp, -, Hr⟩
    isplitl [Hr]; · iexact Hr
    iexact Hp
  hout c := by
    rw [Pipeline.ownSems0_none]
    refine BIBase.Entails.trans (houtp c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pd ((pd p c).share_full (hqp c))
      (fun b => Win c b) (fun b => Wout c b) ((pd p c).arrAt · (cfgs p).N) (hFp c) (hrestp c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howp c]
    icases HO with ⟨%W, -, HO⟩; iexists W; iexact HO

end Region

/-! ## The four regions -/

/-- REGION 0: entered from `W1`, left at `W2`; its output is window 3, whose array is `main_v4`. -/
def reg0 : Pipeline.RegionSeg (pcfgs (F := F)) adm (pdats D0 D1 D2 D3 m) () defs₀ 𝒱₀ L lv 0 :=
  have hx := exit_of_single_output (pdats D0 D1 D2 D3 m) 0 launch0 (W1 m) (W2 D0 m)
    (fun c w => hA0 (fun c b => W1 m c b) c w) 3 (by decide) (fun c => rfl)
  regOf (pdats D0 D1 D2 D3 m) 0 launch0 (W1 m) (W2 D0 m)
    (fun c w => hA0 (fun c b => W1 m c b) c w) (fun c w => hq0 (fun c b => W1 m c b) c w) (fun c t => how0 (fun c b => W1 m c b) c t)
    (fun c => hrec0 (fun c b => W1 m c b) c) (fun c => hb0 (fun c b => W1 m c b) c)
    (fun c => hin0 (fun c b => W1 m c b) c) (fun c => hout0 (fun c b => W1 m c b) c) hx.1 hx.2

/-- REGION 1: entered from `W7`, left at `W8`; its output is window 4, whose array is `main_v21`. -/
def reg1 : Pipeline.RegionSeg (pcfgs (F := F)) adm (pdats D0 D1 D2 D3 m) () defs₀ 𝒱₀ L lv 1 :=
  have hx := exit_of_single_output (pdats D0 D1 D2 D3 m) 1 launch1 (W7 D0 m) (W8 D0 D1 m)
    (fun c w => hA1 (fun c b => W7 D0 m c b) c w) 4 (by decide) (fun c => rfl)
  regOf (pdats D0 D1 D2 D3 m) 1 launch1 (W7 D0 m) (W8 D0 D1 m)
    (fun c w => hA1 (fun c b => W7 D0 m c b) c w) (fun c w => hq1 (fun c b => W7 D0 m c b) c w) (fun c t => how1 (fun c b => W7 D0 m c b) c t)
    (fun c => hrec1 (fun c b => W7 D0 m c b) c) (fun c => hb1 (fun c b => W7 D0 m c b) c)
    (fun c => hin1 (fun c b => W7 D0 m c b) c) (fun c => hout1 (fun c b => W7 D0 m c b) c) hx.1 hx.2

/-- REGION 2: entered from `W13`, left at `W14`; its output is window 4, whose array is `main_v42`. -/
def reg2 : Pipeline.RegionSeg (pcfgs (F := F)) adm (pdats D0 D1 D2 D3 m) () defs₀ 𝒱₀ L lv 2 :=
  have hx := exit_of_single_output (pdats D0 D1 D2 D3 m) 2 launch2 (W13 D0 D1 m) (W14 D0 D1 D2 m)
    (fun c w => hA2 (fun c b => W13 D0 D1 m c b) c w) 4 (by decide) (fun c => rfl)
  regOf (pdats D0 D1 D2 D3 m) 2 launch2 (W13 D0 D1 m) (W14 D0 D1 D2 m)
    (fun c w => hA2 (fun c b => W13 D0 D1 m c b) c w) (fun c w => hq2 (fun c b => W13 D0 D1 m c b) c w) (fun c t => how2 (fun c b => W13 D0 D1 m c b) c t)
    (fun c => hrec2 (fun c b => W13 D0 D1 m c b) c) (fun c => hb2 (fun c b => W13 D0 D1 m c b) c)
    (fun c => hin2 (fun c b => W13 D0 D1 m c b) c) (fun c => hout2 (fun c b => W13 D0 D1 m c b) c) hx.1 hx.2

/-- REGION 3: entered from `W19`, left at `W20`; its output is window 4, whose array is `main_v63`. -/
def reg3 : Pipeline.RegionSeg (pcfgs (F := F)) adm (pdats D0 D1 D2 D3 m) () defs₀ 𝒱₀ L lv 3 :=
  have hx := exit_of_single_output (pdats D0 D1 D2 D3 m) 3 launch3 (W19 D0 D1 D2 m) (W20 D0 D1 D2 D3 m)
    (fun c w => hA3 (fun c b => W19 D0 D1 D2 m c b) c w) 4 (by decide) (fun c => rfl)
  regOf (pdats D0 D1 D2 D3 m) 3 launch3 (W19 D0 D1 D2 m) (W20 D0 D1 D2 D3 m)
    (fun c w => hA3 (fun c b => W19 D0 D1 D2 m c b) c w) (fun c w => hq3 (fun c b => W19 D0 D1 D2 m c b) c w) (fun c t => how3 (fun c b => W19 D0 D1 D2 m c b) c t)
    (fun c => hrec3 (fun c b => W19 D0 D1 D2 m c b) c) (fun c => hb3 (fun c b => W19 D0 D1 D2 m c b) c)
    (fun c => hin3 (fun c b => W19 D0 D1 D2 m c b) c) (fun c => hout3 (fun c b => W19 D0 D1 D2 m c b) c) hx.1 hx.2

/-! ## The launch -/

/-- The rest beside the buffers ends owing nothing. -/
theorem hE4 (c : Dev nD) : E (F := F) 4 c ⊢ (iprop(∃ W, owes (c : Thread nD τ) (0 : CellTallies nD τ sig Unit) W) : sProp 𝕄) := by
  iintro ⟨-, H⟩; iexact H

include hA0 hq0 how0 hrec0 hb0 hin0 hout0 hA1 hq1 how1 hrec1 hb1 hin1 hout1 hA2 hq2 how2 hrec2 hb2 hin2 hout2 hA3 hq3 how3 hrec3 hb3 hin3 hout3 in
-- the library's launch finds its implicit arguments by unifying its conclusion with this one, which takes unfolding plain
-- definitions in a metavariable's type
set_option backward.isDefEq.respectTransparency.types false in
/-- THE RUN: from any memory with zero counters every weakly fair execution of @main terminates, and every final memory
    holds the result's buffer at `W22 c main_v73` and each of the nine arguments as launched. @main is the list of its 22
    host stretches and 4 regions; the thread states chain (a host stretch leaves the next valuation by name, a region is
    entered from and left at the valuations of the chain above); the launch deals every unscoped buffer at the launch
    memory, the generator register and the core owing nothing; at the end the unscoped buffers are read against the final
    memory: the result at the last valuation, each argument through the fact that no item writes it. -/
theorem run_main (ρ : Dev nD → PrngReg) :
    θ_run defs (onTc (τ := τ) (main (F := F))) ⟨m, fun _ => 0, ρ⟩ (fun r => ∀ c : Dev nD,
      r.2.mem ((c.tc : Thread nD τ).loc main_v73) = W22 D0 D1 D2 D3 m c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hpre0 : ∀ c : Dev nD, iprop(StableHlo.held (c : Thread nD τ) (Pipeline.ucRefs τ sig) (V1 m c) ∗ E 0 c) ⊢ (reg0 D0 D1 D2 D3 m hA0 hq0 how0 hrec0 hb0 hin0 hout0).pre c := fun c => .rfl
  have hpost0 : ∀ c : Dev nD, (reg0 D0 D1 D2 D3 m hA0 hq0 how0 hrec0 hb0 hin0 hout0).post c ⊢ iprop(StableHlo.held (c : Thread nD τ) (Pipeline.ucRefs τ sig) (V2 m (outs D0 D1 D2 D3 m) c) ∗ E 1 c) := fun c => by
    rw [V2_eq]; exact .rfl
  have hpre1 : ∀ c : Dev nD, iprop(StableHlo.held (c : Thread nD τ) (Pipeline.ucRefs τ sig) (V7 m (outs D0 D1 D2 D3 m) c) ∗ E 1 c) ⊢ (reg1 D0 D1 D2 D3 m hA1 hq1 how1 hrec1 hb1 hin1 hout1).pre c := fun c => by
    rw [V7_eq]; exact .rfl
  have hpost1 : ∀ c : Dev nD, (reg1 D0 D1 D2 D3 m hA1 hq1 how1 hrec1 hb1 hin1 hout1).post c ⊢ iprop(StableHlo.held (c : Thread nD τ) (Pipeline.ucRefs τ sig) (V8 m (outs D0 D1 D2 D3 m) c) ∗ E 2 c) := fun c => by
    rw [V8_eq]; exact .rfl
  have hpre2 : ∀ c : Dev nD, iprop(StableHlo.held (c : Thread nD τ) (Pipeline.ucRefs τ sig) (V13 m (outs D0 D1 D2 D3 m) c) ∗ E 2 c) ⊢ (reg2 D0 D1 D2 D3 m hA2 hq2 how2 hrec2 hb2 hin2 hout2).pre c := fun c => by
    rw [V13_eq]; exact .rfl
  have hpost2 : ∀ c : Dev nD, (reg2 D0 D1 D2 D3 m hA2 hq2 how2 hrec2 hb2 hin2 hout2).post c ⊢ iprop(StableHlo.held (c : Thread nD τ) (Pipeline.ucRefs τ sig) (V14 m (outs D0 D1 D2 D3 m) c) ∗ E 3 c) := fun c => by
    rw [V14_eq]; exact .rfl
  have hpre3 : ∀ c : Dev nD, iprop(StableHlo.held (c : Thread nD τ) (Pipeline.ucRefs τ sig) (V19 m (outs D0 D1 D2 D3 m) c) ∗ E 3 c) ⊢ (reg3 D0 D1 D2 D3 m hA3 hq3 how3 hrec3 hb3 hin3 hout3).pre c := fun c => by
    rw [V19_eq]; exact .rfl
  have hpost3 : ∀ c : Dev nD, (reg3 D0 D1 D2 D3 m hA3 hq3 how3 hrec3 hb3 hin3 hout3).post c ⊢ iprop(StableHlo.held (c : Thread nD τ) (Pipeline.ucRefs τ sig) (V20 m (outs D0 D1 D2 D3 m) c) ∗ E 4 c) := fun c => by
    rw [V20_eq]; exact .rfl
  refine Pipeline.θ_run_regions_kit_dev (pcfgs (F := F)) adm (pdats D0 D1 D2 D3 m) () cellOf_inj emb₁ defs₀ 𝒱₀ L lv m ρ main
    (segs m (outs D0 D1 D2 D3 m) 𝒱₀ L lv E () (pdats D0 D1 D2 D3 m) (reg0 D0 D1 D2 D3 m hA0 hq0 how0 hrec0 hb0 hin0 hout0) (reg1 D0 D1 D2 D3 m hA1 hq1 how1 hrec1 hb1 hin1 hout1) (reg2 D0 D1 D2 D3 m hA2 hq2 how2 hrec2 hb2 hin2 hout2) (reg3 D0 D1 D2 D3 m hA3 hq3 how3 hrec3 hb3 hin3 hout3))
    (fun c Q => by
      rewrite [main_chain c, Pipeline.Seg.run_eq_chain,
        show ((segs m (outs D0 D1 D2 D3 m) 𝒱₀ L lv E () (pdats D0 D1 D2 D3 m) (reg0 D0 D1 D2 D3 m hA0 hq0 how0 hrec0 hb0 hin0 hout0) (reg1 D0 D1 D2 D3 m hA1 hq1 how1 hrec1 hb1 hin1 hout1) (reg2 D0 D1 D2 D3 m hA2 hq2 how2 hrec2 hb2 hin2 hout2) (reg3 D0 D1 D2 D3 m hA3 hq3 how3 hrec3 hb3 hin3 hout3)) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V22 m (outs D0 D1 D2 D3 m) c))
    (hch := fun c => ⟨.rfl, hpre0 c, hpost0 c, .rfl, .rfl, .rfl, .rfl, hpre1 c, hpost1 c, .rfl, .rfl, .rfl, .rfl, hpre2 c, hpost2 c, .rfl, .rfl, .rfl, .rfl, hpre3 c, hpost3 c, .rfl, sep_mono .rfl (hE4 c)⟩)
    (hinit := ?_)
    (QY := fun c s => s.mem ((c.tc : Thread nD τ).loc main_v73) = W22 D0 D1 D2 D3 m c main_v73
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: on each core the unscoped buffers are held at the launch memory, the register is at its launch state,
    -- nothing is owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's buffer read off the last valuation, each argument's through the items that do not write it
    unfold StableHlo.held
    iintro ⟨Hh, HSI⟩
    ihave Hr := (pointsTo_read_all (Pipeline.ucRefs τ sig) (fun b => ((c : Thread nD τ).1, b)) (V22 m (outs D0 D1 D2 D3 m) c) s') $$ [Hh HSI]
    · isplitl [Hh] <;> iassumption
    icases Hr with ⟨%h, HSI⟩
    imodintro
    isplitr
    · ipureintro
      exact ⟨(h (Proc.devRef .tc main_v73) (Finset.mem_filter.mpr ⟨StableHlo.devRef_mem_tcRefs main_v73, by decide⟩)).trans (congrFun (V22_eq D0 D1 D2 D3 m c) _),
        (h (Proc.devRef .tc main_arg0) (Finset.mem_filter.mpr ⟨StableHlo.devRef_mem_tcRefs main_arg0, by decide⟩)).trans (V22_main_arg0 m (outs D0 D1 D2 D3 m) c),
        (h (Proc.devRef .tc main_arg1) (Finset.mem_filter.mpr ⟨StableHlo.devRef_mem_tcRefs main_arg1, by decide⟩)).trans (V22_main_arg1 m (outs D0 D1 D2 D3 m) c),
        (h (Proc.devRef .tc main_arg2) (Finset.mem_filter.mpr ⟨StableHlo.devRef_mem_tcRefs main_arg2, by decide⟩)).trans (V22_main_arg2 m (outs D0 D1 D2 D3 m) c),
        (h (Proc.devRef .tc main_arg3) (Finset.mem_filter.mpr ⟨StableHlo.devRef_mem_tcRefs main_arg3, by decide⟩)).trans (V22_main_arg3 m (outs D0 D1 D2 D3 m) c),
        (h (Proc.devRef .tc main_arg4) (Finset.mem_filter.mpr ⟨StableHlo.devRef_mem_tcRefs main_arg4, by decide⟩)).trans (V22_main_arg4 m (outs D0 D1 D2 D3 m) c),
        (h (Proc.devRef .tc main_arg5) (Finset.mem_filter.mpr ⟨StableHlo.devRef_mem_tcRefs main_arg5, by decide⟩)).trans (V22_main_arg5 m (outs D0 D1 D2 D3 m) c),
        (h (Proc.devRef .tc main_arg6) (Finset.mem_filter.mpr ⟨StableHlo.devRef_mem_tcRefs main_arg6, by decide⟩)).trans (V22_main_arg6 m (outs D0 D1 D2 D3 m) c),
        (h (Proc.devRef .tc main_arg7) (Finset.mem_filter.mpr ⟨StableHlo.devRef_mem_tcRefs main_arg7, by decide⟩)).trans (V22_main_arg7 m (outs D0 D1 D2 D3 m) c),
        (h (Proc.devRef .tc main_arg8) (Finset.mem_filter.mpr ⟨StableHlo.devRef_mem_tcRefs main_arg8, by decide⟩)).trans (V22_main_arg8 m (outs D0 D1 D2 D3 m) c)⟩
    · iexact HSI

/-- info: 'Cert.KernelIdeal.Hand.run_main' depends on axioms: [propext, Classical.choice, Quot.sound] -/
#guard_msgs in #print axioms run_main

end Run

end Cert.KernelIdeal.Hand

end
-- ==== Proof.KI.Inst.lean ====
/-
  The launch of the kernel program at the four regions' proof data: region 0's (the head kernel, one case) and
  regions 1–3's (the tail kernel with its carried running maximum, running sum, hidden block and gathered product),
  handed to the several-regions run. The run ends with the result buffer at the last valuation of the chain and
  the nine arguments as launched.
-/
import proofs.«416376_j65790309040722_2_alg».proof.Proof.KI.R0
import proofs.«416376_j65790309040722_2_alg».proof.Proof.KI.R1
import proofs.«416376_j65790309040722_2_alg».proof.Proof.KI.R2
import proofs.«416376_j65790309040722_2_alg».proof.Proof.KI.R3
import proofs.«416376_j65790309040722_2_alg».proof.Proof.KI.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

/-- The result buffer after the run, on core `c`: the last valuation of the chain at the four regions' proof data. -/
abbrev resultAt (m : (ℓ : Loc nD τ sig) → Buf (Elt F) ℓ) (c : Dev nD) : Buf (Elt F) ((c.tc : Thread nD τ).loc main_v73) :=
  W22 (F := F) dat0 dat1 dat2 dat3 m c main_v73

/-- Every weakly fair execution of @main terminates, the result buffer ends at `resultAt` and the nine arguments end as
    launched. -/
theorem run_inst (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v73) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_main (F := F) dat0 dat1 dat2 dat3 m
    A_eq0 (fun _ _ _ => rfl) (fun _ _ _ => rfl) (fun _ _ => rfl) body_obligation0 (fun _ _ => BI.Entails.refl _) (fun _ _ => BI.Entails.refl _)
    A_eq1 (fun _ _ _ => rfl) (fun _ _ _ => rfl) (fun _ _ => rfl) body_obligation1 hin1 hout1
    A_eq2 (fun _ _ _ => rfl) (fun _ _ _ => rfl) (fun _ _ => rfl) body_obligation2 hin2 hout2
    A_eq3 (fun _ _ _ => rfl) (fun _ _ _ => rfl) (fun _ _ => rfl) body_obligation3 hin3 hout3 ρ

end Cert.KernelIdeal.Hand

end
-- ==== Proof.Val.Spec.lean ====
/-
  The mathematics both programs compute, stated once, on the extended reals, over plain `Fin`-indexed data.

  An adaptive softmax: a head of 1000 shortlist classes and one extra column per tail cluster (1003 columns), and three
  tail clusters, cluster `i` a low-rank product `(x · w1ᵢᵀ) · w2ᵢᵀ` over its own classes. For a sample `n` with target `τ`
  the result is the target's log-probability: in the shortlist the head's log-softmax at column `τ`; in cluster `i`
  (classes `loᵢ ≤ τ < hiᵢ`) the head's log-softmax at column `1000 + i` plus the cluster's log-softmax at column `τ − loᵢ`;
  and `0` for a target beyond the last class.

  `lsm` is the log-softmax spelt as the difference of the shifted entry and the log of the shifted exponential sum,
  `(z c − max z) − log Σ exp (z − max z)`; `lsmK` is the other spelling, an entry less the log-sum-exp
  `v − (max z + log Σ exp (z − max z))`. They agree on finite rows (Softmax.lean).
-/
import Idealize.ShloMosaic.PureOps.Ideal
import Mathlib.Algebra.BigOperators.Group.Finset.Basic
import Mathlib.Data.Finset.Fold

noncomputable section

namespace Cert.Proof.Val.Spec

open Idealize.ShloMosaic

/-- The product of two vectors: one entry of `a · bᵀ`. -/
def dotT {K : ℕ} (a b : Fin K → EReal) : EReal := ∑ k, a k * b k

/-- A row's maximum, from `−∞`. -/
def rowMax {C : ℕ} (z : Fin C → EReal) : EReal := (Finset.univ : Finset (Fin C)).fold max ⊥ z

/-- The log of the row's exponential sum after the shift by its maximum. -/
def lse {C : ℕ} (z : Fin C → EReal) : EReal := Ideal.log (∑ c, Ideal.exp (z c - rowMax z))

/-- Log-softmax at a column: the shifted entry less the shifted log-sum. -/
def lsm {C : ℕ} (z : Fin C → EReal) (c : Fin C) : EReal := (z c - rowMax z) - lse z

/-- A value less the row's log-sum-exp `max z + log Σ exp (z − max z)`. -/
def lsmK {C : ℕ} (z : Fin C → EReal) (v : EReal) : EReal := v - (rowMax z + lse z)

/-- A natural number as a column of a row of `n` columns, clipped at the last column. -/
def col (n : ℕ) (hn : 0 < n) (k : ℕ) : Fin n := ⟨min k (n - 1), by omega⟩

/-- The head's logits of sample `n`: row `n` of `x · head_wᵀ`. -/
def headZ (x : Fin 2048 → Fin 512 → EReal) (hw : Fin 1003 → Fin 512 → EReal) (n : Fin 2048) : Fin 1003 → EReal :=
  fun c => dotT (x n) (hw c)

/-- A tail cluster's hidden activation of sample `n`: row `n` of `x · w1ᵀ`. -/
def hid {H : ℕ} (x : Fin 2048 → Fin 512 → EReal) (w1 : Fin H → Fin 512 → EReal) (n : Fin 2048) : Fin H → EReal :=
  fun h => dotT (x n) (w1 h)

/-- A tail cluster's logits of sample `n`: row `n` of `(x · w1ᵀ) · w2ᵀ`. -/
def tailZ {H O : ℕ} (x : Fin 2048 → Fin 512 → EReal) (w1 : Fin H → Fin 512 → EReal) (w2 : Fin O → Fin H → EReal)
    (n : Fin 2048) : Fin O → EReal :=
  fun c => dotT (hid x w1 n) (w2 c)

/-- THE RESULT, sample by sample, from the target read as a natural number `τ`. -/
def G (x : Fin 2048 → Fin 512 → EReal) (tg : Fin 2048 → ℕ) (hw : Fin 1003 → Fin 512 → EReal)
    (w10 : Fin 128 → Fin 512 → EReal) (w20 : Fin 9000 → Fin 128 → EReal)
    (w11 : Fin 32 → Fin 512 → EReal) (w21 : Fin 40000 → Fin 32 → EReal)
    (w12 : Fin 8 → Fin 512 → EReal) (w22 : Fin 50000 → Fin 8 → EReal) (n : Fin 2048) : EReal :=
  let τ := tg n
  let hl := lsm (headZ x hw n)
  let o0 : EReal := if τ < 1000 then hl (col 1003 (by norm_num) τ) else 0
  let o1 : EReal := if 1000 ≤ τ ∧ τ < 10000 then hl ⟨1000, by norm_num⟩ + lsm (tailZ x w10 w20 n) (col 9000 (by norm_num) (τ - 1000)) else o0
  let o2 : EReal := if 10000 ≤ τ ∧ τ < 50000 then hl ⟨1001, by norm_num⟩ + lsm (tailZ x w11 w21 n) (col 40000 (by norm_num) (τ - 10000)) else o1
  if 50000 ≤ τ ∧ τ < 100000 then hl ⟨1002, by norm_num⟩ + lsm (tailZ x w12 w22 n) (col 50000 (by norm_num) (τ - 50000)) else o2

/-! ## What each kernel region leaves, in the kernel's own spelling -/

/-- The head region's four output columns for sample `n`, from its inputs: the logits' row `z` and the word `rel` the
    shortlist column is compared with. Column 0 is the one-hot sum `Σ_c [c = rel] · lsmK z (z c)`, columns 1–3 are
    `lsmK z (z (999 + k))`. -/
def headOut (z : Fin 1003 → EReal) (rel : BitVec 32) (k : Fin 4) : EReal :=
  if k.val = 0 then ∑ c : Fin 1003, (if BitVec.ofNat 32 c.val = rel then lsmK z (z c) else 0)
  else lsmK z (z ⟨999 + k.val, by omega⟩)

/-- A tail region's output for a sample: the product of the hidden row with the gathered row of `w2`, less the
    log-sum-exp of the cluster's logits. -/
def tailOut {H O : ℕ} (hd : Fin H → EReal) (gw : Fin H → EReal) (w2 : Fin O → Fin H → EReal) : EReal :=
  lsmK (fun c => dotT hd (w2 c)) (dotT hd gw)

end Cert.Proof.Val.Spec

end
-- ==== Proof.Val.Softmax.lean ====
import Idealize.ShloMosaic.PureOps.Ideal
import Mathlib.Data.EReal.Operations
import Mathlib.Analysis.SpecialFunctions.Log.Basic
import Mathlib.Algebra.BigOperators.Group.Finset.Basic
import Mathlib.Algebra.BigOperators.Fin
import Mathlib.Logic.Equiv.Fin.Basic

/-!
# Softmax on the extended reals

Pure mathematics on `EReal`: the maximum of finitely many finite values is finite and
attained; a sum of exponentials of finite values is a positive real; the two usual
spellings of log-softmax agree on finite data; and the tile-by-tile ("online") running
maximum and rescaled running sum equal the one-shot maximum and shifted sum over all columns.
-/

noncomputable section

namespace Cert.Proof.Val.Softmax

open Idealize.ShloMosaic
open scoped BigOperators

variable {ι : Type*} [Fintype ι]

/-! ## Real-valued maximum and shifted exponential sum -/

/-- The maximum of finitely many reals over a nonempty index type. -/
def rmax [Nonempty ι] (r : ι → ℝ) : ℝ := Finset.univ.sup' Finset.univ_nonempty r

/-- The sum of the exponentials of the data shifted down by `M`. -/
def ssum (r : ι → ℝ) (M : ℝ) : ℝ := ∑ i, Real.exp (r i - M)

theorem le_rmax [Nonempty ι] (r : ι → ℝ) (i : ι) : r i ≤ rmax r :=
  Finset.le_sup' r (Finset.mem_univ i)

theorem exists_eq_rmax [Nonempty ι] (r : ι → ℝ) : ∃ i, r i = rmax r := by
  obtain ⟨i, -, hi⟩ := Finset.exists_mem_eq_sup' (Finset.univ_nonempty (α := ι)) r
  exact ⟨i, hi.symm⟩

theorem rmax_le [Nonempty ι] {r : ι → ℝ} {a : ℝ} (h : ∀ i, r i ≤ a) : rmax r ≤ a :=
  Finset.sup'_le _ _ (fun i _ => h i)

/-- A value that bounds the data and is attained is the maximum. -/
theorem rmax_eq_of [Nonempty ι] {r : ι → ℝ} {M : ℝ} (hle : ∀ i, r i ≤ M) (hex : ∃ i, r i = M) :
    rmax r = M := by
  obtain ⟨i, hi⟩ := hex
  exact le_antisymm (rmax_le hle) (hi ▸ le_rmax r i)

theorem ssum_pos [Nonempty ι] (r : ι → ℝ) (M : ℝ) : 0 < ssum r M :=
  Finset.sum_pos (fun _ _ => Real.exp_pos _) Finset.univ_nonempty

/-- The coercion of reals into the extended reals commutes with `max`. -/
theorem coe_max (a b : ℝ) : ((max a b : ℝ) : EReal) = max (a : EReal) (b : EReal) :=
  EReal.coe_strictMono.monotone.map_max

/-! ## (1) The fold-max of finite data is finite and attained -/

theorem fold_max_coe [Nonempty ι] (r : ι → ℝ) :
    (Finset.univ : Finset ι).fold max (⊥ : EReal) (fun i => (r i : EReal)) = ((rmax r : ℝ) : EReal) := by
  apply le_antisymm
  · rw [Finset.fold_max_le]
    exact ⟨bot_le, fun i _ => EReal.coe_le_coe_iff.mpr (le_rmax r i)⟩
  · obtain ⟨i, hi⟩ := exists_eq_rmax r
    rw [Finset.le_fold_max]
    exact Or.inr ⟨i, Finset.mem_univ i, le_of_eq (congrArg (fun x : ℝ => (x : EReal)) hi.symm)⟩

/-- The same, for a function known pointwise to be the coercion of real data. -/
theorem fold_max_eq [Nonempty ι] (f : ι → EReal) (r : ι → ℝ) (hf : ∀ i, f i = (r i : EReal)) :
    (Finset.univ : Finset ι).fold max (⊥ : EReal) f = ((rmax r : ℝ) : EReal) := by
  obtain rfl : f = fun i => (r i : EReal) := funext hf
  exact fold_max_coe r

/-- Existential form: the fold-max is a real that bounds the data and is attained. -/
theorem fold_max_exists [Nonempty ι] (r : ι → ℝ) :
    ∃ M : ℝ, (∀ i, r i ≤ M) ∧ (∃ i, r i = M) ∧
      (Finset.univ : Finset ι).fold max (⊥ : EReal) (fun i => (r i : EReal)) = (M : EReal) :=
  ⟨rmax r, le_rmax r, exists_eq_rmax r, fold_max_coe r⟩

/-! ## (2) The shifted exponential sum is a positive real -/

theorem coe_finset_sum {α : Type*} (s : Finset α) (f : α → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem sum_exp_sub_coe (r : ι → ℝ) (M : ℝ) :
    ∑ i, Ideal.exp ((r i : EReal) - (M : EReal)) = ((ssum r M : ℝ) : EReal) := by
  unfold ssum
  rw [coe_finset_sum]
  refine Finset.sum_congr rfl (fun i _ => ?_)
  rw [← EReal.coe_sub, Ideal.exp_coe]

theorem sum_exp_sub_eq (f : ι → EReal) (r : ι → ℝ) (hf : ∀ i, f i = (r i : EReal)) (M : ℝ) :
    ∑ i, Ideal.exp (f i - (M : EReal)) = ((ssum r M : ℝ) : EReal) := by
  obtain rfl : f = fun i => (r i : EReal) := funext hf
  exact sum_exp_sub_coe r M

theorem log_coe_of_pos {x : ℝ} (hx : 0 < x) : Ideal.log (x : EReal) = ((Real.log x : ℝ) : EReal) := by
  rw [Ideal.log_coe, if_neg (not_le.mpr hx)]

theorem log_sum_exp_sub_coe [Nonempty ι] (r : ι → ℝ) (M : ℝ) :
    Ideal.log (∑ i, Ideal.exp ((r i : EReal) - (M : EReal))) = ((Real.log (ssum r M) : ℝ) : EReal) := by
  rw [sum_exp_sub_coe, log_coe_of_pos (ssum_pos r M)]

/-! ## (3) The two spellings of log-softmax agree on finite data -/

/-- On finite values subtraction of a sum is iterated subtraction. -/
theorem sub_add_coe (v M L : ℝ) :
    (v : EReal) - ((M : EReal) + (L : EReal)) = ((v : EReal) - (M : EReal)) - (L : EReal) := by
  rw [← EReal.coe_add, ← EReal.coe_sub, ← EReal.coe_sub, ← EReal.coe_sub, sub_sub]

/-- The shifted sum taken at the maximum itself, the maximum written as a fold. -/
theorem sum_exp_sub_fold_max [Nonempty ι] (r : ι → ℝ) :
    ∑ i, Ideal.exp ((r i : EReal) - (Finset.univ : Finset ι).fold max (⊥ : EReal) (fun i => (r i : EReal)))
      = ((ssum r (rmax r) : ℝ) : EReal) := by
  rw [fold_max_coe]
  exact sum_exp_sub_coe r (rmax r)

/-- Left spelling (subtract `max + log sum`), as a real. -/
theorem log_softmax_left [Nonempty ι] (r : ι → ℝ) (v : ℝ) :
    (v : EReal) - ((Finset.univ : Finset ι).fold max (⊥ : EReal) (fun i => (r i : EReal))
        + Ideal.log (∑ i, Ideal.exp ((r i : EReal)
            - (Finset.univ : Finset ι).fold max (⊥ : EReal) (fun i => (r i : EReal)))))
      = ((v - rmax r - Real.log (ssum r (rmax r)) : ℝ) : EReal) := by
  rw [sum_exp_sub_fold_max, fold_max_coe, log_coe_of_pos (ssum_pos r (rmax r)), sub_add_coe,
    ← EReal.coe_sub, ← EReal.coe_sub]

/-- Right spelling (subtract the max, then subtract the log of the sum), as a real. -/
theorem log_softmax_right [Nonempty ι] (r : ι → ℝ) (v : ℝ) :
    ((v : EReal) - (Finset.univ : Finset ι).fold max (⊥ : EReal) (fun i => (r i : EReal)))
        - Ideal.log (∑ i, Ideal.exp ((r i : EReal)
            - (Finset.univ : Finset ι).fold max (⊥ : EReal) (fun i => (r i : EReal))))
      = ((v - rmax r - Real.log (ssum r (rmax r)) : ℝ) : EReal) := by
  rw [sum_exp_sub_fold_max, fold_max_coe, log_coe_of_pos (ssum_pos r (rmax r)),
    ← EReal.coe_sub, ← EReal.coe_sub]

/-- The two spellings agree, the entry subtracted from being any finite real `v`. -/
theorem log_softmax_spellings [Nonempty ι] (r : ι → ℝ) (v : ℝ) :
    (v : EReal) - ((Finset.univ : Finset ι).fold max (⊥ : EReal) (fun i => (r i : EReal))
        + Ideal.log (∑ i, Ideal.exp ((r i : EReal)
            - (Finset.univ : Finset ι).fold max (⊥ : EReal) (fun i => (r i : EReal)))))
      = ((v : EReal) - (Finset.univ : Finset ι).fold max (⊥ : EReal) (fun i => (r i : EReal)))
        - Ideal.log (∑ i, Ideal.exp ((r i : EReal)
            - (Finset.univ : Finset ι).fold max (⊥ : EReal) (fun i => (r i : EReal)))) := by
  rw [log_softmax_left, log_softmax_right]

/-- The two spellings agree at an entry `r c` of the row itself. -/
theorem log_softmax_spellings_entry [Nonempty ι] (r : ι → ℝ) (c : ι) :
    (r c : EReal) - ((Finset.univ : Finset ι).fold max (⊥ : EReal) (fun i => (r i : EReal))
        + Ideal.log (∑ i, Ideal.exp ((r i : EReal)
            - (Finset.univ : Finset ι).fold max (⊥ : EReal) (fun i => (r i : EReal)))))
      = ((r c : EReal) - (Finset.univ : Finset ι).fold max (⊥ : EReal) (fun i => (r i : EReal)))
        - Ideal.log (∑ i, Ideal.exp ((r i : EReal)
            - (Finset.univ : Finset ι).fold max (⊥ : EReal) (fun i => (r i : EReal)))) :=
  log_softmax_spellings r (r c)

/-- The same for a function known pointwise to be the coercion of real data. -/
theorem log_softmax_spellings_eq [Nonempty ι] (f : ι → EReal) (r : ι → ℝ)
    (hf : ∀ i, f i = (r i : EReal)) (v : ℝ) :
    (v : EReal) - ((Finset.univ : Finset ι).fold max (⊥ : EReal) f
        + Ideal.log (∑ i, Ideal.exp (f i - (Finset.univ : Finset ι).fold max (⊥ : EReal) f)))
      = ((v : EReal) - (Finset.univ : Finset ι).fold max (⊥ : EReal) f)
        - Ideal.log (∑ i, Ideal.exp (f i - (Finset.univ : Finset ι).fold max (⊥ : EReal) f)) := by
  obtain rfl : f = fun i => (r i : EReal) := funext hf
  exact log_softmax_spellings r v

/-! ## (4) Online softmax -/

/-- The running pair (maximum, rescaled sum) after `j` tiles, in the order the operations are
performed: the new maximum first, then the old sum rescaled plus the new tile's shifted sum. -/
def onl {C : ℕ} (z : ℕ → Fin C → EReal) : ℕ → EReal × EReal
  | 0 => (⊥, 0)
  | j + 1 =>
    (max (onl z j).1 ((Finset.univ : Finset (Fin C)).fold max ⊥ (z j)),
     Ideal.exp ((onl z j).1 - max (onl z j).1 ((Finset.univ : Finset (Fin C)).fold max ⊥ (z j)))
         * (onl z j).2
       + ∑ c, Ideal.exp (z j c - max (onl z j).1 ((Finset.univ : Finset (Fin C)).fold max ⊥ (z j))))

@[simp] theorem onl_zero {C : ℕ} (z : ℕ → Fin C → EReal) : onl z 0 = (⊥, 0) := rfl

theorem onl_succ {C : ℕ} (z : ℕ → Fin C → EReal) (j : ℕ) :
    onl z (j + 1) =
      (max (onl z j).1 ((Finset.univ : Finset (Fin C)).fold max ⊥ (z j)),
       Ideal.exp ((onl z j).1 - max (onl z j).1 ((Finset.univ : Finset (Fin C)).fold max ⊥ (z j)))
           * (onl z j).2
         + ∑ c, Ideal.exp (z j c - max (onl z j).1 ((Finset.univ : Finset (Fin C)).fold max ⊥ (z j)))) := rfl

/-- The pair after `T` tiles reads only the first `T` tiles. -/
theorem onl_congr {C : ℕ} {z z' : ℕ → Fin C → EReal} {T : ℕ} (h : ∀ j, j < T → z j = z' j) :
    onl z T = onl z' T := by
  induction T with
  | zero => rfl
  | succ n ih =>
    have h1 : onl z n = onl z' n := ih (fun j hj => h j (Nat.lt_succ_of_lt hj))
    have h2 : z n = z' n := h n (Nat.lt_succ_self n)
    rw [onl_succ, onl_succ, h1, h2]

/-- The first tile: from the empty state `(⊥, 0)` the rescaling factor is `exp ⊥ = 0`, so the
pair becomes (the tile's maximum, the tile's shifted sum). -/
theorem onl_one_real {C : ℕ} [Nonempty (Fin C)] (z : ℕ → Fin C → EReal) (ρ : Fin C → ℝ)
    (hz : ∀ c, z 0 c = (ρ c : EReal)) :
    onl z 1 = (((rmax ρ : ℝ) : EReal), ((ssum ρ (rmax ρ) : ℝ) : EReal)) := by
  have e3 : (Finset.univ : Finset (Fin C)).fold max ⊥ (z 0) = ((rmax ρ : ℝ) : EReal) :=
    fold_max_eq (z 0) ρ hz
  have e5 := sum_exp_sub_eq (z 0) ρ hz (rmax ρ)
  rw [show (1 : ℕ) = 0 + 1 from rfl, onl_succ, onl_zero]
  simp only [e3, max_bot_left, EReal.bot_sub, Ideal.exp_bot, mul_zero, zero_add, e5]

/-- One further tile on a finite state: the maximum becomes `max M (tile max)`, the sum is rescaled
by `exp (M − new max)` and the tile's sum shifted by the new maximum is added. -/
theorem onl_step_real {C : ℕ} [Nonempty (Fin C)] (z : ℕ → Fin C → EReal) (n : ℕ) (ρ : Fin C → ℝ)
    (hz : ∀ c, z n c = (ρ c : EReal)) (M S : ℝ) (h : onl z n = ((M : EReal), (S : EReal))) :
    onl z (n + 1) = (((max M (rmax ρ) : ℝ) : EReal),
      ((Real.exp (M - max M (rmax ρ)) * S + ssum ρ (max M (rmax ρ)) : ℝ) : EReal)) := by
  have e1 : (onl z n).1 = (M : EReal) := by rw [h]
  have e2 : (onl z n).2 = (S : EReal) := by rw [h]
  have e3 : (Finset.univ : Finset (Fin C)).fold max ⊥ (z n) = ((rmax ρ : ℝ) : EReal) :=
    fold_max_eq (z n) ρ hz
  have e4 : max (M : EReal) ((rmax ρ : ℝ) : EReal) = ((max M (rmax ρ) : ℝ) : EReal) :=
    (coe_max M (rmax ρ)).symm
  rw [onl_succ, e1, e2, e3, e4, sum_exp_sub_eq (z n) ρ hz, ← EReal.coe_sub, Ideal.exp_coe,
    ← EReal.coe_mul, ← EReal.coe_add]

/-- On finite data, after `T ≥ 1` tiles the pair is (the maximum `M` over all entries seen, the
sum over all entries seen of `exp (entry − M)`). -/
theorem onl_real {C : ℕ} (hC : 0 < C) (r : ℕ → Fin C → ℝ) {T : ℕ} (hT : 0 < T) :
    ∃ M : ℝ, (∀ j, j < T → ∀ c, r j c ≤ M) ∧ (∃ j, j < T ∧ ∃ c, r j c = M) ∧
      onl (fun j c => (r j c : EReal)) T
        = ((M : EReal), ((∑ j ∈ Finset.range T, ∑ c, Real.exp (r j c - M) : ℝ) : EReal)) := by
  haveI : Nonempty (Fin C) := ⟨⟨0, hC⟩⟩
  obtain ⟨n, rfl⟩ : ∃ n, T = n + 1 := ⟨T - 1, by omega⟩
  clear hT
  induction n with
  | zero =>
    refine ⟨rmax (r 0), ?_, ?_, ?_⟩
    · intro j hj c
      obtain rfl : j = 0 := by omega
      exact le_rmax (r 0) c
    · obtain ⟨c, hc⟩ := exists_eq_rmax (r 0)
      exact ⟨0, by omega, c, hc⟩
    · rw [onl_one_real (fun j c => (r j c : EReal)) (r 0) (fun _ => rfl), Finset.sum_range_one]
      rfl
  | succ n ih =>
    obtain ⟨M, hle, ⟨j₀, hj₀, c₀, hc₀⟩, hM⟩ := ih
    refine ⟨max M (rmax (r (n + 1))), ?_, ?_, ?_⟩
    · intro j hj c
      by_cases hjn : j < n + 1
      · exact le_trans (hle j hjn c) (le_max_left _ _)
      · obtain rfl : j = n + 1 := by omega
        exact le_trans (le_rmax (r (n + 1)) c) (le_max_right _ _)
    · rcases max_choice M (rmax (r (n + 1))) with hm | hm
      · exact ⟨j₀, by omega, c₀, by rw [hm]; exact hc₀⟩
      · obtain ⟨c, hc⟩ := exists_eq_rmax (r (n + 1))
        exact ⟨n + 1, by omega, c, by rw [hm]; exact hc⟩
    · rw [onl_step_real (fun j c => (r j c : EReal)) (n + 1) (r (n + 1)) (fun _ => rfl) M _ hM]
      have key : Real.exp (M - max M (rmax (r (n + 1))))
            * (∑ j ∈ Finset.range (n + 1), ∑ c, Real.exp (r j c - M))
          = ∑ j ∈ Finset.range (n + 1), ∑ c, Real.exp (r j c - max M (rmax (r (n + 1)))) := by
        rw [Finset.mul_sum]
        refine Finset.sum_congr rfl (fun j _ => ?_)
        rw [Finset.mul_sum]
        refine Finset.sum_congr rfl (fun c _ => ?_)
        rw [← Real.exp_add]
        congr 1
        ring
      rw [key, Finset.sum_range_succ _ (n + 1)]
      rfl

theorem flat_lt {T C j : ℕ} (hj : j < T) (c : Fin C) : j * C + (c : ℕ) < T * C :=
  calc j * C + (c : ℕ) < j * C + C := Nat.add_lt_add_left c.2 _
    _ = (j + 1) * C := (Nat.succ_mul j C).symm
    _ ≤ T * C := Nat.mul_le_mul_right C hj

/-- The tile-wise online result over `T` tiles of `C` columns IS the one-shot maximum and shifted
sum over all `T * C` columns (real form). -/
theorem onl_flat_real {T C : ℕ} [Nonempty (Fin (T * C))] (hT : 0 < T) (hC : 0 < C)
    (g : Fin (T * C) → ℝ) (z : ℕ → Fin C → EReal)
    (hz : ∀ (j : ℕ) (hj : j < T) (c : Fin C), z j c = ((g ⟨j * C + (c : ℕ), flat_lt hj c⟩ : ℝ) : EReal)) :
    onl z T = (((rmax g : ℝ) : EReal), ((ssum g (rmax g) : ℝ) : EReal)) := by
  haveI : Nonempty (Fin C) := ⟨⟨0, hC⟩⟩
  let r : ℕ → Fin C → ℝ := fun j c => if hj : j < T then g ⟨j * C + (c : ℕ), flat_lt hj c⟩ else 0
  have hr : ∀ (j : ℕ) (hj : j < T) (c : Fin C), r j c = g ⟨j * C + (c : ℕ), flat_lt hj c⟩ :=
    fun j hj c => dif_pos hj
  have hcongr : onl z T = onl (fun j c => (r j c : EReal)) T :=
    onl_congr (fun j hj => funext (fun c => by rw [hz j hj c, hr j hj c]))
  obtain ⟨M, hle, ⟨j₀, hj₀, c₀, hc₀⟩, hM⟩ := onl_real hC r hT
  have hmax : rmax g = M := by
    refine rmax_eq_of (fun k => ?_) ⟨⟨j₀ * C + (c₀ : ℕ), flat_lt hj₀ c₀⟩, by rw [← hr j₀ hj₀ c₀, hc₀]⟩
    have hq : (k : ℕ) / C < T := Nat.div_lt_of_lt_mul (lt_of_lt_of_eq k.2 (Nat.mul_comm T C))
    have hk := hle _ hq ⟨(k : ℕ) % C, Nat.mod_lt _ hC⟩
    rw [hr _ hq] at hk
    have hidx : (⟨(k : ℕ) / C * C + (k : ℕ) % C, flat_lt hq ⟨(k : ℕ) % C, Nat.mod_lt _ hC⟩⟩ : Fin (T * C)) = k :=
      Fin.ext (Nat.div_add_mod' _ _)
    rw [hidx] at hk
    exact hk
  have hsum : ∑ j ∈ Finset.range T, ∑ c, Real.exp (r j c - M) = ssum g M := by
    unfold ssum
    calc ∑ j ∈ Finset.range T, ∑ c, Real.exp (r j c - M)
        = ∑ j : Fin T, ∑ c, Real.exp (r (j : ℕ) c - M) :=
          Finset.sum_range (fun j => ∑ c, Real.exp (r j c - M))
      _ = ∑ p : Fin T × Fin C, Real.exp (r (p.1 : ℕ) p.2 - M) :=
          (Fintype.sum_prod_type' (fun (j : Fin T) (c : Fin C) => Real.exp (r (j : ℕ) c - M))).symm
      _ = ∑ p : Fin T × Fin C, Real.exp (g (finProdFinEquiv p) - M) := by
          refine Finset.sum_congr rfl (fun p _ => ?_)
          rw [hr p.1 p.1.2 p.2]
          have hidx : (⟨(p.1 : ℕ) * C + (p.2 : ℕ), flat_lt p.1.2 p.2⟩ : Fin (T * C)) = finProdFinEquiv p :=
            Fin.ext (by
              rw [finProdFinEquiv_apply_val]
              show (p.1 : ℕ) * C + (p.2 : ℕ) = (p.2 : ℕ) + C * (p.1 : ℕ)
              ring)
          rw [hidx]
      _ = ∑ k, Real.exp (g k - M) := Equiv.sum_comp finProdFinEquiv (fun k => Real.exp (g k - M))
  rw [hcongr, hM, hmax, hsum]

/-- The same with the maximum written as a fold and the sum as a sum of exponentials on the
extended reals. -/
theorem onl_flat {T C : ℕ} (hT : 0 < T) (hC : 0 < C)
    (g : Fin (T * C) → ℝ) (z : ℕ → Fin C → EReal)
    (hz : ∀ (j : ℕ) (hj : j < T) (c : Fin C), z j c = ((g ⟨j * C + (c : ℕ), flat_lt hj c⟩ : ℝ) : EReal)) :
    onl z T =
      ((Finset.univ : Finset (Fin (T * C))).fold max (⊥ : EReal) (fun k => (g k : EReal)),
       ∑ k, Ideal.exp ((g k : EReal)
          - (Finset.univ : Finset (Fin (T * C))).fold max (⊥ : EReal) (fun k => (g k : EReal)))) := by
  haveI : Nonempty (Fin (T * C)) := ⟨⟨0, Nat.mul_pos hT hC⟩⟩
  rw [onl_flat_real hT hC g z hz, sum_exp_sub_fold_max, fold_max_coe]

/-- The online pair's log-normaliser subtracted from a finite `v` is the one-shot log-softmax
(right spelling) over all `T * C` columns. -/
theorem onl_log_softmax {T C : ℕ} (hT : 0 < T) (hC : 0 < C)
    (g : Fin (T * C) → ℝ) (z : ℕ → Fin C → EReal)
    (hz : ∀ (j : ℕ) (hj : j < T) (c : Fin C), z j c = ((g ⟨j * C + (c : ℕ), flat_lt hj c⟩ : ℝ) : EReal))
    (v : ℝ) :
    (v : EReal) - ((onl z T).1 + Ideal.log (onl z T).2)
      = ((v : EReal) - (Finset.univ : Finset (Fin (T * C))).fold max (⊥ : EReal) (fun k => (g k : EReal)))
        - Ideal.log (∑ k, Ideal.exp ((g k : EReal)
            - (Finset.univ : Finset (Fin (T * C))).fold max (⊥ : EReal) (fun k => (g k : EReal)))) := by
  haveI : Nonempty (Fin (T * C)) := ⟨⟨0, Nat.mul_pos hT hC⟩⟩
  rw [onl_flat hT hC g z hz]
  exact log_softmax_spellings g v

/-! ## (5) One-hot sums -/

section OneHot
variable {κ : Type*} [Fintype κ] [DecidableEq κ] {A : Type*} [AddCommMonoid A]

theorem sum_onehot (f : κ → A) (c₀ : κ) : ∑ c, (if c = c₀ then f c else 0) = f c₀ := by
  rw [Finset.sum_ite_eq' Finset.univ c₀ f, if_pos (Finset.mem_univ _)]

theorem sum_onehot' (f : κ → A) (c₀ : κ) : ∑ c, (if c₀ = c then f c else 0) = f c₀ := by
  rw [Finset.sum_ite_eq Finset.univ c₀ f, if_pos (Finset.mem_univ _)]

/-- A decidable predicate that holds exactly at `c₀`. -/
theorem sum_onehot_pred (f : κ → A) (c₀ : κ) (p : κ → Prop) [DecidablePred p] (hp : ∀ c, p c ↔ c = c₀) :
    ∑ c, (if p c then f c else 0) = f c₀ := by
  have h : ∀ c, (if p c then f c else 0) = (if c = c₀ then f c else 0) := fun c => by
    by_cases hc : c = c₀
    · rw [if_pos ((hp c).mpr hc), if_pos hc]
    · rw [if_neg (fun hpc => hc ((hp c).mp hpc)), if_neg hc]
  rw [Finset.sum_congr rfl (fun c _ => h c)]
  exact sum_onehot f c₀

theorem sum_onehot_decide (f : κ → A) (c₀ : κ) :
    ∑ c, (if decide (c = c₀) = true then f c else 0) = f c₀ :=
  sum_onehot_pred f c₀ (fun c => decide (c = c₀) = true) (fun _ => decide_eq_true_iff)

/-- A Boolean mask that is true exactly at `c₀`. -/
theorem sum_onehot_mask (f : κ → A) (c₀ : κ) (b : κ → Bool) (hb : ∀ c, b c = true ↔ c = c₀) :
    ∑ c, (if b c = true then f c else 0) = f c₀ :=
  sum_onehot_pred f c₀ (fun c => b c = true) hb

theorem sum_onehot_cond (f : κ → A) (c₀ : κ) (b : κ → Bool) (hb : ∀ c, b c = true ↔ c = c₀) :
    ∑ c, (bif b c then f c else 0) = f c₀ := by
  simp only [cond_eq_ite]
  exact sum_onehot_mask f c₀ b hb

end OneHot

end Cert.Proof.Val.Softmax
-- ==== Proof.Val.Bridge.lean ====
import proofs.«416376_j65790309040722_2_alg».proof.Proof.Val.Spec
import proofs.«416376_j65790309040722_2_alg».proof.Proof.Val.Softmax

/-!
# The kernel's spelling of the result equals the specification on finite data

The result of the adaptive softmax written the way the kernel computes it — the head's one-hot
sum and three extra columns in the spelling "entry less log-sum-exp", each tail cluster's
"gathered product less log-sum-exp" — equals the specification `Spec.G` whenever every input
entry is finite: all logits are then finite, the two spellings of log-softmax agree, the
one-hot sum selects its column, and a gathered product is the cluster's logit at that column.
-/

noncomputable section

namespace Cert.Proof.Val.Bridge

open Idealize.ShloMosaic
open Cert.Proof.Val

/-! ## Finite data give finite logits -/

/-- A product of two vectors of finite values is finite. -/
theorem dotT_real {K : ℕ} {a b : Fin K → EReal} (ha : ∀ k, ∃ r : ℝ, a k = (r : EReal))
    (hb : ∀ k, ∃ r : ℝ, b k = (r : EReal)) : ∃ r : ℝ, Spec.dotT a b = (r : EReal) := by
  choose ra hra using ha
  choose rb hrb using hb
  refine ⟨∑ k, ra k * rb k, ?_⟩
  unfold Spec.dotT
  rw [Softmax.coe_finset_sum]
  refine Finset.sum_congr rfl (fun k _ => ?_)
  rw [hra k, hrb k, EReal.coe_mul]

theorem headZ_real {x : Fin 2048 → Fin 512 → EReal} {hw : Fin 1003 → Fin 512 → EReal}
    (hx : ∀ n d, ∃ r : ℝ, x n d = (r : EReal)) (hhw : ∀ c d, ∃ r : ℝ, hw c d = (r : EReal))
    (n : Fin 2048) : ∀ c, ∃ r : ℝ, Spec.headZ x hw n c = (r : EReal) :=
  fun c => dotT_real (hx n) (hhw c)

theorem hid_real {H : ℕ} {x : Fin 2048 → Fin 512 → EReal} {w1 : Fin H → Fin 512 → EReal}
    (hx : ∀ n d, ∃ r : ℝ, x n d = (r : EReal)) (h1 : ∀ h d, ∃ r : ℝ, w1 h d = (r : EReal))
    (n : Fin 2048) : ∀ h, ∃ r : ℝ, Spec.hid x w1 n h = (r : EReal) :=
  fun h => dotT_real (hx n) (h1 h)

theorem tailZ_real {H O : ℕ} {x : Fin 2048 → Fin 512 → EReal} {w1 : Fin H → Fin 512 → EReal}
    {w2 : Fin O → Fin H → EReal}
    (hx : ∀ n d, ∃ r : ℝ, x n d = (r : EReal)) (h1 : ∀ h d, ∃ r : ℝ, w1 h d = (r : EReal))
    (h2 : ∀ c h, ∃ r : ℝ, w2 c h = (r : EReal))
    (n : Fin 2048) : ∀ c, ∃ r : ℝ, Spec.tailZ x w1 w2 n c = (r : EReal) :=
  fun c => dotT_real (hid_real hx h1 n) (h2 c)

/-! ## The two spellings on a finite row -/

/-- On a finite row, an entry less the log-sum-exp is the log-softmax at that column. -/
theorem lsmK_eq_lsm {C : ℕ} {z : Fin C → EReal} (hz : ∀ c, ∃ r : ℝ, z c = (r : EReal)) (c : Fin C) :
    Spec.lsmK z (z c) = Spec.lsm z c := by
  haveI : Nonempty (Fin C) := ⟨c⟩
  choose r hr using hz
  unfold Spec.lsmK Spec.lsm Spec.lse Spec.rowMax
  rw [hr c]
  exact Softmax.log_softmax_spellings_eq z r hr (r c)

/-! ## The head's four columns -/

/-- Below `2 ^ 32` a natural number is determined by its 32-bit word. -/
theorem ofNat32_inj {a b : ℕ} (ha : a < 2 ^ 32) (hb : b < 2 ^ 32) :
    BitVec.ofNat 32 a = BitVec.ofNat 32 b ↔ a = b := by
  constructor
  · intro h
    have h' := congrArg BitVec.toNat h
    simp only [BitVec.toNat_ofNat] at h'
    rwa [Nat.mod_eq_of_lt ha, Nat.mod_eq_of_lt hb] at h'
  · rintro rfl
    rfl

/-- Column 0: the one-hot sum against the word of a column `k` selects the entry at `k`. -/
theorem headOut_zero (z : Fin 1003 → EReal) {k : ℕ} (hk : k < 1003) :
    Spec.headOut z (BitVec.ofNat 32 k) 0 = Spec.lsmK z (z ⟨k, hk⟩) := by
  unfold Spec.headOut
  rw [if_pos (show ((0 : Fin 4) : ℕ) = 0 from rfl)]
  refine Softmax.sum_onehot_pred (fun c => Spec.lsmK z (z c)) ⟨k, hk⟩
    (fun c => BitVec.ofNat 32 c.val = BitVec.ofNat 32 k) (fun c => ?_)
  rw [ofNat32_inj (by omega) (by omega), Fin.ext_iff]

theorem headOut_one (z : Fin 1003 → EReal) (rel : BitVec 32) :
    Spec.headOut z rel 1 = Spec.lsmK z (z ⟨1000, by norm_num⟩) := by
  unfold Spec.headOut
  rw [if_neg (by decide)]
  rfl

theorem headOut_two (z : Fin 1003 → EReal) (rel : BitVec 32) :
    Spec.headOut z rel 2 = Spec.lsmK z (z ⟨1001, by norm_num⟩) := by
  unfold Spec.headOut
  rw [if_neg (by decide)]
  rfl

theorem headOut_three (z : Fin 1003 → EReal) (rel : BitVec 32) :
    Spec.headOut z rel 3 = Spec.lsmK z (z ⟨1002, by norm_num⟩) := by
  unfold Spec.headOut
  rw [if_neg (by decide)]
  rfl

/-! ## A tail cluster's output -/

/-- The product of the hidden row with row `c₀` of `w2` is the cluster's logit at column `c₀`. -/
theorem tailOut_eq {H O : ℕ} (x : Fin 2048 → Fin 512 → EReal) (w1 : Fin H → Fin 512 → EReal)
    (w2 : Fin O → Fin H → EReal) (n : Fin 2048) (c₀ : Fin O) :
    Spec.tailOut (Spec.hid x w1 n) (w2 c₀) w2
      = Spec.lsmK (Spec.tailZ x w1 w2 n) (Spec.tailZ x w1 w2 n c₀) := rfl

theorem tailOut_eq_lsm {H O : ℕ} {x : Fin 2048 → Fin 512 → EReal} {w1 : Fin H → Fin 512 → EReal}
    {w2 : Fin O → Fin H → EReal}
    (hx : ∀ n d, ∃ r : ℝ, x n d = (r : EReal)) (h1 : ∀ h d, ∃ r : ℝ, w1 h d = (r : EReal))
    (h2 : ∀ c h, ∃ r : ℝ, w2 c h = (r : EReal)) (n : Fin 2048) (c₀ : Fin O) :
    Spec.tailOut (Spec.hid x w1 n) (w2 c₀) w2 = Spec.lsm (Spec.tailZ x w1 w2 n) c₀ :=
  (tailOut_eq x w1 w2 n c₀).trans (lsmK_eq_lsm (tailZ_real hx h1 h2 n) c₀)

/-! ## The result in the kernel's spelling -/

/-- The result, sample by sample, as the kernel spells it: the head's column 0 is a one-hot sum
against the word of the clipped shortlist column, its columns 1–3 and each tail's output are
"value less log-sum-exp". -/
def Kspec (x : Fin 2048 → Fin 512 → EReal) (tg : Fin 2048 → ℕ) (hw : Fin 1003 → Fin 512 → EReal)
    (w10 : Fin 128 → Fin 512 → EReal) (w20 : Fin 9000 → Fin 128 → EReal)
    (w11 : Fin 32 → Fin 512 → EReal) (w21 : Fin 40000 → Fin 32 → EReal)
    (w12 : Fin 8 → Fin 512 → EReal) (w22 : Fin 50000 → Fin 8 → EReal) (n : Fin 2048) : EReal :=
  let τ := tg n
  let ho := Spec.headOut (Spec.headZ x hw n) (BitVec.ofNat 32 (min τ 999))
  let o0 : EReal := if τ < 1000 then ho 0 else 0
  let o1 : EReal := if 1000 ≤ τ ∧ τ < 10000 then ho 1 + Spec.tailOut (Spec.hid x w10 n) (w20 (Spec.col 9000 (by norm_num) (τ - 1000))) w20 else o0
  let o2 : EReal := if 10000 ≤ τ ∧ τ < 50000 then ho 2 + Spec.tailOut (Spec.hid x w11 n) (w21 (Spec.col 40000 (by norm_num) (τ - 10000))) w21 else o1
  if 50000 ≤ τ ∧ τ < 100000 then ho 3 + Spec.tailOut (Spec.hid x w12 n) (w22 (Spec.col 50000 (by norm_num) (τ - 50000))) w22 else o2

/-- On finite inputs the kernel's spelling is the specification. -/
theorem Kspec_eq_G {x : Fin 2048 → Fin 512 → EReal} {tg : Fin 2048 → ℕ} {hw : Fin 1003 → Fin 512 → EReal}
    {w10 : Fin 128 → Fin 512 → EReal} {w20 : Fin 9000 → Fin 128 → EReal}
    {w11 : Fin 32 → Fin 512 → EReal} {w21 : Fin 40000 → Fin 32 → EReal}
    {w12 : Fin 8 → Fin 512 → EReal} {w22 : Fin 50000 → Fin 8 → EReal}
    (hx : ∀ n d, ∃ r : ℝ, x n d = (r : EReal)) (hhw : ∀ c d, ∃ r : ℝ, hw c d = (r : EReal))
    (h10 : ∀ h d, ∃ r : ℝ, w10 h d = (r : EReal)) (h20 : ∀ c h, ∃ r : ℝ, w20 c h = (r : EReal))
    (h11 : ∀ h d, ∃ r : ℝ, w11 h d = (r : EReal)) (h21 : ∀ c h, ∃ r : ℝ, w21 c h = (r : EReal))
    (h12 : ∀ h d, ∃ r : ℝ, w12 h d = (r : EReal)) (h22 : ∀ c h, ∃ r : ℝ, w22 c h = (r : EReal))
    (n : Fin 2048) :
    Kspec x tg hw w10 w20 w11 w21 w12 w22 n = Spec.G x tg hw w10 w20 w11 w21 w12 w22 n := by
  have hz := headZ_real hx hhw n
  unfold Kspec Spec.G
  dsimp only
  rw [headOut_one, headOut_two, headOut_three, lsmK_eq_lsm hz, lsmK_eq_lsm hz, lsmK_eq_lsm hz,
    tailOut_eq_lsm hx h10 h20, tailOut_eq_lsm hx h11 h21, tailOut_eq_lsm hx h12 h22]
  have h0 : (if tg n < 1000 then
        Spec.headOut (Spec.headZ x hw n) (BitVec.ofNat 32 (min (tg n) 999)) 0 else 0)
      = (if tg n < 1000 then
        Spec.lsm (Spec.headZ x hw n) (Spec.col 1003 (by norm_num) (tg n)) else 0) := by
    by_cases h : tg n < 1000
    · rw [if_pos h, if_pos h, headOut_zero (Spec.headZ x hw n) (k := min (tg n) 999) (by omega),
        lsmK_eq_lsm hz]
      congr 1
      exact Fin.ext (by
        show min (tg n) 999 = min (tg n) (1003 - 1)
        omega)
    · rw [if_neg h, if_neg h]
  rw [h0]

end Cert.Proof.Val.Bridge
-- ==== Proof.Val.Words.lean ====
/-
  SIGNED-WORD ARITHMETIC OF A NONNEGATIVE TARGET. A 32-bit word t whose signed reading is ≥ 0 is its unsigned value
  τ = t.toNat, below 2³¹. Against literals k below 2³¹ the signed comparisons, the signed minimum, the subtraction, jnp's
  clip to [0, hi], and jax's negative-index normalisation all act on τ as they act on natural numbers (with truncated
  subtraction after the clip): no operation wraps, because every value met lies strictly between −2³¹ and 2³¹.
  Each lemma is stated on the scalar operation (`IntOp.cmpi`, `IntOp.minsi`, `IntOp.maxsi`, `IntOp.subi`, `IntOp.addi`,
  `IntOp.andi`, `Scalar.select`) that the printed vector operation is at one index, with the hypothesis in the unsigned
  form τ < 2³¹ (`nonneg_iff` passes between the two forms).
-/
import Idealize.ShloMosaic.Lib.StableHlo.Predicate
import Idealize.ShloMosaic.Lib.Affine

namespace Cert.Proof.Val.Words

open Idealize.ShloMosaic

/-! ## A nonnegative word is its unsigned value -/

/-- A word reads nonnegative signed exactly when it is below 2³¹ unsigned. -/
theorem nonneg_iff {t : BitVec 32} : 0 ≤ t.toInt ↔ t.toNat < 2 ^ 31 := by
  rw [BitVec.toInt_pos_iff]; omega

/-- … and then reads the same signed and unsigned. -/
theorem toInt_eq {t : BitVec 32} (ht : t.toNat < 2 ^ 31) : t.toInt = (t.toNat : ℤ) :=
  StableHlo.Predicate.toInt_eq_toNat_of_lt ht

theorem toInt_toNat {t : BitVec 32} (ht : t.toNat < 2 ^ 31) : t.toInt.toNat = t.toNat := by
  rw [toInt_eq ht, Int.toNat_natCast]

/-- A literal below 2³¹ reads as itself, signed and unsigned. -/
theorem toInt_ofNat {k : ℕ} (hk : k < 2 ^ 31) : (BitVec.ofNat 32 k).toInt = (k : ℤ) :=
  StableHlo.Predicate.toInt_ofNat_small k hk

theorem toNat_ofNat {k : ℕ} (hk : k < 2 ^ 32) : (BitVec.ofNat 32 k).toNat = k := by
  rw [BitVec.toNat_ofNat]; exact Nat.mod_eq_of_lt hk

theorem ofNat_lt {k : ℕ} (hk : k < 2 ^ 31) : (BitVec.ofNat 32 k).toNat < 2 ^ 31 := by
  rw [toNat_ofNat (by omega)]; exact hk

/-- A word is the literal of its value. -/
theorem ofNat_toNat (t : BitVec 32) : BitVec.ofNat 32 t.toNat = t := by
  apply BitVec.eq_of_toNat_eq; rw [toNat_ofNat t.isLt]

/-- (7) Literals below 2³² are equal exactly when the numbers are. -/
theorem ofNat_inj {c j : ℕ} (hc : c < 2 ^ 32) (hj : j < 2 ^ 32) : BitVec.ofNat 32 c = BitVec.ofNat 32 j ↔ c = j := by
  constructor
  · intro e
    have := congrArg BitVec.toNat e
    rwa [toNat_ofNat hc, toNat_ofNat hj] at this
  · rintro rfl; rfl

/-- (7) … so the `eq` comparison of two literals has word 1 exactly when the numbers are equal. -/
theorem cmpi_eq_ofNat {c j : ℕ} (hc : c < 2 ^ 32) (hj : j < 2 ^ 32) :
    IntOp.cmpi .eq (BitVec.ofNat 32 c) (BitVec.ofNat 32 j) = 1#1 ↔ c = j := by
  rw [IntOp.cmpi_eq, ofNat_inj hc hj]

/-! ## An `i1` word is 1 or 0: the if-then-else forms -/

/-- A comparison's word that is 1 exactly when P holds is `if P then 1 else 0`. -/
theorem word_eq_ite {c : BitVec 1} {P : Prop} [Decidable P] (hc : c = 1#1 ↔ P) : c = if P then 1#1 else 0#1 := by
  by_cases hP : P
  · rw [if_pos hP]; exact hc.2 hP
  · rw [if_neg hP]
    rcases BitVec.eq_zero_or_eq_one c with h0 | h1
    · exact h0
    · exact absurd (hc.1 h1) hP

/-- `select` on a word that is 1 exactly when P holds is `if P then a else b`. -/
theorem select_of_iff {α : Type} {c : BitVec 1} {P : Prop} [Decidable P] (hc : c = 1#1 ↔ P) (a b : α) :
    Scalar.select c a b = if P then a else b := by
  unfold Scalar.select
  by_cases hP : P
  · rw [if_pos hP, if_pos (show c = 1 from hc.2 hP)]
  · rw [if_neg hP, if_neg (show ¬ c = 1 from fun e => hP (hc.1 e))]

/-! ## (1) Signed comparisons with a literal -/

section
variable {t : BitVec 32} {k : ℕ}

/-- t <ₛ k exactly when τ < k. -/
theorem slt_ofNat (ht : t.toNat < 2 ^ 31) (hk : k < 2 ^ 31) : IntOp.cmpi .slt t (BitVec.ofNat 32 k) = 1#1 ↔ t.toNat < k := by
  rw [IntOp.cmpi_slt, toInt_eq ht, toInt_ofNat hk]; exact Int.ofNat_lt

/-- t ≥ₛ k exactly when k ≤ τ. -/
theorem sge_ofNat (ht : t.toNat < 2 ^ 31) (hk : k < 2 ^ 31) : IntOp.cmpi .sge t (BitVec.ofNat 32 k) = 1#1 ↔ k ≤ t.toNat := by
  rw [IntOp.cmpi_sge, toInt_eq ht, toInt_ofNat hk]; exact Int.ofNat_le

theorem slt_ofNat_ite (ht : t.toNat < 2 ^ 31) (hk : k < 2 ^ 31) :
    IntOp.cmpi .slt t (BitVec.ofNat 32 k) = if t.toNat < k then 1#1 else 0#1 := word_eq_ite (slt_ofNat ht hk)

theorem sge_ofNat_ite (ht : t.toNat < 2 ^ 31) (hk : k < 2 ^ 31) :
    IntOp.cmpi .sge t (BitVec.ofNat 32 k) = if k ≤ t.toNat then 1#1 else 0#1 := word_eq_ite (sge_ofNat ht hk)

/-- A nonnegative word is not below 0: the word of `w <ₛ 0` is 0. -/
theorem slt_zero (ht : t.toNat < 2 ^ 31) : IntOp.cmpi .slt t 0#32 = 0#1 := by
  rw [slt_ofNat_ite ht (Nat.two_pow_pos 31), if_neg (Nat.not_lt_zero _)]

/-- The band test lo ≤ t < hi, as the `and` of the two comparison words. -/
theorem band (ht : t.toNat < 2 ^ 31) {lo hi : ℕ} (hlo : lo < 2 ^ 31) (hhi : hi < 2 ^ 31) :
    IntOp.andi (IntOp.cmpi .sge t (BitVec.ofNat 32 lo)) (IntOp.cmpi .slt t (BitVec.ofNat 32 hi)) = 1#1
      ↔ lo ≤ t.toNat ∧ t.toNat < hi := by
  rw [IntOp.andi_eq_one, sge_ofNat ht hlo, slt_ofNat ht hhi]

theorem band_ite (ht : t.toNat < 2 ^ 31) {lo hi : ℕ} (hlo : lo < 2 ^ 31) (hhi : hi < 2 ^ 31) :
    IntOp.andi (IntOp.cmpi .sge t (BitVec.ofNat 32 lo)) (IntOp.cmpi .slt t (BitVec.ofNat 32 hi))
      = if lo ≤ t.toNat ∧ t.toNat < hi then 1#1 else 0#1 := word_eq_ite (band ht hlo hhi)

/-- `select` on the comparison words: the branch is chosen by the comparison of the numbers. -/
theorem select_slt {α : Type} (ht : t.toNat < 2 ^ 31) (hk : k < 2 ^ 31) (a b : α) :
    Scalar.select (IntOp.cmpi .slt t (BitVec.ofNat 32 k)) a b = if t.toNat < k then a else b :=
  select_of_iff (slt_ofNat ht hk) a b

theorem select_band {α : Type} (ht : t.toNat < 2 ^ 31) {lo hi : ℕ} (hlo : lo < 2 ^ 31) (hhi : hi < 2 ^ 31) (a b : α) :
    Scalar.select (IntOp.andi (IntOp.cmpi .sge t (BitVec.ofNat 32 lo)) (IntOp.cmpi .slt t (BitVec.ofNat 32 hi))) a b
      = if lo ≤ t.toNat ∧ t.toNat < hi then a else b :=
  select_of_iff (band ht hlo hhi) a b

/-! ## (2) The signed minimum with a literal -/

/-- min(t, k) signed is the literal of min(τ, k). -/
theorem minsi_ofNat (ht : t.toNat < 2 ^ 31) (hk : k < 2 ^ 31) :
    IntOp.minsi t (BitVec.ofNat 32 k) = BitVec.ofNat 32 (min t.toNat k) := by
  unfold IntOp.minsi
  by_cases hlt : t.toNat < k
  · rw [if_pos (by rw [BitVec.slt_iff_toInt_lt, toInt_eq ht, toInt_ofNat hk]; exact Int.ofNat_lt.2 hlt), Nat.min_eq_left hlt.le, ofNat_toNat]
  · rw [if_neg (by rw [BitVec.slt_iff_toInt_lt, toInt_eq ht, toInt_ofNat hk]; exact fun e => hlt (Int.ofNat_lt.1 e)), Nat.min_eq_right (Nat.le_of_not_lt hlt)]

/-- The literal first: min(k, m) signed is the literal of min(k, μ). -/
theorem minsi_ofNat_left {m : BitVec 32} (hm : m.toNat < 2 ^ 31) (hk : k < 2 ^ 31) :
    IntOp.minsi (BitVec.ofNat 32 k) m = BitVec.ofNat 32 (min k m.toNat) := by
  unfold IntOp.minsi
  by_cases hlt : k < m.toNat
  · rw [if_pos (by rw [BitVec.slt_iff_toInt_lt, toInt_eq hm, toInt_ofNat hk]; exact Int.ofNat_lt.2 hlt), Nat.min_eq_left hlt.le]
  · rw [if_neg (by rw [BitVec.slt_iff_toInt_lt, toInt_eq hm, toInt_ofNat hk]; exact fun e => hlt (Int.ofNat_lt.1 e)),
      Nat.min_eq_right (Nat.le_of_not_lt hlt), ofNat_toNat]

theorem minsi_ofNat_toNat (ht : t.toNat < 2 ^ 31) (hk : k < 2 ^ 31) :
    (IntOp.minsi t (BitVec.ofNat 32 k)).toNat = min t.toNat k := by
  rw [minsi_ofNat ht hk, toNat_ofNat (lt_of_le_of_lt (Nat.min_le_right _ _) (by omega))]

/-- … which is again below 2³¹ (reads nonnegative), and reads signed as min(τ, k). -/
theorem minsi_ofNat_lt (ht : t.toNat < 2 ^ 31) (hk : k < 2 ^ 31) : (IntOp.minsi t (BitVec.ofNat 32 k)).toNat < 2 ^ 31 := by
  rw [minsi_ofNat_toNat ht hk]; exact lt_of_le_of_lt (Nat.min_le_right _ _) hk

theorem minsi_ofNat_toInt (ht : t.toNat < 2 ^ 31) (hk : k < 2 ^ 31) :
    (IntOp.minsi t (BitVec.ofNat 32 k)).toInt = ((min t.toNat k : ℕ) : ℤ) := by
  rw [minsi_ofNat ht hk, toInt_ofNat (lt_of_le_of_lt (Nat.min_le_right _ _) hk)]

/-! ## (3) Subtracting a literal -/

/-- t − k does not wrap: its signed reading is the integer τ − k. -/
theorem subi_toInt (ht : t.toNat < 2 ^ 31) (hk : k < 2 ^ 31) :
    (IntOp.subi t (BitVec.ofNat 32 k)).toInt = (t.toNat : ℤ) - (k : ℤ) := by
  show (t - BitVec.ofNat 32 k).toInt = _
  rw [BitVec.toInt_eq_toNat_cond, BitVec.toNat_sub, toNat_ofNat (by omega)]
  split <;> omega

/-- When k ≤ τ the difference is the literal of τ − k … -/
theorem subi_of_le (ht : t.toNat < 2 ^ 31) (hk : k < 2 ^ 31) (hle : k ≤ t.toNat) :
    IntOp.subi t (BitVec.ofNat 32 k) = BitVec.ofNat 32 (t.toNat - k) := by
  apply BitVec.eq_of_toNat_eq
  show (t - BitVec.ofNat 32 k).toNat = _
  rw [BitVec.toNat_sub, toNat_ofNat (by omega), toNat_ofNat (by omega)]
  omega

theorem subi_toNat_of_le (ht : t.toNat < 2 ^ 31) (hk : k < 2 ^ 31) (hle : k ≤ t.toNat) :
    (IntOp.subi t (BitVec.ofNat 32 k)).toNat = t.toNat - k := by
  rw [subi_of_le ht hk hle, toNat_ofNat (by omega)]

/-- … which reads nonnegative; when τ < k the difference reads negative. -/
theorem subi_nonneg_of_le (ht : t.toNat < 2 ^ 31) (hk : k < 2 ^ 31) (hle : k ≤ t.toNat) :
    0 ≤ (IntOp.subi t (BitVec.ofNat 32 k)).toInt := by
  rw [subi_toInt ht hk]; omega

theorem subi_lt_of_le (ht : t.toNat < 2 ^ 31) (hk : k < 2 ^ 31) (hle : k ≤ t.toNat) :
    (IntOp.subi t (BitVec.ofNat 32 k)).toNat < 2 ^ 31 := by
  rw [subi_toNat_of_le ht hk hle]; omega

theorem subi_neg_of_lt (ht : t.toNat < 2 ^ 31) (hk : k < 2 ^ 31) (hlt : t.toNat < k) :
    (IntOp.subi t (BitVec.ofNat 32 k)).toInt < 0 := by
  rw [subi_toInt ht hk]; omega

end

/-! ## (4) jnp.clip to [0, hi]: `minimum hi (maximum 0 w)` -/

/-- A signed reading, cut below at 0, is below 2³¹. -/
theorem toInt_toNat_lt (w : BitVec 32) : w.toInt.toNat < 2 ^ 31 := by
  have h1 := w.isLt
  rw [BitVec.toInt_eq_toNat_cond]
  split <;> omega

/-- `maximum 0 w` (the lower bound first) is the literal of w's signed reading, negative readings to 0. -/
theorem maxsi_zero (w : BitVec 32) : IntOp.maxsi 0#32 w = BitVec.ofNat 32 w.toInt.toNat := by
  unfold IntOp.maxsi
  by_cases hneg : w.toInt < 0
  · rw [if_pos (by rw [BitVec.slt_iff_toInt_lt, BitVec.toInt_zero]; exact hneg), Int.toNat_eq_zero.2 hneg.le]
  · have hw : w.toNat < 2 ^ 31 := nonneg_iff.1 (Int.not_lt.1 hneg)
    rw [if_neg (by rw [BitVec.slt_iff_toInt_lt, BitVec.toInt_zero]; exact hneg), toInt_toNat hw, ofNat_toNat]

/-- The clip of any word w to [0, hi], as printed (`maximum` with the lower bound first, then `minimum` with the upper
    bound first): the literal of w's signed reading, negative readings to 0, cut at hi. -/
theorem clip_eq (w : BitVec 32) {hi : ℕ} (hhi : hi < 2 ^ 31) :
    IntOp.minsi (BitVec.ofNat 32 hi) (IntOp.maxsi 0#32 w) = BitVec.ofNat 32 (min w.toInt.toNat hi) := by
  have hn := toInt_toNat_lt w
  rw [maxsi_zero, minsi_ofNat_left (ofNat_lt hn) hhi, toNat_ofNat (by omega), Nat.min_comm]

section
variable {t : BitVec 32} {k hi : ℕ}

/-- The clip of t − k to [0, hi] is the literal of min (τ − k) hi, the subtraction truncated at 0. -/
theorem clip_sub (ht : t.toNat < 2 ^ 31) (hk : k < 2 ^ 31) (hhi : hi < 2 ^ 31) :
    IntOp.minsi (BitVec.ofNat 32 hi) (IntOp.maxsi 0#32 (IntOp.subi t (BitVec.ofNat 32 k)))
      = BitVec.ofNat 32 (min (t.toNat - k) hi) := by
  rw [clip_eq _ hhi, subi_toInt ht hk]
  congr 2
  omega

theorem clip_sub_toNat (ht : t.toNat < 2 ^ 31) (hk : k < 2 ^ 31) (hhi : hi < 2 ^ 31) :
    (IntOp.minsi (BitVec.ofNat 32 hi) (IntOp.maxsi 0#32 (IntOp.subi t (BitVec.ofNat 32 k)))).toNat = min (t.toNat - k) hi := by
  rw [clip_sub ht hk hhi, toNat_ofNat (lt_of_le_of_lt (Nat.min_le_right _ _) (by omega))]

/-- … below 2³¹ (reads nonnegative), reading signed as min (τ − k) hi. -/
theorem clip_sub_lt (ht : t.toNat < 2 ^ 31) (hk : k < 2 ^ 31) (hhi : hi < 2 ^ 31) :
    (IntOp.minsi (BitVec.ofNat 32 hi) (IntOp.maxsi 0#32 (IntOp.subi t (BitVec.ofNat 32 k)))).toNat < 2 ^ 31 := by
  rw [clip_sub_toNat ht hk hhi]; exact lt_of_le_of_lt (Nat.min_le_right _ _) hhi

theorem clip_sub_toInt (ht : t.toNat < 2 ^ 31) (hk : k < 2 ^ 31) (hhi : hi < 2 ^ 31) :
    (IntOp.minsi (BitVec.ofNat 32 hi) (IntOp.maxsi 0#32 (IntOp.subi t (BitVec.ofNat 32 k)))).toInt
      = ((min (t.toNat - k) hi : ℕ) : ℤ) := by
  rw [clip_sub ht hk hhi, toInt_ofNat (lt_of_le_of_lt (Nat.min_le_right _ _) hhi)]

end

/-! ## (5) jax's negative-index normalisation: `select (w <ₛ 0) (w + size) w` -/

/-- A word below 2³¹ (one that reads nonnegative) is left as it is. -/
theorem select_norm {w : BitVec 32} (hw : w.toNat < 2 ^ 31) (size : BitVec 32) :
    Scalar.select (IntOp.cmpi .slt w 0#32) (IntOp.addi w size) w = w := by
  rw [slt_zero hw]; rfl

/-- … so a literal below 2³¹ (an iota's row number) is left as it is. -/
theorem select_norm_ofNat {j : ℕ} (hj : j < 2 ^ 31) (size : BitVec 32) :
    Scalar.select (IntOp.cmpi .slt (BitVec.ofNat 32 j) 0#32) (IntOp.addi (BitVec.ofNat 32 j) size) (BitVec.ofNat 32 j)
      = BitVec.ofNat 32 j := select_norm (ofNat_lt hj) size

section
variable {t : BitVec 32} {k hi : ℕ}

/-- The head's column word: min(t, k), normalised, is the literal of min(τ, k). -/
theorem norm_minsi (ht : t.toNat < 2 ^ 31) (hk : k < 2 ^ 31) (size : BitVec 32) :
    Scalar.select (IntOp.cmpi .slt (IntOp.minsi t (BitVec.ofNat 32 k)) 0#32)
        (IntOp.addi (IntOp.minsi t (BitVec.ofNat 32 k)) size) (IntOp.minsi t (BitVec.ofNat 32 k))
      = BitVec.ofNat 32 (min t.toNat k) := by
  rw [select_norm (minsi_ofNat_lt ht hk), minsi_ofNat ht hk]

/-- A tail's column word: the clip of t − k to [0, hi], normalised, is the literal of min (τ − k) hi. -/
theorem norm_clip_sub (ht : t.toNat < 2 ^ 31) (hk : k < 2 ^ 31) (hhi : hi < 2 ^ 31) (size : BitVec 32) :
    Scalar.select (IntOp.cmpi .slt (IntOp.minsi (BitVec.ofNat 32 hi) (IntOp.maxsi 0#32 (IntOp.subi t (BitVec.ofNat 32 k)))) 0#32)
        (IntOp.addi (IntOp.minsi (BitVec.ofNat 32 hi) (IntOp.maxsi 0#32 (IntOp.subi t (BitVec.ofNat 32 k)))) size)
        (IntOp.minsi (BitVec.ofNat 32 hi) (IntOp.maxsi 0#32 (IntOp.subi t (BitVec.ofNat 32 k))))
      = BitVec.ofNat 32 (min (t.toNat - k) hi) := by
  rw [select_norm (clip_sub_lt ht hk hhi), clip_sub ht hk hhi]

end

/-! ## (6) A gather's start index: read signed, clamped into the table -/

/-- A word whose signed reading is the number j, with j ≤ N, clamps to j: `min w.toInt.toNat N = j`. -/
theorem clamp_of_toInt {w : BitVec 32} {j N : ℕ} (hw : w.toInt = (j : ℤ)) (hj : j ≤ N) : min w.toInt.toNat N = j := by
  rw [hw, Int.toNat_natCast]; exact Nat.min_eq_left hj

/-- The literal of j ≤ N (j below 2³¹) clamps to j. -/
theorem clamp_ofNat {j N : ℕ} (hj : j ≤ N) (hj' : j < 2 ^ 31) : min (BitVec.ofNat 32 j).toInt.toNat N = j :=
  clamp_of_toInt (toInt_ofNat hj') hj

/-- The literal of any j below 2³¹ clamps to min j N. -/
theorem clamp_ofNat_min {j N : ℕ} (hj' : j < 2 ^ 31) : min (BitVec.ofNat 32 j).toInt.toNat N = min j N := by
  rw [toInt_ofNat hj', Int.toNat_natCast]

section
variable {t : BitVec 32} {k hi : ℕ}

/-- The head's start index: min(t, k) read signed and clamped to N ≥ k is min(τ, k). -/
theorem clamp_minsi (ht : t.toNat < 2 ^ 31) (hk : k < 2 ^ 31) {N : ℕ} (hN : k ≤ N) :
    min (IntOp.minsi t (BitVec.ofNat 32 k)).toInt.toNat N = min t.toNat k :=
  clamp_of_toInt (minsi_ofNat_toInt ht hk) (le_trans (Nat.min_le_right _ _) hN)

/-- A tail's start index: the clip word read signed and clamped to N ≥ hi is min (τ − k) hi. -/
theorem clamp_clip_sub (ht : t.toNat < 2 ^ 31) (hk : k < 2 ^ 31) (hhi : hi < 2 ^ 31) {N : ℕ} (hN : hi ≤ N) :
    min (IntOp.minsi (BitVec.ofNat 32 hi) (IntOp.maxsi 0#32 (IntOp.subi t (BitVec.ofNat 32 k)))).toInt.toNat N
      = min (t.toNat - k) hi :=
  clamp_of_toInt (clip_sub_toInt ht hk hhi) (le_trans (Nat.min_le_right _ _) hN)

end

end Cert.Proof.Val.Words
-- ==== Proof.Val.Pre.lean ====
/-
  THE PRECONDITION, DECODED (at the ideal instance). The printed predicate `Cert.Pre_finite_inputs.fn` is the conjunction,
  folded left to right by `and`, of nine `jnp.all`s: for each of the eight float arrays x, that |x| < +∞ at every
  index, and for the integer array of targets t, that t ≥ 0 (signed) at every index. The claim states that the
  predicate's one word is 1. Read back: every entry of every float array is a real number (at the ideal instance a float
  is an extended real, |x| = max x (−x), and the pattern 0x7F800000 denotes ⊤, so |x| < ⊤ excludes both ⊤ and ⊥), and
  every target reads nonnegative as a signed word.
-/
import proofs.«416376_j65790309040722_2_alg».proof.Pre_finite_inputs
import Idealize.ShloMosaic.PureOps.Ideal
import Idealize.ShloMosaic.Lib.ReduceAll
import Idealize.ShloMosaic.Lib.IdealHost

set_option maxRecDepth 16384

noncomputable section

namespace Cert.Proof.Val.PreFacts

open Idealize.ShloMosaic Idealize.ShloMosaic.ValueIdx
open Cert.Pre_finite_inputs

variable [hPre : Cert.Pre_finite_inputs.Facts]

/-- The predicate's result, a rank-0 array, has one index. -/
instance : Subsingleton S_.Idx := ⟨fun a b => funext fun d => d.elim0⟩

/-- An entry is a real number: neither infinity. -/
abbrev IsReal (x : EReal) : Prop := ∃ r : ℝ, x = (r : EReal)

/-- A boolean's word is 1 exactly when the boolean is true. -/
theorem ofBool_eq_one {b : Bool} : BitVec.ofBool b = 1#1 ↔ b = true := by cases b <;> decide

/-- The f32 pattern 0x7F800000 (sign 0, exponent all ones, fraction 0) denotes +∞. -/
theorem inf_eq_top : (FloatOps.ofBits (F := Ideal) .f32 0x7F800000#32 : Ideal .f32) = (⊤ : EReal) := by
  show Ideal.ofBits .f32 0x7F800000#32 = ⊤
  simp [Ideal.ofBits, Ideal.ieee]

/-- ONE ELEMENT. |x| < +∞ (the word of the ordered comparison is 1) says x is a real: max ⊤ (−⊤) = ⊤ and
    max ⊥ (−⊥) = ⊤ are not below ⊤. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  rw [inf_eq_top] at h
  change Ideal.cmp .olt (max x (-x)) ⊤ = 1#1 at h
  unfold Ideal.cmp at h
  rw [ofBool_eq_one] at h
  simp only [decide_eq_true_eq] at h
  induction x using EReal.rec with
  | bot => simp at h
  | top => simp at h
  | coe r => exact ⟨r, rfl⟩

/-- ONE FLOAT ARRAY. A `jnp.all (|x| < +∞)` that came out 1 says every entry of x is a real: the reduction by `and`
    into one word had a 1 at every index, and at an index the comparison is the element's against the broadcast +∞. -/
theorem all_real {s : Shape} {axes : List (Fin s.rank)} (x : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf x) (broadcastInDim s ![] hb (constant (F := Ideal) S_ .f32 0x7F800000#32)))
      init hr hu ValueIdx.ix0 = 1#1) : ∀ i, IsReal (x i) := by
  intro i
  have hi := Host.reduce_andi_all _ init hr hu ValueIdx.ix0 e i
  exact real_of_abs_lt_inf (x i) hi

/-- THE INTEGER ARRAY. A `jnp.all (t ≥ 0)` that came out 1 says the signed comparison's word is 1 at every index. -/
theorem all_sge {s : Shape} {axes : List (Fin s.rank)} (t : IVec s 32) (hb : S_.BroadcastsInDim s (![] : Fin 0 → Fin s.rank))
    (hr : s.ReducesTo axes S_) (hu : 0 < S_.numel) (init : IVec S_ 1)
    (e : Host.reduce IntOp.andi (cmpi .sge t (broadcastInDim s ![] hb (constantI S_ 32 0#32))) init hr hu ValueIdx.ix0 = 1#1) :
    ∀ i, IntOp.cmpi .sge (t i) 0#32 = 1#1 := by
  intro i
  exact Host.reduce_andi_all _ init hr hu ValueIdx.ix0 e i

/-- The vector `and` of two `i1` arrays is 1 at an index exactly when both are. -/
theorem andi_apply_eq_one {s : Shape} (x y : IVec s 1) (j : s.Idx) : andi x y j = 1#1 ↔ x j = 1#1 ∧ y j = 1#1 :=
  IntOp.andi_eq_one

section
variable (x0 : FVec Ideal S2048x512 .f32) (t : IVec S2048 32) (hw : FVec Ideal S1003x512 .f32)
  (a3 : FVec Ideal S128x512 .f32) (a4 : FVec Ideal S9000x128 .f32) (a5 : FVec Ideal S32x512 .f32)
  (a6 : FVec Ideal S40000x32 .f32) (a7 : FVec Ideal S8x512 .f32) (a8 : FVec Ideal S50000x8 .f32)

/-- THE DECODING. The predicate all ones: its nine conjuncts each 1, so every float entry is a real and every target's
    comparison with 0 has word 1. The conjunction is nested to the left, the targets' conjunct last. -/
theorem decode (h : Cert.Pre_finite_inputs.fn (F := Ideal) x0 t hw a3 a4 a5 a6 a7 a8 = (fun _ => 1#1)) :
    (∀ i, IsReal (x0 i)) ∧ (∀ i, IsReal (hw i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i))
      ∧ (∀ i : S2048.Idx, IntOp.cmpi .sge (t i) 0#32 = 1#1) := by
  have h0 := congrFun h ValueIdx.ix0
  dsimp only [Cert.Pre_finite_inputs.fn, Cert.Pre_finite_inputs.fn_part1, Cert.Pre_finite_inputs.fn_part2] at h0
  simp only [andi_apply_eq_one] at h0
  obtain ⟨⟨⟨⟨⟨⟨⟨⟨e0, e2⟩, e3⟩, e4⟩, e5⟩, e6⟩, e7⟩, e8⟩, e1⟩ := h0
  exact ⟨all_real x0 _ _ _ _ e0, all_real hw _ _ _ _ e2, all_real a3 _ _ _ _ e3, all_real a4 _ _ _ _ e4,
    all_real a5 _ _ _ _ e5, all_real a6 _ _ _ _ e6, all_real a7 _ _ _ _ e7, all_real a8 _ _ _ _ e8,
    all_sge t _ _ _ _ e1⟩

/-- Every entry of every float input is a real (one conjunct per float input, in argument order 0, 2, 3, …, 8). -/
theorem finite_of_pre (h : Cert.Pre_finite_inputs.fn (F := Ideal) x0 t hw a3 a4 a5 a6 a7 a8 = (fun _ => 1#1)) :
    (∀ i, ∃ r : ℝ, x0 i = (r : EReal)) ∧ (∀ i, ∃ r : ℝ, hw i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) := by
  obtain ⟨f0, f2, f3, f4, f5, f6, f7, f8, _⟩ := decode x0 t hw a3 a4 a5 a6 a7 a8 h
  exact ⟨f0, f2, f3, f4, f5, f6, f7, f8⟩

theorem fin_arg0 (h : Cert.Pre_finite_inputs.fn (F := Ideal) x0 t hw a3 a4 a5 a6 a7 a8 = (fun _ => 1#1)) (i : S2048x512.Idx) : ∃ r : ℝ, x0 i = (r : EReal) := (decode x0 t hw a3 a4 a5 a6 a7 a8 h).1 i
theorem fin_arg2 (h : Cert.Pre_finite_inputs.fn (F := Ideal) x0 t hw a3 a4 a5 a6 a7 a8 = (fun _ => 1#1)) (i : S1003x512.Idx) : ∃ r : ℝ, hw i = (r : EReal) := (decode x0 t hw a3 a4 a5 a6 a7 a8 h).2.1 i
theorem fin_arg3 (h : Cert.Pre_finite_inputs.fn (F := Ideal) x0 t hw a3 a4 a5 a6 a7 a8 = (fun _ => 1#1)) (i : S128x512.Idx) : ∃ r : ℝ, a3 i = (r : EReal) := (decode x0 t hw a3 a4 a5 a6 a7 a8 h).2.2.1 i
theorem fin_arg4 (h : Cert.Pre_finite_inputs.fn (F := Ideal) x0 t hw a3 a4 a5 a6 a7 a8 = (fun _ => 1#1)) (i : S9000x128.Idx) : ∃ r : ℝ, a4 i = (r : EReal) := (decode x0 t hw a3 a4 a5 a6 a7 a8 h).2.2.2.1 i
theorem fin_arg5 (h : Cert.Pre_finite_inputs.fn (F := Ideal) x0 t hw a3 a4 a5 a6 a7 a8 = (fun _ => 1#1)) (i : S32x512.Idx) : ∃ r : ℝ, a5 i = (r : EReal) := (decode x0 t hw a3 a4 a5 a6 a7 a8 h).2.2.2.2.1 i
theorem fin_arg6 (h : Cert.Pre_finite_inputs.fn (F := Ideal) x0 t hw a3 a4 a5 a6 a7 a8 = (fun _ => 1#1)) (i : S40000x32.Idx) : ∃ r : ℝ, a6 i = (r : EReal) := (decode x0 t hw a3 a4 a5 a6 a7 a8 h).2.2.2.2.2.1 i
theorem fin_arg7 (h : Cert.Pre_finite_inputs.fn (F := Ideal) x0 t hw a3 a4 a5 a6 a7 a8 = (fun _ => 1#1)) (i : S8x512.Idx) : ∃ r : ℝ, a7 i = (r : EReal) := (decode x0 t hw a3 a4 a5 a6 a7 a8 h).2.2.2.2.2.2.1 i
theorem fin_arg8 (h : Cert.Pre_finite_inputs.fn (F := Ideal) x0 t hw a3 a4 a5 a6 a7 a8 = (fun _ => 1#1)) (i : S50000x8.Idx) : ∃ r : ℝ, a8 i = (r : EReal) := (decode x0 t hw a3 a4 a5 a6 a7 a8 h).2.2.2.2.2.2.2.1 i

/-- Every target reads nonnegative as a signed word. -/
theorem targets_nonneg_of_pre (h : Cert.Pre_finite_inputs.fn (F := Ideal) x0 t hw a3 a4 a5 a6 a7 a8 = (fun _ => 1#1)) : ∀ i : S2048.Idx, 0 ≤ (t i).toInt := by
  intro i
  have e := IntOp.cmpi_sge.1 ((decode x0 t hw a3 a4 a5 a6 a7 a8 h).2.2.2.2.2.2.2.2 i)
  rwa [BitVec.toInt_zero] at e

/-- The same as the test made before an index is wrapped: `t < 0` (signed) is false. -/
theorem targets_not_slt_of_pre (h : Cert.Pre_finite_inputs.fn (F := Ideal) x0 t hw a3 a4 a5 a6 a7 a8 = (fun _ => 1#1)) : ∀ i : S2048.Idx, (t i).slt 0#32 = false := by
  intro i
  have e := targets_nonneg_of_pre x0 t hw a3 a4 a5 a6 a7 a8 h i
  rw [BitVec.slt, BitVec.toInt_zero, decide_eq_false_iff_not, not_lt]
  exact e

/-- … and as the comparison's word: `cmpi slt t 0` is the word 0 at every index. -/
theorem targets_cmpi_slt_zero_of_pre (h : Cert.Pre_finite_inputs.fn (F := Ideal) x0 t hw a3 a4 a5 a6 a7 a8 = (fun _ => 1#1)) : ∀ i : S2048.Idx, IntOp.cmpi .slt (t i) 0#32 = 0#1 := by
  intro i
  show BitVec.ofBool ((t i).slt 0#32) = 0#1
  rw [targets_not_slt_of_pre x0 t hw a3 a4 a5 a6 a7 a8 h i]
  rfl

/-- A nonnegative target is its unsigned value, below 2³¹. -/
theorem targets_toNat_of_pre (h : Cert.Pre_finite_inputs.fn (F := Ideal) x0 t hw a3 a4 a5 a6 a7 a8 = (fun _ => 1#1)) : ∀ i : S2048.Idx, (t i).toNat < 2 ^ 31 ∧ (t i).toInt = ((t i).toNat : Int) := by
  intro i
  have e := BitVec.toInt_pos_iff.1 (targets_nonneg_of_pre x0 t hw a3 a4 a5 a6 a7 a8 h i)
  refine ⟨by omega, ?_⟩
  rw [BitVec.toInt_eq_toNat_cond, if_pos e]

end

end Cert.Proof.Val.PreFacts

end
-- ==== Proof.Val.KHost.lean ====
/-
  THE HOST SIDE of the kernel program, at the ideal instance: what the stretches of host operations before, between and
  after the four kernel regions compute, read at an index.

  The program converts the activations, shortens the targets into the shortlist's range, and hands both to the head
  region; from the head's four columns it takes the shortlist value and the three cluster biases; for each tail cluster
  it clips the target relative to the cluster's first class, gathers the rows of the cluster's second matrix at the
  clipped targets, hands them to the cluster's region, and afterwards puts "bias + tail value" in place of the running
  result wherever the target lies in the cluster's range. Every integer step is stated over the signed 32-bit word
  operations exactly as the program has them (a signed compare, a signed minimum or maximum, a wrapping difference, a
  select on a one-bit word); reading those words as natural numbers under the sign condition on the targets is done
  elsewhere.

  This module: the words of the index arithmetic; the few layout reads the stretches need (a vector as a column and back,
  a broadcast scalar, a gather of whole rows); then, for ANY contents a stretch starts from, what the stretches before and
  right after the head region write, as terms of those contents and at an index; and the three clusters' shared steps on
  vectors. The clusters' own stretches are in the modules KHostC0, KHostC1, KHostC2, the composition along the run of the
  whole program in KHostChain.
-/
import proofs.«416376_j65790309040722_2_alg».proof.Proof.Gen.KernelIdeal.Launch
import proofs.«416376_j65790309040722_2_alg».proof.Proof.Gen.KernelIdeal.Regions
import proofs.«416376_j65790309040722_2_alg».proof.Proof.Val.Spec
import Idealize.ShloMosaic.Lib.StableHlo.Run
import Idealize.ShloMosaic.Lib.ValueIdx
import Idealize.ShloMosaic.Lib.ValueLayout

set_option maxRecDepth 16384

noncomputable section

namespace Cert.Proof.Val.KHost

open Idealize.ShloMosaic Idealize.ShloMosaic.TcCoe Idealize.ShloMosaic.ValueIdx
open Cert.KernelIdeal Cert.KernelIdeal.Gen

/-! ## The words of the index arithmetic, as the program has them -/

/-- The target relative to a cluster's first class `lo`, clipped into the cluster's rows `[0, hi]`:
    `min(hi, max(0, t − lo))`, signed, the difference wrapping. -/
def relW (lo hi t : BitVec 32) : BitVec 32 := IntOp.minsi hi (IntOp.maxsi 0#32 (IntOp.subi t lo))

/-- A row index below zero counted from the end of `n` rows: `r < 0 ? r + n : r`, signed. -/
def normW (n r : BitVec 32) : BitVec 32 := Scalar.select (IntOp.cmpi .slt r 0#32) (IntOp.addi r n) r

/-- The row a gather reads for a start index `w`: the word read signed and clamped into `[0, N − 1]`. -/
def rowOf (N : ℕ) (hN : 0 < N) (w : BitVec 32) : Fin N := ⟨min w.toInt.toNat (N - 1), by omega⟩

/-- The one-bit word of `lo ≤ t < hi`, signed. -/
def inW (lo hi t : BitVec 32) : BitVec 1 := IntOp.andi (IntOp.cmpi .sge t lo) (IntOp.cmpi .slt t hi)

/-! ## Layout reads -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar broadcast to any shape reads the scalar everywhere. -/
theorem bcastScalar_apply {t : Shape} (h : (⟨0, ![]⟩ : Shape).BroadcastsInDim t ![]) (v : (⟨0, ![]⟩ : Shape).Idx → α) (j : t.Idx) :
    broadcastInDim t ![] h v j = v ix0 := by
  simp only [broadcastInDim]
  congr 1
  funext a
  exact a.elim0

/-- A vector `[a]` laid as a column `[a, 1]` reads, at `(i, u)`, the vector at `i`. -/
theorem bcastCol_apply {a : ℕ} (h : (⟨1, ![a]⟩ : Shape).BroadcastsInDim ⟨2, ![a, 1]⟩ ![0]) (v : (⟨1, ![a]⟩ : Shape).Idx → α)
    (i : Fin a) (u : Fin 1) : broadcastInDim ⟨2, ![a, 1]⟩ ![0] h v (ix2 i u) = v (ix1 i) :=
  broadcastInDim_apply _ h v _ _ (fun ax => by
    match ax with
    | ⟨0, _⟩ =>
      show i.val = if a = 1 then 0 else i.val
      have := i.isLt
      split <;> omega)

/-- A gather of whole rows: the operand [N, H], one start index per result row (a column [R, 1] of words), axis 0
    collapsed and start-indexed, axis 1 the one offset axis. Result element (n, h) is the operand at row "the start index
    of n, read signed and clamped into [0, N − 1]" and column h. -/
theorem gather_rows {α : Type} {N H R w : ℕ} (d : GatherDims ⟨2, ![N, H]⟩ ⟨2, ![R, 1]⟩ ⟨2, ![R, H]⟩)
    (hoff : d.offsetDims = [1]) (hcoll : d.collapsedSliceDims = [0]) (hob : d.operandBatchingDims = [])
    (hsim : d.startIndexMap = [0]) (hivd : d.indexVectorDim = 1)
    (x : (⟨2, ![N, H]⟩ : Shape).Idx → α) (idx : IVec ⟨2, ![R, 1]⟩ w) (n : Fin R) (h : Fin H) (hN : 0 < N) :
    Host.gather d x idx (ix2 n h) = x (ix2 ⟨min (idx (ix2 n (0 : Fin 1))).toInt.toNat (N - 1), by omega⟩ h) := by
  unfold Host.gather
  congr 1
  funext a
  apply Fin.ext
  have hb0 : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 n h) idx 0 + d.batchCoord (ix2 n h) 0 + d.offCoord (ix2 n h) 0 = min (idx (ix2 n (0 : Fin 1))).toInt.toNat (N - 1)
    rw [GatherDims.batchCoord_eq_zero _ _ _ (hb0 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      have key : ∀ (k : ℕ) (hk : k < d.batchDims.length), d.batchDims[k]'hk = (0 : Fin 2) := by
        have e : d.batchDims = [0] := by
          show Shape.kept _ d.offsetDims = _
          rw [hoff]
          show (List.finRange 2).filter (fun a => a ∉ [(1 : Fin 2)]) = [(0 : Fin 2)]
          decide
        rw [e]
        intro k hk
        have : k = 0 := by simpa using hk
        subst this; rfl
      rw [key]
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 n h) idx 1 + d.batchCoord (ix2 n h) 1 + d.offCoord (ix2 n h) 1 = h.val
    rw [GatherDims.batchCoord_eq_zero _ _ _ (hb0 1), Nat.add_zero]
    unfold GatherDims.start
    rw [dif_neg hm, Nat.zero_add]
    unfold GatherDims.offCoord
    rw [dif_pos hk]
    have key : ∀ (k : ℕ) (hk : k < d.offsetDims.length), d.offsetDims[k]'hk = (1 : Fin 2) := by
      rw [hoff]
      intro k hk
      have : k = 0 := by simpa using hk
      subst this; rfl
    rw [key]

end Layout

/-! ## Stretch by stretch, from any contents

`W` is what the device's buffers hold when the stretch starts. Each buffer a stretch writes and a later item reads is
given first as a term of `W` at the buffers the stretch reads, then at an index. -/

local notation "𝕍" => Valuation τ sig (Elt Ideal)

/-- The sum of two extended reals, for operands read off buffers (a buffer's element type is the extended reals only
    after the signature's table is looked up, too late for the search that finds `+`). -/
local infixl:65 " +ₑ " => (HAdd.hAdd : EReal → EReal → EReal)

/-! ### Before the head region: the activations converted, the targets shortened -/

theorem after_hostOps0_v0 (W : 𝕍) :
    (StableHlo.after (hostOps0 (F := Ideal)) W main_v0 : S2048x512.Idx → EReal)
      = truncf (F := Ideal) .bf16 (W main_arg0 : FVec Ideal S2048x512 .f32) bitsLt_bf16_f32 := by
  after_results
  all_goals rfl

theorem after_hostOps0_v3 (W : 𝕍) :
    (StableHlo.after (hostOps0 (F := Ideal)) W main_v3 : S2048x1.Idx → BitVec 32)
      = shapeCast S2048x1 (minsi (W main_arg1 : IVec S2048 32) (broadcastInDim S2048 ![] bcast_S_S2048 (constantI S_ 32 999#32)))
          shapeCasts_S2048_S2048x1 := by
  after_results
  all_goals rfl

/-- The converted activations are the activations: a change of format is the identity on extended reals. -/
theorem hostOps0_v0_apply (W : 𝕍) (n : Fin 2048) (d : Fin 512) :
    (StableHlo.after (hostOps0 (F := Ideal)) W main_v0 : S2048x512.Idx → EReal) (ix2 n d)
      = (W main_arg0 : S2048x512.Idx → EReal) (ix2 n d) :=
  congrFun (after_hostOps0_v0 W) (ix2 n d)

/-- The shortened target of sample `n`: `min(t, 999)`, signed. -/
theorem hostOps0_v3_apply (W : 𝕍) (n : Fin 2048) (u : Fin 1) :
    (StableHlo.after (hostOps0 (F := Ideal)) W main_v3 : S2048x1.Idx → BitVec 32) (ix2 n u)
      = IntOp.minsi ((W main_arg1 : S2048.Idx → BitVec 32) (ix1 n)) 999#32 :=
  (congrFun (after_hostOps0_v3 W) (ix2 n u)).trans (shapeCast_a_a1_apply _ _ n u)

/-! ### After the head region: its four columns taken apart, the shortlist's result -/

theorem after_hostOps1_v6 (W : 𝕍) :
    (StableHlo.after (hostOps1 (F := Ideal)) W main_v6 : S2048.Idx → EReal)
      = shapeCast S2048 (extractStridedSlice S2048x1 ![0, 0] (W main_v4 : S2048x4.Idx → EReal) slices_S2048x4_S2048x1_0_0)
          shapeCasts_S2048x1_S2048 := by
  after_results
  all_goals rfl

theorem after_hostOps1_v7 (W : 𝕍) :
    (StableHlo.after (hostOps1 (F := Ideal)) W main_v7 : S2048x3.Idx → EReal)
      = extractStridedSlice S2048x3 ![0, 1] (W main_v4 : S2048x4.Idx → EReal) slices_S2048x4_S2048x3_0_1 := by
  after_results
  all_goals rfl

theorem after_hostOps1_v9 (W : 𝕍) :
    (StableHlo.after (hostOps1 (F := Ideal)) W main_v9 : S2048.Idx → BitVec 1)
      = cmpi .slt (W main_arg1 : IVec S2048 32) (broadcastInDim S2048 ![] bcast_S_S2048 (constantI S_ 32 1000#32)) := by
  after_results
  all_goals rfl

theorem after_hostOps1_cst (W : 𝕍) :
    (StableHlo.after (hostOps1 (F := Ideal)) W main_cst : S_.Idx → EReal) = constant (F := Ideal) S_ .f32 0x00000000#32 := by
  after_results
  all_goals rfl

/-- The shortlist value of sample `n`: the head's column 0. -/
theorem hostOps1_v6_apply (W : 𝕍) (n : Fin 2048) :
    (StableHlo.after (hostOps1 (F := Ideal)) W main_v6 : S2048.Idx → EReal) (ix1 n)
      = (W main_v4 : S2048x4.Idx → EReal) (ix2 n (0 : Fin 4)) :=
  (congrFun (after_hostOps1_v6 W) (ix1 n)).trans <| (shapeCast_a1_a_apply _ _ n).trans <|
    slice2_axis1_apply 0 _ _ n (0 : Fin 1) (0 : Fin 4) rfl

/-- The cluster biases of sample `n`: the head's columns 1, 2, 3. -/
theorem hostOps1_v7_apply (W : 𝕍) (n : Fin 2048) (k : Fin 3) :
    (StableHlo.after (hostOps1 (F := Ideal)) W main_v7 : S2048x3.Idx → EReal) (ix2 n k)
      = (W main_v4 : S2048x4.Idx → EReal) (ix2 n (⟨1 + k.val, by omega⟩ : Fin 4)) :=
  (congrFun (after_hostOps1_v7 W) (ix2 n k)).trans <| slice2_axis1_apply 1 _ _ n k (⟨1 + k.val, by omega⟩ : Fin 4) rfl

theorem hostOps1_v9_apply (W : 𝕍) (n : Fin 2048) :
    (StableHlo.after (hostOps1 (F := Ideal)) W main_v9 : S2048.Idx → BitVec 1) (ix1 n)
      = IntOp.cmpi .slt ((W main_arg1 : S2048.Idx → BitVec 32) (ix1 n)) 1000#32 :=
  congrFun (after_hostOps1_v9 W) (ix1 n)

theorem hostOps1_cst_apply (W : 𝕍) :
    (StableHlo.after (hostOps1 (F := Ideal)) W main_cst : S_.Idx → EReal) ix0 = Ideal.ofBits .f32 0x00000000#32 :=
  congrFun (after_hostOps1_cst W) ix0

theorem after_hostOps1_1_v10 (W : 𝕍) :
    (StableHlo.after (hostOps1_1 (F := Ideal)) W main_v10 : S2048.Idx → EReal)
      = select (W main_v9 : IVec S2048 1) (W main_v6 : S2048.Idx → EReal)
          (broadcastInDim S2048 ![] bcast_S_S2048 (W main_cst : S_.Idx → EReal)) := by
  after_results
  all_goals rfl

/-- The running result after the shortlist: the shortlist value where the condition's bit is set, else the constant. -/
theorem hostOps1_1_v10_apply (W : 𝕍) (n : Fin 2048) :
    (StableHlo.after (hostOps1_1 (F := Ideal)) W main_v10 : S2048.Idx → EReal) (ix1 n)
      = Scalar.select ((W main_v9 : S2048.Idx → BitVec 1) (ix1 n)) ((W main_v6 : S2048.Idx → EReal) (ix1 n))
          ((W main_cst : S_.Idx → EReal) ix0) :=
  (congrFun (after_hostOps1_1_v10 W) (ix1 n)).trans <|
    congrArg (Scalar.select _ _) (bcastScalar_apply bcast_S_S2048 _ (ix1 n))

/-! ### The clusters' shared steps, on vectors -/

/-- A signed clip of a vector between two broadcast scalars, at an index. -/
theorem clip_apply (lo hi : IVec S_ 32) (x : IVec S2048 32) (n : Fin 2048) :
    minsi (broadcastInDim S2048 ![] bcast_S_S2048 hi) (maxsi (broadcastInDim S2048 ![] bcast_S_S2048 lo) x) (ix1 n)
      = IntOp.minsi (hi ix0) (IntOp.maxsi (lo ix0) (x (ix1 n))) := by
  show IntOp.minsi (broadcastInDim S2048 ![] bcast_S_S2048 hi (ix1 n))
      (IntOp.maxsi (broadcastInDim S2048 ![] bcast_S_S2048 lo (ix1 n)) (x (ix1 n))) = _
  rw [bcastScalar_apply, bcastScalar_apply]

/-- The column of start indices a gather of `N` rows is given: each row index, if below zero, counted from the end. -/
theorem gatherIdx_apply (r : IVec S2048 32) (N : BitVec 32) (n : Fin 2048) (u : Fin 1) :
    broadcastInDim S2048x1 ![0] bcast_S2048_S2048x1_0
        (select (cmpi .slt r (broadcastInDim S2048 ![] bcast_S_S2048 (constantI S_ 32 0#32)))
          (addi r (broadcastInDim S2048 ![] bcast_S_S2048 (constantI S_ 32 N))) r) (ix2 n u)
      = normW N (r (ix1 n)) :=
  (bcastCol_apply bcast_S2048_S2048x1_0 _ n u).trans rfl

/-- "Bias + tail value" of a sample: column `k` of the three biases plus the tail region's one column. -/
theorem biasPlus_apply (b : S2048x3.Idx → EReal) (v : S2048x1.Idx → EReal) (k : Fin 3)
    (hs : S2048x3.Slices ![0, k.val] S2048x1) (n : Fin 2048) :
    addf (F := Ideal) (φ := .f32) (shapeCast S2048 (extractStridedSlice S2048x1 ![0, k.val] b hs) shapeCasts_S2048x1_S2048)
        (shapeCast S2048 v shapeCasts_S2048x1_S2048) (ix1 n)
      = b (ix2 n k) + v (ix2 n (0 : Fin 1)) := by
  refine (addf_apply _ _ (ix1 n)).trans ?_
  rw [shapeCast_a1_a_apply, shapeCast_a1_a_apply]
  rw [slice2_axis1_apply k.val b hs n (0 : Fin 1) k (by simp)]

end Cert.Proof.Val.KHost

end
-- ==== Proof.Val.KHostC0.lean ====
/-
  THE HOST SIDE of the kernel program, at the ideal instance — tail cluster 0 (classes 1000 … 9999; 9000 rows of 128).

  For ANY contents a stretch starts from: the target relative to the cluster's first class, clipped into the cluster's
  rows; the rows of the cluster's second matrix gathered at the clipped targets (what the cluster's region is handed); and,
  after the region, "bias + tail value" put in place of the running result wherever the target lies in the cluster's
  range. Each buffer first as a term of the contents the stretch starts from, then at an index.
-/
import proofs.«416376_j65790309040722_2_alg».proof.Proof.Val.KHost

set_option maxRecDepth 16384

noncomputable section

namespace Cert.Proof.Val.KHost

open Idealize.ShloMosaic Idealize.ShloMosaic.TcCoe Idealize.ShloMosaic.ValueIdx
open Cert.KernelIdeal Cert.KernelIdeal.Gen

local notation "𝕍" => Valuation τ sig (Elt Ideal)

/-- The sum of two extended reals, for operands read off buffers (a buffer's element type is the extended reals only
    after the signature's table is looked up, too late for the search that finds `+`). -/
local infixl:65 " +ₑ " => (HAdd.hAdd : EReal → EReal → EReal)

/-! ### Cluster 0: the target relative to the cluster, clipped; the rows of its second matrix gathered -/

theorem after_hostOps1_2_v12 (W : 𝕍) :
    (StableHlo.after (hostOps1_2 (F := Ideal)) W main_v12 : S2048.Idx → BitVec 32)
      = subi (W main_arg1 : IVec S2048 32) (broadcastInDim S2048 ![] bcast_S_S2048 (constantI S_ 32 1000#32)) := by
  after_results
  all_goals rfl

theorem after_hostOps1_2_lo (W : 𝕍) :
    (StableHlo.after (hostOps1_2 (F := Ideal)) W main_c_2 : S_.Idx → BitVec 32) = constantI S_ 32 0#32 := by
  after_results
  all_goals rfl

theorem after_hostOps1_2_hi (W : 𝕍) :
    (StableHlo.after (hostOps1_2 (F := Ideal)) W main_c_3 : S_.Idx → BitVec 32) = constantI S_ 32 8999#32 := by
  after_results
  all_goals rfl

theorem after_hostOps1_3_v13 (W : 𝕍) :
    (StableHlo.after (hostOps1_3 (F := Ideal)) W main_v13 : S2048.Idx → BitVec 32)
      = minsi (broadcastInDim S2048 ![] bcast_S_S2048 (W main_c_3 : IVec S_ 32))
          (maxsi (broadcastInDim S2048 ![] bcast_S_S2048 (W main_c_2 : IVec S_ 32)) (W main_v12 : IVec S2048 32)) := by
  after_results
  all_goals rfl

theorem after_hostOps1_4_v20 (W : 𝕍) :
    (StableHlo.after (hostOps1_4 (F := Ideal)) W main_v20 : S2048x128.Idx → EReal)
      = Host.gather gather_S9000x128_S2048x1_S2048x128_1_0_n_n_0_1_1128 (W main_arg4 : S9000x128.Idx → EReal)
          (broadcastInDim S2048x1 ![0] bcast_S2048_S2048x1_0
            (select (cmpi .slt (W main_v13 : IVec S2048 32) (broadcastInDim S2048 ![] bcast_S_S2048 (constantI S_ 32 0#32)))
              (addi (W main_v13 : IVec S2048 32) (broadcastInDim S2048 ![] bcast_S_S2048 (constantI S_ 32 9000#32)))
              (W main_v13 : IVec S2048 32))) := by
  after_results
  all_goals rfl

theorem hostOps1_2_v12_apply (W : 𝕍) (n : Fin 2048) :
    (StableHlo.after (hostOps1_2 (F := Ideal)) W main_v12 : S2048.Idx → BitVec 32) (ix1 n)
      = IntOp.subi ((W main_arg1 : S2048.Idx → BitVec 32) (ix1 n)) 1000#32 :=
  congrFun (after_hostOps1_2_v12 W) (ix1 n)

theorem hostOps1_3_v13_apply (W : 𝕍) (n : Fin 2048) :
    (StableHlo.after (hostOps1_3 (F := Ideal)) W main_v13 : S2048.Idx → BitVec 32) (ix1 n)
      = IntOp.minsi ((W main_c_3 : S_.Idx → BitVec 32) ix0)
          (IntOp.maxsi ((W main_c_2 : S_.Idx → BitVec 32) ix0) ((W main_v12 : S2048.Idx → BitVec 32) (ix1 n))) :=
  (congrFun (after_hostOps1_3_v13 W) (ix1 n)).trans (clip_apply _ _ _ n)

/-- The gathered row of sample `n`: the row of the cluster's second matrix at the clipped target (counted from the end if
    below zero, then read signed and clamped, as a gather reads a start index). -/
theorem hostOps1_4_v20_apply (W : 𝕍) (n : Fin 2048) (h : Fin 128) :
    (StableHlo.after (hostOps1_4 (F := Ideal)) W main_v20 : S2048x128.Idx → EReal) (ix2 n h)
      = (W main_arg4 : S9000x128.Idx → EReal)
          (ix2 (rowOf 9000 (by norm_num) (normW 9000#32 ((W main_v13 : S2048.Idx → BitVec 32) (ix1 n)))) h) :=
  (congrFun (after_hostOps1_4_v20 W) (ix2 n h)).trans <|
    (gather_rows gather_S9000x128_S2048x1_S2048x128_1_0_n_n_0_1_1128 rfl rfl rfl rfl rfl _ _ n h (by norm_num)).trans <|
      congrArg (fun w => (W main_arg4 : S9000x128.Idx → EReal) (ix2 (rowOf 9000 (by norm_num) w) h))
        (gatherIdx_apply _ 9000#32 n (0 : Fin 1))

/-! ### Cluster 0: "bias + tail value" where the target lies in the cluster -/

theorem after_hostOps2_v25 (W : 𝕍) :
    (StableHlo.after (hostOps2 (F := Ideal)) W main_v25 : S2048.Idx → EReal)
      = addf (F := Ideal) (φ := .f32)
          (shapeCast S2048 (extractStridedSlice S2048x1 ![0, 0] (W main_v7 : S2048x3.Idx → EReal) slices_S2048x3_S2048x1_0_0)
            shapeCasts_S2048x1_S2048)
          (shapeCast S2048 (W main_v21 : S2048x1.Idx → EReal) shapeCasts_S2048x1_S2048) := by
  after_results
  all_goals rfl

theorem after_hostOps2_v30 (W : 𝕍) :
    (StableHlo.after (hostOps2 (F := Ideal)) W main_v30 : S2048.Idx → BitVec 1)
      = andi (cmpi .sge (W main_arg1 : IVec S2048 32) (broadcastInDim S2048 ![] bcast_S_S2048 (constantI S_ 32 1000#32)))
          (cmpi .slt (W main_arg1 : IVec S2048 32) (broadcastInDim S2048 ![] bcast_S_S2048 (constantI S_ 32 10000#32))) := by
  after_results
  all_goals rfl

theorem after_hostOps2_1_v31 (W : 𝕍) :
    (StableHlo.after (hostOps2_1 (F := Ideal)) W main_v31 : S2048.Idx → EReal)
      = select (W main_v30 : IVec S2048 1) (W main_v25 : S2048.Idx → EReal) (W main_v10 : S2048.Idx → EReal) := by
  after_results
  all_goals rfl

theorem hostOps2_v25_apply (W : 𝕍) (n : Fin 2048) :
    (StableHlo.after (hostOps2 (F := Ideal)) W main_v25 : S2048.Idx → EReal) (ix1 n)
      = (W main_v7 : S2048x3.Idx → EReal) (ix2 n (0 : Fin 3)) +ₑ (W main_v21 : S2048x1.Idx → EReal) (ix2 n (0 : Fin 1)) :=
  (congrFun (after_hostOps2_v25 W) (ix1 n)).trans (biasPlus_apply _ _ (0 : Fin 3) slices_S2048x3_S2048x1_0_0 n)

theorem hostOps2_v30_apply (W : 𝕍) (n : Fin 2048) :
    (StableHlo.after (hostOps2 (F := Ideal)) W main_v30 : S2048.Idx → BitVec 1) (ix1 n)
      = inW 1000#32 10000#32 ((W main_arg1 : S2048.Idx → BitVec 32) (ix1 n)) :=
  congrFun (after_hostOps2_v30 W) (ix1 n)

theorem hostOps2_1_v31_apply (W : 𝕍) (n : Fin 2048) :
    (StableHlo.after (hostOps2_1 (F := Ideal)) W main_v31 : S2048.Idx → EReal) (ix1 n)
      = Scalar.select ((W main_v30 : S2048.Idx → BitVec 1) (ix1 n)) ((W main_v25 : S2048.Idx → EReal) (ix1 n))
          ((W main_v10 : S2048.Idx → EReal) (ix1 n)) :=
  congrFun (after_hostOps2_1_v31 W) (ix1 n)

end Cert.Proof.Val.KHost

end
-- ==== Proof.Val.KHostC1.lean ====
/-
  THE HOST SIDE of the kernel program, at the ideal instance — tail cluster 1 (classes 10000 … 49999; 40000 rows of 32).

  For ANY contents a stretch starts from: the target relative to the cluster's first class, clipped into the cluster's
  rows; the rows of the cluster's second matrix gathered at the clipped targets (what the cluster's region is handed); and,
  after the region, "bias + tail value" put in place of the running result wherever the target lies in the cluster's
  range. Each buffer first as a term of the contents the stretch starts from, then at an index.
-/
import proofs.«416376_j65790309040722_2_alg».proof.Proof.Val.KHost

set_option maxRecDepth 16384

noncomputable section

namespace Cert.Proof.Val.KHost

open Idealize.ShloMosaic Idealize.ShloMosaic.TcCoe Idealize.ShloMosaic.ValueIdx
open Cert.KernelIdeal Cert.KernelIdeal.Gen

local notation "𝕍" => Valuation τ sig (Elt Ideal)

/-- The sum of two extended reals, for operands read off buffers (a buffer's element type is the extended reals only
    after the signature's table is looked up, too late for the search that finds `+`). -/
local infixl:65 " +ₑ " => (HAdd.hAdd : EReal → EReal → EReal)

/-! ### Cluster 1: the target relative to the cluster, clipped; the rows of its second matrix gathered -/

theorem after_hostOps2_2_v33 (W : 𝕍) :
    (StableHlo.after (hostOps2_2 (F := Ideal)) W main_v33 : S2048.Idx → BitVec 32)
      = subi (W main_arg1 : IVec S2048 32) (broadcastInDim S2048 ![] bcast_S_S2048 (constantI S_ 32 10000#32)) := by
  after_results
  all_goals rfl

theorem after_hostOps2_2_lo (W : 𝕍) :
    (StableHlo.after (hostOps2_2 (F := Ideal)) W main_c_9 : S_.Idx → BitVec 32) = constantI S_ 32 0#32 := by
  after_results
  all_goals rfl

theorem after_hostOps2_2_hi (W : 𝕍) :
    (StableHlo.after (hostOps2_2 (F := Ideal)) W main_c_10 : S_.Idx → BitVec 32) = constantI S_ 32 39999#32 := by
  after_results
  all_goals rfl

theorem after_hostOps2_3_v34 (W : 𝕍) :
    (StableHlo.after (hostOps2_3 (F := Ideal)) W main_v34 : S2048.Idx → BitVec 32)
      = minsi (broadcastInDim S2048 ![] bcast_S_S2048 (W main_c_10 : IVec S_ 32))
          (maxsi (broadcastInDim S2048 ![] bcast_S_S2048 (W main_c_9 : IVec S_ 32)) (W main_v33 : IVec S2048 32)) := by
  after_results
  all_goals rfl

theorem after_hostOps2_4_v41 (W : 𝕍) :
    (StableHlo.after (hostOps2_4 (F := Ideal)) W main_v41 : S2048x32.Idx → EReal)
      = Host.gather gather_S40000x32_S2048x1_S2048x32_1_0_n_n_0_1_132 (W main_arg6 : S40000x32.Idx → EReal)
          (broadcastInDim S2048x1 ![0] bcast_S2048_S2048x1_0
            (select (cmpi .slt (W main_v34 : IVec S2048 32) (broadcastInDim S2048 ![] bcast_S_S2048 (constantI S_ 32 0#32)))
              (addi (W main_v34 : IVec S2048 32) (broadcastInDim S2048 ![] bcast_S_S2048 (constantI S_ 32 40000#32)))
              (W main_v34 : IVec S2048 32))) := by
  after_results
  all_goals rfl

theorem hostOps2_2_v33_apply (W : 𝕍) (n : Fin 2048) :
    (StableHlo.after (hostOps2_2 (F := Ideal)) W main_v33 : S2048.Idx → BitVec 32) (ix1 n)
      = IntOp.subi ((W main_arg1 : S2048.Idx → BitVec 32) (ix1 n)) 10000#32 :=
  congrFun (after_hostOps2_2_v33 W) (ix1 n)

theorem hostOps2_3_v34_apply (W : 𝕍) (n : Fin 2048) :
    (StableHlo.after (hostOps2_3 (F := Ideal)) W main_v34 : S2048.Idx → BitVec 32) (ix1 n)
      = IntOp.minsi ((W main_c_10 : S_.Idx → BitVec 32) ix0)
          (IntOp.maxsi ((W main_c_9 : S_.Idx → BitVec 32) ix0) ((W main_v33 : S2048.Idx → BitVec 32) (ix1 n))) :=
  (congrFun (after_hostOps2_3_v34 W) (ix1 n)).trans (clip_apply _ _ _ n)

/-- The gathered row of sample `n`: the row of the cluster's second matrix at the clipped target (counted from the end if
    below zero, then read signed and clamped, as a gather reads a start index). -/
theorem hostOps2_4_v41_apply (W : 𝕍) (n : Fin 2048) (h : Fin 32) :
    (StableHlo.after (hostOps2_4 (F := Ideal)) W main_v41 : S2048x32.Idx → EReal) (ix2 n h)
      = (W main_arg6 : S40000x32.Idx → EReal)
          (ix2 (rowOf 40000 (by norm_num) (normW 40000#32 ((W main_v34 : S2048.Idx → BitVec 32) (ix1 n)))) h) :=
  (congrFun (after_hostOps2_4_v41 W) (ix2 n h)).trans <|
    (gather_rows gather_S40000x32_S2048x1_S2048x32_1_0_n_n_0_1_132 rfl rfl rfl rfl rfl _ _ n h (by norm_num)).trans <|
      congrArg (fun w => (W main_arg6 : S40000x32.Idx → EReal) (ix2 (rowOf 40000 (by norm_num) w) h))
        (gatherIdx_apply _ 40000#32 n (0 : Fin 1))

/-! ### Cluster 1: "bias + tail value" where the target lies in the cluster -/

theorem after_hostOps3_v46 (W : 𝕍) :
    (StableHlo.after (hostOps3 (F := Ideal)) W main_v46 : S2048.Idx → EReal)
      = addf (F := Ideal) (φ := .f32)
          (shapeCast S2048 (extractStridedSlice S2048x1 ![0, 1] (W main_v7 : S2048x3.Idx → EReal) slices_S2048x3_S2048x1_0_1)
            shapeCasts_S2048x1_S2048)
          (shapeCast S2048 (W main_v42 : S2048x1.Idx → EReal) shapeCasts_S2048x1_S2048) := by
  after_results
  all_goals rfl

theorem after_hostOps3_v51 (W : 𝕍) :
    (StableHlo.after (hostOps3 (F := Ideal)) W main_v51 : S2048.Idx → BitVec 1)
      = andi (cmpi .sge (W main_arg1 : IVec S2048 32) (broadcastInDim S2048 ![] bcast_S_S2048 (constantI S_ 32 10000#32)))
          (cmpi .slt (W main_arg1 : IVec S2048 32) (broadcastInDim S2048 ![] bcast_S_S2048 (constantI S_ 32 50000#32))) := by
  after_results
  all_goals rfl

theorem after_hostOps3_1_v52 (W : 𝕍) :
    (StableHlo.after (hostOps3_1 (F := Ideal)) W main_v52 : S2048.Idx → EReal)
      = select (W main_v51 : IVec S2048 1) (W main_v46 : S2048.Idx → EReal) (W main_v31 : S2048.Idx → EReal) := by
  after_results
  all_goals rfl

theorem hostOps3_v46_apply (W : 𝕍) (n : Fin 2048) :
    (StableHlo.after (hostOps3 (F := Ideal)) W main_v46 : S2048.Idx → EReal) (ix1 n)
      = (W main_v7 : S2048x3.Idx → EReal) (ix2 n (1 : Fin 3)) +ₑ (W main_v42 : S2048x1.Idx → EReal) (ix2 n (0 : Fin 1)) :=
  (congrFun (after_hostOps3_v46 W) (ix1 n)).trans (biasPlus_apply _ _ (1 : Fin 3) slices_S2048x3_S2048x1_0_1 n)

theorem hostOps3_v51_apply (W : 𝕍) (n : Fin 2048) :
    (StableHlo.after (hostOps3 (F := Ideal)) W main_v51 : S2048.Idx → BitVec 1) (ix1 n)
      = inW 10000#32 50000#32 ((W main_arg1 : S2048.Idx → BitVec 32) (ix1 n)) :=
  congrFun (after_hostOps3_v51 W) (ix1 n)

theorem hostOps3_1_v52_apply (W : 𝕍) (n : Fin 2048) :
    (StableHlo.after (hostOps3_1 (F := Ideal)) W main_v52 : S2048.Idx → EReal) (ix1 n)
      = Scalar.select ((W main_v51 : S2048.Idx → BitVec 1) (ix1 n)) ((W main_v46 : S2048.Idx → EReal) (ix1 n))
          ((W main_v31 : S2048.Idx → EReal) (ix1 n)) :=
  congrFun (after_hostOps3_1_v52 W) (ix1 n)

end Cert.Proof.Val.KHost

end
-- ==== Proof.Val.KHostC2.lean ====
/-
  THE HOST SIDE of the kernel program, at the ideal instance — tail cluster 2 (classes 50000 … 99999; 50000 rows of 8).

  For ANY contents a stretch starts from: the target relative to the cluster's first class, clipped into the cluster's
  rows; the rows of the cluster's second matrix gathered at the clipped targets (what the cluster's region is handed); and,
  after the region, "bias + tail value" put in place of the running result wherever the target lies in the cluster's
  range. Each buffer first as a term of the contents the stretch starts from, then at an index.
-/
import proofs.«416376_j65790309040722_2_alg».proof.Proof.Val.KHost

set_option maxRecDepth 16384

noncomputable section

namespace Cert.Proof.Val.KHost

open Idealize.ShloMosaic Idealize.ShloMosaic.TcCoe Idealize.ShloMosaic.ValueIdx
open Cert.KernelIdeal Cert.KernelIdeal.Gen

local notation "𝕍" => Valuation τ sig (Elt Ideal)

/-- The sum of two extended reals, for operands read off buffers (a buffer's element type is the extended reals only
    after the signature's table is looked up, too late for the search that finds `+`). -/
local infixl:65 " +ₑ " => (HAdd.hAdd : EReal → EReal → EReal)

/-! ### Cluster 2: the target relative to the cluster, clipped; the rows of its second matrix gathered -/

theorem after_hostOps3_2_v54 (W : 𝕍) :
    (StableHlo.after (hostOps3_2 (F := Ideal)) W main_v54 : S2048.Idx → BitVec 32)
      = subi (W main_arg1 : IVec S2048 32) (broadcastInDim S2048 ![] bcast_S_S2048 (constantI S_ 32 50000#32)) := by
  after_results
  all_goals rfl

theorem after_hostOps3_2_lo (W : 𝕍) :
    (StableHlo.after (hostOps3_2 (F := Ideal)) W main_c_16 : S_.Idx → BitVec 32) = constantI S_ 32 0#32 := by
  after_results
  all_goals rfl

theorem after_hostOps3_2_hi (W : 𝕍) :
    (StableHlo.after (hostOps3_2 (F := Ideal)) W main_c_17 : S_.Idx → BitVec 32) = constantI S_ 32 49999#32 := by
  after_results
  all_goals rfl

theorem after_hostOps3_3_v55 (W : 𝕍) :
    (StableHlo.after (hostOps3_3 (F := Ideal)) W main_v55 : S2048.Idx → BitVec 32)
      = minsi (broadcastInDim S2048 ![] bcast_S_S2048 (W main_c_17 : IVec S_ 32))
          (maxsi (broadcastInDim S2048 ![] bcast_S_S2048 (W main_c_16 : IVec S_ 32)) (W main_v54 : IVec S2048 32)) := by
  after_results
  all_goals rfl

theorem after_hostOps3_4_v62 (W : 𝕍) :
    (StableHlo.after (hostOps3_4 (F := Ideal)) W main_v62 : S2048x8.Idx → EReal)
      = Host.gather gather_S50000x8_S2048x1_S2048x8_1_0_n_n_0_1_18 (W main_arg8 : S50000x8.Idx → EReal)
          (broadcastInDim S2048x1 ![0] bcast_S2048_S2048x1_0
            (select (cmpi .slt (W main_v55 : IVec S2048 32) (broadcastInDim S2048 ![] bcast_S_S2048 (constantI S_ 32 0#32)))
              (addi (W main_v55 : IVec S2048 32) (broadcastInDim S2048 ![] bcast_S_S2048 (constantI S_ 32 50000#32)))
              (W main_v55 : IVec S2048 32))) := by
  after_results
  all_goals rfl

theorem hostOps3_2_v54_apply (W : 𝕍) (n : Fin 2048) :
    (StableHlo.after (hostOps3_2 (F := Ideal)) W main_v54 : S2048.Idx → BitVec 32) (ix1 n)
      = IntOp.subi ((W main_arg1 : S2048.Idx → BitVec 32) (ix1 n)) 50000#32 :=
  congrFun (after_hostOps3_2_v54 W) (ix1 n)

theorem hostOps3_3_v55_apply (W : 𝕍) (n : Fin 2048) :
    (StableHlo.after (hostOps3_3 (F := Ideal)) W main_v55 : S2048.Idx → BitVec 32) (ix1 n)
      = IntOp.minsi ((W main_c_17 : S_.Idx → BitVec 32) ix0)
          (IntOp.maxsi ((W main_c_16 : S_.Idx → BitVec 32) ix0) ((W main_v54 : S2048.Idx → BitVec 32) (ix1 n))) :=
  (congrFun (after_hostOps3_3_v55 W) (ix1 n)).trans (clip_apply _ _ _ n)

/-- The gathered row of sample `n`: the row of the cluster's second matrix at the clipped target (counted from the end if
    below zero, then read signed and clamped, as a gather reads a start index). -/
theorem hostOps3_4_v62_apply (W : 𝕍) (n : Fin 2048) (h : Fin 8) :
    (StableHlo.after (hostOps3_4 (F := Ideal)) W main_v62 : S2048x8.Idx → EReal) (ix2 n h)
      = (W main_arg8 : S50000x8.Idx → EReal)
          (ix2 (rowOf 50000 (by norm_num) (normW 50000#32 ((W main_v55 : S2048.Idx → BitVec 32) (ix1 n)))) h) :=
  (congrFun (after_hostOps3_4_v62 W) (ix2 n h)).trans <|
    (gather_rows gather_S50000x8_S2048x1_S2048x8_1_0_n_n_0_1_18 rfl rfl rfl rfl rfl _ _ n h (by norm_num)).trans <|
      congrArg (fun w => (W main_arg8 : S50000x8.Idx → EReal) (ix2 (rowOf 50000 (by norm_num) w) h))
        (gatherIdx_apply _ 50000#32 n (0 : Fin 1))

/-! ### Cluster 2: "bias + tail value" where the target lies in the cluster -/

theorem after_hostOps4_v67 (W : 𝕍) :
    (StableHlo.after (hostOps4 (F := Ideal)) W main_v67 : S2048.Idx → EReal)
      = addf (F := Ideal) (φ := .f32)
          (shapeCast S2048 (extractStridedSlice S2048x1 ![0, 2] (W main_v7 : S2048x3.Idx → EReal) slices_S2048x3_S2048x1_0_2)
            shapeCasts_S2048x1_S2048)
          (shapeCast S2048 (W main_v63 : S2048x1.Idx → EReal) shapeCasts_S2048x1_S2048) := by
  after_results
  all_goals rfl

theorem after_hostOps4_v72 (W : 𝕍) :
    (StableHlo.after (hostOps4 (F := Ideal)) W main_v72 : S2048.Idx → BitVec 1)
      = andi (cmpi .sge (W main_arg1 : IVec S2048 32) (broadcastInDim S2048 ![] bcast_S_S2048 (constantI S_ 32 50000#32)))
          (cmpi .slt (W main_arg1 : IVec S2048 32) (broadcastInDim S2048 ![] bcast_S_S2048 (constantI S_ 32 100000#32))) := by
  after_results
  all_goals rfl

theorem after_hostOps4_1_v73 (W : 𝕍) :
    (StableHlo.after (hostOps4_1 (F := Ideal)) W main_v73 : S2048.Idx → EReal)
      = select (W main_v72 : IVec S2048 1) (W main_v67 : S2048.Idx → EReal) (W main_v52 : S2048.Idx → EReal) := by
  after_results
  all_goals rfl

theorem hostOps4_v67_apply (W : 𝕍) (n : Fin 2048) :
    (StableHlo.after (hostOps4 (F := Ideal)) W main_v67 : S2048.Idx → EReal) (ix1 n)
      = (W main_v7 : S2048x3.Idx → EReal) (ix2 n (2 : Fin 3)) +ₑ (W main_v63 : S2048x1.Idx → EReal) (ix2 n (0 : Fin 1)) :=
  (congrFun (after_hostOps4_v67 W) (ix1 n)).trans (biasPlus_apply _ _ (2 : Fin 3) slices_S2048x3_S2048x1_0_2 n)

theorem hostOps4_v72_apply (W : 𝕍) (n : Fin 2048) :
    (StableHlo.after (hostOps4 (F := Ideal)) W main_v72 : S2048.Idx → BitVec 1) (ix1 n)
      = inW 50000#32 100000#32 ((W main_arg1 : S2048.Idx → BitVec 32) (ix1 n)) :=
  congrFun (after_hostOps4_v72 W) (ix1 n)

theorem hostOps4_1_v73_apply (W : 𝕍) (n : Fin 2048) :
    (StableHlo.after (hostOps4_1 (F := Ideal)) W main_v73 : S2048.Idx → EReal) (ix1 n)
      = Scalar.select ((W main_v72 : S2048.Idx → BitVec 1) (ix1 n)) ((W main_v67 : S2048.Idx → EReal) (ix1 n))
          ((W main_v52 : S2048.Idx → EReal) (ix1 n)) :=
  congrFun (after_hostOps4_1_v73 W) (ix1 n)

end Cert.Proof.Val.KHost

end
-- ==== Proof.Val.KHostChain.lean ====
/-
  THE HOST SIDE of the kernel program, at the ideal instance — along the run of the whole program.

  The stretches' results (KHost, KHostC0, KHostC1, KHostC2: each for any contents the stretch starts from) composed
  along the program's items: what each kernel region finds in its input arrays, in terms of the launch contents, and the
  program's result at a sample as the nested select over the target word, the head region's four columns and the three
  tail regions' values. What the regions leave is unknown here.
-/
import proofs.«416376_j65790309040722_2_alg».proof.Proof.Val.KHost
import proofs.«416376_j65790309040722_2_alg».proof.Proof.Val.KHostC0
import proofs.«416376_j65790309040722_2_alg».proof.Proof.Val.KHostC1
import proofs.«416376_j65790309040722_2_alg».proof.Proof.Val.KHostC2

set_option maxRecDepth 16384

noncomputable section

namespace Cert.Proof.Val.KHost

open Idealize.ShloMosaic Idealize.ShloMosaic.TcCoe Idealize.ShloMosaic.ValueIdx
open Cert.KernelIdeal Cert.KernelIdeal.Gen

/-- The sum of two extended reals, for operands read off buffers (a buffer's element type is the extended reals only
    after the signature's table is looked up, too late for the search that finds `+`). -/
local infixl:65 " +ₑ " => (HAdd.hAdd : EReal → EReal → EReal)

/-! ## Along the run of the whole program

The program's items in order: the first stretch, the head region, five stretches, the first tail region, five stretches, the
second tail region, five stretches, the third tail region, two stretches. Between two items the device's buffers hold
`V0 … V22`, written over the launch contents `m` and over what the four regions leave, the unknowns `outs`. A buffer an
item does not write is carried; so each buffer read below is traced back to the item that wrote it. -/

section Chain

variable (m : (ℓ : Loc nD τ sig) → Buf (Elt Ideal) ℓ) (outs : Outs (F := Ideal)) (c : Dev nD)

/-- The target word of sample `n`. -/
def tgt (n : Fin 2048) : BitVec 32 := (V0 m c main_arg1 : S2048.Idx → BitVec 32) (ix1 n)

/-- The program's result for one sample, from its target word `t`, the head region's four columns `h0 … h3` and the
    three tail regions' values `v1 v2 v3`: the shortlist value below 1000 (else zero), then "bias + tail value" put in
    its place cluster by cluster wherever the target lies in the cluster's range. -/
def resW (t : BitVec 32) (h0 h1 h2 h3 v1 v2 v3 : EReal) : EReal :=
  Scalar.select (inW 50000#32 100000#32 t) (h3 + v3)
    (Scalar.select (inW 10000#32 50000#32 t) (h2 + v2)
      (Scalar.select (inW 1000#32 10000#32 t) (h1 + v1)
        (Scalar.select (IntOp.cmpi .slt t 1000#32) h0 (Ideal.ofBits .f32 0x00000000#32))))

/-! ### What a region leaves is what the next stretch finds -/

theorem V2_v4 : V2 m outs c main_v4 = outs 2 main_v4 c := Function.update_self _ _ _
theorem V8_v21 : V8 m outs c main_v21 = outs 8 main_v21 c := Function.update_self _ _ _
theorem V14_v42 : V14 m outs c main_v42 = outs 14 main_v42 c := Function.update_self _ _ _
theorem V20_v63 : V20 m outs c main_v63 = outs 20 main_v63 c := Function.update_self _ _ _

/-! ### From one region's entry to the next: everything the items between write -/

/-- What the head region and the five stretches after it write. -/
abbrev seg1_W : List (Ref sig .tc) :=
  [main_v4] ++ hostOps1_W ++ hostOps1_1_W ++ hostOps1_2_W ++ hostOps1_3_W ++ hostOps1_4_W
/-- What the first tail region and the five stretches after it write. -/
abbrev seg2_W : List (Ref sig .tc) :=
  [main_v21] ++ hostOps2_W ++ hostOps2_1_W ++ hostOps2_2_W ++ hostOps2_3_W ++ hostOps2_4_W
/-- What the second tail region and the five stretches after it write. -/
abbrev seg3_W : List (Ref sig .tc) :=
  [main_v42] ++ hostOps3_W ++ hostOps3_1_W ++ hostOps3_2_W ++ hostOps3_3_W ++ hostOps3_4_W

theorem V7_eq_V1 (r : Ref sig .tc) (h : r ∉ seg1_W) : V7 m outs c r = V1 m c r := by
  simp only [seg1_W, List.mem_append, not_or] at h
  obtain ⟨⟨⟨⟨⟨h0, h1⟩, h2⟩, h3⟩, h4⟩, h5⟩ := h
  exact (V7_of m outs c r h5).trans <| (V6_of m outs c r h4).trans <| (V5_of m outs c r h3).trans <|
    (V4_of m outs c r h2).trans <| (V3_of m outs c r h1).trans <| V2_of m outs c r h0
theorem V13_eq_V7 (r : Ref sig .tc) (h : r ∉ seg2_W) : V13 m outs c r = V7 m outs c r := by
  simp only [seg2_W, List.mem_append, not_or] at h
  obtain ⟨⟨⟨⟨⟨h0, h1⟩, h2⟩, h3⟩, h4⟩, h5⟩ := h
  exact (V13_of m outs c r h5).trans <| (V12_of m outs c r h4).trans <| (V11_of m outs c r h3).trans <|
    (V10_of m outs c r h2).trans <| (V9_of m outs c r h1).trans <| V8_of m outs c r h0
theorem V19_eq_V13 (r : Ref sig .tc) (h : r ∉ seg3_W) : V19 m outs c r = V13 m outs c r := by
  simp only [seg3_W, List.mem_append, not_or] at h
  obtain ⟨⟨⟨⟨⟨h0, h1⟩, h2⟩, h3⟩, h4⟩, h5⟩ := h
  exact (V19_of m outs c r h5).trans <| (V18_of m outs c r h4).trans <| (V17_of m outs c r h3).trans <|
    (V16_of m outs c r h2).trans <| (V15_of m outs c r h1).trans <| V14_of m outs c r h0

/-! ### The targets are never written -/

theorem V2_arg1 : V2 m outs c main_arg1 = V0 m c main_arg1 :=
  (V2_of m outs c main_arg1 (by decide)).trans <| V1_of m c main_arg1 (by decide)
theorem V4_arg1 : V4 m outs c main_arg1 = V0 m c main_arg1 :=
  (V4_of m outs c main_arg1 (by decide)).trans <| (V3_of m outs c main_arg1 (by decide)).trans <| V2_arg1 m outs c
theorem V7_arg1 : V7 m outs c main_arg1 = V0 m c main_arg1 :=
  (V7_eq_V1 m outs c main_arg1 (by decide)).trans <| V1_of m c main_arg1 (by decide)
theorem V8_arg1 : V8 m outs c main_arg1 = V0 m c main_arg1 :=
  (V8_of m outs c main_arg1 (by decide)).trans <| V7_arg1 m outs c
theorem V10_arg1 : V10 m outs c main_arg1 = V0 m c main_arg1 :=
  (V10_of m outs c main_arg1 (by decide)).trans <| (V9_of m outs c main_arg1 (by decide)).trans <| V8_arg1 m outs c
theorem V13_arg1 : V13 m outs c main_arg1 = V0 m c main_arg1 :=
  (V13_eq_V7 m outs c main_arg1 (by decide)).trans <| V7_arg1 m outs c
theorem V14_arg1 : V14 m outs c main_arg1 = V0 m c main_arg1 :=
  (V14_of m outs c main_arg1 (by decide)).trans <| V13_arg1 m outs c
theorem V16_arg1 : V16 m outs c main_arg1 = V0 m c main_arg1 :=
  (V16_of m outs c main_arg1 (by decide)).trans <| (V15_of m outs c main_arg1 (by decide)).trans <| V14_arg1 m outs c
theorem V19_arg1 : V19 m outs c main_arg1 = V0 m c main_arg1 :=
  (V19_eq_V13 m outs c main_arg1 (by decide)).trans <| V13_arg1 m outs c
theorem V20_arg1 : V20 m outs c main_arg1 = V0 m c main_arg1 :=
  (V20_of m outs c main_arg1 (by decide)).trans <| V19_arg1 m outs c

/-! ### Nor is a cluster's second matrix, up to the stretch that gathers its rows -/

theorem V6_arg4 : V6 m outs c main_arg4 = V0 m c main_arg4 :=
  (V6_of m outs c main_arg4 (by decide)).trans <| (V5_of m outs c main_arg4 (by decide)).trans <|
  (V4_of m outs c main_arg4 (by decide)).trans <| (V3_of m outs c main_arg4 (by decide)).trans <|
  (V2_of m outs c main_arg4 (by decide)).trans <| V1_of m c main_arg4 (by decide)
theorem V12_arg6 : V12 m outs c main_arg6 = V0 m c main_arg6 :=
  (V12_of m outs c main_arg6 (by decide)).trans <| (V11_of m outs c main_arg6 (by decide)).trans <|
  (V10_of m outs c main_arg6 (by decide)).trans <| (V9_of m outs c main_arg6 (by decide)).trans <|
  (V8_of m outs c main_arg6 (by decide)).trans <| (V7_eq_V1 m outs c main_arg6 (by decide)).trans <|
  V1_of m c main_arg6 (by decide)
theorem V18_arg8 : V18 m outs c main_arg8 = V0 m c main_arg8 :=
  (V18_of m outs c main_arg8 (by decide)).trans <| (V17_of m outs c main_arg8 (by decide)).trans <|
  (V16_of m outs c main_arg8 (by decide)).trans <| (V15_of m outs c main_arg8 (by decide)).trans <|
  (V14_of m outs c main_arg8 (by decide)).trans <| (V13_eq_V7 m outs c main_arg8 (by decide)).trans <|
  (V7_eq_V1 m outs c main_arg8 (by decide)).trans <| V1_of m c main_arg8 (by decide)

/-! ### The biases and the running result are carried to where they are read -/

theorem V8_v7 : V8 m outs c main_v7 = V3 m outs c main_v7 :=
  (V8_of m outs c main_v7 (by decide)).trans <| (V7_of m outs c main_v7 (by decide)).trans <|
  (V6_of m outs c main_v7 (by decide)).trans <| (V5_of m outs c main_v7 (by decide)).trans <| V4_of m outs c main_v7 (by decide)
theorem V14_v7 : V14 m outs c main_v7 = V3 m outs c main_v7 :=
  (V14_of m outs c main_v7 (by decide)).trans <| (V13_of m outs c main_v7 (by decide)).trans <|
  (V12_of m outs c main_v7 (by decide)).trans <| (V11_of m outs c main_v7 (by decide)).trans <|
  (V10_of m outs c main_v7 (by decide)).trans <| (V9_of m outs c main_v7 (by decide)).trans <| V8_v7 m outs c
theorem V20_v7 : V20 m outs c main_v7 = V3 m outs c main_v7 :=
  (V20_of m outs c main_v7 (by decide)).trans <| (V19_of m outs c main_v7 (by decide)).trans <|
  (V18_of m outs c main_v7 (by decide)).trans <| (V17_of m outs c main_v7 (by decide)).trans <|
  (V16_of m outs c main_v7 (by decide)).trans <| (V15_of m outs c main_v7 (by decide)).trans <| V14_v7 m outs c
theorem V9_v10 : V9 m outs c main_v10 = V4 m outs c main_v10 :=
  (V9_of m outs c main_v10 (by decide)).trans <| (V8_of m outs c main_v10 (by decide)).trans <|
  (V7_of m outs c main_v10 (by decide)).trans <| (V6_of m outs c main_v10 (by decide)).trans <| V5_of m outs c main_v10 (by decide)
theorem V15_v31 : V15 m outs c main_v31 = V10 m outs c main_v31 :=
  (V15_of m outs c main_v31 (by decide)).trans <| (V14_of m outs c main_v31 (by decide)).trans <|
  (V13_of m outs c main_v31 (by decide)).trans <| (V12_of m outs c main_v31 (by decide)).trans <| V11_of m outs c main_v31 (by decide)
theorem V21_v52 : V21 m outs c main_v52 = V16 m outs c main_v52 :=
  (V21_of m outs c main_v52 (by decide)).trans <| (V20_of m outs c main_v52 (by decide)).trans <|
  (V19_of m outs c main_v52 (by decide)).trans <| (V18_of m outs c main_v52 (by decide)).trans <| V17_of m outs c main_v52 (by decide)
/-! ### What each region finds of the launch contents: the weights, and the converted activations -/

theorem V1_arg2 : V1 m c main_arg2 = V0 m c main_arg2 := V1_of m c main_arg2 (by decide)
theorem V7_v0 : V7 m outs c main_v0 = V1 m c main_v0 := V7_eq_V1 m outs c main_v0 (by decide)
theorem V7_arg3 : V7 m outs c main_arg3 = V0 m c main_arg3 :=
  (V7_eq_V1 m outs c main_arg3 (by decide)).trans <| V1_of m c main_arg3 (by decide)
theorem V7_arg4 : V7 m outs c main_arg4 = V0 m c main_arg4 :=
  (V7_eq_V1 m outs c main_arg4 (by decide)).trans <| V1_of m c main_arg4 (by decide)
theorem V13_v0 : V13 m outs c main_v0 = V1 m c main_v0 :=
  (V13_eq_V7 m outs c main_v0 (by decide)).trans <| V7_v0 m outs c
theorem V13_arg5 : V13 m outs c main_arg5 = V0 m c main_arg5 :=
  (V13_eq_V7 m outs c main_arg5 (by decide)).trans <| (V7_eq_V1 m outs c main_arg5 (by decide)).trans <|
    V1_of m c main_arg5 (by decide)
theorem V13_arg6 : V13 m outs c main_arg6 = V0 m c main_arg6 :=
  (V13_eq_V7 m outs c main_arg6 (by decide)).trans <| (V7_eq_V1 m outs c main_arg6 (by decide)).trans <|
    V1_of m c main_arg6 (by decide)
theorem V19_v0 : V19 m outs c main_v0 = V1 m c main_v0 :=
  (V19_eq_V13 m outs c main_v0 (by decide)).trans <| V13_v0 m outs c
theorem V19_arg7 : V19 m outs c main_arg7 = V0 m c main_arg7 :=
  (V19_eq_V13 m outs c main_arg7 (by decide)).trans <| (V13_eq_V7 m outs c main_arg7 (by decide)).trans <|
    (V7_eq_V1 m outs c main_arg7 (by decide)).trans <| V1_of m c main_arg7 (by decide)
theorem V19_arg8 : V19 m outs c main_arg8 = V0 m c main_arg8 :=
  (V19_eq_V13 m outs c main_arg8 (by decide)).trans <| (V13_eq_V7 m outs c main_arg8 (by decide)).trans <|
    (V7_eq_V1 m outs c main_arg8 (by decide)).trans <| V1_of m c main_arg8 (by decide)

/-! ### The head region's inputs -/

theorem V1_v0_apply (n : Fin 2048) (d : Fin 512) :
    (V1 m c main_v0 : S2048x512.Idx → EReal) (ix2 n d) = (V0 m c main_arg0 : S2048x512.Idx → EReal) (ix2 n d) :=
  hostOps0_v0_apply (V0 m c) n d

theorem V1_v3_apply (n : Fin 2048) (u : Fin 1) :
    (V1 m c main_v3 : S2048x1.Idx → BitVec 32) (ix2 n u) = IntOp.minsi (tgt m c n) 999#32 :=
  hostOps0_v3_apply (V0 m c) n u

theorem V1_arg2_apply (i : S1003x512.Idx) :
    (V1 m c main_arg2 : S1003x512.Idx → EReal) i = (V0 m c main_arg2 : S1003x512.Idx → EReal) i :=
  congrFun (V1_arg2 m c) i

/-! ### The tail regions' inputs carried from the launch -/

theorem V7_v0_apply (n : Fin 2048) (d : Fin 512) :
    (V7 m outs c main_v0 : S2048x512.Idx → EReal) (ix2 n d) = (V0 m c main_arg0 : S2048x512.Idx → EReal) (ix2 n d) := by
  rw [V7_v0 m outs c]
  exact V1_v0_apply m c n d
theorem V13_v0_apply (n : Fin 2048) (d : Fin 512) :
    (V13 m outs c main_v0 : S2048x512.Idx → EReal) (ix2 n d) = (V0 m c main_arg0 : S2048x512.Idx → EReal) (ix2 n d) := by
  rw [V13_v0 m outs c]
  exact V1_v0_apply m c n d
theorem V19_v0_apply (n : Fin 2048) (d : Fin 512) :
    (V19 m outs c main_v0 : S2048x512.Idx → EReal) (ix2 n d) = (V0 m c main_arg0 : S2048x512.Idx → EReal) (ix2 n d) := by
  rw [V19_v0 m outs c]
  exact V1_v0_apply m c n d

theorem V7_arg3_apply (i : S128x512.Idx) :
    (V7 m outs c main_arg3 : S128x512.Idx → EReal) i = (V0 m c main_arg3 : S128x512.Idx → EReal) i :=
  congrFun (V7_arg3 m outs c) i
theorem V7_arg4_apply (i : S9000x128.Idx) :
    (V7 m outs c main_arg4 : S9000x128.Idx → EReal) i = (V0 m c main_arg4 : S9000x128.Idx → EReal) i :=
  congrFun (V7_arg4 m outs c) i
theorem V13_arg5_apply (i : S32x512.Idx) :
    (V13 m outs c main_arg5 : S32x512.Idx → EReal) i = (V0 m c main_arg5 : S32x512.Idx → EReal) i :=
  congrFun (V13_arg5 m outs c) i
theorem V13_arg6_apply (i : S40000x32.Idx) :
    (V13 m outs c main_arg6 : S40000x32.Idx → EReal) i = (V0 m c main_arg6 : S40000x32.Idx → EReal) i :=
  congrFun (V13_arg6 m outs c) i
theorem V19_arg7_apply (i : S8x512.Idx) :
    (V19 m outs c main_arg7 : S8x512.Idx → EReal) i = (V0 m c main_arg7 : S8x512.Idx → EReal) i :=
  congrFun (V19_arg7 m outs c) i
theorem V19_arg8_apply (i : S50000x8.Idx) :
    (V19 m outs c main_arg8 : S50000x8.Idx → EReal) i = (V0 m c main_arg8 : S50000x8.Idx → EReal) i :=
  congrFun (V19_arg8 m outs c) i

/-! ### After the head region: the biases, the shortlist's result -/

theorem V3_v7_apply (n : Fin 2048) (k : Fin 3) :
    (V3 m outs c main_v7 : S2048x3.Idx → EReal) (ix2 n k)
      = (outs 2 main_v4 c : S2048x4.Idx → EReal) (ix2 n (⟨1 + k.val, by omega⟩ : Fin 4)) := by
  refine (hostOps1_v7_apply (V2 m outs c) n k).trans ?_
  rw [V2_v4 m outs c]

theorem V3_v6_apply (n : Fin 2048) :
    (V3 m outs c main_v6 : S2048.Idx → EReal) (ix1 n) = (outs 2 main_v4 c : S2048x4.Idx → EReal) (ix2 n (0 : Fin 4)) := by
  refine (hostOps1_v6_apply (V2 m outs c) n).trans ?_
  rw [V2_v4 m outs c]

theorem V3_v9_apply (n : Fin 2048) :
    (V3 m outs c main_v9 : S2048.Idx → BitVec 1) (ix1 n) = IntOp.cmpi .slt (tgt m c n) 1000#32 := by
  refine (hostOps1_v9_apply (V2 m outs c) n).trans ?_
  rw [V2_arg1 m outs c]
  rfl

theorem V3_cst_apply : (V3 m outs c main_cst : S_.Idx → EReal) ix0 = Ideal.ofBits .f32 0x00000000#32 :=
  hostOps1_cst_apply (V2 m outs c)

/-- The running result after the shortlist. -/
theorem V4_v10_apply (n : Fin 2048) :
    (V4 m outs c main_v10 : S2048.Idx → EReal) (ix1 n)
      = Scalar.select (IntOp.cmpi .slt (tgt m c n) 1000#32) ((outs 2 main_v4 c : S2048x4.Idx → EReal) (ix2 n (0 : Fin 4)))
          (Ideal.ofBits .f32 0x00000000#32) := by
  refine (hostOps1_1_v10_apply (V3 m outs c) n).trans ?_
  rw [V3_v9_apply m outs c n, V3_v6_apply m outs c n, V3_cst_apply m outs c]

/-! ### Cluster 0 -/

theorem V5_v12_apply (n : Fin 2048) :
    (V5 m outs c main_v12 : S2048.Idx → BitVec 32) (ix1 n) = IntOp.subi (tgt m c n) 1000#32 := by
  refine (hostOps1_2_v12_apply (V4 m outs c) n).trans ?_
  rw [V4_arg1 m outs c]
  rfl

theorem V5_lo : (V5 m outs c main_c_2 : S_.Idx → BitVec 32) ix0 = 0#32 := congrFun (after_hostOps1_2_lo (V4 m outs c)) ix0
theorem V5_hi : (V5 m outs c main_c_3 : S_.Idx → BitVec 32) ix0 = 8999#32 := congrFun (after_hostOps1_2_hi (V4 m outs c)) ix0

theorem V6_v13_apply (n : Fin 2048) :
    (V6 m outs c main_v13 : S2048.Idx → BitVec 32) (ix1 n) = relW 1000#32 8999#32 (tgt m c n) := by
  refine (hostOps1_3_v13_apply (V5 m outs c) n).trans ?_
  rw [V5_hi m outs c, V5_lo m outs c, V5_v12_apply m outs c n]
  rfl

/-- What the first tail region finds as its gathered rows. -/
theorem V7_v20_apply (n : Fin 2048) (h : Fin 128) :
    (V7 m outs c main_v20 : S2048x128.Idx → EReal) (ix2 n h)
      = (V0 m c main_arg4 : S9000x128.Idx → EReal)
          (ix2 (rowOf 9000 (by norm_num) (normW 9000#32 (relW 1000#32 8999#32 (tgt m c n)))) h) := by
  refine (hostOps1_4_v20_apply (V6 m outs c) n h).trans ?_
  rw [V6_v13_apply m outs c n, V6_arg4 m outs c]

theorem V9_v25_apply (n : Fin 2048) :
    (V9 m outs c main_v25 : S2048.Idx → EReal) (ix1 n)
      = (outs 2 main_v4 c : S2048x4.Idx → EReal) (ix2 n (1 : Fin 4)) +ₑ (outs 8 main_v21 c : S2048x1.Idx → EReal) (ix2 n (0 : Fin 1)) := by
  refine (hostOps2_v25_apply (V8 m outs c) n).trans ?_
  rw [V8_v7 m outs c, V3_v7_apply m outs c n (0 : Fin 3), V8_v21 m outs c]
  rfl

theorem V9_v30_apply (n : Fin 2048) :
    (V9 m outs c main_v30 : S2048.Idx → BitVec 1) (ix1 n) = inW 1000#32 10000#32 (tgt m c n) := by
  refine (hostOps2_v30_apply (V8 m outs c) n).trans ?_
  rw [V8_arg1 m outs c]
  rfl

/-- The running result after cluster 0. -/
theorem V10_v31_apply (n : Fin 2048) :
    (V10 m outs c main_v31 : S2048.Idx → EReal) (ix1 n)
      = Scalar.select (inW 1000#32 10000#32 (tgt m c n))
          ((outs 2 main_v4 c : S2048x4.Idx → EReal) (ix2 n (1 : Fin 4)) +ₑ (outs 8 main_v21 c : S2048x1.Idx → EReal) (ix2 n (0 : Fin 1)))
          ((V4 m outs c main_v10 : S2048.Idx → EReal) (ix1 n)) := by
  refine (hostOps2_1_v31_apply (V9 m outs c) n).trans ?_
  rw [V9_v30_apply m outs c n, V9_v25_apply m outs c n, V9_v10 m outs c]

/-! ### Cluster 1 -/

theorem V11_v33_apply (n : Fin 2048) :
    (V11 m outs c main_v33 : S2048.Idx → BitVec 32) (ix1 n) = IntOp.subi (tgt m c n) 10000#32 := by
  refine (hostOps2_2_v33_apply (V10 m outs c) n).trans ?_
  rw [V10_arg1 m outs c]
  rfl

theorem V11_lo : (V11 m outs c main_c_9 : S_.Idx → BitVec 32) ix0 = 0#32 := congrFun (after_hostOps2_2_lo (V10 m outs c)) ix0
theorem V11_hi : (V11 m outs c main_c_10 : S_.Idx → BitVec 32) ix0 = 39999#32 := congrFun (after_hostOps2_2_hi (V10 m outs c)) ix0

theorem V12_v34_apply (n : Fin 2048) :
    (V12 m outs c main_v34 : S2048.Idx → BitVec 32) (ix1 n) = relW 10000#32 39999#32 (tgt m c n) := by
  refine (hostOps2_3_v34_apply (V11 m outs c) n).trans ?_
  rw [V11_hi m outs c, V11_lo m outs c, V11_v33_apply m outs c n]
  rfl

/-- What the second tail region finds as its gathered rows. -/
theorem V13_v41_apply (n : Fin 2048) (h : Fin 32) :
    (V13 m outs c main_v41 : S2048x32.Idx → EReal) (ix2 n h)
      = (V0 m c main_arg6 : S40000x32.Idx → EReal)
          (ix2 (rowOf 40000 (by norm_num) (normW 40000#32 (relW 10000#32 39999#32 (tgt m c n)))) h) := by
  refine (hostOps2_4_v41_apply (V12 m outs c) n h).trans ?_
  rw [V12_v34_apply m outs c n, V12_arg6 m outs c]

theorem V15_v46_apply (n : Fin 2048) :
    (V15 m outs c main_v46 : S2048.Idx → EReal) (ix1 n)
      = (outs 2 main_v4 c : S2048x4.Idx → EReal) (ix2 n (2 : Fin 4)) +ₑ (outs 14 main_v42 c : S2048x1.Idx → EReal) (ix2 n (0 : Fin 1)) := by
  refine (hostOps3_v46_apply (V14 m outs c) n).trans ?_
  rw [V14_v7 m outs c, V3_v7_apply m outs c n (1 : Fin 3), V14_v42 m outs c]
  rfl

theorem V15_v51_apply (n : Fin 2048) :
    (V15 m outs c main_v51 : S2048.Idx → BitVec 1) (ix1 n) = inW 10000#32 50000#32 (tgt m c n) := by
  refine (hostOps3_v51_apply (V14 m outs c) n).trans ?_
  rw [V14_arg1 m outs c]
  rfl

/-- The running result after cluster 1. -/
theorem V16_v52_apply (n : Fin 2048) :
    (V16 m outs c main_v52 : S2048.Idx → EReal) (ix1 n)
      = Scalar.select (inW 10000#32 50000#32 (tgt m c n))
          ((outs 2 main_v4 c : S2048x4.Idx → EReal) (ix2 n (2 : Fin 4)) +ₑ (outs 14 main_v42 c : S2048x1.Idx → EReal) (ix2 n (0 : Fin 1)))
          ((V10 m outs c main_v31 : S2048.Idx → EReal) (ix1 n)) := by
  refine (hostOps3_1_v52_apply (V15 m outs c) n).trans ?_
  rw [V15_v51_apply m outs c n, V15_v46_apply m outs c n, V15_v31 m outs c]

/-! ### Cluster 2 -/

theorem V17_v54_apply (n : Fin 2048) :
    (V17 m outs c main_v54 : S2048.Idx → BitVec 32) (ix1 n) = IntOp.subi (tgt m c n) 50000#32 := by
  refine (hostOps3_2_v54_apply (V16 m outs c) n).trans ?_
  rw [V16_arg1 m outs c]
  rfl

theorem V17_lo : (V17 m outs c main_c_16 : S_.Idx → BitVec 32) ix0 = 0#32 := congrFun (after_hostOps3_2_lo (V16 m outs c)) ix0
theorem V17_hi : (V17 m outs c main_c_17 : S_.Idx → BitVec 32) ix0 = 49999#32 := congrFun (after_hostOps3_2_hi (V16 m outs c)) ix0

theorem V18_v55_apply (n : Fin 2048) :
    (V18 m outs c main_v55 : S2048.Idx → BitVec 32) (ix1 n) = relW 50000#32 49999#32 (tgt m c n) := by
  refine (hostOps3_3_v55_apply (V17 m outs c) n).trans ?_
  rw [V17_hi m outs c, V17_lo m outs c, V17_v54_apply m outs c n]
  rfl

/-- What the third tail region finds as its gathered rows. -/
theorem V19_v62_apply (n : Fin 2048) (h : Fin 8) :
    (V19 m outs c main_v62 : S2048x8.Idx → EReal) (ix2 n h)
      = (V0 m c main_arg8 : S50000x8.Idx → EReal)
          (ix2 (rowOf 50000 (by norm_num) (normW 50000#32 (relW 50000#32 49999#32 (tgt m c n)))) h) := by
  refine (hostOps3_4_v62_apply (V18 m outs c) n h).trans ?_
  rw [V18_v55_apply m outs c n, V18_arg8 m outs c]

theorem V21_v67_apply (n : Fin 2048) :
    (V21 m outs c main_v67 : S2048.Idx → EReal) (ix1 n)
      = (outs 2 main_v4 c : S2048x4.Idx → EReal) (ix2 n (3 : Fin 4)) +ₑ (outs 20 main_v63 c : S2048x1.Idx → EReal) (ix2 n (0 : Fin 1)) := by
  refine (hostOps4_v67_apply (V20 m outs c) n).trans ?_
  rw [V20_v7 m outs c, V3_v7_apply m outs c n (2 : Fin 3), V20_v63 m outs c]
  rfl

theorem V21_v72_apply (n : Fin 2048) :
    (V21 m outs c main_v72 : S2048.Idx → BitVec 1) (ix1 n) = inW 50000#32 100000#32 (tgt m c n) := by
  refine (hostOps4_v72_apply (V20 m outs c) n).trans ?_
  rw [V20_arg1 m outs c]
  rfl

/-! ### THE RESULT -/

/-- The program's result at sample `n`: the nested select, from the target word, the head region's four columns and the
    three tail regions' values. -/
theorem V22_v73_apply (n : Fin 2048) :
    (V22 m outs c main_v73 : S2048.Idx → EReal) (ix1 n)
      = resW (tgt m c n)
          ((outs 2 main_v4 c : S2048x4.Idx → EReal) (ix2 n (0 : Fin 4))) ((outs 2 main_v4 c : S2048x4.Idx → EReal) (ix2 n (1 : Fin 4)))
          ((outs 2 main_v4 c : S2048x4.Idx → EReal) (ix2 n (2 : Fin 4))) ((outs 2 main_v4 c : S2048x4.Idx → EReal) (ix2 n (3 : Fin 4)))
          ((outs 8 main_v21 c : S2048x1.Idx → EReal) (ix2 n (0 : Fin 1))) ((outs 14 main_v42 c : S2048x1.Idx → EReal) (ix2 n (0 : Fin 1)))
          ((outs 20 main_v63 c : S2048x1.Idx → EReal) (ix2 n (0 : Fin 1))) := by
  refine (hostOps4_1_v73_apply (V21 m outs c) n).trans ?_
  rw [V21_v72_apply m outs c n, V21_v67_apply m outs c n, V21_v52 m outs c, V16_v52_apply m outs c n,
    V10_v31_apply m outs c n, V4_v10_apply m outs c n]
  rfl

end Chain

end Cert.Proof.Val.KHost

end
-- ==== Proof.Val.KVal.lean ====
/-
  THE KERNEL PROGRAM'S RESULT AT A SAMPLE IS THE RESULT IN THE KERNEL'S SPELLING. After its last host stretch the program's
  result array holds, at sample n, a nest of four selects on the target word t: the band tests 50000 ≤ t < 100000,
  10000 ≤ t < 50000, 1000 ≤ t < 10000 and t < 1000 choose between the head's extra column plus a tail region's output, the
  head's one-hot column, and 0. With the target nonnegative (τ = t.toNat below 2³¹) each band test is the test on τ; the head
  region's output is `Spec.headOut` of the head logits and the word min(t, 999), which is the literal of min τ 999; a tail
  region's output is `Spec.tailOut` of the hidden row, the row of w2 gathered at the clipped and normalised word
  t − lo, which is column `Spec.col N (τ − lo)`, and w2. That is `Bridge.Kspec` branch by branch, and on finite inputs it
  is the specification `Spec.G`.
-/
import proofs.«416376_j65790309040722_2_alg».proof.Proof.Gen.KernelIdeal.Regions
import proofs.«416376_j65790309040722_2_alg».proof.Proof.Val.Spec
import proofs.«416376_j65790309040722_2_alg».proof.Proof.Val.Bridge
import proofs.«416376_j65790309040722_2_alg».proof.Proof.Val.Words
import proofs.«416376_j65790309040722_2_alg».proof.Proof.Val.Pre
import proofs.«416376_j65790309040722_2_alg».proof.Proof.Val.KHostChain
import Idealize.ShloMosaic.PureOps.Ideal.Laws
import Idealize.ShloMosaic.Lib.ValueIdx

set_option maxRecDepth 16384

noncomputable section

namespace Cert.Proof.Val.KVal

open Idealize.ShloMosaic Idealize.ShloMosaic.ValueIdx Idealize.ShloMosaic.TcCoe Idealize.SL.Sem
open Cert.KernelIdeal Cert.KernelIdeal.Gen
open Cert.Proof.Val
open Cert.Proof.Val.KHost (relW normW rowOf inW resW tgt)

/-! ## One sample, over plain data -/

/-- The gathered row: the clipped, normalised word t − lo read as a start index into N = hi + 1 rows is column
    `Spec.col N (τ − lo)`. -/
theorem rowOf_eq_col {t : BitVec 32} (ht : t.toNat < 2 ^ 31) {lo hi : ℕ} (hlo : lo < 2 ^ 31) (hhi : hi < 2 ^ 31)
    (N : ℕ) (hN : 0 < N) (hNhi : N - 1 = hi) (size : BitVec 32) :
    rowOf N hN (normW size (relW (BitVec.ofNat 32 lo) (BitVec.ofNat 32 hi) t)) = Spec.col N hN (t.toNat - lo) := by
  unfold rowOf normW relW Spec.col
  apply Fin.ext
  show min _ (N - 1) = min (t.toNat - lo) (N - 1)
  rw [Words.norm_clip_sub ht hlo hhi, Words.clamp_ofNat_min (lt_of_le_of_lt (Nat.min_le_right _ _) hhi), hNhi]
  omega

/-- THE NEST OF SELECTS IS THE KERNEL'S SPELLING. Over plain data: given what the head region and the three tail regions
    leave at sample n in terms of the target word t, the nest of selects on t is `Bridge.Kspec` at n. -/
theorem resW_eq_Kspec (x : Fin 2048 → Fin 512 → EReal) (tg : Fin 2048 → ℕ) (hw : Fin 1003 → Fin 512 → EReal)
    (w10 : Fin 128 → Fin 512 → EReal) (w20 : Fin 9000 → Fin 128 → EReal)
    (w11 : Fin 32 → Fin 512 → EReal) (w21 : Fin 40000 → Fin 32 → EReal)
    (w12 : Fin 8 → Fin 512 → EReal) (w22 : Fin 50000 → Fin 8 → EReal) (n : Fin 2048)
    (t : BitVec 32) (ht : t.toNat < 2 ^ 31) (htg : tg n = t.toNat)
    (o0 : Fin 4 → EReal) (o1 o2 o3 : EReal)
    (h0 : ∀ k, o0 k = Spec.headOut (Spec.headZ x hw n) (IntOp.minsi t 999#32) k)
    (h1 : o1 = Spec.tailOut (Spec.hid x w10 n) (w20 (rowOf 9000 (by decide) (normW 9000#32 (relW 1000#32 8999#32 t)))) w20)
    (h2 : o2 = Spec.tailOut (Spec.hid x w11 n) (w21 (rowOf 40000 (by decide) (normW 40000#32 (relW 10000#32 39999#32 t)))) w21)
    (h3 : o3 = Spec.tailOut (Spec.hid x w12 n) (w22 (rowOf 50000 (by decide) (normW 50000#32 (relW 50000#32 49999#32 t)))) w22) :
    resW t (o0 0) (o0 1) (o0 2) (o0 3) o1 o2 o3 = Bridge.Kspec x tg hw w10 w20 w11 w21 w12 w22 n := by
  have e1 := rowOf_eq_col ht (lo := 1000) (hi := 8999) (by omega) (by omega) 9000 (by decide) rfl 9000#32
  have e2 := rowOf_eq_col ht (lo := 10000) (hi := 39999) (by omega) (by omega) 40000 (by decide) rfl 40000#32
  have e3 := rowOf_eq_col ht (lo := 50000) (hi := 49999) (by omega) (by omega) 50000 (by decide) rfl 50000#32
  rw [e1] at h1; rw [e2] at h2; rw [e3] at h3
  unfold resW inW
  rw [Words.select_band ht (lo := 50000) (hi := 100000) (by omega) (by omega),
    Words.select_band ht (lo := 10000) (hi := 50000) (by omega) (by omega),
    Words.select_band ht (lo := 1000) (hi := 10000) (by omega) (by omega),
    Words.select_slt ht (k := 1000) (by omega), Ideal.ofBits_zero_f32]
  unfold Bridge.Kspec
  dsimp only
  rw [htg, h0 0, h0 1, h0 2, h0 3, h1, h2, h3, Words.minsi_ofNat ht (k := 999) (by omega)]

/-! ## The program's valuations at one sample -/

section Program

variable [hPre : Cert.Pre_finite_inputs.Facts]
variable (m : (ℓ : Loc nD τ sig) → Buf (Elt Ideal) ℓ) (outs : Outs (F := Ideal)) (c : Dev nD)

/-- A tail output's three operands may be replaced by equal ones. -/
theorem tailOut_congr {H O : ℕ} {hd hd' : Fin H → EReal} {gw gw' : Fin H → EReal} {w2 w2' : Fin O → Fin H → EReal}
    (e1 : hd = hd') (e2 : gw = gw') (e3 : w2 = w2') : Spec.tailOut hd gw w2 = Spec.tailOut hd' gw' w2' := by
  rw [e1, e2, e3]

/-! The arguments at launch, as plain `Fin`-indexed data. -/
abbrev X : Fin 2048 → Fin 512 → EReal := fun n d => (V0 m c main_arg0 : S2048x512.Idx → EReal) (ix2 n d)
abbrev TG : Fin 2048 → ℕ := fun n => ((V0 m c main_arg1 : S2048.Idx → BitVec 32) (ix1 n)).toNat
abbrev HW : Fin 1003 → Fin 512 → EReal := fun cc d => (V0 m c main_arg2 : S1003x512.Idx → EReal) (ix2 cc d)
abbrev W10 : Fin 128 → Fin 512 → EReal := fun h d => (V0 m c main_arg3 : S128x512.Idx → EReal) (ix2 h d)
abbrev W20 : Fin 9000 → Fin 128 → EReal := fun cc h => (V0 m c main_arg4 : S9000x128.Idx → EReal) (ix2 cc h)
abbrev W11 : Fin 32 → Fin 512 → EReal := fun h d => (V0 m c main_arg5 : S32x512.Idx → EReal) (ix2 h d)
abbrev W21 : Fin 40000 → Fin 32 → EReal := fun cc h => (V0 m c main_arg6 : S40000x32.Idx → EReal) (ix2 cc h)
abbrev W12 : Fin 8 → Fin 512 → EReal := fun h d => (V0 m c main_arg7 : S8x512.Idx → EReal) (ix2 h d)
abbrev W22 : Fin 50000 → Fin 8 → EReal := fun cc h => (V0 m c main_arg8 : S50000x8.Idx → EReal) (ix2 cc h)

-- HYPOTHESES: what the four regions leave in their output arrays, each read at one index.
variable
  (hA0 : ∀ (n : Fin 2048) (k : Fin 4), (outs 2 main_v4 c : S2048x4.Idx → EReal) (ix2 n k)
    = Spec.headOut (fun cc => Spec.dotT (fun d => (V1 m c main_v0 : S2048x512.Idx → EReal) (ix2 n d))
        (fun d => (V1 m c main_arg2 : S1003x512.Idx → EReal) (ix2 cc d)))
      ((V1 m c main_v3 : S2048x1.Idx → BitVec 32) (ix2 n (0 : Fin 1))) k)
  (hA1 : ∀ n : Fin 2048, (outs 8 main_v21 c : S2048x1.Idx → EReal) (ix2 n (0 : Fin 1))
    = Spec.tailOut (fun h => Spec.dotT (fun d => (V7 m outs c main_v0 : S2048x512.Idx → EReal) (ix2 n d))
        (fun d => (V7 m outs c main_arg3 : S128x512.Idx → EReal) (ix2 h d)))
      (fun h => (V7 m outs c main_v20 : S2048x128.Idx → EReal) (ix2 n h))
      (fun cc h => (V7 m outs c main_arg4 : S9000x128.Idx → EReal) (ix2 cc h)))
  (hA2 : ∀ n : Fin 2048, (outs 14 main_v42 c : S2048x1.Idx → EReal) (ix2 n (0 : Fin 1))
    = Spec.tailOut (fun h => Spec.dotT (fun d => (V13 m outs c main_v0 : S2048x512.Idx → EReal) (ix2 n d))
        (fun d => (V13 m outs c main_arg5 : S32x512.Idx → EReal) (ix2 h d)))
      (fun h => (V13 m outs c main_v41 : S2048x32.Idx → EReal) (ix2 n h))
      (fun cc h => (V13 m outs c main_arg6 : S40000x32.Idx → EReal) (ix2 cc h)))
  (hA3 : ∀ n : Fin 2048, (outs 20 main_v63 c : S2048x1.Idx → EReal) (ix2 n (0 : Fin 1))
    = Spec.tailOut (fun h => Spec.dotT (fun d => (V19 m outs c main_v0 : S2048x512.Idx → EReal) (ix2 n d))
        (fun d => (V19 m outs c main_arg7 : S8x512.Idx → EReal) (ix2 h d)))
      (fun h => (V19 m outs c main_v62 : S2048x8.Idx → EReal) (ix2 n h))
      (fun cc h => (V19 m outs c main_arg8 : S50000x8.Idx → EReal) (ix2 cc h)))

include hA0 hA1 hA2 hA3

/-- THE KERNEL PROGRAM'S RESULT AT SAMPLE n, for a nonnegative target: the kernel's spelling of the result over the
    arguments at launch. -/
theorem kernel_apply_of_lt (n : Fin 2048) (ht : (tgt m c n).toNat < 2 ^ 31) :
    (V22 m outs c main_v73 : S2048.Idx → EReal) (ix1 n)
      = Bridge.Kspec (X m c) (TG m c) (HW m c) (W10 m c) (W20 m c) (W11 m c) (W21 m c) (W12 m c) (W22 m c) n := by
  rw [KHost.V22_v73_apply m outs c n]
  refine resW_eq_Kspec (X m c) (TG m c) (HW m c) (W10 m c) (W20 m c) (W11 m c) (W21 m c) (W12 m c) (W22 m c) n
    (tgt m c n) ht rfl (fun k => (outs 2 main_v4 c : S2048x4.Idx → EReal) (ix2 n k)) _ _ _ ?_ ?_ ?_ ?_
  · intro k
    show (outs 2 main_v4 c : S2048x4.Idx → EReal) (ix2 n k) = _
    rw [hA0 n k, KHost.V1_v3_apply m c n 0]
    exact congrArg (fun z => Spec.headOut z (IntOp.minsi (tgt m c n) 999#32) k)
      (funext fun cc => congrArg₂ Spec.dotT (funext (KHost.V1_v0_apply m c n)) (funext fun d => KHost.V1_arg2_apply m c (ix2 cc d)))
  · rw [hA1 n]
    exact tailOut_congr (funext fun h => congrArg₂ Spec.dotT (funext (KHost.V7_v0_apply m outs c n)) (funext fun d => KHost.V7_arg3_apply m outs c (ix2 h d)))
      (funext (KHost.V7_v20_apply m outs c n)) (funext fun cc => funext fun h => KHost.V7_arg4_apply m outs c (ix2 cc h))
  · rw [hA2 n]
    exact tailOut_congr (funext fun h => congrArg₂ Spec.dotT (funext (KHost.V13_v0_apply m outs c n)) (funext fun d => KHost.V13_arg5_apply m outs c (ix2 h d)))
      (funext (KHost.V13_v41_apply m outs c n)) (funext fun cc => funext fun h => KHost.V13_arg6_apply m outs c (ix2 cc h))
  · rw [hA3 n]
    exact tailOut_congr (funext fun h => congrArg₂ Spec.dotT (funext (KHost.V19_v0_apply m outs c n)) (funext fun d => KHost.V19_arg7_apply m outs c (ix2 h d)))
      (funext (KHost.V19_v62_apply m outs c n)) (funext fun cc => funext fun h => KHost.V19_arg8_apply m outs c (ix2 cc h))

/-- … under the program's precondition, which makes every target nonnegative. -/
theorem kernel_apply
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = (fun _ => 1#1)) (n : Fin 2048) :
    (V22 m outs c main_v73 : S2048.Idx → EReal) (ix1 n)
      = Bridge.Kspec (X m c) (TG m c) (HW m c) (W10 m c) (W20 m c) (W11 m c) (W21 m c) (W12 m c) (W22 m c) n :=
  kernel_apply_of_lt m outs c hA0 hA1 hA2 hA3 n
    (PreFacts.targets_toNat_of_pre _ _ _ _ _ _ _ _ _ hpre (ix1 n)).1

/-- … and, every input entry being finite under the precondition, the specification itself. -/
theorem kernel_apply_G
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = (fun _ => 1#1)) (n : Fin 2048) :
    (V22 m outs c main_v73 : S2048.Idx → EReal) (ix1 n)
      = Spec.G (X m c) (TG m c) (HW m c) (W10 m c) (W20 m c) (W11 m c) (W21 m c) (W12 m c) (W22 m c) n :=
  (kernel_apply m outs c hA0 hA1 hA2 hA3 hpre n).trans
  (Bridge.Kspec_eq_G
    (fun n d => PreFacts.fin_arg0 _ _ _ _ _ _ _ _ _ hpre (ix2 n d)) (fun cc d => PreFacts.fin_arg2 _ _ _ _ _ _ _ _ _ hpre (ix2 cc d))
    (fun h d => PreFacts.fin_arg3 _ _ _ _ _ _ _ _ _ hpre (ix2 h d)) (fun cc h => PreFacts.fin_arg4 _ _ _ _ _ _ _ _ _ hpre (ix2 cc h))
    (fun h d => PreFacts.fin_arg5 _ _ _ _ _ _ _ _ _ hpre (ix2 h d)) (fun cc h => PreFacts.fin_arg6 _ _ _ _ _ _ _ _ _ hpre (ix2 cc h))
    (fun h d => PreFacts.fin_arg7 _ _ _ _ _ _ _ _ _ hpre (ix2 h d)) (fun cc h => PreFacts.fin_arg8 _ _ _ _ _ _ _ _ _ hpre (ix2 cc h)) n)

end Program

end Cert.Proof.Val.KVal

end
-- ==== Proof.Val.R0Val.lean ====
/-
  The values of region 0, the head kernel, at the extended reals: the one block the body stores, read entry by entry.

  The body's stored value is a [512, 4] block. Over the logits block `z = x · head_wᵀ` ([512, 1003]; an entry is the product
  of a sample's row with a class's row) it forms each row's maximum, the log of the row's exponential sum after the shift by
  that maximum, and the log-probabilities `z − (max + log Σ exp (z − max))`; column 0 of the result is the row's sum of the
  log-probabilities kept where the lane's number equals the row's word, columns 1 to 3 are the log-probabilities at lanes
  1000 to 1002. `pay0_apply` says so at an entry `(p, k)`, in the specification's spelling (`Spec.headOut`).

  The road: the block is written once as a term over named stages (`lg`, `mxc`, `lsec`, `lpb`, `ohc`), each stage is read at
  coordinates by one lemma, and the joined block is read column by column.
-/
import proofs.«416376_j65790309040722_2_alg».proof.Proof.Gen.KernelIdeal.Skeleton
import proofs.«416376_j65790309040722_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.Val.R0

open Cert.KernelIdeal Cert.KernelIdeal.Gen Idealize.ShloMosaic Idealize.ShloMosaic.ValueIdx Idealize.SL.Sem
open scoped BigOperators

/-! ## Column forms of a shape cast and a broadcast, read at coordinates -/

section Cols
variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cols

/-! ## The contraction's operand indices -/

theorem lhs_head_0 (i : S512x1003.Idx) (q : dot_S512x512_S1003x512_S512x1003_1_1_0_0_n_n.contr.Idx) :
    (dot_S512x512_S1003x512_S512x1003_1_1_0_0_n_n.lhsIdx i q 0).val = (i 0).val := by
  unfold DotDims.lhsIdx
  rw [dif_neg (show ¬(0 : Fin S512x512.rank) ∈ dot_S512x512_S1003x512_S512x1003_1_1_0_0_n_n.lhsBatch by decide), dif_pos (show (0 : Fin S512x512.rank) ∈ dot_S512x512_S1003x512_S512x1003_1_1_0_0_n_n.lhsNonContracting by decide)]
  rfl
theorem lhs_head_1 (i : S512x1003.Idx) (q : dot_S512x512_S1003x512_S512x1003_1_1_0_0_n_n.contr.Idx) :
    (dot_S512x512_S1003x512_S512x1003_1_1_0_0_n_n.lhsIdx i q 1).val = (q ⟨0, by decide⟩).val :=
  dot_S512x512_S1003x512_S512x1003_1_1_0_0_n_n.lhsIdx_val_of_single rfl i q
theorem rhs_head_0 (i : S512x1003.Idx) (q : dot_S512x512_S1003x512_S512x1003_1_1_0_0_n_n.contr.Idx) :
    (dot_S512x512_S1003x512_S512x1003_1_1_0_0_n_n.rhsIdx i q 0).val = (i 1).val := by
  unfold DotDims.rhsIdx
  rw [dif_neg (show ¬(0 : Fin S1003x512.rank) ∈ dot_S512x512_S1003x512_S512x1003_1_1_0_0_n_n.rhsBatch by decide), dif_pos (show (0 : Fin S1003x512.rank) ∈ dot_S512x512_S1003x512_S512x1003_1_1_0_0_n_n.rhsNonContracting by decide)]
  rfl
theorem rhs_head_1 (i : S512x1003.Idx) (q : dot_S512x512_S1003x512_S512x1003_1_1_0_0_n_n.contr.Idx) :
    (dot_S512x512_S1003x512_S512x1003_1_1_0_0_n_n.rhsIdx i q 1).val = (q ⟨0, by decide⟩).val :=
  dot_S512x512_S1003x512_S512x1003_1_1_0_0_n_n.rhsIdx_val_of_single rfl i q

/-! ## The head's logits -/

/-- The logits block: the sample block times the head weights' transpose, into zero. -/
def lg (v0 : FVec Ideal S1003x512 .f32) (v2 : FVec Ideal S512x512 .bf16) : FVec Ideal S512x1003 .f32 :=
  matmul dot_S512x512_S1003x512_S512x1003_1_1_0_0_n_n none (shapeCast S512x512 v2 shapeCasts_S512x512_S512x512)
    (truncf .bf16 v0 bitsLt_bf16_f32) (constant (F := Ideal) S512x1003 .f32 0x00000000#32)

/-- A logit is the product of the sample's row with the class's row. -/
theorem lg_apply (v0 : FVec Ideal S1003x512 .f32) (v2 : FVec Ideal S512x512 .bf16) (p : Fin 512) (c : Fin 1003) :
    lg v0 v2 (ix2 p c) = Spec.dotT (fun d => v2 (ix2 p d)) (fun d => v0 (ix2 c d)) := by
  unfold lg Spec.dotT
  rw [shapeCast_self]
  simp only [matmul]
  rw [Ideal.matmul_constant_zero_apply, ← Equiv.sum_comp (contrEquiv1 dot_S512x512_S1003x512_S512x1003_1_1_0_0_n_n 512 rfl rfl).symm]
  refine Finset.sum_congr rfl fun k _ => ?_
  have hk := contrEquiv1_symm_val dot_S512x512_S1003x512_S512x1003_1_1_0_0_n_n 512 rfl rfl k
  have el : dot_S512x512_S1003x512_S512x1003_1_1_0_0_n_n.lhsIdx (ix2 p c) ((contrEquiv1 dot_S512x512_S1003x512_S512x1003_1_1_0_0_n_n 512 rfl rfl).symm k) = ix2 p k := funext fun a => Fin.ext (by
    match a with
    | ⟨0, _⟩ => exact lhs_head_0 _ _
    | ⟨1, _⟩ => exact (lhs_head_1 _ _).trans hk)
  have er : dot_S512x512_S1003x512_S512x1003_1_1_0_0_n_n.rhsIdx (ix2 p c) ((contrEquiv1 dot_S512x512_S1003x512_S512x1003_1_1_0_0_n_n 512 rfl rfl).symm k) = ix2 c k := funext fun a => Fin.ext (by
    match a with
    | ⟨0, _⟩ => exact rhs_head_0 _ _
    | ⟨1, _⟩ => exact (rhs_head_1 _ _).trans hk)
  rw [el, er]
  rfl

/-! ## Pointwise exponential and logarithm, and a select on an equality test -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : ℕ} (q : CmpIPredicate) (x y : IVec s w) (i : s.Idx) : cmpi q x y i = IntOp.cmpi q (x i) (y i) := rfl

/-- The bit of an equality test. -/
theorem cmpi_eq_word {w : ℕ} (a b : BitVec w) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

/-- A select on the bit of an equality test is the `if` on the equality. -/
theorem select_cmpi_eq {α : Type} {w : ℕ} (a b : BitVec w) (A B : α) :
    Scalar.select (IntOp.cmpi .eq a b) A B = if a = b then A else B := by
  rw [cmpi_eq_word]
  by_cases h : a = b
  · rw [if_pos h, if_pos h]; exact select_one A B
  · rw [if_neg h, if_neg h]; exact select_zero A B

/-! ## The lane reductions at a row -/

/-- The source index over row `p` with lane `c` is `(p, c)`. -/
theorem lift_row (p : Fin 512) (c : Fin 1003) : reduces_S512x1003_S512.lift (ix1 p) c = ix2 p c :=
  funext fun a => Fin.ext (by match a with | ⟨0, _⟩ => rfl | ⟨1, _⟩ => rfl)

/-- The lane maximum from −∞ at row `p` is the row's maximum. -/
theorem laneMax_apply (src : FVec Ideal S512x1003 .f32) (hφ : FKind.Formats .f32)
    (hacc : (0xFF800000#32 : BitVec 32) = FKind.maximumf.neutral .f32 hφ) (p : Fin 512) :
    multiReduction (F := Ideal) .maximumf [1] S512 src 0xFF800000#32 reduces_S512x1003_S512 hφ hacc (ix1 p)
      = Spec.rowMax (fun c => src (ix2 p c)) := by
  refine (Ideal.multiReduction_maximumf_single src 0xFF800000#32 reduces_S512x1003_S512 hφ hacc (ix1 p)).trans ?_
  have hb : FloatOps.ofBits (F := Ideal) .f32 0xFF800000#32 = (⊥ : EReal) := by
    show Ideal.ofBits .f32 0xFF800000#32 = ⊥
    simp [Ideal.ofBits, Ideal.ieee]
  show (Finset.univ : Finset (Fin 1003)).fold max (FloatOps.ofBits (F := Ideal) .f32 0xFF800000#32)
      (fun c : Fin 1003 => src (reduces_S512x1003_S512.lift (ix1 p) c)) = Spec.rowMax (fun c => src (ix2 p c))
  rw [hb]
  simp only [lift_row]
  rfl

/-- The lane sum at row `p` is the row's sum. -/
theorem laneSum_apply (src : FVec Ideal S512x1003 .f32) (hφ : FKind.Formats .f32)
    (hacc : (0x00000000#32 : BitVec 32) = FKind.add.neutral .f32 hφ) (p : Fin 512) :
    multiReduction (F := Ideal) .add [1] S512 src 0x00000000#32 reduces_S512x1003_S512 hφ hacc (ix1 p)
      = ∑ c : Fin 1003, src (ix2 p c) := by
  refine (Ideal.multiReduction_add_single src 0x00000000#32 reduces_S512x1003_S512 hφ hacc (ix1 p)).trans ?_
  show ∑ c : Fin 1003, src (reduces_S512x1003_S512.lift (ix1 p) c) = _
  simp only [lift_row]

/-! ## The stages of the head's payload over the logits block -/

/-- The row maxima, as a column. -/
def mxc (z : FVec Ideal S512x1003 .f32) : FVec Ideal S512x1 .f32 :=
  shapeCast S512x1 (multiReduction (F := Ideal) .maximumf [1] S512 z 0xFF800000#32 reduces_S512x1003_S512 (.inl rfl) rfl)
    shapeCasts_S512_S512x1

theorem mxc_apply (z : FVec Ideal S512x1003 .f32) (p : Fin 512) (u : Fin 1) :
    mxc z (ix2 p u) = Spec.rowMax (fun c => z (ix2 p c)) := by
  unfold mxc
  exact (shapeCast_a_a1_apply _ _ p u).trans (laneMax_apply z _ _ p)

/-- The rows' log-sum-exp, as a column: the maximum plus the log of the shifted exponential sum. -/
def lsec (z : FVec Ideal S512x1003 .f32) : FVec Ideal S512x1 .f32 :=
  addf (mxc z) (log (shapeCast S512x1 (multiReduction (F := Ideal) .add [1] S512
    (exp (subf z (broadcastTo S512x1003 (mxc z) broadcasts_S512x1_S512x1003))) 0x00000000#32 reduces_S512x1003_S512 (.inl rfl) rfl)
    shapeCasts_S512_S512x1))

theorem lsec_apply (z : FVec Ideal S512x1003 .f32) (p : Fin 512) (u : Fin 1) :
    lsec z (ix2 p u) = Spec.rowMax (fun c => z (ix2 p c)) + Spec.lse (fun c => z (ix2 p c)) := by
  unfold lsec Spec.lse
  rw [addf_apply, mxc_apply, log_apply]
  refine congrArg (fun t => _ + Ideal.log t) ?_
  refine (shapeCast_a_a1_apply _ _ p u).trans ((laneSum_apply _ _ _ p).trans ?_)
  refine Finset.sum_congr rfl fun c _ => ?_
  rw [exp_apply, subf_apply]
  refine congrArg (fun t => Ideal.exp (_ - t)) ?_
  exact (broadcastTo_a1_ab_apply _ _ p c).trans (mxc_apply z p 0)

/-- The log-probabilities block: each logit less its row's log-sum-exp. -/
def lpb (z : FVec Ideal S512x1003 .f32) : FVec Ideal S512x1003 .f32 :=
  subf z (broadcastTo S512x1003 (lsec z) broadcasts_S512x1_S512x1003)

theorem lpb_apply (z : FVec Ideal S512x1003 .f32) (p : Fin 512) (c : Fin 1003) :
    lpb z (ix2 p c) = Spec.lsmK (fun c => z (ix2 p c)) (z (ix2 p c)) := by
  unfold lpb Spec.lsmK
  rw [subf_apply]
  refine congrArg (fun t => _ - t) ?_
  exact (broadcastTo_a1_ab_apply _ _ p c).trans (lsec_apply z p 0)

/-- The one-hot column: the row's sum of the log-probabilities kept where the lane number equals the row's word. -/
def ohc (z : FVec Ideal S512x1003 .f32) (v17 : IVec S512x1 32) : FVec Ideal S512x1 .f32 :=
  shapeCast S512x1 (multiReduction (F := Ideal) .add [1] S512
    (select (cmpi .eq (iota .tc S512x1003 32 [1] iota_S512x1003_d1_w32)
        (broadcastTo S512x1003 (shapeCast S512x1 v17 shapeCasts_S512x1_S512x1) broadcasts_S512x1_S512x1003))
      (lpb z) (broadcast S512x1003 (Scalar.ofBits (F := Ideal) .f32 0x00000000#32)))
    0x00000000#32 reduces_S512x1003_S512 (.inl rfl) rfl) shapeCasts_S512_S512x1

theorem ohc_apply (z : FVec Ideal S512x1003 .f32) (v17 : IVec S512x1 32) (p : Fin 512) (u : Fin 1) :
    ohc z v17 (ix2 p u) = ∑ c : Fin 1003, (if BitVec.ofNat 32 c.val = v17 (ix2 p (0 : Fin 1))
      then Spec.lsmK (fun c => z (ix2 p c)) (z (ix2 p c)) else 0) := by
  unfold ohc
  refine (shapeCast_a_a1_apply _ _ p u).trans ((laneSum_apply _ _ _ p).trans ?_)
  refine Finset.sum_congr rfl fun c _ => ?_
  rw [select_apply, cmpi_apply, select_cmpi_eq, iota_single_apply, lpb_apply, shapeCast_self, broadcast_apply,
    broadcastTo_a1_ab_apply]
  have h0 : (Scalar.ofBits (F := Ideal) .f32 0x00000000#32 : EReal) = 0 := Ideal.ofBits_zero_f32
  rw [h0]

/-- The payload over the stages. -/
theorem k0_pay1_eq (v0 : FVec Ideal S1003x512 .f32) (v2 : FVec Ideal S512x512 .bf16) (v17 : IVec S512x1 32) :
    k0_pay1 (F := Ideal) v0 v2 v17 = concatenate S512x4 1
      [⟨S512x1, ohc (lg v0 v2) v17⟩,
       ⟨S512x1, extractStridedSlice S512x1 ![0, 1000] (lpb (lg v0 v2)) slices_S512x1003_o0_1000_S512x1⟩,
       ⟨S512x1, extractStridedSlice S512x1 ![0, 1001] (lpb (lg v0 v2)) slices_S512x1003_o0_1001_S512x1⟩,
       ⟨S512x1, extractStridedSlice S512x1 ![0, 1002] (lpb (lg v0 v2)) slices_S512x1003_o0_1002_S512x1⟩]
      concatenates_S512x1_S512x1_S512x1_S512x1_S512x4_d1 := rfl

/-! ## The four columns joined -/

/-- Column `k` of four one-column pieces joined along the columns is piece `k`'s column. -/
theorem cat4_apply {α : Type} (A0 A1 A2 A3 : S512x1.Idx → α) (p : Fin 512) (k : Fin 4) :
    concatenate S512x4 1 [⟨S512x1, A0⟩, ⟨S512x1, A1⟩, ⟨S512x1, A2⟩, ⟨S512x1, A3⟩]
      concatenates_S512x1_S512x1_S512x1_S512x1_S512x4_d1 (ix2 p k)
      = if k.val = 0 then A0 (ix2 p (0 : Fin 1)) else if k.val = 1 then A1 (ix2 p (0 : Fin 1))
        else if k.val = 2 then A2 (ix2 p (0 : Fin 1)) else A3 (ix2 p (0 : Fin 1)) := by
  have hr : S512x1.rank = S512x4.rank := rfl
  have hi : ∀ (k : Fin 4) (b : Fin S512x1.rank), b.cast hr ≠ (1 : Fin S512x4.rank) →
      ((ix2 p (0 : Fin 1) : S512x1.Idx) b).val = ((ix2 p k : S512x4.Idx) (b.cast hr)).val := fun k b hb => by
    match b with
    | ⟨0, _⟩ => rfl
    | ⟨1, _⟩ => exact absurd rfl hb
  match k with
  | ⟨0, _⟩ =>
    refine (concatenate_apply_piece (1 : Fin S512x4.rank) [⟨S512x1, A0⟩, ⟨S512x1, A1⟩, ⟨S512x1, A2⟩, ⟨S512x1, A3⟩]
      concatenates_S512x1_S512x1_S512x1_S512x1_S512x4_d1 _ 0 (by show (0 : ℕ) < 4; norm_num)
      S512x1 A0 rfl hr 0 rfl (ix2 p (0 : Fin 1)) (hi _) rfl).trans ?_
    exact (if_pos rfl).symm
  | ⟨1, _⟩ =>
    refine (concatenate_apply_piece (1 : Fin S512x4.rank) [⟨S512x1, A0⟩, ⟨S512x1, A1⟩, ⟨S512x1, A2⟩, ⟨S512x1, A3⟩]
      concatenates_S512x1_S512x1_S512x1_S512x1_S512x4_d1 _ 1 (by show (1 : ℕ) < 4; norm_num)
      S512x1 A1 rfl hr 1 rfl (ix2 p (0 : Fin 1)) (hi _) rfl).trans ?_
    exact ((if_neg (show ¬ (1 : ℕ) = 0 by decide)).trans (if_pos rfl)).symm
  | ⟨2, _⟩ =>
    refine (concatenate_apply_piece (1 : Fin S512x4.rank) [⟨S512x1, A0⟩, ⟨S512x1, A1⟩, ⟨S512x1, A2⟩, ⟨S512x1, A3⟩]
      concatenates_S512x1_S512x1_S512x1_S512x1_S512x4_d1 _ 2 (by show (2 : ℕ) < 4; norm_num)
      S512x1 A2 rfl hr 2 rfl (ix2 p (0 : Fin 1)) (hi _) rfl).trans ?_
    exact ((if_neg (show ¬ (2 : ℕ) = 0 by decide)).trans ((if_neg (show ¬ (2 : ℕ) = 1 by decide)).trans (if_pos rfl))).symm
  | ⟨3, _⟩ =>
    refine (concatenate_apply_piece (1 : Fin S512x4.rank) [⟨S512x1, A0⟩, ⟨S512x1, A1⟩, ⟨S512x1, A2⟩, ⟨S512x1, A3⟩]
      concatenates_S512x1_S512x1_S512x1_S512x1_S512x4_d1 _ 3 (by show (3 : ℕ) < 4; norm_num)
      S512x1 A3 rfl hr 3 rfl (ix2 p (0 : Fin 1)) (hi _) rfl).trans ?_
    exact ((if_neg (show ¬ (3 : ℕ) = 0 by decide)).trans ((if_neg (show ¬ (3 : ℕ) = 1 by decide)).trans (if_neg (show ¬ (3 : ℕ) = 2 by decide)))).symm

/-! ## The payload at an index -/

/-- THE HEAD'S STORED BLOCK AT `(p, k)`: the head's four output columns for the block's sample `p`, from the logits' row
    `x_p · head_wᵀ` and the sample's shortlist word. -/
theorem pay0_apply (v0 : Vec Ideal S1003x512 .f32) (v2 : Vec Ideal S512x512 .bf16) (v17 : Vec Ideal S512x1 .i32)
    (p : Fin 512) (k : Fin 4) :
    k0_pay1 (F := Ideal) v0 v2 v17 (ix2 p k)
      = Spec.headOut (fun cc => Spec.dotT (fun d => v2 (ix2 p d)) (fun d => v0 (ix2 cc d))) (v17 (ix2 p (0 : Fin 1))) k := by
  have hz : (fun c : Fin 1003 => lg v0 v2 (ix2 p c))
      = fun cc => Spec.dotT (fun d => v2 (ix2 p d)) (fun d => v0 (ix2 cc d)) := funext fun c => lg_apply v0 v2 p c
  rw [← hz]
  refine (congrFun (k0_pay1_eq v0 v2 v17) (ix2 p k)).trans ?_
  refine (cat4_apply _ _ _ _ p k).trans ?_
  unfold Spec.headOut
  match k with
  | ⟨0, _⟩ => exact (if_pos rfl).trans ((ohc_apply (lg v0 v2) v17 p 0).trans (if_pos rfl).symm)
  | ⟨1, _⟩ =>
    exact ((if_neg (show ¬ (1 : ℕ) = 0 by decide)).trans (if_pos rfl)).trans
      (((slice2_axis1_apply 1000 (lpb (lg v0 v2)) slices_S512x1003_o0_1000_S512x1 p (0 : Fin 1) ⟨1000, by norm_num⟩ rfl).trans
        (lpb_apply (lg v0 v2) p ⟨1000, by norm_num⟩)).trans (if_neg (show ¬ (1 : ℕ) = 0 by decide)).symm)
  | ⟨2, _⟩ =>
    exact ((if_neg (show ¬ (2 : ℕ) = 0 by decide)).trans ((if_neg (show ¬ (2 : ℕ) = 1 by decide)).trans (if_pos rfl))).trans
      (((slice2_axis1_apply 1001 (lpb (lg v0 v2)) slices_S512x1003_o0_1001_S512x1 p (0 : Fin 1) ⟨1001, by norm_num⟩ rfl).trans
        (lpb_apply (lg v0 v2) p ⟨1001, by norm_num⟩)).trans (if_neg (show ¬ (2 : ℕ) = 0 by decide)).symm)
  | ⟨3, _⟩ =>
    exact ((if_neg (show ¬ (3 : ℕ) = 0 by decide)).trans ((if_neg (show ¬ (3 : ℕ) = 1 by decide)).trans (if_neg (show ¬ (3 : ℕ) = 2 by decide)))).trans
      (((slice2_axis1_apply 1002 (lpb (lg v0 v2)) slices_S512x1003_o0_1002_S512x1 p (0 : Fin 1) ⟨1002, by norm_num⟩ rfl).trans
        (lpb_apply (lg v0 v2) p ⟨1002, by norm_num⟩)).trans (if_neg (show ¬ (3 : ℕ) = 0 by decide)).symm)

end Cert.Proof.Val.R0

end
-- ==== Proof.Val.R0Arr.lean ====
/-
  From the head region's blocks to its output array, at the extended reals.

  The head kernel runs on four points; at point `t` it reads rows `512 t … 512 t + 511` of the samples and of the shortlist
  words, the head weights whole, and stores rows `512 t … 512 t + 511` of the output. Each input block is read where the
  output's rows say (a block's coordinate in its array is the block's index times the block's size plus the coordinate inside
  the block), so what point `t` writes back is block `t` of ONE function of the three arrays, `headArr`: at `(n, k)` the head's
  output column `k` for sample `n` (`Spec.headOut` of the logits' row `x_n · head_wᵀ` and the sample's word). The four blocks
  cover the array, so the array ends holding `headArr` (`arr0_fun`, `arr0_eq`).
-/
import proofs.«416376_j65790309040722_2_alg».proof.Proof.Val.R0Val
import proofs.«416376_j65790309040722_2_alg».proof.Proof.KI.R0
import Idealize.ShloMosaic.Lib.Pipeline.Value

set_option maxRecDepth 16384

noncomputable section

namespace Cert.Proof.Val.R0

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

-- the TensorCore's buffer contents when the region is entered
variable (V : (c : Dev nD) → (b : Ref sig .tc) → Buf (Elt Ideal) ((c : Thread nD τ).loc b))

/-! ## Where each window's block sits at a point -/

/-- The printed index maps over the four points: the sample block, the word block and the output block are block `t` of
    their arrays along the rows; the head weights' block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The input blocks as rows of their arrays -/

/-- Row `p` of the sample block at point `t` is row `512 t + p` of the samples. -/
theorem xblk_apply (c : Dev nD) (t : Fin cfg0.N) (p d : Fin 512) (n : Fin 2048) (hn : n.val = t.val * 512 + p.val) :
    (iblk0 V c 0 t : Vec Ideal S512x512 .bf16) (ix2 p d) = (V c main_v0 : Vec Ideal S2048x512 .bf16) (ix2 n d) := by
  unfold iblk0
  show V c main_v0 (((cfg0.win 0).blk t).view.emb (ix2 p d)) = V c main_v0 (ix2 n d)
  refine congrArg (V c main_v0) (funext fun a => Fin.ext ?_)
  match a with
  | ⟨0, _⟩ => show win0_0.index t (0 : Fin 2) * 512 + 1 * p.val = n.val; rw [(idx0 t).1, hn]; omega
  | ⟨1, _⟩ => show win0_0.index t (1 : Fin 2) * 512 + 1 * d.val = d.val; rw [(idx0 t).2.1]; omega

/-- The head weights' block is the whole array at every point. -/
theorem wblk_apply (c : Dev nD) (t : Fin cfg0.N) (cc : Fin 1003) (d : Fin 512) :
    (iblk0 V c 1 t : Vec Ideal S1003x512 .f32) (ix2 cc d) = (V c main_arg2 : Vec Ideal S1003x512 .f32) (ix2 cc d) := by
  unfold iblk0
  show V c main_arg2 (((cfg0.win 1).blk t).view.emb (ix2 cc d)) = V c main_arg2 (ix2 cc d)
  refine congrArg (V c main_arg2) (funext fun a => Fin.ext ?_)
  match a with
  | ⟨0, _⟩ => show win0_1.index t (0 : Fin 2) * 1003 + 1 * cc.val = cc.val; rw [(idx0 t).2.2.1]; omega
  | ⟨1, _⟩ => show win0_1.index t (1 : Fin 2) * 512 + 1 * d.val = d.val; rw [(idx0 t).2.2.2.1]; omega

/-- Row `p` of the word block at point `t` is row `512 t + p` of the words. -/
theorem rblk_apply (c : Dev nD) (t : Fin cfg0.N) (p : Fin 512) (u : Fin 1) (n : Fin 2048) (hn : n.val = t.val * 512 + p.val) :
    (iblk0 V c 2 t : Vec Ideal S512x1 .i32) (ix2 p u) = (V c main_v3 : Vec Ideal S2048x1 .i32) (ix2 n u) := by
  unfold iblk0
  show V c main_v3 (((cfg0.win 2).blk t).view.emb (ix2 p u)) = V c main_v3 (ix2 n u)
  refine congrArg (V c main_v3) (funext fun a => Fin.ext ?_)
  match a with
  | ⟨0, _⟩ => show win0_2.index t (0 : Fin 2) * 512 + 1 * p.val = n.val; rw [(idx0 t).2.2.2.2.1, hn]; omega
  | ⟨1, _⟩ => show win0_2.index t (1 : Fin 2) * 1 + 1 * u.val = u.val; rw [(idx0 t).2.2.2.2.2.1]; omega

/-! ## What the region leaves in its output array -/

/-- The head's four output columns of sample `n`, from the arrays as the region finds them: the samples, the head weights
    and the shortlist words. -/
def headRow (c : Dev nD) (n : Fin 2048) (k : Fin 4) : EReal :=
  Spec.headOut (fun cc => Spec.dotT (fun d => (V c main_v0 : Vec Ideal S2048x512 .bf16) (ix2 n d))
      (fun d => (V c main_arg2 : Vec Ideal S1003x512 .f32) (ix2 cc d)))
    ((V c main_v3 : Vec Ideal S2048x1 .i32) (ix2 n (0 : Fin 1))) k

/-- The output array as one function of the arrays the region reads. -/
def headArr (c : Dev nD) : Vec Ideal S2048x4 .f32 :=
  fun i => headRow V c ⟨(i 0).val, idx2_lt0 i⟩ ⟨(i 1).val, idx2_lt1 i⟩

theorem headArr_ix2 (c : Dev nD) (n : Fin 2048) (k : Fin 4) : headArr V c (ix2 n k) = headRow V c n k := rfl

/-- The payload of point `t`'s input blocks at `(p, k)` is the head's output for sample `512 t + p`. -/
theorem pay_block (c : Dev nD) (t : Fin cfg0.N) (p : Fin 512) (k : Fin 4) (n : Fin 2048) (hn : n.val = t.val * 512 + p.val) :
    k0_pay1 (F := Ideal) (iblk0 V c 1 t) (iblk0 V c 0 t) (iblk0 V c 2 t) (ix2 p k) = headRow V c n k := by
  refine (pay0_apply (iblk0 V c 1 t) (iblk0 V c 0 t) (iblk0 V c 2 t) p k).trans ?_
  unfold headRow
  have hZ : (fun cc : Fin 1003 => Spec.dotT (fun d : Fin 512 => (iblk0 V c 0 t : Vec Ideal S512x512 .bf16) (ix2 p d))
        (fun d : Fin 512 => (iblk0 V c 1 t : Vec Ideal S1003x512 .f32) (ix2 cc d)))
      = fun cc : Fin 1003 => Spec.dotT (fun d : Fin 512 => (V c main_v0 : Vec Ideal S2048x512 .bf16) (ix2 n d))
        (fun d : Fin 512 => (V c main_arg2 : Vec Ideal S1003x512 .f32) (ix2 cc d)) :=
    funext fun cc => congr (congrArg Spec.dotT (funext fun d => xblk_apply V c t p d n hn))
      (funext fun d => wblk_apply V c t cc d)
  have hR : (iblk0 V c 2 t : Vec Ideal S512x1 .i32) (ix2 p (0 : Fin 1))
      = (V c main_v3 : Vec Ideal S2048x1 .i32) (ix2 n (0 : Fin 1)) := rblk_apply V c t p 0 n hn
  rw [hZ, hR]

/-- WHAT POINT `t` WRITES BACK is block `t` of `headArr`. -/
theorem flushed0_eq (c : Dev nD) (t : Fin cfg0.N) :
    (dat0 V c).flushed 3 t = ((cfg0.win 3).blk t).view.read (Elt Ideal) (headArr V c) := by
  show (cfg0.win 3).cut (grid0.coords t) ((dat0 V c).after 3 t) = _
  rw [after0_3, out0_3_eq]
  funext j
  obtain ⟨p, k, rfl⟩ : ∃ (p : Fin 512) (k : Fin 4), j = ix2 p k :=
    ⟨⟨(j 0).val, (j 0).isLt⟩, ⟨(j 1).val, (j 1).isLt⟩, funext fun a => by match a with | ⟨0, _⟩ => rfl | ⟨1, _⟩ => rfl⟩
  have hn : t.val * 512 + p.val < 2048 := by have := t.isLt; have hN : cfg0.N = 4 := N_0; have := p.isLt; omega
  have he : ((cfg0.win 3).blk t).view.emb (ix2 p k) = (ix2 (⟨t.val * 512 + p.val, hn⟩ : Fin 2048) k : S2048x4.Idx) :=
    funext fun a => Fin.ext (by
      match a with
      | ⟨0, _⟩ => show win0_3.index t (0 : Fin 2) * 512 + 1 * p.val = t.val * 512 + p.val; rw [(idx0 t).2.2.2.2.2.2.1]; omega
      | ⟨1, _⟩ => show win0_3.index t (1 : Fin 2) * 4 + 1 * k.val = k.val; rw [(idx0 t).2.2.2.2.2.2.2]; omega)
  show k0_pay1 (F := Ideal) (iblk0 V c 1 t) (iblk0 V c 0 t) (iblk0 V c 2 t) (ix2 p k)
    = headArr V c (((cfg0.win 3).blk t).view.emb (ix2 p k))
  rw [he, headArr_ix2]
  exact pay_block V c t p k ⟨t.val * 512 + p.val, hn⟩ rfl

/-- An index of the output array is in point `t`'s block iff each coordinate is in the block's range on its axis. -/
theorem mem_blk0 (t : Fin cfg0.N) (i : S2048x4.Idx) :
    i ∈ ((cfg0.win 3).blk t).view.set ↔ ∀ a : Fin 2, win0_3.index t a * S512x4.size a ≤ (i a).val
      ∧ (i a).val < win0_3.index t a * S512x4.size a + S512x4.size a := by
  show i ∈ ((View.whole main_v4).slice (win0_3.rect t)).set ↔ _
  rw [View.set_slice_whole, Rect.mem_set_unit]
  exact Iff.rfl

/-- The four blocks cover the output array: row `r` is in block `r / 512`. -/
theorem cover0 (i : S2048x4.Idx) : ∃ t : Fin cfg0.N, (cfg0.win 3).flush t = true ∧ i ∈ ((cfg0.win 3).blk t).view.set := by
  have hi0 : (i 0).val < 2048 := idx2_lt0 i
  have hi1 : (i 1).val < 4 := idx2_lt1 i
  have hN : cfg0.N = 4 := N_0
  refine ⟨⟨(i 0).val / 512, by rw [hN]; omega⟩, flush0_3 _, ?_⟩
  rw [mem_blk0]
  intro a
  obtain ⟨-, -, -, -, -, -, e0, e1⟩ := idx0 ⟨(i 0).val / 512, by rw [hN]; omega⟩
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 4 ≤ (i 1).val ∧ (i 1).val < win0_3.index _ (1 : Fin 2) * 4 + 4
    rw [e1]; omega

/-- THE OUTPUT ARRAY after the region is `headArr`. -/
theorem arr0_fun (c : Dev nD) : (dat0 (F := Ideal) V c).arrAt 3 cfg0.N = headArr V c :=
  (dat0 V c).arrAt_eq_of_cover 3 (headArr V c) (fun t _ => flushed0_eq V c t) cover0

/-- THE OUTPUT ARRAY AT `(n, k)`: the head's output column `k` of sample `n`. -/
theorem arr0_eq (c : Dev nD) (n : Fin 2048) (k : Fin 4) :
    (dat0 (F := Ideal) V c).arrAt 3 cfg0.N (ix2 n k)
      = Spec.headOut (fun cc => Spec.dotT (fun d => V c main_v0 (ix2 n d)) (fun d => V c main_arg2 (ix2 cc d)))
        (V c main_v3 (ix2 n (0 : Fin 1))) k :=
  (congrFun (arr0_fun V c) (ix2 n k)).trans (headArr_ix2 V c n k)

end Cert.Proof.Val.R0

end
-- ==== Proof.Val.R1Pieces.lean ====
import proofs.«416376_j65790309040722_2_alg».proof.Proof.KI.R1
import Idealize.ShloMosaic.Lib.Pipeline.Value

/-!
# Region 1 (tail cluster 0): each piece the body's runs leave is its payload

What a control case leaves in a scratch buffer or in the output's buffer is a list of whole-buffer stores read back.
The last store through the whole buffer leaves its payload whatever came before it; a load through the whole buffer of
what one whole store left reads that store's payload; a load of a buffer nothing has stored into reads what it held.
So each buffer's contents after a case is ONE payload of the kernel, over the input blocks and the carried scratch —
at any float type.
-/

set_option maxRecDepth 16384

noncomputable section

namespace Cert.Proof.Val.R1P

open Idealize.ShloMosaic Idealize.ShloMosaic.Tactic Idealize.SL.Sem
open Cert.KernelIdeal Cert.KernelIdeal.Gen Cert.KernelIdeal.Hand

variable {F : FTy → Type} [FloatOps F]

/-- The zero offsets of a rank-2 whole-buffer access, however spelt. -/
theorem hz2 : (![0, 0] : Fin 2 → ℕ) = fun _ => 0 := by funext a; fin_cases a <;> rfl

/-- At the first column tile the hidden layer's scratch is stored once, whole: it holds the hidden layer of the row tile's block and the first weights. -/
theorem sout1_A_7_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) :
    sout1_A_7 c i arg2 harg2 arg3 harg3 arg4 harg4 arg5 harg5 arg6 harg6 arg7 harg7 arg8 harg8 arg9 harg9 arg10 harg10 hc0 hc1 x0 x1 x2 x3 = k1_pay4 x1 x0 := by
  unfold sout1_A_7
  rw [View.read_writes_eq_canon _ _ _ (scover1_A_7 c i arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At the first column tile the running maximum is reset and then updated, both whole stores: the update, which is last, is what stays — taken over the hidden layer just stored and the maximum just reset. -/
theorem sout1_A_8_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) :
    sout1_A_8 c i arg2 harg2 arg3 harg3 arg4 harg4 arg5 harg5 arg6 harg6 arg7 harg7 arg8 harg8 arg9 harg9 arg10 harg10 hc0 hc1 x0 x1 x2 x3 = k1_pay9 (k1_pay4 x1 x0) x2 k1_pay1 := by
  unfold sout1_A_8
  rw [View.read_writes_eq_canon _ _ _ (scover1_A_8 c i arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At the first column tile the running sum is reset and then updated, both whole stores: the update stays — taken over the hidden layer just stored, the maximum just reset (read twice) and the sum just reset. -/
theorem sout1_A_9_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) :
    sout1_A_9 c i arg2 harg2 arg3 harg3 arg4 harg4 arg5 harg5 arg6 harg6 arg7 harg7 arg8 harg8 arg9 harg9 arg10 harg10 hc0 hc1 x0 x1 x2 x3 = k1_pay8 (k1_pay4 x1 x0) x2 k1_pay1 k1_pay1 k1_pay2 := by
  unfold sout1_A_9
  rw [View.read_writes_eq_canon _ _ _ (scover1_A_9 c i arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At the first column tile the target's logit is stored once, whole: the row-wise product of the hidden layer with the gathered second weights. -/
theorem sout1_A_10_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S128x512 .f32) (x2 : Vec F S1000x128 .f32) (x3 : Vec F S1024x128 .f32) :
    sout1_A_10 c i arg2 harg2 arg3 harg3 arg4 harg4 arg5 harg5 arg6 harg6 arg7 harg7 arg8 harg8 arg9 harg9 arg10 harg10 hc0 hc1 x0 x1 x2 x3 = k1_pay5 x1 x0 x3 := by
  unfold sout1_A_10
  rw [View.read_writes_eq_canon _ _ _ (scover1_A_10 c i arg2 harg2 arg3 harg3 arg4 harg4 arg5 harg5 arg6 harg6 arg7 harg7 arg8 harg8 arg9 harg9 arg10 harg10 hc0 hc1 x0 x1 x2 x3)]
  unfold kernelRun1_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At an inner column tile the running maximum is stored once, whole: the update over the carried hidden layer, the tile's weights and the carried maximum. -/
theorem sout1_B_8_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    sout1_B_8 c i arg2 harg2 arg3 harg3 arg4 harg4 arg5 harg5 arg6 harg6 arg7 harg7 arg8 harg8 arg9 harg9 arg10 harg10 hc0 hc1 x0 x1 x2 x3 xs7 xs8 xs9 xs10 = k1_pay9 xs7 x2 xs8 := by
  unfold sout1_B_8
  rw [View.read_writes_eq_canon _ _ _ (scover1_B_8 c i arg2 harg2 arg3 harg3 arg4 harg4 arg5 harg5 arg6 harg6 arg7 harg7 arg8 harg8 arg9 harg9 arg10 harg10 hc0 hc1 x0 x1 x2 x3 xs7 xs8 xs9 xs10)]
  unfold kernelRun1_B
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At an inner column tile the running sum is stored once, whole: the update over the carried hidden layer, the tile's weights, the carried maximum (read twice) and the carried sum. -/
theorem sout1_B_9_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    sout1_B_9 c i arg2 harg2 arg3 harg3 arg4 harg4 arg5 harg5 arg6 harg6 arg7 harg7 arg8 harg8 arg9 harg9 arg10 harg10 hc0 hc1 x0 x1 x2 x3 xs7 xs8 xs9 xs10 = k1_pay8 xs7 x2 xs8 xs8 xs9 := by
  unfold sout1_B_9
  rw [View.read_writes_eq_canon _ _ _ (scover1_B_9 c i arg2 harg2 arg3 harg3 arg4 harg4 arg5 harg5 arg6 harg6 arg7 harg7 arg8 harg8 arg9 harg9 arg10 harg10 hc0 hc1 x0 x1 x2 x3 xs7 xs8 xs9 xs10)]
  unfold kernelRun1_B
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At the last column tile the running maximum is stored once, whole, as at an inner tile. -/
theorem sout1_C_8_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    sout1_C_8 c i arg2 harg2 arg3 harg3 arg4 harg4 arg5 harg5 arg6 harg6 arg7 harg7 arg8 harg8 arg9 harg9 arg10 harg10 hc0 hc1 x0 x1 x2 x3 xs7 xs8 xs9 xs10 = k1_pay9 xs7 x2 xs8 := by
  unfold sout1_C_8
  rw [View.read_writes_eq_canon _ _ _ (scover1_C_8 c i arg2 harg2 arg3 harg3 arg4 harg4 arg5 harg5 arg6 harg6 arg7 harg7 arg8 harg8 arg9 harg9 arg10 harg10 hc0 hc1 x0 x1 x2 x3 xs7 xs8 xs9 xs10)]
  unfold kernelRun1_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At the last column tile the running sum is stored once, whole, as at an inner tile. -/
theorem sout1_C_9_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    sout1_C_9 c i arg2 harg2 arg3 harg3 arg4 harg4 arg5 harg5 arg6 harg6 arg7 harg7 arg8 harg8 arg9 harg9 arg10 harg10 hc0 hc1 x0 x1 x2 x3 xs7 xs8 xs9 xs10 = k1_pay8 xs7 x2 xs8 xs8 xs9 := by
  unfold sout1_C_9
  rw [View.read_writes_eq_canon _ _ _ (scover1_C_9 c i arg2 harg2 arg3 harg3 arg4 harg4 arg5 harg5 arg6 harg6 arg7 harg7 arg8 harg8 arg9 harg9 arg10 harg10 hc0 hc1 x0 x1 x2 x3 xs7 xs8 xs9 xs10)]
  unfold kernelRun1_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

/-- At the last column tile the output block is stored once, whole: the target's logit less the maximum and the logarithm of the sum, both as this tile's updates just left them. -/
theorem out1_C_4_eq (c : Dev nD) (i : grid1.Coords) (arg2 : Memref sig .tc .vmem S1024x512 .bf16) (harg2 : arg2.IsWhole) (arg3 : Memref sig .tc .vmem S128x512 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S128x512 .f32) (x2 : Vec F S1000x128 .f32) (x3 : Vec F S1024x128 .f32) (xs7 : Vec F S1024x128 .bf16) (xs8 : Vec F S1024x1 .f32) (xs9 : Vec F S1024x1 .f32) (xs10 : Vec F S1024x1 .f32) :
    out1_C_4 c i arg2 harg2 arg3 harg3 arg4 harg4 arg5 harg5 arg6 harg6 arg7 harg7 arg8 harg8 arg9 harg9 arg10 harg10 hc0 hc1 x0 x1 x2 x3 xs7 xs8 xs9 xs10 = k1_pay10 (k1_pay9 xs7 x2 xs8) (k1_pay8 xs7 x2 xs8 xs8 xs9) xs10 := by
  unfold out1_C_4
  rw [View.read_writes_eq_canon _ _ _ (cover1_C_4 c i arg2 harg2 arg3 harg3 arg4 harg4 arg5 harg5 arg6 harg6 arg7 harg7 arg8 harg8 arg9 harg9 arg10 harg10 hc0 hc1 x0 x1 x2 x3 xs7 xs8 xs9 xs10)]
  unfold kernelRun1_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S128x512) hz2, View.ld_unit_zero (S := S1000x128) hz2,
    View.ld_unit_zero (S := S1024x128) hz2, View.ld_unit_zero (S := S1024x1) hz2,
    View.readCov_unit_zero (S := S1024x128) _ hz2, View.readCov_unit_zero (S := S1024x1) _ hz2]

end Cert.Proof.Val.R1P

end
-- ==== Proof.Val.R1Val.lean ====
import proofs.«416376_j65790309040722_2_alg».proof.Proof.KI.R1
import proofs.«416376_j65790309040722_2_alg».proof.Proof.Val.R1Pieces
import proofs.«416376_j65790309040722_2_alg».proof.Proof.Gen.KernelIdeal.Skeleton
import proofs.«416376_j65790309040722_2_alg».proof.Proof.Val.Spec
import proofs.«416376_j65790309040722_2_alg».proof.Proof.Val.Softmax
import Idealize.ShloMosaic.Lib.Pipeline.Value
import Idealize.ShloMosaic.Lib.ValueIdx
import Idealize.ShloMosaic.Lib.ValueLayout
import Idealize.ShloMosaic.PureOps.Ideal.Laws

/-!
# Region 1 (tail cluster 0): the values

Each payload of the cluster's kernel read at an index at the ideal values, in terms of the products, maxima, sums,
exponentials and logarithm of `Spec`; the running maximum and rescaled running sum of a row along its row tile's
column tiles as the tile-by-tile recursion of `Softmax`; and, on finite data, the output array as the cluster's
output of `Spec`, sample by sample.
-/

set_option maxRecDepth 16384

noncomputable section

namespace Cert.Proof.Val.R1

open Idealize.ShloMosaic Idealize.ShloMosaic.TcCoe Idealize.SL.Sem Idealize.ShloMosaic.ValueIdx
open Cert.KernelIdeal Cert.KernelIdeal.Gen Cert.KernelIdeal.Hand
open scoped BigOperators

/-! ## Two keepdims layout forms -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of `-∞` is the bottom of the extended reals. -/
theorem ofBits_neg_inf_f32 : Ideal.ofBits .f32 0xFF800000#32 = (⊥ : EReal) := by
  simp [Ideal.ofBits, Ideal.ieee]

/-! ## The two resets -/

/-- The running maximum is reset to `-∞`. -/
theorem pay01_apply (p : Fin 1024) : (k1_pay1 (F := Ideal)) (ix2 p (0 : Fin 1)) = (⊥ : EReal) := by
  unfold k1_pay1
  rw [shapeCast_self]
  exact ofBits_neg_inf_f32

/-- The running sum is reset to `0`. -/
theorem pay02_apply (p : Fin 1024) : (k1_pay2 (F := Ideal)) (ix2 p (0 : Fin 1)) = (0 : EReal) := by
  unfold k1_pay2
  rw [shapeCast_self]
  exact Ideal.ofBits_zero_f32

/-! ## The two products -/

theorem lhs_hid_0 (i : S1024x128.Idx) (q : dot_S1024x512_S128x512_S1024x128_1_1_0_0_n_n.contr.Idx) :
    (dot_S1024x512_S128x512_S1024x128_1_1_0_0_n_n.lhsIdx i q 0).val = (i 0).val := by
  unfold DotDims.lhsIdx
  rw [dif_neg (show ¬(0 : Fin S1024x512.rank) ∈ dot_S1024x512_S128x512_S1024x128_1_1_0_0_n_n.lhsBatch by decide), dif_pos (show (0 : Fin S1024x512.rank) ∈ dot_S1024x512_S128x512_S1024x128_1_1_0_0_n_n.lhsNonContracting by decide)]
  rfl
theorem lhs_hid_1 (i : S1024x128.Idx) (q : dot_S1024x512_S128x512_S1024x128_1_1_0_0_n_n.contr.Idx) :
    (dot_S1024x512_S128x512_S1024x128_1_1_0_0_n_n.lhsIdx i q 1).val = (q ⟨0, by decide⟩).val :=
  dot_S1024x512_S128x512_S1024x128_1_1_0_0_n_n.lhsIdx_val_of_single rfl i q
theorem rhs_hid_0 (i : S1024x128.Idx) (q : dot_S1024x512_S128x512_S1024x128_1_1_0_0_n_n.contr.Idx) :
    (dot_S1024x512_S128x512_S1024x128_1_1_0_0_n_n.rhsIdx i q 0).val = (i 1).val := by
  unfold DotDims.rhsIdx
  rw [dif_neg (show ¬(0 : Fin S128x512.rank) ∈ dot_S1024x512_S128x512_S1024x128_1_1_0_0_n_n.rhsBatch by decide), dif_pos (show (0 : Fin S128x512.rank) ∈ dot_S1024x512_S128x512_S1024x128_1_1_0_0_n_n.rhsNonContracting by decide)]
  rfl
theorem rhs_hid_1 (i : S1024x128.Idx) (q : dot_S1024x512_S128x512_S1024x128_1_1_0_0_n_n.contr.Idx) :
    (dot_S1024x512_S128x512_S1024x128_1_1_0_0_n_n.rhsIdx i q 1).val = (q ⟨0, by decide⟩).val :=
  dot_S1024x512_S128x512_S1024x128_1_1_0_0_n_n.rhsIdx_val_of_single rfl i q

/-- The hidden activation before rounding: entry `(p, h)` of `x · w1ᵀ` is the product of row `p` of the `x` block
    with row `h` of `w1`. -/
theorem pay03_apply (v39 : Vec Ideal S128x512 .f32) (v41 : Vec Ideal S1024x512 .bf16) (p : Fin 1024) (h : Fin 128) :
    k1_pay3 (F := Ideal) v39 v41 (ix2 p h)
      = Spec.dotT (fun d : Fin 512 => (v41 (ix2 p d) : EReal)) (fun d : Fin 512 => (v39 (ix2 h d) : EReal)) := by
  unfold k1_pay3 Spec.dotT
  rw [shapeCast_self]
  refine (Ideal.matmul_constant_zero_apply dot_S1024x512_S128x512_S1024x128_1_1_0_0_n_n none v41 (truncf .bf16 v39 bitsLt_bf16_f32) (ix2 p h)).trans ?_
  rw [← Equiv.sum_comp (ValueIdx.contrEquiv1 dot_S1024x512_S128x512_S1024x128_1_1_0_0_n_n 512 rfl rfl).symm]
  refine Finset.sum_congr rfl fun k _ => ?_
  have hk := ValueIdx.contrEquiv1_symm_val dot_S1024x512_S128x512_S1024x128_1_1_0_0_n_n 512 rfl rfl k
  have el : dot_S1024x512_S128x512_S1024x128_1_1_0_0_n_n.lhsIdx (ix2 p h) ((ValueIdx.contrEquiv1 dot_S1024x512_S128x512_S1024x128_1_1_0_0_n_n 512 rfl rfl).symm k) = ix2 p k := funext fun a => Fin.ext (by
    match a with
    | ⟨0, _⟩ => exact lhs_hid_0 _ _
    | ⟨1, _⟩ => exact (lhs_hid_1 _ _).trans hk)
  have er : dot_S1024x512_S128x512_S1024x128_1_1_0_0_n_n.rhsIdx (ix2 p h) ((ValueIdx.contrEquiv1 dot_S1024x512_S128x512_S1024x128_1_1_0_0_n_n 512 rfl rfl).symm k) = ix2 h k := funext fun a => Fin.ext (by
    match a with
    | ⟨0, _⟩ => exact rhs_hid_0 _ _
    | ⟨1, _⟩ => exact (rhs_hid_1 _ _).trans hk)
  rw [el, er]
  rfl

/-- The hidden activation as it is stored (the change of format is the identity on the extended reals). -/
theorem pay04_apply (v39 : Vec Ideal S128x512 .f32) (v41 : Vec Ideal S1024x512 .bf16) (p : Fin 1024) (h : Fin 128) :
    k1_pay4 (F := Ideal) v39 v41 (ix2 p h)
      = Spec.dotT (fun d : Fin 512 => (v41 (ix2 p d) : EReal)) (fun d : Fin 512 => (v39 (ix2 h d) : EReal)) := by
  unfold k1_pay4
  rw [shapeCast_self]
  exact pay03_apply v39 v41 p h

theorem lhs_logit_0 (i : S1024x1000.Idx) (q : dot_S1024x128_S1000x128_S1024x1000_1_1_0_0_n_n.contr.Idx) :
    (dot_S1024x128_S1000x128_S1024x1000_1_1_0_0_n_n.lhsIdx i q 0).val = (i 0).val := by
  unfold DotDims.lhsIdx
  rw [dif_neg (show ¬(0 : Fin S1024x128.rank) ∈ dot_S1024x128_S1000x128_S1024x1000_1_1_0_0_n_n.lhsBatch by decide), dif_pos (show (0 : Fin S1024x128.rank) ∈ dot_S1024x128_S1000x128_S1024x1000_1_1_0_0_n_n.lhsNonContracting by decide)]
  rfl
theorem lhs_logit_1 (i : S1024x1000.Idx) (q : dot_S1024x128_S1000x128_S1024x1000_1_1_0_0_n_n.contr.Idx) :
    (dot_S1024x128_S1000x128_S1024x1000_1_1_0_0_n_n.lhsIdx i q 1).val = (q ⟨0, by decide⟩).val :=
  dot_S1024x128_S1000x128_S1024x1000_1_1_0_0_n_n.lhsIdx_val_of_single rfl i q
theorem rhs_logit_0 (i : S1024x1000.Idx) (q : dot_S1024x128_S1000x128_S1024x1000_1_1_0_0_n_n.contr.Idx) :
    (dot_S1024x128_S1000x128_S1024x1000_1_1_0_0_n_n.rhsIdx i q 0).val = (i 1).val := by
  unfold DotDims.rhsIdx
  rw [dif_neg (show ¬(0 : Fin S1000x128.rank) ∈ dot_S1024x128_S1000x128_S1024x1000_1_1_0_0_n_n.rhsBatch by decide), dif_pos (show (0 : Fin S1000x128.rank) ∈ dot_S1024x128_S1000x128_S1024x1000_1_1_0_0_n_n.rhsNonContracting by decide)]
  rfl
theorem rhs_logit_1 (i : S1024x1000.Idx) (q : dot_S1024x128_S1000x128_S1024x1000_1_1_0_0_n_n.contr.Idx) :
    (dot_S1024x128_S1000x128_S1024x1000_1_1_0_0_n_n.rhsIdx i q 1).val = (q ⟨0, by decide⟩).val :=
  dot_S1024x128_S1000x128_S1024x1000_1_1_0_0_n_n.rhsIdx_val_of_single rfl i q

/-- The logits of a tile: entry `(p, cc)` of `hidden · w2ᵀ` is the product of row `p` of the hidden block with row
    `cc` of the tile of `w2`. -/
theorem pay06_apply (v3 : Vec Ideal S1024x128 .bf16) (v4 : Vec Ideal S1000x128 .f32) (p : Fin 1024) (cc : Fin 1000) :
    k1_pay6 (F := Ideal) v3 v4 (ix2 p cc)
      = Spec.dotT (fun h : Fin 128 => (v3 (ix2 p h) : EReal)) (fun h : Fin 128 => (v4 (ix2 cc h) : EReal)) := by
  unfold k1_pay6 Spec.dotT
  refine (Ideal.matmul_constant_zero_apply dot_S1024x128_S1000x128_S1024x1000_1_1_0_0_n_n none v3 (truncf .bf16 v4 bitsLt_bf16_f32) (ix2 p cc)).trans ?_
  rw [← Equiv.sum_comp (ValueIdx.contrEquiv1 dot_S1024x128_S1000x128_S1024x1000_1_1_0_0_n_n 128 rfl rfl).symm]
  refine Finset.sum_congr rfl fun k _ => ?_
  have hk := ValueIdx.contrEquiv1_symm_val dot_S1024x128_S1000x128_S1024x1000_1_1_0_0_n_n 128 rfl rfl k
  have el : dot_S1024x128_S1000x128_S1024x1000_1_1_0_0_n_n.lhsIdx (ix2 p cc) ((ValueIdx.contrEquiv1 dot_S1024x128_S1000x128_S1024x1000_1_1_0_0_n_n 128 rfl rfl).symm k) = ix2 p k := funext fun a => Fin.ext (by
    match a with
    | ⟨0, _⟩ => exact lhs_logit_0 _ _
    | ⟨1, _⟩ => exact (lhs_logit_1 _ _).trans hk)
  have er : dot_S1024x128_S1000x128_S1024x1000_1_1_0_0_n_n.rhsIdx (ix2 p cc) ((ValueIdx.contrEquiv1 dot_S1024x128_S1000x128_S1024x1000_1_1_0_0_n_n 128 rfl rfl).symm k) = ix2 cc k := funext fun a => Fin.ext (by
    match a with
    | ⟨0, _⟩ => exact rhs_logit_0 _ _
    | ⟨1, _⟩ => exact (rhs_logit_1 _ _).trans hk)
  rw [el, er]
  rfl

/-! ## A row's reductions -/

/-- The index a reduction along the columns inserts: the row's index with the column put back. -/
theorem lift_row {a b : ℕ} (hr : (⟨2, ![a, b]⟩ : Shape).Reduces [1] ⟨1, ![a]⟩) (p : Fin a) (k : Fin b) :
    hr.lift (ix1 p) k = ix2 p k :=
  funext fun c => Fin.ext (by
    match c with
    | ⟨0, _⟩ => rfl
    | ⟨1, _⟩ => rfl)

/-- A sum along the columns, kept as a column, read at a row. -/
theorem rowSum_apply {a b : ℕ} (src : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hφ : FKind.Formats .f32)
    (hacc : (0x00000000#32 : BitVec 32) = FKind.add.neutral .f32 hφ) (p : Fin a) :
    shapeCast ⟨2, ![a, 1]⟩ (multiReduction .add [1] ⟨1, ![a]⟩ src 0x00000000#32 hr hφ hacc) hc (ix2 p (0 : Fin 1))
      = ∑ k : Fin b, src (ix2 p k) := by
  refine (shapeCast_a_a1_apply _ hc p 0).trans ?_
  refine (Ideal.multiReduction_add_single src 0x00000000#32 hr hφ hacc (ix1 p)).trans ?_
  exact Finset.sum_congr rfl fun k _ => congrArg src (lift_row hr p k)

/-- A maximum along the columns, kept as a column, read at a row. -/
theorem rowMax_apply {a b : ℕ} (src : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hφ : FKind.Formats .f32)
    (hacc : (0xFF800000#32 : BitVec 32) = FKind.maximumf.neutral .f32 hφ) (p : Fin a) :
    shapeCast ⟨2, ![a, 1]⟩ (multiReduction .maximumf [1] ⟨1, ![a]⟩ src 0xFF800000#32 hr hφ hacc) hc (ix2 p (0 : Fin 1))
      = (Finset.univ : Finset (Fin b)).fold max (⊥ : EReal) (fun k => src (ix2 p k)) := by
  refine (shapeCast_a_a1_apply _ hc p 0).trans ?_
  refine (Ideal.multiReduction_maximumf_single src 0xFF800000#32 hr hφ hacc (ix1 p)).trans ?_
  have e : (src ∘ hr.lift (ix1 p)) = fun k : Fin b => src (ix2 p k) := funext fun k => congrArg src (lift_row hr p k)
  rw [e]
  exact congrArg (fun z => (Finset.univ : Finset (Fin b)).fold max z (fun k => src (ix2 p k))) ofBits_neg_inf_f32

/-- The product of the hidden row with the gathered row of `w2`. -/
theorem pay05_apply (v39 : Vec Ideal S128x512 .f32) (v41 : Vec Ideal S1024x512 .bf16) (v48 : Vec Ideal S1024x128 .f32) (p : Fin 1024) :
    k1_pay5 (F := Ideal) v39 v41 v48 (ix2 p (0 : Fin 1))
      = Spec.dotT (fun h : Fin 128 => k1_pay4 (F := Ideal) v39 v41 (ix2 p h)) (fun h : Fin 128 => (v48 (ix2 p h) : EReal)) := by
  unfold k1_pay5 Spec.dotT
  rw [shapeCast_self, shapeCast_self]
  refine (rowSum_apply _ reduces_S1024x128_S1024 shapeCasts_S1024_S1024x1 (.inl rfl) rfl p).trans ?_
  refine Finset.sum_congr rfl fun h _ => ?_
  unfold k1_pay4
  rw [shapeCast_self]
  rfl

/-- The logits of row `p` against a tile of `w2`. -/
def logit (v3 : Vec Ideal S1024x128 .bf16) (v4 : Vec Ideal S1000x128 .f32) (p : Fin 1024) : Fin 1000 → EReal :=
  fun cc => Spec.dotT (fun h : Fin 128 => (v3 (ix2 p h) : EReal)) (fun h : Fin 128 => (v4 (ix2 cc h) : EReal))

/-- The new running maximum: the old one against the tile's row maximum. -/
theorem pay07_apply (v3 : Vec Ideal S1024x128 .bf16) (v4 : Vec Ideal S1000x128 .f32) (v9 : Vec Ideal S1024x1 .f32) (p : Fin 1024) :
    k1_pay7 (F := Ideal) v3 v4 v9 (ix2 p (0 : Fin 1))
      = max (v9 (ix2 p (0 : Fin 1)) : EReal) ((Finset.univ : Finset (Fin 1000)).fold max (⊥ : EReal) (logit v3 v4 p)) := by
  unfold k1_pay7
  refine (maximumf_apply _ _ _).trans ?_
  refine congrArg (max (v9 (ix2 p (0 : Fin 1)) : EReal)) ?_
  refine (rowMax_apply _ reduces_S1024x1000_S1024 shapeCasts_S1024_S1024x1 (.inl rfl) rfl p).trans ?_
  exact congrArg (fun f => (Finset.univ : Finset (Fin 1000)).fold max (⊥ : EReal) f) (funext fun cc => pay06_apply v3 v4 p cc)

/-- The stored running maximum is the new one. -/
theorem pay09_apply (v3 : Vec Ideal S1024x128 .bf16) (v4 : Vec Ideal S1000x128 .f32) (v9 : Vec Ideal S1024x1 .f32) (p : Fin 1024) :
    k1_pay9 (F := Ideal) v3 v4 v9 (ix2 p (0 : Fin 1))
      = max (v9 (ix2 p (0 : Fin 1)) : EReal) ((Finset.univ : Finset (Fin 1000)).fold max (⊥ : EReal) (logit v3 v4 p)) := by
  unfold k1_pay9
  rw [shapeCast_self]
  exact pay07_apply v3 v4 v9 p

/-- The new running sum: the old one rescaled to the new maximum, plus the tile's shifted exponential sum. -/
theorem pay08_apply (v3 : Vec Ideal S1024x128 .bf16) (v4 : Vec Ideal S1000x128 .f32) (v9 v11 v17 : Vec Ideal S1024x1 .f32) (p : Fin 1024) :
    k1_pay8 (F := Ideal) v3 v4 v9 v11 v17 (ix2 p (0 : Fin 1))
      = Ideal.exp ((v11 (ix2 p (0 : Fin 1)) : EReal)
            - max (v9 (ix2 p (0 : Fin 1)) : EReal) ((Finset.univ : Finset (Fin 1000)).fold max (⊥ : EReal) (logit v3 v4 p)))
          * (v17 (ix2 p (0 : Fin 1)) : EReal)
        + ∑ cc : Fin 1000, Ideal.exp (logit v3 v4 p cc
            - max (v9 (ix2 p (0 : Fin 1)) : EReal) ((Finset.univ : Finset (Fin 1000)).fold max (⊥ : EReal) (logit v3 v4 p))) := by
  unfold k1_pay8
  rw [shapeCast_self]
  refine (addf_apply _ _ _).trans ?_
  refine congrArg₂ (· + ·) ?_ ?_
  · show Ideal.exp ((v11 (ix2 p (0 : Fin 1)) : EReal) - k1_pay7 (F := Ideal) v3 v4 v9 (ix2 p (0 : Fin 1))) * (v17 (ix2 p (0 : Fin 1)) : EReal) = _
    rw [pay07_apply]
  · refine (rowSum_apply _ reduces_S1024x1000_S1024 shapeCasts_S1024_S1024x1 (.inl rfl) rfl p).trans ?_
    refine Finset.sum_congr rfl fun cc _ => ?_
    show Ideal.exp (k1_pay6 (F := Ideal) v3 v4 (ix2 p cc)
        - broadcastTo S1024x1000 (k1_pay7 (F := Ideal) v3 v4 v9) broadcasts_S1024x1_S1024x1000 (ix2 p cc)) = _
    rw [broadcastTo_a1_ab_apply, pay07_apply, pay06_apply]
    rfl

/-- The output: the gathered product less the log-sum-exp `m + log l`. -/
theorem pay10_apply (v31 v32 v35 : Vec Ideal S1024x1 .f32) (p : Fin 1024) :
    k1_pay10 (F := Ideal) v31 v32 v35 (ix2 p (0 : Fin 1))
      = (v35 (ix2 p (0 : Fin 1)) : EReal) - ((v31 (ix2 p (0 : Fin 1)) : EReal) + Ideal.log (v32 (ix2 p (0 : Fin 1)) : EReal)) := rfl

/-! ## The running pair, one tile at a time -/

/-- The logits of a row against a tile, from what the hidden row and the tile's rows are. -/
theorem logit_congr (v3 : Vec Ideal S1024x128 .bf16) (v4 : Vec Ideal S1000x128 .f32) (p : Fin 1024)
    (a : Fin 128 → EReal) (b : Fin 1000 → Fin 128 → EReal)
    (h3 : ∀ h : Fin 128, (v3 (ix2 p h) : EReal) = a h) (h4 : ∀ (cc : Fin 1000) (h : Fin 128), (v4 (ix2 cc h) : EReal) = b cc h) :
    logit v3 v4 p = fun cc => Spec.dotT a (b cc) := by
  funext cc
  unfold logit
  rw [show (fun h : Fin 128 => (v3 (ix2 p h) : EReal)) = a from funext h3,
    show (fun h : Fin 128 => (v4 (ix2 cc h) : EReal)) = b cc from funext (h4 cc)]

/-- The first tile of a row tile: from the reset values the pair is the recursion's after one tile. -/
theorem step_first (v3 : Vec Ideal S1024x128 .bf16) (v4 : Vec Ideal S1000x128 .f32) (p : Fin 1024)
    (z : ℕ → Fin 1000 → EReal) (hz : z 0 = logit v3 v4 p) :
    k1_pay9 (F := Ideal) v3 v4 (k1_pay1 (F := Ideal)) (ix2 p (0 : Fin 1)) = (Softmax.onl z 1).1
      ∧ k1_pay8 (F := Ideal) v3 v4 (k1_pay1 (F := Ideal)) (k1_pay1 (F := Ideal)) (k1_pay2 (F := Ideal)) (ix2 p (0 : Fin 1))
          = (Softmax.onl z 1).2 := by
  rw [pay09_apply, pay08_apply, pay01_apply, pay02_apply, Softmax.onl_succ, Softmax.onl_zero, hz]
  exact ⟨rfl, rfl⟩

/-- A later tile: from the pair after `j` tiles, the pair after `j + 1`. -/
theorem step_next (v3 : Vec Ideal S1024x128 .bf16) (v4 : Vec Ideal S1000x128 .f32) (v9 v17 : Vec Ideal S1024x1 .f32) (p : Fin 1024)
    (z : ℕ → Fin 1000 → EReal) (j : ℕ) (hz : z j = logit v3 v4 p)
    (hm : (v9 (ix2 p (0 : Fin 1)) : EReal) = (Softmax.onl z j).1) (hl : (v17 (ix2 p (0 : Fin 1)) : EReal) = (Softmax.onl z j).2) :
    k1_pay9 (F := Ideal) v3 v4 v9 (ix2 p (0 : Fin 1)) = (Softmax.onl z (j + 1)).1
      ∧ k1_pay8 (F := Ideal) v3 v4 v9 v9 v17 (ix2 p (0 : Fin 1)) = (Softmax.onl z (j + 1)).2 := by
  rw [pay09_apply, pay08_apply, hm, hl, Softmax.onl_succ, hz]
  exact ⟨rfl, rfl⟩

/-! ## Finite data: the recursion over all the tiles is the one-shot log-sum-exp -/

/-- A product of two real vectors is the real product. -/
theorem dotT_coe {K : ℕ} (a b : Fin K → ℝ) :
    Spec.dotT (fun k => (a k : EReal)) (fun k => (b k : EReal)) = ((∑ k, a k * b k : ℝ) : EReal) := by
  unfold Spec.dotT
  rw [Softmax.coe_finset_sum]
  exact Finset.sum_congr rfl fun k _ => (EReal.coe_mul _ _).symm

/-- So a product of two vectors of finite entries is finite. -/
theorem dotT_real {K : ℕ} (a b : Fin K → EReal) (ha : ∀ k, ∃ r : ℝ, a k = r) (hb : ∀ k, ∃ r : ℝ, b k = r) :
    ∃ r : ℝ, Spec.dotT a b = r := by
  choose ra hra using ha
  choose rb hrb using hb
  refine ⟨∑ k, ra k * rb k, ?_⟩
  rw [show a = fun k => (ra k : EReal) from funext hra, show b = fun k => (rb k : EReal) from funext hrb]
  exact dotT_coe ra rb

/-- The cluster's logits of a hidden row, tile by tile: tile `j`, column `cc` is column `j * 1000 + cc` of the cluster. -/
def ztile (hd : Fin 128 → EReal) (W2 : Fin 9000 → Fin 128 → EReal) (j : ℕ) (cc : Fin 1000) : EReal :=
  Spec.dotT hd (W2 ⟨(j * 1000 + cc.val) % 9000, Nat.mod_lt _ (by norm_num)⟩)

/-- On finite data the gathered product less the log-sum-exp of the pair after all nine tiles is the cluster's output. -/
theorem tailOut_of_onl (hd gw : Fin 128 → EReal) (W2 : Fin 9000 → Fin 128 → EReal)
    (hhd : ∀ h, ∃ r : ℝ, hd h = r) (hw2 : ∀ cc h, ∃ r : ℝ, W2 cc h = r) :
    Spec.dotT hd gw - ((Softmax.onl (ztile hd W2) 9).1 + Ideal.log (Softmax.onl (ztile hd W2) 9).2)
      = Spec.tailOut hd gw W2 := by
  have hg : ∀ c : Fin 9000, ∃ r : ℝ, Spec.dotT hd (W2 c) = r := fun c => dotT_real _ _ hhd (hw2 c)
  choose g hgc using hg
  have hflat := Softmax.onl_flat (T := 9) (C := 1000) (by norm_num) (by norm_num) g (ztile hd W2) (fun j hj c => by
    unfold ztile
    have hlt : j * 1000 + c.val < 9000 := by have := c.isLt; omega
    rw [← hgc]
    exact congrArg (fun k => Spec.dotT hd (W2 k)) (Fin.ext (Nat.mod_eq_of_lt hlt)))
  rw [hflat]
  unfold Spec.tailOut Spec.lsmK Spec.lse Spec.rowMax
  rw [show (fun c : Fin 9000 => Spec.dotT hd (W2 c)) = fun c => (g c : EReal) from funext hgc]

/-! ## The invariant of a row along its row tile's points -/

/-- What the four scratch buffers hold at row `p` after column tile `j` of a row tile whose hidden row is `hd`: the hidden
    row itself, the recursion's pair after `j + 1` tiles, and the product with the gathered row `gw`. -/
def RowInv (hid : Vec Ideal S1024x128 .bf16) (m l val : Vec Ideal S1024x1 .f32) (p : Fin 1024)
    (hd : Fin 128 → EReal) (W2 : Fin 9000 → Fin 128 → EReal) (gw : Fin 128 → EReal) (j : ℕ) : Prop :=
  (∀ h : Fin 128, (hid (ix2 p h) : EReal) = hd h)
    ∧ (m (ix2 p (0 : Fin 1)) : EReal) = (Softmax.onl (ztile hd W2) (j + 1)).1
    ∧ (l (ix2 p (0 : Fin 1)) : EReal) = (Softmax.onl (ztile hd W2) (j + 1)).2
    ∧ (val (ix2 p (0 : Fin 1)) : EReal) = Spec.dotT hd gw

/-- The first column tile fills the four buffers from the point's blocks. -/
theorem rowInv_first (x0 : Vec Ideal S1024x512 .bf16) (x1 : Vec Ideal S128x512 .f32) (x2 : Vec Ideal S1000x128 .f32)
    (x3 : Vec Ideal S1024x128 .f32) (p : Fin 1024)
    (X : Fin 512 → EReal) (W1 : Fin 128 → Fin 512 → EReal) (W2 : Fin 9000 → Fin 128 → EReal) (gw : Fin 128 → EReal)
    (h0 : ∀ d : Fin 512, (x0 (ix2 p d) : EReal) = X d) (h1 : ∀ (h : Fin 128) (d : Fin 512), (x1 (ix2 h d) : EReal) = W1 h d)
    (h2 : ∀ (cc : Fin 1000) (h : Fin 128), (x2 (ix2 cc h) : EReal) = W2 ⟨(0 * 1000 + cc.val) % 9000, Nat.mod_lt _ (by norm_num)⟩ h)
    (h3 : ∀ h : Fin 128, (x3 (ix2 p h) : EReal) = gw h) :
    RowInv (k1_pay4 (F := Ideal) x1 x0) (k1_pay9 (F := Ideal) (k1_pay4 (F := Ideal) x1 x0) x2 (k1_pay1 (F := Ideal)))
      (k1_pay8 (F := Ideal) (k1_pay4 (F := Ideal) x1 x0) x2 (k1_pay1 (F := Ideal)) (k1_pay1 (F := Ideal)) (k1_pay2 (F := Ideal)))
      (k1_pay5 (F := Ideal) x1 x0 x3) p (fun h => Spec.dotT X (W1 h)) W2 gw 0 := by
  have hhid : ∀ h : Fin 128, (k1_pay4 (F := Ideal) x1 x0 (ix2 p h) : EReal) = Spec.dotT X (W1 h) := fun h => by
    rw [pay04_apply, show (fun d : Fin 512 => (x0 (ix2 p d) : EReal)) = X from funext h0,
      show (fun d : Fin 512 => (x1 (ix2 h d) : EReal)) = W1 h from funext (h1 h)]
  have hz : ztile (fun h => Spec.dotT X (W1 h)) W2 0 = logit (k1_pay4 (F := Ideal) x1 x0) x2 p :=
    (logit_congr _ _ p _ _ hhid h2).symm
  obtain ⟨e1, e2⟩ := step_first (k1_pay4 (F := Ideal) x1 x0) x2 p _ hz
  refine ⟨hhid, e1, e2, ?_⟩
  rw [pay05_apply, show (fun h : Fin 128 => (k1_pay4 (F := Ideal) x1 x0 (ix2 p h) : EReal)) = fun h => Spec.dotT X (W1 h) from funext hhid,
    show (fun h : Fin 128 => (x3 (ix2 p h) : EReal)) = gw from funext h3]

/-- A later column tile updates the pair and keeps the hidden row and the gathered product. -/
theorem rowInv_next (xs7 : Vec Ideal S1024x128 .bf16) (xs8 xs9 xs10 : Vec Ideal S1024x1 .f32) (x2 : Vec Ideal S1000x128 .f32)
    (p : Fin 1024) (hd : Fin 128 → EReal) (W2 : Fin 9000 → Fin 128 → EReal) (gw : Fin 128 → EReal) (j : ℕ)
    (ih : RowInv xs7 xs8 xs9 xs10 p hd W2 gw j)
    (h2 : ∀ (cc : Fin 1000) (h : Fin 128), (x2 (ix2 cc h) : EReal) = W2 ⟨((j + 1) * 1000 + cc.val) % 9000, Nat.mod_lt _ (by norm_num)⟩ h) :
    RowInv xs7 (k1_pay9 (F := Ideal) xs7 x2 xs8) (k1_pay8 (F := Ideal) xs7 x2 xs8 xs8 xs9) xs10 p hd W2 gw (j + 1) := by
  obtain ⟨hh, hm, hl, hv⟩ := ih
  have hz : ztile hd W2 (j + 1) = logit xs7 x2 p := (logit_congr _ _ p _ _ hh h2).symm
  obtain ⟨e1, e2⟩ := step_next xs7 x2 xs8 xs9 p _ (j + 1) hz hm hl
  exact ⟨hh, e1, e2, hv⟩

/-- The stored output at a row, from the buffers after the last column tile. -/
theorem out_of_rowInv (hid : Vec Ideal S1024x128 .bf16) (m l val : Vec Ideal S1024x1 .f32) (p : Fin 1024)
    (hd : Fin 128 → EReal) (W2 : Fin 9000 → Fin 128 → EReal) (gw : Fin 128 → EReal) (j : ℕ)
    (h : RowInv hid m l val p hd W2 gw j) :
    k1_pay10 (F := Ideal) m l val (ix2 p (0 : Fin 1))
      = Spec.dotT hd gw - ((Softmax.onl (ztile hd W2) (j + 1)).1 + Ideal.log (Softmax.onl (ztile hd W2) (j + 1)).2) := by
  obtain ⟨-, hm, hl, hv⟩ := h
  rw [pay10_apply, hm, hl, hv]

/-! ## The windows' blocks, read off the arrays -/

section Blocks
variable (V : (c : Dev nD) → (b : Ref sig .tc) → Buf (Elt Ideal) ((c : Thread nD τ).loc b))

/-- The arrays the region reads, at their literal types: `x` (rounded), `w1`, `w2` and the gathered rows of `w2`. -/
abbrev xarr (c : Dev nD) : Vec Ideal S2048x512 .bf16 := V c main_v0
abbrev w1arr (c : Dev nD) : Vec Ideal S128x512 .f32 := V c main_arg3
abbrev w2arr (c : Dev nD) : Vec Ideal S9000x128 .f32 := V c main_arg4
abbrev gwarr (c : Dev nD) : Vec Ideal S2048x128 .f32 := V c main_v20

/-- The printed index maps over the grid: point `t` is row tile `t / 9`, column tile `t % 9`. -/
theorem idx_facts1 : ∀ t : Fin cfg1.N,
    win1_0.index t (0 : Fin 2) = t.val / 9 ∧ win1_0.index t (1 : Fin 2) = 0
    ∧ win1_1.index t (0 : Fin 2) = 0 ∧ win1_1.index t (1 : Fin 2) = 0
    ∧ win1_2.index t (0 : Fin 2) = t.val % 9 ∧ win1_2.index t (1 : Fin 2) = 0
    ∧ win1_3.index t (0 : Fin 2) = t.val / 9 ∧ win1_3.index t (1 : Fin 2) = 0
    ∧ win1_4.index t (0 : Fin 2) = t.val / 9 ∧ win1_4.index t (1 : Fin 2) = 0 :=
  (by decide +kernel : ∀ t : Fin grid1.N, _)

/-- Row `p` of the `x` block at point `t` is row `1024 · (t / 9) + p` of `x`. -/
theorem xblk_apply (c : Dev nD) (t : Fin cfg1.N) (p : Fin 1024) (d : Fin 512) (n : Fin 2048)
    (hn : n.val = 1024 * (t.val / 9) + p.val) :
    ((iblk1 V c 0 t) : Vec Ideal S1024x512 .bf16) (ix2 p d) = xarr V c (ix2 n d) := by
  unfold iblk1
  rw [View.read_apply]
  show V c main_v0 (((cfg1.win 0).blk t).view.emb (ix2 p d)) = V c main_v0 _
  refine congrArg (V c main_v0) (funext fun a => Fin.ext ?_)
  obtain ⟨e0, e1, -⟩ := idx_facts1 t
  match a with
  | ⟨0, _⟩ => show win1_0.index t (0 : Fin 2) * 1024 + 1 * p.val = n.val; rw [e0, hn]; omega
  | ⟨1, _⟩ => show win1_0.index t (1 : Fin 2) * 512 + 1 * d.val = d.val; rw [e1]; omega

/-- The `w1` block is all of `w1` at every point. -/
theorem w1blk_apply (c : Dev nD) (t : Fin cfg1.N) (h : Fin 128) (d : Fin 512) :
    ((iblk1 V c 1 t) : Vec Ideal S128x512 .f32) (ix2 h d) = w1arr V c (ix2 h d) := by
  unfold iblk1
  rw [View.read_apply]
  show V c main_arg3 (((cfg1.win 1).blk t).view.emb (ix2 h d)) = V c main_arg3 _
  refine congrArg (V c main_arg3) (funext fun a => Fin.ext ?_)
  obtain ⟨-, -, e0, e1, -⟩ := idx_facts1 t
  match a with
  | ⟨0, _⟩ => show win1_1.index t (0 : Fin 2) * 128 + 1 * h.val = h.val; rw [e0]; omega
  | ⟨1, _⟩ => show win1_1.index t (1 : Fin 2) * 512 + 1 * d.val = d.val; rw [e1]; omega

/-- Row `cc` of the `w2` tile at point `t` is row `(t % 9) · 1000 + cc` of `w2`. -/
theorem w2blk_apply (c : Dev nD) (t : Fin cfg1.N) (cc : Fin 1000) (h : Fin 128) (k : Fin 9000)
    (hk : k.val = (t.val % 9) * 1000 + cc.val) :
    ((iblk1 V c 2 t) : Vec Ideal S1000x128 .f32) (ix2 cc h) = w2arr V c (ix2 k h) := by
  unfold iblk1
  rw [View.read_apply]
  show V c main_arg4 (((cfg1.win 2).blk t).view.emb (ix2 cc h)) = V c main_arg4 _
  refine congrArg (V c main_arg4) (funext fun a => Fin.ext ?_)
  obtain ⟨-, -, -, -, e0, e1, -⟩ := idx_facts1 t
  match a with
  | ⟨0, _⟩ => show win1_2.index t (0 : Fin 2) * 1000 + 1 * cc.val = k.val; rw [e0, hk]; omega
  | ⟨1, _⟩ => show win1_2.index t (1 : Fin 2) * 128 + 1 * h.val = h.val; rw [e1]; omega

/-- Row `p` of the gathered block at point `t` is row `1024 · (t / 9) + p` of the gathered array. -/
theorem gwblk_apply (c : Dev nD) (t : Fin cfg1.N) (p : Fin 1024) (h : Fin 128) (n : Fin 2048)
    (hn : n.val = 1024 * (t.val / 9) + p.val) :
    ((iblk1 V c 3 t) : Vec Ideal S1024x128 .f32) (ix2 p h) = gwarr V c (ix2 n h) := by
  unfold iblk1
  rw [View.read_apply]
  show V c main_v20 (((cfg1.win 3).blk t).view.emb (ix2 p h)) = V c main_v20 _
  refine congrArg (V c main_v20) (funext fun a => Fin.ext ?_)
  obtain ⟨-, -, -, -, -, -, e0, e1, -⟩ := idx_facts1 t
  match a with
  | ⟨0, _⟩ => show win1_3.index t (0 : Fin 2) * 1024 + 1 * p.val = n.val; rw [e0, hn]; omega
  | ⟨1, _⟩ => show win1_3.index t (1 : Fin 2) * 128 + 1 * h.val = h.val; rw [e1]; omega

/-- Row `p` of the output block at point `t` sits at row `1024 · (t / 9) + p` of the output array. -/
theorem oblk_emb (t : Fin cfg1.N) (p : Fin 1024) (u : Fin 1) (n : Fin 2048) (hn : n.val = 1024 * (t.val / 9) + p.val) :
    (((cfg1.win 4).blk t).view.emb (ix2 p u) : S2048x1.Idx) = ix2 n (0 : Fin 1) := by
  refine funext fun a => Fin.ext ?_
  obtain ⟨-, -, -, -, -, -, -, -, e0, e1⟩ := idx_facts1 t
  match a with
  | ⟨0, _⟩ => show win1_4.index t (0 : Fin 2) * 1024 + 1 * p.val = n.val; rw [e0, hn]; omega
  | ⟨1, _⟩ => show win1_4.index t (1 : Fin 2) * 1 + 1 * u.val = 0; rw [e1]; omega

end Blocks

/-! ## The accumulation along the grid, row by row -/

section Region
variable (V : (c : Dev nD) → (b : Ref sig .tc) → Buf (Elt Ideal) ((c : Thread nD τ).loc b))

/-- The point's input blocks at their literal types. -/
abbrev xb (c : Dev nD) (t : Fin cfg1.N) : Vec Ideal S1024x512 .bf16 := iblk1 V c 0 t
abbrev w1b (c : Dev nD) (t : Fin cfg1.N) : Vec Ideal S128x512 .f32 := iblk1 V c 1 t
abbrev w2b (c : Dev nD) (t : Fin cfg1.N) : Vec Ideal S1000x128 .f32 := iblk1 V c 2 t
abbrev gwb (c : Dev nD) (t : Fin cfg1.N) : Vec Ideal S1024x128 .f32 := iblk1 V c 3 t

/-- Row `n` of `x`, the rows of `w1` and of `w2`, row `n` of the gathered array, and the hidden row of sample `n`. -/
def xRow (c : Dev nD) (n : Fin 2048) : Fin 512 → EReal := fun d => (xarr V c (ix2 n d) : EReal)
def w1Rows (c : Dev nD) : Fin 128 → Fin 512 → EReal := fun h d => (w1arr V c (ix2 h d) : EReal)
def w2Rows (c : Dev nD) : Fin 9000 → Fin 128 → EReal := fun cc h => (w2arr V c (ix2 cc h) : EReal)
def gwRow (c : Dev nD) (n : Fin 2048) : Fin 128 → EReal := fun h => (gwarr V c (ix2 n h) : EReal)
def hidRow (c : Dev nD) (n : Fin 2048) : Fin 128 → EReal := fun h => Spec.dotT (xRow V c n) (w1Rows V c h)

/-- The invariant after point `t`: every row `p` of the row tile `t / 9`, which is row `n = 1024 · (t / 9) + p` of the
    arrays, has its hidden row, the recursion's pair after `t % 9 + 1` column tiles and its gathered product. -/
def Inv (c : Dev nD) (t : ℕ) (o : Outs1 Ideal) : Prop :=
  ∀ (p : Fin 1024) (n : Fin 2048), n.val = 1024 * (t / 9) + p.val →
    RowInv o.2.1 o.2.2.1 o.2.2.2.1 o.2.2.2.2 p (hidRow V c n) (w2Rows V c) (gwRow V c n) (t % 9)

/-- The tile of `w2` at point `t`, in the spelling of the tile-by-tile logits. -/
theorem w2b_tile (c : Dev nD) (t : Fin cfg1.N) (j : ℕ) (hj : j = t.val % 9) (cc : Fin 1000) (h : Fin 128) :
    (w2b V c t (ix2 cc h) : EReal) = w2Rows V c ⟨(j * 1000 + cc.val) % 9000, Nat.mod_lt _ (by norm_num)⟩ h := by
  subst hj
  exact w2blk_apply V c t cc h _ (by
    show (t.val % 9 * 1000 + cc.val) % 9000 = t.val % 9 * 1000 + cc.val
    have := cc.isLt; omega)

theorem inv_A (c : Dev nD) (t : Fin cfg1.N) (h0 : t.val % 9 = 0) (h1 : ¬t.val % 9 = 8) :
    Inv V c t.val (caseA1 V c t h0 h1) := by
  intro p n hn
  unfold caseA1
  dsimp only
  rw [R1P.sout1_A_7_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
    R1P.sout1_A_8_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
    R1P.sout1_A_9_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
    R1P.sout1_A_10_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t), h0]
  exact rowInv_first (xb V c t) (w1b V c t) (w2b V c t) (gwb V c t) p (xRow V c n) (w1Rows V c) (w2Rows V c) (gwRow V c n)
    (fun d => xblk_apply V c t p d n hn) (fun h d => w1blk_apply V c t h d)
    (fun cc h => w2b_tile V c t 0 h0.symm cc h) (fun h => gwblk_apply V c t p h n hn)

/-- A later column tile of a row tile, in the buffers' terms: over what the point before left. -/
theorem rowInv_later (c : Dev nD) (t : Fin cfg1.N) (h0 : ¬t.val % 9 = 0) (o : Outs1 Ideal) (ih : Inv V c (t.val - 1) o)
    (p : Fin 1024) (n : Fin 2048) (hn : n.val = 1024 * (t.val / 9) + p.val) :
    RowInv o.2.1 (k1_pay9 (F := Ideal) o.2.1 (w2b V c t) o.2.2.1)
      (k1_pay8 (F := Ideal) o.2.1 (w2b V c t) o.2.2.1 o.2.2.1 o.2.2.2.1) o.2.2.2.2 p
      (hidRow V c n) (w2Rows V c) (gwRow V c n) (t.val % 9) := by
  have ih' := ih p n (by omega)
  have ej : (t.val - 1) % 9 + 1 = t.val % 9 := by omega
  rw [← ej]
  exact rowInv_next o.2.1 o.2.2.1 o.2.2.2.1 o.2.2.2.2 (w2b V c t) p (hidRow V c n) (w2Rows V c) (gwRow V c n) ((t.val - 1) % 9) ih'
    (fun cc h => w2b_tile V c t ((t.val - 1) % 9 + 1) ej cc h)

theorem inv_B (c : Dev nD) (t : Fin cfg1.N) (h0 : ¬t.val % 9 = 0) (h1 : ¬t.val % 9 = 8) (o : Outs1 Ideal)
    (ih : Inv V c (t.val - 1) o) : Inv V c t.val (caseB1 V c t h0 h1 o) := by
  intro p n hn
  unfold caseB1
  dsimp only
  rw [R1P.sout1_B_8_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) o.2.1 o.2.2.1 o.2.2.2.1 o.2.2.2.2,
    R1P.sout1_B_9_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) o.2.1 o.2.2.1 o.2.2.2.1 o.2.2.2.2]
  exact rowInv_later V c t h0 o ih p n hn

theorem inv_C (c : Dev nD) (t : Fin cfg1.N) (h0 : ¬t.val % 9 = 0) (h1 : t.val % 9 = 8) (o : Outs1 Ideal)
    (ih : Inv V c (t.val - 1) o) : Inv V c t.val (caseC1 V c t h0 h1 o) := by
  intro p n hn
  unfold caseC1
  dsimp only
  rw [R1P.sout1_C_8_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) o.2.1 o.2.2.1 o.2.2.2.1 o.2.2.2.2,
    R1P.sout1_C_9_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) o.2.1 o.2.2.1 o.2.2.2.1 o.2.2.2.2]
  exact rowInv_later V c t h0 o ih p n hn

/-- THE INVARIANT, by induction on the point. -/
theorem inv1 (c : Dev nD) : ∀ (t : ℕ) (ht : t < cfg1.N), Inv V c t (outsAt1 V c t ht)
  | 0, ht => by
    have h1 : ¬(0 : ℕ) % 9 = 8 := by decide
    rw [outsAt1_A V c ⟨0, ht⟩ (Nat.zero_mod _) h1]
    exact inv_A V c ⟨0, ht⟩ (Nat.zero_mod _) h1
  | n + 1, ht => by
    have ih := inv1 c n (Nat.lt_of_succ_lt ht)
    by_cases h0 : (n + 1) % 9 = 0
    · have h1 : ¬(n + 1) % 9 = 8 := by omega
      rw [outsAt1_A V c ⟨n + 1, ht⟩ h0 h1]
      exact inv_A V c ⟨n + 1, ht⟩ h0 h1
    · by_cases h1 : (n + 1) % 9 = 8
      · rw [outsAt1_C V c ⟨n + 1, ht⟩ h0 h1]
        exact inv_C V c ⟨n + 1, ht⟩ h0 h1 _ ih
      · rw [outsAt1_B V c ⟨n + 1, ht⟩ h0 h1]
        exact inv_B V c ⟨n + 1, ht⟩ h0 h1 _ ih

/-! ## The output array -/

/-- The stored output block at a point of the last column tile, row by row: the gathered product less the log-sum-exp
    of the pair after all nine tiles. -/
theorem out_C (c : Dev nD) (t : Fin cfg1.N) (h0 : ¬t.val % 9 = 0) (h1 : t.val % 9 = 8) (p : Fin 1024) (n : Fin 2048)
    (hn : n.val = 1024 * (t.val / 9) + p.val) :
    ((outsAt1 V c t.val t.isLt).1 (ix2 p (0 : Fin 1)) : EReal)
      = Spec.dotT (hidRow V c n) (gwRow V c n)
          - ((Softmax.onl (ztile (hidRow V c n) (w2Rows V c)) 9).1
              + Ideal.log (Softmax.onl (ztile (hidRow V c n) (w2Rows V c)) 9).2) := by
  have ih := inv1 V c (t.val - 1) (Nat.lt_of_le_of_lt (Nat.sub_le _ _) t.isLt)
  have hR := rowInv_later V c t h0 _ ih p n hn
  rw [h1] at hR
  rw [outsAt1_C V c t h0 h1]
  unfold caseC1
  dsimp only
  rw [R1P.out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) _ _ _ _]
  exact out_of_rowInv _ _ _ _ p _ _ _ 8 hR

/-- What the output array holds where the region has written: row by row the cluster's output. -/
def G1 (c : Dev nD) : Vec Ideal S2048x1 .f32 :=
  fun idx => Spec.tailOut (hidRow V c ⟨(idx 0).val, idx2_lt0 idx⟩) (gwRow V c ⟨(idx 0).val, idx2_lt0 idx⟩) (w2Rows V c)

/-- On finite data, what a point of the last column tile writes back is its block of that function. -/
theorem flushed1_eq (c : Dev nD) (hx : ∀ idx, ∃ r : ℝ, (xarr V c idx : EReal) = r) (hw1 : ∀ idx, ∃ r : ℝ, (w1arr V c idx : EReal) = r)
    (hw2 : ∀ idx, ∃ r : ℝ, (w2arr V c idx : EReal) = r) (t : Fin cfg1.N) (hf : (cfg1.win 4).flush t = true) :
    (dat1 V c).flushed 4 t = ((cfg1.win 4).blk t).view.read (Elt Ideal) (G1 V c) := by
  have h1 : t.val % 9 = 8 := (flush1_4 t).mp hf
  have h0 : ¬t.val % 9 = 0 := by omega
  have hN : t.val < 18 := lt_of_lt_of_eq t.isLt (show cfg1.N = 18 from rfl)
  show (cfg1.win 4).cut (grid1.coords t) ((dat1 V c).after 4 t) = _
  rw [after1_4]
  funext y
  obtain ⟨p, u, rfl⟩ : ∃ (p : Fin 1024) (u : Fin 1), y = ix2 p u := ⟨y 0, y 1, eq_ix2 y⟩
  obtain rfl : u = 0 := Subsingleton.elim _ _
  rw [View.read_apply, oblk_emb t p 0 ⟨1024 * (t.val / 9) + p.val, by omega⟩ rfl]
  show ((outsAt1 V c t.val t.isLt).1 (ix2 p (0 : Fin 1)) : EReal) = G1 V c (ix2 (⟨1024 * (t.val / 9) + p.val, by omega⟩ : Fin 2048) (0 : Fin 1))
  rw [out_C V c t h0 h1 p ⟨1024 * (t.val / 9) + p.val, by omega⟩ rfl]
  exact tailOut_of_onl _ _ _ (fun h => dotT_real _ _ (fun d => hx _) (fun d => hw1 _)) (fun cc h => hw2 _)

/-- An index of the output array is in point `t`'s block iff each coordinate is in the block's range on its axis. -/
theorem mem_blk4 (t : Fin cfg1.N) (i : S2048x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v21).slice (win1_4.rect t)).set ↔ _
  rw [View.set_slice_whole, Rect.mem_set_unit]
  exact Iff.rfl

/-- Every row of the output array is in the block some point of the last column tile writes back. -/
theorem cover4 (i : S2048x1.Idx) : ∃ t : Fin cfg1.N, (cfg1.win 4).flush t = true ∧ i ∈ ((cfg1.win 4).blk t).view.set := by
  have hi0 : (i 0).val < 2048 := idx2_lt0 i
  have hi1 : (i 1).val < 1 := idx2_lt1 i
  refine ⟨⟨9 * ((i 0).val / 1024) + 8, lt_of_lt_of_eq (by omega) (show 18 = cfg1.N from rfl)⟩, (flush1_4 _).mpr (by show (9 * ((i 0).val / 1024) + 8) % 9 = 8; omega), ?_⟩
  rw [mem_blk4]
  obtain ⟨-, -, -, -, -, -, -, -, e0, e1⟩ := idx_facts1 ⟨9 * ((i 0).val / 1024) + 8, lt_of_lt_of_eq (by omega) (show 18 = cfg1.N from rfl)⟩
  intro a
  match a with
  | ⟨0, _⟩ =>
    show win1_4.index _ (0 : Fin 2) * 1024 ≤ (i 0).val ∧ (i 0).val < win1_4.index _ (0 : Fin 2) * 1024 + 1024
    rw [e0]; show (9 * ((i 0).val / 1024) + 8) / 9 * 1024 ≤ (i 0).val ∧ (i 0).val < (9 * ((i 0).val / 1024) + 8) / 9 * 1024 + 1024
    omega
  | ⟨1, _⟩ =>
    show win1_4.index _ (1 : Fin 2) * 1 ≤ (i 1).val ∧ (i 1).val < win1_4.index _ (1 : Fin 2) * 1 + 1
    rw [e1]; omega

/-- THE OUTPUT ARRAY after the region, on finite data: every sample's entry is the cluster's output. -/
theorem arr1_eq (c : Dev nD) (hx : ∀ idx, ∃ r : ℝ, (xarr V c idx : EReal) = r) (hw1 : ∀ idx, ∃ r : ℝ, (w1arr V c idx : EReal) = r)
    (hw2 : ∀ idx, ∃ r : ℝ, (w2arr V c idx : EReal) = r) (n : Fin 2048) :
    ((dat1 (F := Ideal) V c).arrAt 4 cfg1.N (ix2 n (0 : Fin 1)) : EReal)
      = Spec.tailOut (fun h : Fin 128 => Spec.dotT (fun d : Fin 512 => (xarr V c (ix2 n d) : EReal)) (fun d : Fin 512 => (w1arr V c (ix2 h d) : EReal)))
          (fun h : Fin 128 => (gwarr V c (ix2 n h) : EReal)) (fun (cc : Fin 9000) (h : Fin 128) => (w2arr V c (ix2 cc h) : EReal)) :=
  congrFun ((dat1 (F := Ideal) V c).arrAt_eq_of_cover 4 (G1 V c) (fun t hf => flushed1_eq V c hx hw1 hw2 t hf) cover4) (ix2 n (0 : Fin 1))

end Region

end Cert.Proof.Val.R1

end
-- ==== Proof.Val.R2Pieces.lean ====
import proofs.«416376_j65790309040722_2_alg».proof.Proof.KI.R2
import Idealize.ShloMosaic.Lib.Pipeline.Value

/-!
# Region 1 (tail cluster 0): each piece the body's runs leave is its payload

What a control case leaves in a scratch buffer or in the output's buffer is a list of whole-buffer stores read back.
The last store through the whole buffer leaves its payload whatever came before it; a load through the whole buffer of
what one whole store left reads that store's payload; a load of a buffer nothing has stored into reads what it held.
So each buffer's contents after a case is ONE payload of the kernel, over the input blocks and the carried scratch —
at any float type.
-/

set_option maxRecDepth 16384

noncomputable section

namespace Cert.Proof.Val.R2P

open Idealize.ShloMosaic Idealize.ShloMosaic.Tactic Idealize.SL.Sem
open Cert.KernelIdeal Cert.KernelIdeal.Gen Cert.KernelIdeal.Hand

variable {F : FTy → Type} [FloatOps F]

/-- The zero offsets of a rank-2 whole-buffer access, however spelt. -/
theorem hz2 : (![0, 0] : Fin 2 → ℕ) = fun _ => 0 := by funext a; fin_cases a <;> rfl

/-- At the first column tile the hidden layer's scratch is stored once, whole: it holds the hidden layer of the row tile's block and the first weights. -/
theorem sout2_A_7_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) :
    sout2_A_7 c i arg2 harg2 arg3 harg3 arg4 harg4 arg5 harg5 arg6 harg6 arg7 harg7 arg8 harg8 arg9 harg9 arg10 harg10 hc0 hc1 x0 x1 x2 x3 = k2_pay4 x1 x0 := by
  unfold sout2_A_7
  rw [View.read_writes_eq_canon _ _ _ (scover2_A_7 c i arg2 harg2 arg3 harg3 arg4 harg4 arg5 harg5 arg6 harg6 arg7 harg7 arg8 harg8 arg9 harg9 arg10 harg10 hc0 hc1 x0 x1 x2 x3)]
  unfold kernelRun2_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At the first column tile the running maximum is reset and then updated, both whole stores: the update, which is last, is what stays — taken over the hidden layer just stored and the maximum just reset. -/
theorem sout2_A_8_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) :
    sout2_A_8 c i arg2 harg2 arg3 harg3 arg4 harg4 arg5 harg5 arg6 harg6 arg7 harg7 arg8 harg8 arg9 harg9 arg10 harg10 hc0 hc1 x0 x1 x2 x3 = k2_pay9 (k2_pay4 x1 x0) x2 k2_pay1 := by
  unfold sout2_A_8
  rw [View.read_writes_eq_canon _ _ _ (scover2_A_8 c i arg2 harg2 arg3 harg3 arg4 harg4 arg5 harg5 arg6 harg6 arg7 harg7 arg8 harg8 arg9 harg9 arg10 harg10 hc0 hc1 x0 x1 x2 x3)]
  unfold kernelRun2_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At the first column tile the running sum is reset and then updated, both whole stores: the update stays — taken over the hidden layer just stored, the maximum just reset (read twice) and the sum just reset. -/
theorem sout2_A_9_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) :
    sout2_A_9 c i arg2 harg2 arg3 harg3 arg4 harg4 arg5 harg5 arg6 harg6 arg7 harg7 arg8 harg8 arg9 harg9 arg10 harg10 hc0 hc1 x0 x1 x2 x3 = k2_pay8 (k2_pay4 x1 x0) x2 k2_pay1 k2_pay1 k2_pay2 := by
  unfold sout2_A_9
  rw [View.read_writes_eq_canon _ _ _ (scover2_A_9 c i arg2 harg2 arg3 harg3 arg4 harg4 arg5 harg5 arg6 harg6 arg7 harg7 arg8 harg8 arg9 harg9 arg10 harg10 hc0 hc1 x0 x1 x2 x3)]
  unfold kernelRun2_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At the first column tile the target's logit is stored once, whole: the row-wise product of the hidden layer with the gathered second weights. -/
theorem sout2_A_10_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond2_0 i) (hc1 : ¬cond2_1 i)
    (x0 : Vec F S1024x512 .bf16) (x1 : Vec F S32x512 .f32) (x2 : Vec F S1000x32 .f32) (x3 : Vec F S1024x32 .f32) :
    sout2_A_10 c i arg2 harg2 arg3 harg3 arg4 harg4 arg5 harg5 arg6 harg6 arg7 harg7 arg8 harg8 arg9 harg9 arg10 harg10 hc0 hc1 x0 x1 x2 x3 = k2_pay5 x1 x0 x3 := by
  unfold sout2_A_10
  rw [View.read_writes_eq_canon _ _ _ (scover2_A_10 c i arg2 harg2 arg3 harg3 arg4 harg4 arg5 harg5 arg6 harg6 arg7 harg7 arg8 harg8 arg9 harg9 arg10 harg10 hc0 hc1 x0 x1 x2 x3)]
  unfold kernelRun2_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At an inner column tile the running maximum is stored once, whole: the update over the carried hidden layer, the tile's weights and the carried maximum. -/
theorem sout2_B_8_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    sout2_B_8 c i arg2 harg2 arg3 harg3 arg4 harg4 arg5 harg5 arg6 harg6 arg7 harg7 arg8 harg8 arg9 harg9 arg10 harg10 hc0 hc1 x0 x1 x2 x3 xs7 xs8 xs9 xs10 = k2_pay9 xs7 x2 xs8 := by
  unfold sout2_B_8
  rw [View.read_writes_eq_canon _ _ _ (scover2_B_8 c i arg2 harg2 arg3 harg3 arg4 harg4 arg5 harg5 arg6 harg6 arg7 harg7 arg8 harg8 arg9 harg9 arg10 harg10 hc0 hc1 x0 x1 x2 x3 xs7 xs8 xs9 xs10)]
  unfold kernelRun2_B
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At an inner column tile the running sum is stored once, whole: the update over the carried hidden layer, the tile's weights, the carried maximum (read twice) and the carried sum. -/
theorem sout2_B_9_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : ¬cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    sout2_B_9 c i arg2 harg2 arg3 harg3 arg4 harg4 arg5 harg5 arg6 harg6 arg7 harg7 arg8 harg8 arg9 harg9 arg10 harg10 hc0 hc1 x0 x1 x2 x3 xs7 xs8 xs9 xs10 = k2_pay8 xs7 x2 xs8 xs8 xs9 := by
  unfold sout2_B_9
  rw [View.read_writes_eq_canon _ _ _ (scover2_B_9 c i arg2 harg2 arg3 harg3 arg4 harg4 arg5 harg5 arg6 harg6 arg7 harg7 arg8 harg8 arg9 harg9 arg10 harg10 hc0 hc1 x0 x1 x2 x3 xs7 xs8 xs9 xs10)]
  unfold kernelRun2_B
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At the last column tile the running maximum is stored once, whole, as at an inner tile. -/
theorem sout2_C_8_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    sout2_C_8 c i arg2 harg2 arg3 harg3 arg4 harg4 arg5 harg5 arg6 harg6 arg7 harg7 arg8 harg8 arg9 harg9 arg10 harg10 hc0 hc1 x0 x1 x2 x3 xs7 xs8 xs9 xs10 = k2_pay9 xs7 x2 xs8 := by
  unfold sout2_C_8
  rw [View.read_writes_eq_canon _ _ _ (scover2_C_8 c i arg2 harg2 arg3 harg3 arg4 harg4 arg5 harg5 arg6 harg6 arg7 harg7 arg8 harg8 arg9 harg9 arg10 harg10 hc0 hc1 x0 x1 x2 x3 xs7 xs8 xs9 xs10)]
  unfold kernelRun2_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At the last column tile the running sum is stored once, whole, as at an inner tile. -/
theorem sout2_C_9_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    sout2_C_9 c i arg2 harg2 arg3 harg3 arg4 harg4 arg5 harg5 arg6 harg6 arg7 harg7 arg8 harg8 arg9 harg9 arg10 harg10 hc0 hc1 x0 x1 x2 x3 xs7 xs8 xs9 xs10 = k2_pay8 xs7 x2 xs8 xs8 xs9 := by
  unfold sout2_C_9
  rw [View.read_writes_eq_canon _ _ _ (scover2_C_9 c i arg2 harg2 arg3 harg3 arg4 harg4 arg5 harg5 arg6 harg6 arg7 harg7 arg8 harg8 arg9 harg9 arg10 harg10 hc0 hc1 x0 x1 x2 x3 xs7 xs8 xs9 xs10)]
  unfold kernelRun2_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

/-- At the last column tile the output block is stored once, whole: the target's logit less the maximum and the logarithm of the sum, both as this tile's updates just left them. -/
theorem out2_C_4_eq (c : Dev nD) (i : grid2.Coords) (arg2 : Memref sig .tc .vmem S1024x512 .bf16) (harg2 : arg2.IsWhole) (arg3 : Memref sig .tc .vmem S32x512 .f32) (harg3 : arg3.IsWhole) (arg4 : Memref sig .tc .vmem S1000x32 .f32) (harg4 : arg4.IsWhole) (arg5 : Memref sig .tc .vmem S1024x32 .f32) (harg5 : arg5.IsWhole) (arg6 : Memref sig .tc .vmem S1024x1 .f32) (harg6 : arg6.IsWhole) (arg7 : Memref sig .tc .vmem S1024x32 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond2_0 i) (hc1 : cond2_1 i)
    (x0 : Vec F S1024x512 .bf16) (x1 : Vec F S32x512 .f32) (x2 : Vec F S1000x32 .f32) (x3 : Vec F S1024x32 .f32) (xs7 : Vec F S1024x32 .bf16) (xs8 : Vec F S1024x1 .f32) (xs9 : Vec F S1024x1 .f32) (xs10 : Vec F S1024x1 .f32) :
    out2_C_4 c i arg2 harg2 arg3 harg3 arg4 harg4 arg5 harg5 arg6 harg6 arg7 harg7 arg8 harg8 arg9 harg9 arg10 harg10 hc0 hc1 x0 x1 x2 x3 xs7 xs8 xs9 xs10 = k2_pay10 (k2_pay9 xs7 x2 xs8) (k2_pay8 xs7 x2 xs8 xs8 xs9) xs10 := by
  unfold out2_C_4
  rw [View.read_writes_eq_canon _ _ _ (cover2_C_4 c i arg2 harg2 arg3 harg3 arg4 harg4 arg5 harg5 arg6 harg6 arg7 harg7 arg8 harg8 arg9 harg9 arg10 harg10 hc0 hc1 x0 x1 x2 x3 xs7 xs8 xs9 xs10)]
  unfold kernelRun2_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S32x512) hz2, View.ld_unit_zero (S := S1000x32) hz2,
    View.ld_unit_zero (S := S1024x32) hz2, View.ld_unit_zero (S := S1024x1) hz2,
    View.readCov_unit_zero (S := S1024x32) _ hz2, View.readCov_unit_zero (S := S1024x1) _ hz2]

end Cert.Proof.Val.R2P

end
-- ==== Proof.Val.R2Val.lean ====
import proofs.«416376_j65790309040722_2_alg».proof.Proof.KI.R2
import proofs.«416376_j65790309040722_2_alg».proof.Proof.Val.R2Pieces
import proofs.«416376_j65790309040722_2_alg».proof.Proof.Gen.KernelIdeal.Skeleton
import proofs.«416376_j65790309040722_2_alg».proof.Proof.Val.Spec
import proofs.«416376_j65790309040722_2_alg».proof.Proof.Val.Softmax
import Idealize.ShloMosaic.Lib.Pipeline.Value
import Idealize.ShloMosaic.Lib.ValueIdx
import Idealize.ShloMosaic.Lib.ValueLayout
import Idealize.ShloMosaic.PureOps.Ideal.Laws

/-!
# Region 1 (tail cluster 0): the values

Each payload of the cluster's kernel read at an index at the ideal values, in terms of the products, maxima, sums,
exponentials and logarithm of `Spec`; the running maximum and rescaled running sum of a row along its row tile's
column tiles as the tile-by-tile recursion of `Softmax`; and, on finite data, the output array as the cluster's
output of `Spec`, sample by sample.
-/

set_option maxRecDepth 16384

noncomputable section

namespace Cert.Proof.Val.R2

open Idealize.ShloMosaic Idealize.ShloMosaic.TcCoe Idealize.SL.Sem Idealize.ShloMosaic.ValueIdx
open Cert.KernelIdeal Cert.KernelIdeal.Gen Cert.KernelIdeal.Hand
open scoped BigOperators

/-! ## Two keepdims layout forms -/

/-- A vector `[a]` cast to the column `[a, 1]` reads, at `(i, u)`, the operand at `i`. -/
theorem shapeCast_a_a2_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a2_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of `-∞` is the bottom of the extended reals. -/
theorem ofBits_neg_inf_f32 : Ideal.ofBits .f32 0xFF800000#32 = (⊥ : EReal) := by
  simp [Ideal.ofBits, Ideal.ieee]

/-! ## The two resets -/

/-- The running maximum is reset to `-∞`. -/
theorem pay01_apply (p : Fin 1024) : (k2_pay1 (F := Ideal)) (ix2 p (0 : Fin 1)) = (⊥ : EReal) := by
  unfold k2_pay1
  rw [shapeCast_self]
  exact ofBits_neg_inf_f32

/-- The running sum is reset to `0`. -/
theorem pay02_apply (p : Fin 1024) : (k2_pay2 (F := Ideal)) (ix2 p (0 : Fin 1)) = (0 : EReal) := by
  unfold k2_pay2
  rw [shapeCast_self]
  exact Ideal.ofBits_zero_f32

/-! ## The two products -/

theorem lhs_hid_0 (i : S1024x32.Idx) (q : dot_S1024x512_S32x512_S1024x32_1_1_0_0_n_n.contr.Idx) :
    (dot_S1024x512_S32x512_S1024x32_1_1_0_0_n_n.lhsIdx i q 0).val = (i 0).val := by
  unfold DotDims.lhsIdx
  rw [dif_neg (show ¬(0 : Fin S1024x512.rank) ∈ dot_S1024x512_S32x512_S1024x32_1_1_0_0_n_n.lhsBatch by decide), dif_pos (show (0 : Fin S1024x512.rank) ∈ dot_S1024x512_S32x512_S1024x32_1_1_0_0_n_n.lhsNonContracting by decide)]
  rfl
theorem lhs_hid_1 (i : S1024x32.Idx) (q : dot_S1024x512_S32x512_S1024x32_1_1_0_0_n_n.contr.Idx) :
    (dot_S1024x512_S32x512_S1024x32_1_1_0_0_n_n.lhsIdx i q 1).val = (q ⟨0, by decide⟩).val :=
  dot_S1024x512_S32x512_S1024x32_1_1_0_0_n_n.lhsIdx_val_of_single rfl i q
theorem rhs_hid_0 (i : S1024x32.Idx) (q : dot_S1024x512_S32x512_S1024x32_1_1_0_0_n_n.contr.Idx) :
    (dot_S1024x512_S32x512_S1024x32_1_1_0_0_n_n.rhsIdx i q 0).val = (i 1).val := by
  unfold DotDims.rhsIdx
  rw [dif_neg (show ¬(0 : Fin S32x512.rank) ∈ dot_S1024x512_S32x512_S1024x32_1_1_0_0_n_n.rhsBatch by decide), dif_pos (show (0 : Fin S32x512.rank) ∈ dot_S1024x512_S32x512_S1024x32_1_1_0_0_n_n.rhsNonContracting by decide)]
  rfl
theorem rhs_hid_1 (i : S1024x32.Idx) (q : dot_S1024x512_S32x512_S1024x32_1_1_0_0_n_n.contr.Idx) :
    (dot_S1024x512_S32x512_S1024x32_1_1_0_0_n_n.rhsIdx i q 1).val = (q ⟨0, by decide⟩).val :=
  dot_S1024x512_S32x512_S1024x32_1_1_0_0_n_n.rhsIdx_val_of_single rfl i q

/-- The hidden activation before rounding: entry `(p, h)` of `x · w1ᵀ` is the product of row `p` of the `x` block
    with row `h` of `w1`. -/
theorem pay03_apply (v39 : Vec Ideal S32x512 .f32) (v41 : Vec Ideal S1024x512 .bf16) (p : Fin 1024) (h : Fin 32) :
    k2_pay3 (F := Ideal) v39 v41 (ix2 p h)
      = Spec.dotT (fun d : Fin 512 => (v41 (ix2 p d) : EReal)) (fun d : Fin 512 => (v39 (ix2 h d) : EReal)) := by
  unfold k2_pay3 Spec.dotT
  rw [shapeCast_self]
  refine (Ideal.matmul_constant_zero_apply dot_S1024x512_S32x512_S1024x32_1_1_0_0_n_n none v41 (truncf .bf16 v39 bitsLt_bf16_f32) (ix2 p h)).trans ?_
  rw [← Equiv.sum_comp (ValueIdx.contrEquiv1 dot_S1024x512_S32x512_S1024x32_1_1_0_0_n_n 512 rfl rfl).symm]
  refine Finset.sum_congr rfl fun k _ => ?_
  have hk := ValueIdx.contrEquiv1_symm_val dot_S1024x512_S32x512_S1024x32_1_1_0_0_n_n 512 rfl rfl k
  have el : dot_S1024x512_S32x512_S1024x32_1_1_0_0_n_n.lhsIdx (ix2 p h) ((ValueIdx.contrEquiv1 dot_S1024x512_S32x512_S1024x32_1_1_0_0_n_n 512 rfl rfl).symm k) = ix2 p k := funext fun a => Fin.ext (by
    match a with
    | ⟨0, _⟩ => exact lhs_hid_0 _ _
    | ⟨1, _⟩ => exact (lhs_hid_1 _ _).trans hk)
  have er : dot_S1024x512_S32x512_S1024x32_1_1_0_0_n_n.rhsIdx (ix2 p h) ((ValueIdx.contrEquiv1 dot_S1024x512_S32x512_S1024x32_1_1_0_0_n_n 512 rfl rfl).symm k) = ix2 h k := funext fun a => Fin.ext (by
    match a with
    | ⟨0, _⟩ => exact rhs_hid_0 _ _
    | ⟨1, _⟩ => exact (rhs_hid_1 _ _).trans hk)
  rw [el, er]
  rfl

/-- The hidden activation as it is stored (the change of format is the identity on the extended reals). -/
theorem pay04_apply (v39 : Vec Ideal S32x512 .f32) (v41 : Vec Ideal S1024x512 .bf16) (p : Fin 1024) (h : Fin 32) :
    k2_pay4 (F := Ideal) v39 v41 (ix2 p h)
      = Spec.dotT (fun d : Fin 512 => (v41 (ix2 p d) : EReal)) (fun d : Fin 512 => (v39 (ix2 h d) : EReal)) := by
  unfold k2_pay4
  rw [shapeCast_self]
  exact pay03_apply v39 v41 p h

theorem lhs_logit_0 (i : S1024x1000.Idx) (q : dot_S1024x32_S1000x32_S1024x1000_1_1_0_0_n_n.contr.Idx) :
    (dot_S1024x32_S1000x32_S1024x1000_1_1_0_0_n_n.lhsIdx i q 0).val = (i 0).val := by
  unfold DotDims.lhsIdx
  rw [dif_neg (show ¬(0 : Fin S1024x32.rank) ∈ dot_S1024x32_S1000x32_S1024x1000_1_1_0_0_n_n.lhsBatch by decide), dif_pos (show (0 : Fin S1024x32.rank) ∈ dot_S1024x32_S1000x32_S1024x1000_1_1_0_0_n_n.lhsNonContracting by decide)]
  rfl
theorem lhs_logit_1 (i : S1024x1000.Idx) (q : dot_S1024x32_S1000x32_S1024x1000_1_1_0_0_n_n.contr.Idx) :
    (dot_S1024x32_S1000x32_S1024x1000_1_1_0_0_n_n.lhsIdx i q 1).val = (q ⟨0, by decide⟩).val :=
  dot_S1024x32_S1000x32_S1024x1000_1_1_0_0_n_n.lhsIdx_val_of_single rfl i q
theorem rhs_logit_0 (i : S1024x1000.Idx) (q : dot_S1024x32_S1000x32_S1024x1000_1_1_0_0_n_n.contr.Idx) :
    (dot_S1024x32_S1000x32_S1024x1000_1_1_0_0_n_n.rhsIdx i q 0).val = (i 1).val := by
  unfold DotDims.rhsIdx
  rw [dif_neg (show ¬(0 : Fin S1000x32.rank) ∈ dot_S1024x32_S1000x32_S1024x1000_1_1_0_0_n_n.rhsBatch by decide), dif_pos (show (0 : Fin S1000x32.rank) ∈ dot_S1024x32_S1000x32_S1024x1000_1_1_0_0_n_n.rhsNonContracting by decide)]
  rfl
theorem rhs_logit_1 (i : S1024x1000.Idx) (q : dot_S1024x32_S1000x32_S1024x1000_1_1_0_0_n_n.contr.Idx) :
    (dot_S1024x32_S1000x32_S1024x1000_1_1_0_0_n_n.rhsIdx i q 1).val = (q ⟨0, by decide⟩).val :=
  dot_S1024x32_S1000x32_S1024x1000_1_1_0_0_n_n.rhsIdx_val_of_single rfl i q

/-- The logits of a tile: entry `(p, cc)` of `hidden · w2ᵀ` is the product of row `p` of the hidden block with row
    `cc` of the tile of `w2`. -/
theorem pay06_apply (v3 : Vec Ideal S1024x32 .bf16) (v4 : Vec Ideal S1000x32 .f32) (p : Fin 1024) (cc : Fin 1000) :
    k2_pay6 (F := Ideal) v3 v4 (ix2 p cc)
      = Spec.dotT (fun h : Fin 32 => (v3 (ix2 p h) : EReal)) (fun h : Fin 32 => (v4 (ix2 cc h) : EReal)) := by
  unfold k2_pay6 Spec.dotT
  refine (Ideal.matmul_constant_zero_apply dot_S1024x32_S1000x32_S1024x1000_1_1_0_0_n_n none v3 (truncf .bf16 v4 bitsLt_bf16_f32) (ix2 p cc)).trans ?_
  rw [← Equiv.sum_comp (ValueIdx.contrEquiv1 dot_S1024x32_S1000x32_S1024x1000_1_1_0_0_n_n 32 rfl rfl).symm]
  refine Finset.sum_congr rfl fun k _ => ?_
  have hk := ValueIdx.contrEquiv1_symm_val dot_S1024x32_S1000x32_S1024x1000_1_1_0_0_n_n 32 rfl rfl k
  have el : dot_S1024x32_S1000x32_S1024x1000_1_1_0_0_n_n.lhsIdx (ix2 p cc) ((ValueIdx.contrEquiv1 dot_S1024x32_S1000x32_S1024x1000_1_1_0_0_n_n 32 rfl rfl).symm k) = ix2 p k := funext fun a => Fin.ext (by
    match a with
    | ⟨0, _⟩ => exact lhs_logit_0 _ _
    | ⟨1, _⟩ => exact (lhs_logit_1 _ _).trans hk)
  have er : dot_S1024x32_S1000x32_S1024x1000_1_1_0_0_n_n.rhsIdx (ix2 p cc) ((ValueIdx.contrEquiv1 dot_S1024x32_S1000x32_S1024x1000_1_1_0_0_n_n 32 rfl rfl).symm k) = ix2 cc k := funext fun a => Fin.ext (by
    match a with
    | ⟨0, _⟩ => exact rhs_logit_0 _ _
    | ⟨1, _⟩ => exact (rhs_logit_1 _ _).trans hk)
  rw [el, er]
  rfl

/-! ## A row's reductions -/

/-- The index a reduction along the columns inserts: the row's index with the column put back. -/
theorem lift_row {a b : ℕ} (hr : (⟨2, ![a, b]⟩ : Shape).Reduces [1] ⟨1, ![a]⟩) (p : Fin a) (k : Fin b) :
    hr.lift (ix1 p) k = ix2 p k :=
  funext fun c => Fin.ext (by
    match c with
    | ⟨0, _⟩ => rfl
    | ⟨1, _⟩ => rfl)

/-- A sum along the columns, kept as a column, read at a row. -/
theorem rowSum_apply {a b : ℕ} (src : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hφ : FKind.Formats .f32)
    (hacc : (0x00000000#32 : BitVec 32) = FKind.add.neutral .f32 hφ) (p : Fin a) :
    shapeCast ⟨2, ![a, 1]⟩ (multiReduction .add [1] ⟨1, ![a]⟩ src 0x00000000#32 hr hφ hacc) hc (ix2 p (0 : Fin 1))
      = ∑ k : Fin b, src (ix2 p k) := by
  refine (shapeCast_a_a2_apply _ hc p 0).trans ?_
  refine (Ideal.multiReduction_add_single src 0x00000000#32 hr hφ hacc (ix1 p)).trans ?_
  exact Finset.sum_congr rfl fun k _ => congrArg src (lift_row hr p k)

/-- A maximum along the columns, kept as a column, read at a row. -/
theorem rowMax_apply {a b : ℕ} (src : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hφ : FKind.Formats .f32)
    (hacc : (0xFF800000#32 : BitVec 32) = FKind.maximumf.neutral .f32 hφ) (p : Fin a) :
    shapeCast ⟨2, ![a, 1]⟩ (multiReduction .maximumf [1] ⟨1, ![a]⟩ src 0xFF800000#32 hr hφ hacc) hc (ix2 p (0 : Fin 1))
      = (Finset.univ : Finset (Fin b)).fold max (⊥ : EReal) (fun k => src (ix2 p k)) := by
  refine (shapeCast_a_a2_apply _ hc p 0).trans ?_
  refine (Ideal.multiReduction_maximumf_single src 0xFF800000#32 hr hφ hacc (ix1 p)).trans ?_
  have e : (src ∘ hr.lift (ix1 p)) = fun k : Fin b => src (ix2 p k) := funext fun k => congrArg src (lift_row hr p k)
  rw [e]
  exact congrArg (fun z => (Finset.univ : Finset (Fin b)).fold max z (fun k => src (ix2 p k))) ofBits_neg_inf_f32

/-- The product of the hidden row with the gathered row of `w2`. -/
theorem pay05_apply (v39 : Vec Ideal S32x512 .f32) (v41 : Vec Ideal S1024x512 .bf16) (v48 : Vec Ideal S1024x32 .f32) (p : Fin 1024) :
    k2_pay5 (F := Ideal) v39 v41 v48 (ix2 p (0 : Fin 1))
      = Spec.dotT (fun h : Fin 32 => k2_pay4 (F := Ideal) v39 v41 (ix2 p h)) (fun h : Fin 32 => (v48 (ix2 p h) : EReal)) := by
  unfold k2_pay5 Spec.dotT
  rw [shapeCast_self, shapeCast_self]
  refine (rowSum_apply _ reduces_S1024x32_S1024 shapeCasts_S1024_S1024x1 (.inl rfl) rfl p).trans ?_
  refine Finset.sum_congr rfl fun h _ => ?_
  unfold k2_pay4
  rw [shapeCast_self]
  rfl

/-- The logits of row `p` against a tile of `w2`. -/
def logit (v3 : Vec Ideal S1024x32 .bf16) (v4 : Vec Ideal S1000x32 .f32) (p : Fin 1024) : Fin 1000 → EReal :=
  fun cc => Spec.dotT (fun h : Fin 32 => (v3 (ix2 p h) : EReal)) (fun h : Fin 32 => (v4 (ix2 cc h) : EReal))

/-- The new running maximum: the old one against the tile's row maximum. -/
theorem pay07_apply (v3 : Vec Ideal S1024x32 .bf16) (v4 : Vec Ideal S1000x32 .f32) (v9 : Vec Ideal S1024x1 .f32) (p : Fin 1024) :
    k2_pay7 (F := Ideal) v3 v4 v9 (ix2 p (0 : Fin 1))
      = max (v9 (ix2 p (0 : Fin 1)) : EReal) ((Finset.univ : Finset (Fin 1000)).fold max (⊥ : EReal) (logit v3 v4 p)) := by
  unfold k2_pay7
  refine (maximumf_apply _ _ _).trans ?_
  refine congrArg (max (v9 (ix2 p (0 : Fin 1)) : EReal)) ?_
  refine (rowMax_apply _ reduces_S1024x1000_S1024 shapeCasts_S1024_S1024x1 (.inl rfl) rfl p).trans ?_
  exact congrArg (fun f => (Finset.univ : Finset (Fin 1000)).fold max (⊥ : EReal) f) (funext fun cc => pay06_apply v3 v4 p cc)

/-- The stored running maximum is the new one. -/
theorem pay09_apply (v3 : Vec Ideal S1024x32 .bf16) (v4 : Vec Ideal S1000x32 .f32) (v9 : Vec Ideal S1024x1 .f32) (p : Fin 1024) :
    k2_pay9 (F := Ideal) v3 v4 v9 (ix2 p (0 : Fin 1))
      = max (v9 (ix2 p (0 : Fin 1)) : EReal) ((Finset.univ : Finset (Fin 1000)).fold max (⊥ : EReal) (logit v3 v4 p)) := by
  unfold k2_pay9
  rw [shapeCast_self]
  exact pay07_apply v3 v4 v9 p

/-- The new running sum: the old one rescaled to the new maximum, plus the tile's shifted exponential sum. -/
theorem pay08_apply (v3 : Vec Ideal S1024x32 .bf16) (v4 : Vec Ideal S1000x32 .f32) (v9 v11 v17 : Vec Ideal S1024x1 .f32) (p : Fin 1024) :
    k2_pay8 (F := Ideal) v3 v4 v9 v11 v17 (ix2 p (0 : Fin 1))
      = Ideal.exp ((v11 (ix2 p (0 : Fin 1)) : EReal)
            - max (v9 (ix2 p (0 : Fin 1)) : EReal) ((Finset.univ : Finset (Fin 1000)).fold max (⊥ : EReal) (logit v3 v4 p)))
          * (v17 (ix2 p (0 : Fin 1)) : EReal)
        + ∑ cc : Fin 1000, Ideal.exp (logit v3 v4 p cc
            - max (v9 (ix2 p (0 : Fin 1)) : EReal) ((Finset.univ : Finset (Fin 1000)).fold max (⊥ : EReal) (logit v3 v4 p))) := by
  unfold k2_pay8
  rw [shapeCast_self]
  refine (addf_apply _ _ _).trans ?_
  refine congrArg₂ (· + ·) ?_ ?_
  · show Ideal.exp ((v11 (ix2 p (0 : Fin 1)) : EReal) - k2_pay7 (F := Ideal) v3 v4 v9 (ix2 p (0 : Fin 1))) * (v17 (ix2 p (0 : Fin 1)) : EReal) = _
    rw [pay07_apply]
  · refine (rowSum_apply _ reduces_S1024x1000_S1024 shapeCasts_S1024_S1024x1 (.inl rfl) rfl p).trans ?_
    refine Finset.sum_congr rfl fun cc _ => ?_
    show Ideal.exp (k2_pay6 (F := Ideal) v3 v4 (ix2 p cc)
        - broadcastTo S1024x1000 (k2_pay7 (F := Ideal) v3 v4 v9) broadcasts_S1024x1_S1024x1000 (ix2 p cc)) = _
    rw [broadcastTo_a2_ab_apply, pay07_apply, pay06_apply]
    rfl

/-- The output: the gathered product less the log-sum-exp `m + log l`. -/
theorem pay10_apply (v31 v32 v35 : Vec Ideal S1024x1 .f32) (p : Fin 1024) :
    k2_pay10 (F := Ideal) v31 v32 v35 (ix2 p (0 : Fin 1))
      = (v35 (ix2 p (0 : Fin 1)) : EReal) - ((v31 (ix2 p (0 : Fin 1)) : EReal) + Ideal.log (v32 (ix2 p (0 : Fin 1)) : EReal)) := rfl

/-! ## The running pair, one tile at a time -/

/-- The logits of a row against a tile, from what the hidden row and the tile's rows are. -/
theorem logit_congr (v3 : Vec Ideal S1024x32 .bf16) (v4 : Vec Ideal S1000x32 .f32) (p : Fin 1024)
    (a : Fin 32 → EReal) (b : Fin 1000 → Fin 32 → EReal)
    (h3 : ∀ h : Fin 32, (v3 (ix2 p h) : EReal) = a h) (h4 : ∀ (cc : Fin 1000) (h : Fin 32), (v4 (ix2 cc h) : EReal) = b cc h) :
    logit v3 v4 p = fun cc => Spec.dotT a (b cc) := by
  funext cc
  unfold logit
  rw [show (fun h : Fin 32 => (v3 (ix2 p h) : EReal)) = a from funext h3,
    show (fun h : Fin 32 => (v4 (ix2 cc h) : EReal)) = b cc from funext (h4 cc)]

/-- The first tile of a row tile: from the reset values the pair is the recursion's after one tile. -/
theorem step_first (v3 : Vec Ideal S1024x32 .bf16) (v4 : Vec Ideal S1000x32 .f32) (p : Fin 1024)
    (z : ℕ → Fin 1000 → EReal) (hz : z 0 = logit v3 v4 p) :
    k2_pay9 (F := Ideal) v3 v4 (k2_pay1 (F := Ideal)) (ix2 p (0 : Fin 1)) = (Softmax.onl z 1).1
      ∧ k2_pay8 (F := Ideal) v3 v4 (k2_pay1 (F := Ideal)) (k2_pay1 (F := Ideal)) (k2_pay2 (F := Ideal)) (ix2 p (0 : Fin 1))
          = (Softmax.onl z 1).2 := by
  rw [pay09_apply, pay08_apply, pay01_apply, pay02_apply, Softmax.onl_succ, Softmax.onl_zero, hz]
  exact ⟨rfl, rfl⟩

/-- A later tile: from the pair after `j` tiles, the pair after `j + 1`. -/
theorem step_next (v3 : Vec Ideal S1024x32 .bf16) (v4 : Vec Ideal S1000x32 .f32) (v9 v17 : Vec Ideal S1024x1 .f32) (p : Fin 1024)
    (z : ℕ → Fin 1000 → EReal) (j : ℕ) (hz : z j = logit v3 v4 p)
    (hm : (v9 (ix2 p (0 : Fin 1)) : EReal) = (Softmax.onl z j).1) (hl : (v17 (ix2 p (0 : Fin 1)) : EReal) = (Softmax.onl z j).2) :
    k2_pay9 (F := Ideal) v3 v4 v9 (ix2 p (0 : Fin 1)) = (Softmax.onl z (j + 1)).1
      ∧ k2_pay8 (F := Ideal) v3 v4 v9 v9 v17 (ix2 p (0 : Fin 1)) = (Softmax.onl z (j + 1)).2 := by
  rw [pay09_apply, pay08_apply, hm, hl, Softmax.onl_succ, hz]
  exact ⟨rfl, rfl⟩

/-! ## Finite data: the recursion over all the tiles is the one-shot log-sum-exp -/

/-- A product of two real vectors is the real product. -/
theorem dotT_coe {K : ℕ} (a b : Fin K → ℝ) :
    Spec.dotT (fun k => (a k : EReal)) (fun k => (b k : EReal)) = ((∑ k, a k * b k : ℝ) : EReal) := by
  unfold Spec.dotT
  rw [Softmax.coe_finset_sum]
  exact Finset.sum_congr rfl fun k _ => (EReal.coe_mul _ _).symm

/-- So a product of two vectors of finite entries is finite. -/
theorem dotT_real {K : ℕ} (a b : Fin K → EReal) (ha : ∀ k, ∃ r : ℝ, a k = r) (hb : ∀ k, ∃ r : ℝ, b k = r) :
    ∃ r : ℝ, Spec.dotT a b = r := by
  choose ra hra using ha
  choose rb hrb using hb
  refine ⟨∑ k, ra k * rb k, ?_⟩
  rw [show a = fun k => (ra k : EReal) from funext hra, show b = fun k => (rb k : EReal) from funext hrb]
  exact dotT_coe ra rb

/-- The cluster's logits of a hidden row, tile by tile: tile `j`, column `cc` is column `j * 1000 + cc` of the cluster. -/
def ztile (hd : Fin 32 → EReal) (W2 : Fin 40000 → Fin 32 → EReal) (j : ℕ) (cc : Fin 1000) : EReal :=
  Spec.dotT hd (W2 ⟨(j * 1000 + cc.val) % 40000, Nat.mod_lt _ (by norm_num)⟩)

/-- On finite data the gathered product less the log-sum-exp of the pair after all nine tiles is the cluster's output. -/
theorem tailOut_of_onl (hd gw : Fin 32 → EReal) (W2 : Fin 40000 → Fin 32 → EReal)
    (hhd : ∀ h, ∃ r : ℝ, hd h = r) (hw2 : ∀ cc h, ∃ r : ℝ, W2 cc h = r) :
    Spec.dotT hd gw - ((Softmax.onl (ztile hd W2) 40).1 + Ideal.log (Softmax.onl (ztile hd W2) 40).2)
      = Spec.tailOut hd gw W2 := by
  have hg : ∀ c : Fin 40000, ∃ r : ℝ, Spec.dotT hd (W2 c) = r := fun c => dotT_real _ _ hhd (hw2 c)
  choose g hgc using hg
  have hflat := Softmax.onl_flat (T := 40) (C := 1000) (by norm_num) (by norm_num) g (ztile hd W2) (fun j hj c => by
    unfold ztile
    have hlt : j * 1000 + c.val < 40000 := by have := c.isLt; omega
    rw [← hgc]
    exact congrArg (fun k => Spec.dotT hd (W2 k)) (Fin.ext (Nat.mod_eq_of_lt hlt)))
  rw [hflat]
  unfold Spec.tailOut Spec.lsmK Spec.lse Spec.rowMax
  rw [show (fun c : Fin 40000 => Spec.dotT hd (W2 c)) = fun c => (g c : EReal) from funext hgc]

/-! ## The invariant of a row along its row tile's points -/

/-- What the four scratch buffers hold at row `p` after column tile `j` of a row tile whose hidden row is `hd`: the hidden
    row itself, the recursion's pair after `j + 1` tiles, and the product with the gathered row `gw`. -/
def RowInv (hid : Vec Ideal S1024x32 .bf16) (m l val : Vec Ideal S1024x1 .f32) (p : Fin 1024)
    (hd : Fin 32 → EReal) (W2 : Fin 40000 → Fin 32 → EReal) (gw : Fin 32 → EReal) (j : ℕ) : Prop :=
  (∀ h : Fin 32, (hid (ix2 p h) : EReal) = hd h)
    ∧ (m (ix2 p (0 : Fin 1)) : EReal) = (Softmax.onl (ztile hd W2) (j + 1)).1
    ∧ (l (ix2 p (0 : Fin 1)) : EReal) = (Softmax.onl (ztile hd W2) (j + 1)).2
    ∧ (val (ix2 p (0 : Fin 1)) : EReal) = Spec.dotT hd gw

/-- The first column tile fills the four buffers from the point's blocks. -/
theorem rowInv_first (x0 : Vec Ideal S1024x512 .bf16) (x1 : Vec Ideal S32x512 .f32) (x2 : Vec Ideal S1000x32 .f32)
    (x3 : Vec Ideal S1024x32 .f32) (p : Fin 1024)
    (X : Fin 512 → EReal) (W1 : Fin 32 → Fin 512 → EReal) (W2 : Fin 40000 → Fin 32 → EReal) (gw : Fin 32 → EReal)
    (h0 : ∀ d : Fin 512, (x0 (ix2 p d) : EReal) = X d) (h1 : ∀ (h : Fin 32) (d : Fin 512), (x1 (ix2 h d) : EReal) = W1 h d)
    (h2 : ∀ (cc : Fin 1000) (h : Fin 32), (x2 (ix2 cc h) : EReal) = W2 ⟨(0 * 1000 + cc.val) % 40000, Nat.mod_lt _ (by norm_num)⟩ h)
    (h3 : ∀ h : Fin 32, (x3 (ix2 p h) : EReal) = gw h) :
    RowInv (k2_pay4 (F := Ideal) x1 x0) (k2_pay9 (F := Ideal) (k2_pay4 (F := Ideal) x1 x0) x2 (k2_pay1 (F := Ideal)))
      (k2_pay8 (F := Ideal) (k2_pay4 (F := Ideal) x1 x0) x2 (k2_pay1 (F := Ideal)) (k2_pay1 (F := Ideal)) (k2_pay2 (F := Ideal)))
      (k2_pay5 (F := Ideal) x1 x0 x3) p (fun h => Spec.dotT X (W1 h)) W2 gw 0 := by
  have hhid : ∀ h : Fin 32, (k2_pay4 (F := Ideal) x1 x0 (ix2 p h) : EReal) = Spec.dotT X (W1 h) := fun h => by
    rw [pay04_apply, show (fun d : Fin 512 => (x0 (ix2 p d) : EReal)) = X from funext h0,
      show (fun d : Fin 512 => (x1 (ix2 h d) : EReal)) = W1 h from funext (h1 h)]
  have hz : ztile (fun h => Spec.dotT X (W1 h)) W2 0 = logit (k2_pay4 (F := Ideal) x1 x0) x2 p :=
    (logit_congr _ _ p _ _ hhid h2).symm
  obtain ⟨e1, e2⟩ := step_first (k2_pay4 (F := Ideal) x1 x0) x2 p _ hz
  refine ⟨hhid, e1, e2, ?_⟩
  rw [pay05_apply, show (fun h : Fin 32 => (k2_pay4 (F := Ideal) x1 x0 (ix2 p h) : EReal)) = fun h => Spec.dotT X (W1 h) from funext hhid,
    show (fun h : Fin 32 => (x3 (ix2 p h) : EReal)) = gw from funext h3]

/-- A later column tile updates the pair and keeps the hidden row and the gathered product. -/
theorem rowInv_next (xs7 : Vec Ideal S1024x32 .bf16) (xs8 xs9 xs10 : Vec Ideal S1024x1 .f32) (x2 : Vec Ideal S1000x32 .f32)
    (p : Fin 1024) (hd : Fin 32 → EReal) (W2 : Fin 40000 → Fin 32 → EReal) (gw : Fin 32 → EReal) (j : ℕ)
    (ih : RowInv xs7 xs8 xs9 xs10 p hd W2 gw j)
    (h2 : ∀ (cc : Fin 1000) (h : Fin 32), (x2 (ix2 cc h) : EReal) = W2 ⟨((j + 1) * 1000 + cc.val) % 40000, Nat.mod_lt _ (by norm_num)⟩ h) :
    RowInv xs7 (k2_pay9 (F := Ideal) xs7 x2 xs8) (k2_pay8 (F := Ideal) xs7 x2 xs8 xs8 xs9) xs10 p hd W2 gw (j + 1) := by
  obtain ⟨hh, hm, hl, hv⟩ := ih
  have hz : ztile hd W2 (j + 1) = logit xs7 x2 p := (logit_congr _ _ p _ _ hh h2).symm
  obtain ⟨e1, e2⟩ := step_next xs7 x2 xs8 xs9 p _ (j + 1) hz hm hl
  exact ⟨hh, e1, e2, hv⟩

/-- The stored output at a row, from the buffers after the last column tile. -/
theorem out_of_rowInv (hid : Vec Ideal S1024x32 .bf16) (m l val : Vec Ideal S1024x1 .f32) (p : Fin 1024)
    (hd : Fin 32 → EReal) (W2 : Fin 40000 → Fin 32 → EReal) (gw : Fin 32 → EReal) (j : ℕ)
    (h : RowInv hid m l val p hd W2 gw j) :
    k2_pay10 (F := Ideal) m l val (ix2 p (0 : Fin 1))
      = Spec.dotT hd gw - ((Softmax.onl (ztile hd W2) (j + 1)).1 + Ideal.log (Softmax.onl (ztile hd W2) (j + 1)).2) := by
  obtain ⟨-, hm, hl, hv⟩ := h
  rw [pay10_apply, hm, hl, hv]

/-! ## The windows' blocks, read off the arrays -/

section Blocks
variable (V : (c : Dev nD) → (b : Ref sig .tc) → Buf (Elt Ideal) ((c : Thread nD τ).loc b))

/-- The arrays the region reads, at their literal types: `x` (rounded), `w1`, `w2` and the gathered rows of `w2`. -/
abbrev xarr (c : Dev nD) : Vec Ideal S2048x512 .bf16 := V c main_v0
abbrev w1arr (c : Dev nD) : Vec Ideal S32x512 .f32 := V c main_arg5
abbrev w2arr (c : Dev nD) : Vec Ideal S40000x32 .f32 := V c main_arg6
abbrev gwarr (c : Dev nD) : Vec Ideal S2048x32 .f32 := V c main_v41

/-- The printed index maps over the grid: point `t` is row tile `t / 40`, column tile `t % 40`. -/
theorem idx_facts2 : ∀ t : Fin cfg2.N,
    win2_0.index t (0 : Fin 2) = t.val / 40 ∧ win2_0.index t (1 : Fin 2) = 0
    ∧ win2_1.index t (0 : Fin 2) = 0 ∧ win2_1.index t (1 : Fin 2) = 0
    ∧ win2_2.index t (0 : Fin 2) = t.val % 40 ∧ win2_2.index t (1 : Fin 2) = 0
    ∧ win2_3.index t (0 : Fin 2) = t.val / 40 ∧ win2_3.index t (1 : Fin 2) = 0
    ∧ win2_4.index t (0 : Fin 2) = t.val / 40 ∧ win2_4.index t (1 : Fin 2) = 0 :=
  (by decide +kernel : ∀ t : Fin grid2.N, _)

/-- Row `p` of the `x` block at point `t` is row `1024 · (t / 40) + p` of `x`. -/
theorem xblk_apply (c : Dev nD) (t : Fin cfg2.N) (p : Fin 1024) (d : Fin 512) (n : Fin 2048)
    (hn : n.val = 1024 * (t.val / 40) + p.val) :
    ((iblk2 V c 0 t) : Vec Ideal S1024x512 .bf16) (ix2 p d) = xarr V c (ix2 n d) := by
  unfold iblk2
  rw [View.read_apply]
  show V c main_v0 (((cfg2.win 0).blk t).view.emb (ix2 p d)) = V c main_v0 _
  refine congrArg (V c main_v0) (funext fun a => Fin.ext ?_)
  obtain ⟨e0, e1, -⟩ := idx_facts2 t
  match a with
  | ⟨0, _⟩ => show win2_0.index t (0 : Fin 2) * 1024 + 1 * p.val = n.val; rw [e0, hn]; omega
  | ⟨1, _⟩ => show win2_0.index t (1 : Fin 2) * 512 + 1 * d.val = d.val; rw [e1]; omega

/-- The `w1` block is all of `w1` at every point. -/
theorem w1blk_apply (c : Dev nD) (t : Fin cfg2.N) (h : Fin 32) (d : Fin 512) :
    ((iblk2 V c 1 t) : Vec Ideal S32x512 .f32) (ix2 h d) = w1arr V c (ix2 h d) := by
  unfold iblk2
  rw [View.read_apply]
  show V c main_arg5 (((cfg2.win 1).blk t).view.emb (ix2 h d)) = V c main_arg5 _
  refine congrArg (V c main_arg5) (funext fun a => Fin.ext ?_)
  obtain ⟨-, -, e0, e1, -⟩ := idx_facts2 t
  match a with
  | ⟨0, _⟩ => show win2_1.index t (0 : Fin 2) * 32 + 1 * h.val = h.val; rw [e0]; omega
  | ⟨1, _⟩ => show win2_1.index t (1 : Fin 2) * 512 + 1 * d.val = d.val; rw [e1]; omega

/-- Row `cc` of the `w2` tile at point `t` is row `(t % 40) · 1000 + cc` of `w2`. -/
theorem w2blk_apply (c : Dev nD) (t : Fin cfg2.N) (cc : Fin 1000) (h : Fin 32) (k : Fin 40000)
    (hk : k.val = (t.val % 40) * 1000 + cc.val) :
    ((iblk2 V c 2 t) : Vec Ideal S1000x32 .f32) (ix2 cc h) = w2arr V c (ix2 k h) := by
  unfold iblk2
  rw [View.read_apply]
  show V c main_arg6 (((cfg2.win 2).blk t).view.emb (ix2 cc h)) = V c main_arg6 _
  refine congrArg (V c main_arg6) (funext fun a => Fin.ext ?_)
  obtain ⟨-, -, -, -, e0, e1, -⟩ := idx_facts2 t
  match a with
  | ⟨0, _⟩ => show win2_2.index t (0 : Fin 2) * 1000 + 1 * cc.val = k.val; rw [e0, hk]; omega
  | ⟨1, _⟩ => show win2_2.index t (1 : Fin 2) * 32 + 1 * h.val = h.val; rw [e1]; omega

/-- Row `p` of the gathered block at point `t` is row `1024 · (t / 40) + p` of the gathered array. -/
theorem gwblk_apply (c : Dev nD) (t : Fin cfg2.N) (p : Fin 1024) (h : Fin 32) (n : Fin 2048)
    (hn : n.val = 1024 * (t.val / 40) + p.val) :
    ((iblk2 V c 3 t) : Vec Ideal S1024x32 .f32) (ix2 p h) = gwarr V c (ix2 n h) := by
  unfold iblk2
  rw [View.read_apply]
  show V c main_v41 (((cfg2.win 3).blk t).view.emb (ix2 p h)) = V c main_v41 _
  refine congrArg (V c main_v41) (funext fun a => Fin.ext ?_)
  obtain ⟨-, -, -, -, -, -, e0, e1, -⟩ := idx_facts2 t
  match a with
  | ⟨0, _⟩ => show win2_3.index t (0 : Fin 2) * 1024 + 1 * p.val = n.val; rw [e0, hn]; omega
  | ⟨1, _⟩ => show win2_3.index t (1 : Fin 2) * 32 + 1 * h.val = h.val; rw [e1]; omega

/-- Row `p` of the output block at point `t` sits at row `1024 · (t / 40) + p` of the output array. -/
theorem oblk_emb (t : Fin cfg2.N) (p : Fin 1024) (u : Fin 1) (n : Fin 2048) (hn : n.val = 1024 * (t.val / 40) + p.val) :
    (((cfg2.win 4).blk t).view.emb (ix2 p u) : S2048x1.Idx) = ix2 n (0 : Fin 1) := by
  refine funext fun a => Fin.ext ?_
  obtain ⟨-, -, -, -, -, -, -, -, e0, e1⟩ := idx_facts2 t
  match a with
  | ⟨0, _⟩ => show win2_4.index t (0 : Fin 2) * 1024 + 1 * p.val = n.val; rw [e0, hn]; omega
  | ⟨1, _⟩ => show win2_4.index t (1 : Fin 2) * 1 + 1 * u.val = 0; rw [e1]; omega

end Blocks

/-! ## The accumulation along the grid, row by row -/

section Region
variable (V : (c : Dev nD) → (b : Ref sig .tc) → Buf (Elt Ideal) ((c : Thread nD τ).loc b))

/-- The point's input blocks at their literal types. -/
abbrev xb (c : Dev nD) (t : Fin cfg2.N) : Vec Ideal S1024x512 .bf16 := iblk2 V c 0 t
abbrev w1b (c : Dev nD) (t : Fin cfg2.N) : Vec Ideal S32x512 .f32 := iblk2 V c 1 t
abbrev w2b (c : Dev nD) (t : Fin cfg2.N) : Vec Ideal S1000x32 .f32 := iblk2 V c 2 t
abbrev gwb (c : Dev nD) (t : Fin cfg2.N) : Vec Ideal S1024x32 .f32 := iblk2 V c 3 t

/-- Row `n` of `x`, the rows of `w1` and of `w2`, row `n` of the gathered array, and the hidden row of sample `n`. -/
def xRow (c : Dev nD) (n : Fin 2048) : Fin 512 → EReal := fun d => (xarr V c (ix2 n d) : EReal)
def w1Rows (c : Dev nD) : Fin 32 → Fin 512 → EReal := fun h d => (w1arr V c (ix2 h d) : EReal)
def w2Rows (c : Dev nD) : Fin 40000 → Fin 32 → EReal := fun cc h => (w2arr V c (ix2 cc h) : EReal)
def gwRow (c : Dev nD) (n : Fin 2048) : Fin 32 → EReal := fun h => (gwarr V c (ix2 n h) : EReal)
def hidRow (c : Dev nD) (n : Fin 2048) : Fin 32 → EReal := fun h => Spec.dotT (xRow V c n) (w1Rows V c h)

/-- The invariant after point `t`: every row `p` of the row tile `t / 40`, which is row `n = 1024 · (t / 40) + p` of the
    arrays, has its hidden row, the recursion's pair after `t % 40 + 1` column tiles and its gathered product. -/
def Inv (c : Dev nD) (t : ℕ) (o : Outs2 Ideal) : Prop :=
  ∀ (p : Fin 1024) (n : Fin 2048), n.val = 1024 * (t / 40) + p.val →
    RowInv o.2.1 o.2.2.1 o.2.2.2.1 o.2.2.2.2 p (hidRow V c n) (w2Rows V c) (gwRow V c n) (t % 40)

/-- The tile of `w2` at point `t`, in the spelling of the tile-by-tile logits. -/
theorem w2b_tile (c : Dev nD) (t : Fin cfg2.N) (j : ℕ) (hj : j = t.val % 40) (cc : Fin 1000) (h : Fin 32) :
    (w2b V c t (ix2 cc h) : EReal) = w2Rows V c ⟨(j * 1000 + cc.val) % 40000, Nat.mod_lt _ (by norm_num)⟩ h := by
  subst hj
  exact w2blk_apply V c t cc h _ (by
    show (t.val % 40 * 1000 + cc.val) % 40000 = t.val % 40 * 1000 + cc.val
    have := cc.isLt; omega)

theorem inv_A (c : Dev nD) (t : Fin cfg2.N) (h0 : t.val % 40 = 0) (h1 : ¬t.val % 40 = 39) :
    Inv V c t.val (caseA2 V c t h0 h1) := by
  intro p n hn
  unfold caseA2
  dsimp only
  rw [R2P.sout2_A_7_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
    R2P.sout2_A_8_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
    R2P.sout2_A_9_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t),
    R2P.sout2_A_10_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t), h0]
  exact rowInv_first (xb V c t) (w1b V c t) (w2b V c t) (gwb V c t) p (xRow V c n) (w1Rows V c) (w2Rows V c) (gwRow V c n)
    (fun d => xblk_apply V c t p d n hn) (fun h d => w1blk_apply V c t h d)
    (fun cc h => w2b_tile V c t 0 h0.symm cc h) (fun h => gwblk_apply V c t p h n hn)

/-- A later column tile of a row tile, in the buffers' terms: over what the point before left. -/
theorem rowInv_later (c : Dev nD) (t : Fin cfg2.N) (h0 : ¬t.val % 40 = 0) (o : Outs2 Ideal) (ih : Inv V c (t.val - 1) o)
    (p : Fin 1024) (n : Fin 2048) (hn : n.val = 1024 * (t.val / 40) + p.val) :
    RowInv o.2.1 (k2_pay9 (F := Ideal) o.2.1 (w2b V c t) o.2.2.1)
      (k2_pay8 (F := Ideal) o.2.1 (w2b V c t) o.2.2.1 o.2.2.1 o.2.2.2.1) o.2.2.2.2 p
      (hidRow V c n) (w2Rows V c) (gwRow V c n) (t.val % 40) := by
  have ih' := ih p n (by omega)
  have ej : (t.val - 1) % 40 + 1 = t.val % 40 := by omega
  rw [← ej]
  exact rowInv_next o.2.1 o.2.2.1 o.2.2.2.1 o.2.2.2.2 (w2b V c t) p (hidRow V c n) (w2Rows V c) (gwRow V c n) ((t.val - 1) % 40) ih'
    (fun cc h => w2b_tile V c t ((t.val - 1) % 40 + 1) ej cc h)

theorem inv_B (c : Dev nD) (t : Fin cfg2.N) (h0 : ¬t.val % 40 = 0) (h1 : ¬t.val % 40 = 39) (o : Outs2 Ideal)
    (ih : Inv V c (t.val - 1) o) : Inv V c t.val (caseB2 V c t h0 h1 o) := by
  intro p n hn
  unfold caseB2
  dsimp only
  rw [R2P.sout2_B_8_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) o.2.1 o.2.2.1 o.2.2.2.1 o.2.2.2.2,
    R2P.sout2_B_9_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) o.2.1 o.2.2.1 o.2.2.2.1 o.2.2.2.2]
  exact rowInv_later V c t h0 o ih p n hn

theorem inv_C (c : Dev nD) (t : Fin cfg2.N) (h0 : ¬t.val % 40 = 0) (h1 : t.val % 40 = 39) (o : Outs2 Ideal)
    (ih : Inv V c (t.val - 1) o) : Inv V c t.val (caseC2 V c t h0 h1 o) := by
  intro p n hn
  unfold caseC2
  dsimp only
  rw [R2P.sout2_C_8_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) o.2.1 o.2.2.1 o.2.2.2.1 o.2.2.2.2,
    R2P.sout2_C_9_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) o.2.1 o.2.2.1 o.2.2.2.1 o.2.2.2.2]
  exact rowInv_later V c t h0 o ih p n hn

/-- THE INVARIANT, by induction on the point. -/
theorem inv2 (c : Dev nD) : ∀ (t : ℕ) (ht : t < cfg2.N), Inv V c t (outsAt2 V c t ht)
  | 0, ht => by
    have h1 : ¬(0 : ℕ) % 40 = 39 := by decide
    rw [outsAt2_A V c ⟨0, ht⟩ (Nat.zero_mod _) h1]
    exact inv_A V c ⟨0, ht⟩ (Nat.zero_mod _) h1
  | n + 1, ht => by
    have ih := inv2 c n (Nat.lt_of_succ_lt ht)
    by_cases h0 : (n + 1) % 40 = 0
    · have h1 : ¬(n + 1) % 40 = 39 := by omega
      rw [outsAt2_A V c ⟨n + 1, ht⟩ h0 h1]
      exact inv_A V c ⟨n + 1, ht⟩ h0 h1
    · by_cases h1 : (n + 1) % 40 = 39
      · rw [outsAt2_C V c ⟨n + 1, ht⟩ h0 h1]
        exact inv_C V c ⟨n + 1, ht⟩ h0 h1 _ ih
      · rw [outsAt2_B V c ⟨n + 1, ht⟩ h0 h1]
        exact inv_B V c ⟨n + 1, ht⟩ h0 h1 _ ih

/-! ## The output array -/

/-- The stored output block at a point of the last column tile, row by row: the gathered product less the log-sum-exp
    of the pair after all nine tiles. -/
theorem out_C (c : Dev nD) (t : Fin cfg2.N) (h0 : ¬t.val % 40 = 0) (h1 : t.val % 40 = 39) (p : Fin 1024) (n : Fin 2048)
    (hn : n.val = 1024 * (t.val / 40) + p.val) :
    ((outsAt2 V c t.val t.isLt).1 (ix2 p (0 : Fin 1)) : EReal)
      = Spec.dotT (hidRow V c n) (gwRow V c n)
          - ((Softmax.onl (ztile (hidRow V c n) (w2Rows V c)) 40).1
              + Ideal.log (Softmax.onl (ztile (hidRow V c n) (w2Rows V c)) 40).2) := by
  have ih := inv2 V c (t.val - 1) (Nat.lt_of_le_of_lt (Nat.sub_le _ _) t.isLt)
  have hR := rowInv_later V c t h0 _ ih p n hn
  rw [h1] at hR
  rw [outsAt2_C V c t h0 h1]
  unfold caseC2
  dsimp only
  rw [R2P.out2_C_4_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) _ _ _ _]
  exact out_of_rowInv _ _ _ _ p _ _ _ 39 hR

/-- What the output array holds where the region has written: row by row the cluster's output. -/
def G2 (c : Dev nD) : Vec Ideal S2048x1 .f32 :=
  fun idx => Spec.tailOut (hidRow V c ⟨(idx 0).val, idx2_lt0 idx⟩) (gwRow V c ⟨(idx 0).val, idx2_lt0 idx⟩) (w2Rows V c)

/-- On finite data, what a point of the last column tile writes back is its block of that function. -/
theorem flushed2_eq (c : Dev nD) (hx : ∀ idx, ∃ r : ℝ, (xarr V c idx : EReal) = r) (hw1 : ∀ idx, ∃ r : ℝ, (w1arr V c idx : EReal) = r)
    (hw2 : ∀ idx, ∃ r : ℝ, (w2arr V c idx : EReal) = r) (t : Fin cfg2.N) (hf : (cfg2.win 4).flush t = true) :
    (dat2 V c).flushed 4 t = ((cfg2.win 4).blk t).view.read (Elt Ideal) (G2 V c) := by
  have h1 : t.val % 40 = 39 := (flush2_4 t).mp hf
  have h0 : ¬t.val % 40 = 0 := by omega
  have hN : t.val < 80 := lt_of_lt_of_eq t.isLt (show cfg2.N = 80 from rfl)
  show (cfg2.win 4).cut (grid2.coords t) ((dat2 V c).after 4 t) = _
  rw [after2_4]
  funext y
  obtain ⟨p, u, rfl⟩ : ∃ (p : Fin 1024) (u : Fin 1), y = ix2 p u := ⟨y 0, y 1, eq_ix2 y⟩
  obtain rfl : u = 0 := Subsingleton.elim _ _
  rw [View.read_apply, oblk_emb t p 0 ⟨1024 * (t.val / 40) + p.val, by omega⟩ rfl]
  show ((outsAt2 V c t.val t.isLt).1 (ix2 p (0 : Fin 1)) : EReal) = G2 V c (ix2 (⟨1024 * (t.val / 40) + p.val, by omega⟩ : Fin 2048) (0 : Fin 1))
  rw [out_C V c t h0 h1 p ⟨1024 * (t.val / 40) + p.val, by omega⟩ rfl]
  exact tailOut_of_onl _ _ _ (fun h => dotT_real _ _ (fun d => hx _) (fun d => hw1 _)) (fun cc h => hw2 _)

/-- An index of the output array is in point `t`'s block iff each coordinate is in the block's range on its axis. -/
theorem mem_blk4 (t : Fin cfg2.N) (i : S2048x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v42).slice (win2_4.rect t)).set ↔ _
  rw [View.set_slice_whole, Rect.mem_set_unit]
  exact Iff.rfl

/-- Every row of the output array is in the block some point of the last column tile writes back. -/
theorem cover4 (i : S2048x1.Idx) : ∃ t : Fin cfg2.N, (cfg2.win 4).flush t = true ∧ i ∈ ((cfg2.win 4).blk t).view.set := by
  have hi0 : (i 0).val < 2048 := idx2_lt0 i
  have hi1 : (i 1).val < 1 := idx2_lt1 i
  refine ⟨⟨40 * ((i 0).val / 1024) + 39, lt_of_lt_of_eq (by omega) (show 80 = cfg2.N from rfl)⟩, (flush2_4 _).mpr (by show (40 * ((i 0).val / 1024) + 39) % 40 = 39; omega), ?_⟩
  rw [mem_blk4]
  obtain ⟨-, -, -, -, -, -, -, -, e0, e1⟩ := idx_facts2 ⟨40 * ((i 0).val / 1024) + 39, lt_of_lt_of_eq (by omega) (show 80 = cfg2.N from rfl)⟩
  intro a
  match a with
  | ⟨0, _⟩ =>
    show win2_4.index _ (0 : Fin 2) * 1024 ≤ (i 0).val ∧ (i 0).val < win2_4.index _ (0 : Fin 2) * 1024 + 1024
    rw [e0]; show (40 * ((i 0).val / 1024) + 39) / 40 * 1024 ≤ (i 0).val ∧ (i 0).val < (40 * ((i 0).val / 1024) + 39) / 40 * 1024 + 1024
    omega
  | ⟨1, _⟩ =>
    show win2_4.index _ (1 : Fin 2) * 1 ≤ (i 1).val ∧ (i 1).val < win2_4.index _ (1 : Fin 2) * 1 + 1
    rw [e1]; omega

/-- THE OUTPUT ARRAY after the region, on finite data: every sample's entry is the cluster's output. -/
theorem arr2_eq (c : Dev nD) (hx : ∀ idx, ∃ r : ℝ, (xarr V c idx : EReal) = r) (hw1 : ∀ idx, ∃ r : ℝ, (w1arr V c idx : EReal) = r)
    (hw2 : ∀ idx, ∃ r : ℝ, (w2arr V c idx : EReal) = r) (n : Fin 2048) :
    ((dat2 (F := Ideal) V c).arrAt 4 cfg2.N (ix2 n (0 : Fin 1)) : EReal)
      = Spec.tailOut (fun h : Fin 32 => Spec.dotT (fun d : Fin 512 => (xarr V c (ix2 n d) : EReal)) (fun d : Fin 512 => (w1arr V c (ix2 h d) : EReal)))
          (fun h : Fin 32 => (gwarr V c (ix2 n h) : EReal)) (fun (cc : Fin 40000) (h : Fin 32) => (w2arr V c (ix2 cc h) : EReal)) :=
  congrFun ((dat2 (F := Ideal) V c).arrAt_eq_of_cover 4 (G2 V c) (fun t hf => flushed2_eq V c hx hw1 hw2 t hf) cover4) (ix2 n (0 : Fin 1))

end Region

end Cert.Proof.Val.R2

end
-- ==== Proof.Val.R3Pieces.lean ====
import proofs.«416376_j65790309040722_2_alg».proof.Proof.KI.R3
import Idealize.ShloMosaic.Lib.Pipeline.Value

/-!
# Region 1 (tail cluster 0): each piece the body's runs leave is its payload

What a control case leaves in a scratch buffer or in the output's buffer is a list of whole-buffer stores read back.
The last store through the whole buffer leaves its payload whatever came before it; a load through the whole buffer of
what one whole store left reads that store's payload; a load of a buffer nothing has stored into reads what it held.
So each buffer's contents after a case is ONE payload of the kernel, over the input blocks and the carried scratch —
at any float type.
-/

set_option maxRecDepth 16384

noncomputable section

namespace Cert.Proof.Val.R3P

open Idealize.ShloMosaic Idealize.ShloMosaic.Tactic Idealize.SL.Sem
open Cert.KernelIdeal Cert.KernelIdeal.Gen Cert.KernelIdeal.Hand

variable {F : FTy → Type} [FloatOps F]

/-- The zero offsets of a rank-2 whole-buffer access, however spelt. -/
theorem hz2 : (![0, 0] : Fin 2 → ℕ) = fun _ => 0 := by funext a; fin_cases a <;> rfl

/-- At the first column tile the hidden layer's scratch is stored once, whole: it holds the hidden layer of the row tile's block and the first weights. -/
theorem sout3_A_7_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) :
    sout3_A_7 c i arg2 harg2 arg3 harg3 arg4 harg4 arg5 harg5 arg6 harg6 arg7 harg7 arg8 harg8 arg9 harg9 arg10 harg10 hc0 hc1 x0 x1 x2 x3 = k3_pay4 x1 x0 := by
  unfold sout3_A_7
  rw [View.read_writes_eq_canon _ _ _ (scover3_A_7 c i arg2 harg2 arg3 harg3 arg4 harg4 arg5 harg5 arg6 harg6 arg7 harg7 arg8 harg8 arg9 harg9 arg10 harg10 hc0 hc1 x0 x1 x2 x3)]
  unfold kernelRun3_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At the first column tile the running maximum is reset and then updated, both whole stores: the update, which is last, is what stays — taken over the hidden layer just stored and the maximum just reset. -/
theorem sout3_A_8_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) :
    sout3_A_8 c i arg2 harg2 arg3 harg3 arg4 harg4 arg5 harg5 arg6 harg6 arg7 harg7 arg8 harg8 arg9 harg9 arg10 harg10 hc0 hc1 x0 x1 x2 x3 = k3_pay9 (k3_pay4 x1 x0) x2 k3_pay1 := by
  unfold sout3_A_8
  rw [View.read_writes_eq_canon _ _ _ (scover3_A_8 c i arg2 harg2 arg3 harg3 arg4 harg4 arg5 harg5 arg6 harg6 arg7 harg7 arg8 harg8 arg9 harg9 arg10 harg10 hc0 hc1 x0 x1 x2 x3)]
  unfold kernelRun3_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At the first column tile the running sum is reset and then updated, both whole stores: the update stays — taken over the hidden layer just stored, the maximum just reset (read twice) and the sum just reset. -/
theorem sout3_A_9_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) :
    sout3_A_9 c i arg2 harg2 arg3 harg3 arg4 harg4 arg5 harg5 arg6 harg6 arg7 harg7 arg8 harg8 arg9 harg9 arg10 harg10 hc0 hc1 x0 x1 x2 x3 = k3_pay8 (k3_pay4 x1 x0) x2 k3_pay1 k3_pay1 k3_pay2 := by
  unfold sout3_A_9
  rw [View.read_writes_eq_canon _ _ _ (scover3_A_9 c i arg2 harg2 arg3 harg3 arg4 harg4 arg5 harg5 arg6 harg6 arg7 harg7 arg8 harg8 arg9 harg9 arg10 harg10 hc0 hc1 x0 x1 x2 x3)]
  unfold kernelRun3_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At the first column tile the target's logit is stored once, whole: the row-wise product of the hidden layer with the gathered second weights. -/
theorem sout3_A_10_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond3_0 i) (hc1 : ¬cond3_1 i)
    (x0 : Vec F S1024x512 .bf16) (x1 : Vec F S8x512 .f32) (x2 : Vec F S1000x8 .f32) (x3 : Vec F S1024x8 .f32) :
    sout3_A_10 c i arg2 harg2 arg3 harg3 arg4 harg4 arg5 harg5 arg6 harg6 arg7 harg7 arg8 harg8 arg9 harg9 arg10 harg10 hc0 hc1 x0 x1 x2 x3 = k3_pay5 x1 x0 x3 := by
  unfold sout3_A_10
  rw [View.read_writes_eq_canon _ _ _ (scover3_A_10 c i arg2 harg2 arg3 harg3 arg4 harg4 arg5 harg5 arg6 harg6 arg7 harg7 arg8 harg8 arg9 harg9 arg10 harg10 hc0 hc1 x0 x1 x2 x3)]
  unfold kernelRun3_A
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At an inner column tile the running maximum is stored once, whole: the update over the carried hidden layer, the tile's weights and the carried maximum. -/
theorem sout3_B_8_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    sout3_B_8 c i arg2 harg2 arg3 harg3 arg4 harg4 arg5 harg5 arg6 harg6 arg7 harg7 arg8 harg8 arg9 harg9 arg10 harg10 hc0 hc1 x0 x1 x2 x3 xs7 xs8 xs9 xs10 = k3_pay9 xs7 x2 xs8 := by
  unfold sout3_B_8
  rw [View.read_writes_eq_canon _ _ _ (scover3_B_8 c i arg2 harg2 arg3 harg3 arg4 harg4 arg5 harg5 arg6 harg6 arg7 harg7 arg8 harg8 arg9 harg9 arg10 harg10 hc0 hc1 x0 x1 x2 x3 xs7 xs8 xs9 xs10)]
  unfold kernelRun3_B
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At an inner column tile the running sum is stored once, whole: the update over the carried hidden layer, the tile's weights, the carried maximum (read twice) and the carried sum. -/
theorem sout3_B_9_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : ¬cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    sout3_B_9 c i arg2 harg2 arg3 harg3 arg4 harg4 arg5 harg5 arg6 harg6 arg7 harg7 arg8 harg8 arg9 harg9 arg10 harg10 hc0 hc1 x0 x1 x2 x3 xs7 xs8 xs9 xs10 = k3_pay8 xs7 x2 xs8 xs8 xs9 := by
  unfold sout3_B_9
  rw [View.read_writes_eq_canon _ _ _ (scover3_B_9 c i arg2 harg2 arg3 harg3 arg4 harg4 arg5 harg5 arg6 harg6 arg7 harg7 arg8 harg8 arg9 harg9 arg10 harg10 hc0 hc1 x0 x1 x2 x3 xs7 xs8 xs9 xs10)]
  unfold kernelRun3_B
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At the last column tile the running maximum is stored once, whole, as at an inner tile. -/
theorem sout3_C_8_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    sout3_C_8 c i arg2 harg2 arg3 harg3 arg4 harg4 arg5 harg5 arg6 harg6 arg7 harg7 arg8 harg8 arg9 harg9 arg10 harg10 hc0 hc1 x0 x1 x2 x3 xs7 xs8 xs9 xs10 = k3_pay9 xs7 x2 xs8 := by
  unfold sout3_C_8
  rw [View.read_writes_eq_canon _ _ _ (scover3_C_8 c i arg2 harg2 arg3 harg3 arg4 harg4 arg5 harg5 arg6 harg6 arg7 harg7 arg8 harg8 arg9 harg9 arg10 harg10 hc0 hc1 x0 x1 x2 x3 xs7 xs8 xs9 xs10)]
  unfold kernelRun3_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At the last column tile the running sum is stored once, whole, as at an inner tile. -/
theorem sout3_C_9_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    sout3_C_9 c i arg2 harg2 arg3 harg3 arg4 harg4 arg5 harg5 arg6 harg6 arg7 harg7 arg8 harg8 arg9 harg9 arg10 harg10 hc0 hc1 x0 x1 x2 x3 xs7 xs8 xs9 xs10 = k3_pay8 xs7 x2 xs8 xs8 xs9 := by
  unfold sout3_C_9
  rw [View.read_writes_eq_canon _ _ _ (scover3_C_9 c i arg2 harg2 arg3 harg3 arg4 harg4 arg5 harg5 arg6 harg6 arg7 harg7 arg8 harg8 arg9 harg9 arg10 harg10 hc0 hc1 x0 x1 x2 x3 xs7 xs8 xs9 xs10)]
  unfold kernelRun3_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

/-- At the last column tile the output block is stored once, whole: the target's logit less the maximum and the logarithm of the sum, both as this tile's updates just left them. -/
theorem out3_C_4_eq (c : Dev nD) (i : grid3.Coords) (arg2 : Memref sig .tc .vmem S1024x512 .bf16) (harg2 : arg2.IsWhole) (arg3 : Memref sig .tc .vmem S8x512 .f32) (harg3 : arg3.IsWhole) (arg4 : Memref sig .tc .vmem S1000x8 .f32) (harg4 : arg4.IsWhole) (arg5 : Memref sig .tc .vmem S1024x8 .f32) (harg5 : arg5.IsWhole) (arg6 : Memref sig .tc .vmem S1024x1 .f32) (harg6 : arg6.IsWhole) (arg7 : Memref sig .tc .vmem S1024x8 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond3_0 i) (hc1 : cond3_1 i)
    (x0 : Vec F S1024x512 .bf16) (x1 : Vec F S8x512 .f32) (x2 : Vec F S1000x8 .f32) (x3 : Vec F S1024x8 .f32) (xs7 : Vec F S1024x8 .bf16) (xs8 : Vec F S1024x1 .f32) (xs9 : Vec F S1024x1 .f32) (xs10 : Vec F S1024x1 .f32) :
    out3_C_4 c i arg2 harg2 arg3 harg3 arg4 harg4 arg5 harg5 arg6 harg6 arg7 harg7 arg8 harg8 arg9 harg9 arg10 harg10 hc0 hc1 x0 x1 x2 x3 xs7 xs8 xs9 xs10 = k3_pay10 (k3_pay9 xs7 x2 xs8) (k3_pay8 xs7 x2 xs8 xs8 xs9) xs10 := by
  unfold out3_C_4
  rw [View.read_writes_eq_canon _ _ _ (cover3_C_4 c i arg2 harg2 arg3 harg3 arg4 harg4 arg5 harg5 arg6 harg6 arg7 harg7 arg8 harg8 arg9 harg9 arg10 harg10 hc0 hc1 x0 x1 x2 x3 xs7 xs8 xs9 xs10)]
  unfold kernelRun3_C
  dsimp only
  sl_unfold_words
  rw [View.canon_cons_unit_zero hz2]
  simp only [View.readAt_eq_ld, harg2.read_unread, harg3.read_unread, harg4.read_unread, harg5.read_unread, harg7.read_unread,
    harg8.read_unread, harg9.read_unread, harg10.read_unread,
    View.ld_unit_zero (S := S1024x512) hz2, View.ld_unit_zero (S := S8x512) hz2, View.ld_unit_zero (S := S1000x8) hz2,
    View.ld_unit_zero (S := S1024x8) hz2, View.ld_unit_zero (S := S1024x1) hz2,
    View.readCov_unit_zero (S := S1024x8) _ hz2, View.readCov_unit_zero (S := S1024x1) _ hz2]

end Cert.Proof.Val.R3P

end
-- ==== Proof.Val.R3Val.lean ====
import proofs.«416376_j65790309040722_2_alg».proof.Proof.KI.R3
import proofs.«416376_j65790309040722_2_alg».proof.Proof.Val.R3Pieces
import proofs.«416376_j65790309040722_2_alg».proof.Proof.Gen.KernelIdeal.Skeleton
import proofs.«416376_j65790309040722_2_alg».proof.Proof.Val.Spec
import proofs.«416376_j65790309040722_2_alg».proof.Proof.Val.Softmax
import Idealize.ShloMosaic.Lib.Pipeline.Value
import Idealize.ShloMosaic.Lib.ValueIdx
import Idealize.ShloMosaic.Lib.ValueLayout
import Idealize.ShloMosaic.PureOps.Ideal.Laws

/-!
# Region 1 (tail cluster 0): the values

Each payload of the cluster's kernel read at an index at the ideal values, in terms of the products, maxima, sums,
exponentials and logarithm of `Spec`; the running maximum and rescaled running sum of a row along its row tile's
column tiles as the tile-by-tile recursion of `Softmax`; and, on finite data, the output array as the cluster's
output of `Spec`, sample by sample.
-/

set_option maxRecDepth 16384

noncomputable section

namespace Cert.Proof.Val.R3

open Idealize.ShloMosaic Idealize.ShloMosaic.TcCoe Idealize.SL.Sem Idealize.ShloMosaic.ValueIdx
open Cert.KernelIdeal Cert.KernelIdeal.Gen Cert.KernelIdeal.Hand
open scoped BigOperators

/-! ## Two keepdims layout forms -/

/-- A vector `[a]` cast to the column `[a, 1]` reads, at `(i, u)`, the operand at `i`. -/
theorem shapeCast_a_a3_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a3_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of `-∞` is the bottom of the extended reals. -/
theorem ofBits_neg_inf_f32 : Ideal.ofBits .f32 0xFF800000#32 = (⊥ : EReal) := by
  simp [Ideal.ofBits, Ideal.ieee]

/-! ## The two resets -/

/-- The running maximum is reset to `-∞`. -/
theorem pay01_apply (p : Fin 1024) : (k3_pay1 (F := Ideal)) (ix2 p (0 : Fin 1)) = (⊥ : EReal) := by
  unfold k3_pay1
  rw [shapeCast_self]
  exact ofBits_neg_inf_f32

/-- The running sum is reset to `0`. -/
theorem pay02_apply (p : Fin 1024) : (k3_pay2 (F := Ideal)) (ix2 p (0 : Fin 1)) = (0 : EReal) := by
  unfold k3_pay2
  rw [shapeCast_self]
  exact Ideal.ofBits_zero_f32

/-! ## The two products -/

theorem lhs_hid_0 (i : S1024x8.Idx) (q : dot_S1024x512_S8x512_S1024x8_1_1_0_0_n_n.contr.Idx) :
    (dot_S1024x512_S8x512_S1024x8_1_1_0_0_n_n.lhsIdx i q 0).val = (i 0).val := by
  unfold DotDims.lhsIdx
  rw [dif_neg (show ¬(0 : Fin S1024x512.rank) ∈ dot_S1024x512_S8x512_S1024x8_1_1_0_0_n_n.lhsBatch by decide), dif_pos (show (0 : Fin S1024x512.rank) ∈ dot_S1024x512_S8x512_S1024x8_1_1_0_0_n_n.lhsNonContracting by decide)]
  rfl
theorem lhs_hid_1 (i : S1024x8.Idx) (q : dot_S1024x512_S8x512_S1024x8_1_1_0_0_n_n.contr.Idx) :
    (dot_S1024x512_S8x512_S1024x8_1_1_0_0_n_n.lhsIdx i q 1).val = (q ⟨0, by decide⟩).val :=
  dot_S1024x512_S8x512_S1024x8_1_1_0_0_n_n.lhsIdx_val_of_single rfl i q
theorem rhs_hid_0 (i : S1024x8.Idx) (q : dot_S1024x512_S8x512_S1024x8_1_1_0_0_n_n.contr.Idx) :
    (dot_S1024x512_S8x512_S1024x8_1_1_0_0_n_n.rhsIdx i q 0).val = (i 1).val := by
  unfold DotDims.rhsIdx
  rw [dif_neg (show ¬(0 : Fin S8x512.rank) ∈ dot_S1024x512_S8x512_S1024x8_1_1_0_0_n_n.rhsBatch by decide), dif_pos (show (0 : Fin S8x512.rank) ∈ dot_S1024x512_S8x512_S1024x8_1_1_0_0_n_n.rhsNonContracting by decide)]
  rfl
theorem rhs_hid_1 (i : S1024x8.Idx) (q : dot_S1024x512_S8x512_S1024x8_1_1_0_0_n_n.contr.Idx) :
    (dot_S1024x512_S8x512_S1024x8_1_1_0_0_n_n.rhsIdx i q 1).val = (q ⟨0, by decide⟩).val :=
  dot_S1024x512_S8x512_S1024x8_1_1_0_0_n_n.rhsIdx_val_of_single rfl i q

/-- The hidden activation before rounding: entry `(p, h)` of `x · w1ᵀ` is the product of row `p` of the `x` block
    with row `h` of `w1`. -/
theorem pay03_apply (v39 : Vec Ideal S8x512 .f32) (v41 : Vec Ideal S1024x512 .bf16) (p : Fin 1024) (h : Fin 8) :
    k3_pay3 (F := Ideal) v39 v41 (ix2 p h)
      = Spec.dotT (fun d : Fin 512 => (v41 (ix2 p d) : EReal)) (fun d : Fin 512 => (v39 (ix2 h d) : EReal)) := by
  unfold k3_pay3 Spec.dotT
  rw [shapeCast_self]
  refine (Ideal.matmul_constant_zero_apply dot_S1024x512_S8x512_S1024x8_1_1_0_0_n_n none v41 (truncf .bf16 v39 bitsLt_bf16_f32) (ix2 p h)).trans ?_
  rw [← Equiv.sum_comp (ValueIdx.contrEquiv1 dot_S1024x512_S8x512_S1024x8_1_1_0_0_n_n 512 rfl rfl).symm]
  refine Finset.sum_congr rfl fun k _ => ?_
  have hk := ValueIdx.contrEquiv1_symm_val dot_S1024x512_S8x512_S1024x8_1_1_0_0_n_n 512 rfl rfl k
  have el : dot_S1024x512_S8x512_S1024x8_1_1_0_0_n_n.lhsIdx (ix2 p h) ((ValueIdx.contrEquiv1 dot_S1024x512_S8x512_S1024x8_1_1_0_0_n_n 512 rfl rfl).symm k) = ix2 p k := funext fun a => Fin.ext (by
    match a with
    | ⟨0, _⟩ => exact lhs_hid_0 _ _
    | ⟨1, _⟩ => exact (lhs_hid_1 _ _).trans hk)
  have er : dot_S1024x512_S8x512_S1024x8_1_1_0_0_n_n.rhsIdx (ix2 p h) ((ValueIdx.contrEquiv1 dot_S1024x512_S8x512_S1024x8_1_1_0_0_n_n 512 rfl rfl).symm k) = ix2 h k := funext fun a => Fin.ext (by
    match a with
    | ⟨0, _⟩ => exact rhs_hid_0 _ _
    | ⟨1, _⟩ => exact (rhs_hid_1 _ _).trans hk)
  rw [el, er]
  rfl

/-- The hidden activation as it is stored (the change of format is the identity on the extended reals). -/
theorem pay04_apply (v39 : Vec Ideal S8x512 .f32) (v41 : Vec Ideal S1024x512 .bf16) (p : Fin 1024) (h : Fin 8) :
    k3_pay4 (F := Ideal) v39 v41 (ix2 p h)
      = Spec.dotT (fun d : Fin 512 => (v41 (ix2 p d) : EReal)) (fun d : Fin 512 => (v39 (ix2 h d) : EReal)) := by
  unfold k3_pay4
  rw [shapeCast_self]
  exact pay03_apply v39 v41 p h

theorem lhs_logit_0 (i : S1024x1000.Idx) (q : dot_S1024x8_S1000x8_S1024x1000_1_1_0_0_n_n.contr.Idx) :
    (dot_S1024x8_S1000x8_S1024x1000_1_1_0_0_n_n.lhsIdx i q 0).val = (i 0).val := by
  unfold DotDims.lhsIdx
  rw [dif_neg (show ¬(0 : Fin S1024x8.rank) ∈ dot_S1024x8_S1000x8_S1024x1000_1_1_0_0_n_n.lhsBatch by decide), dif_pos (show (0 : Fin S1024x8.rank) ∈ dot_S1024x8_S1000x8_S1024x1000_1_1_0_0_n_n.lhsNonContracting by decide)]
  rfl
theorem lhs_logit_1 (i : S1024x1000.Idx) (q : dot_S1024x8_S1000x8_S1024x1000_1_1_0_0_n_n.contr.Idx) :
    (dot_S1024x8_S1000x8_S1024x1000_1_1_0_0_n_n.lhsIdx i q 1).val = (q ⟨0, by decide⟩).val :=
  dot_S1024x8_S1000x8_S1024x1000_1_1_0_0_n_n.lhsIdx_val_of_single rfl i q
theorem rhs_logit_0 (i : S1024x1000.Idx) (q : dot_S1024x8_S1000x8_S1024x1000_1_1_0_0_n_n.contr.Idx) :
    (dot_S1024x8_S1000x8_S1024x1000_1_1_0_0_n_n.rhsIdx i q 0).val = (i 1).val := by
  unfold DotDims.rhsIdx
  rw [dif_neg (show ¬(0 : Fin S1000x8.rank) ∈ dot_S1024x8_S1000x8_S1024x1000_1_1_0_0_n_n.rhsBatch by decide), dif_pos (show (0 : Fin S1000x8.rank) ∈ dot_S1024x8_S1000x8_S1024x1000_1_1_0_0_n_n.rhsNonContracting by decide)]
  rfl
theorem rhs_logit_1 (i : S1024x1000.Idx) (q : dot_S1024x8_S1000x8_S1024x1000_1_1_0_0_n_n.contr.Idx) :
    (dot_S1024x8_S1000x8_S1024x1000_1_1_0_0_n_n.rhsIdx i q 1).val = (q ⟨0, by decide⟩).val :=
  dot_S1024x8_S1000x8_S1024x1000_1_1_0_0_n_n.rhsIdx_val_of_single rfl i q

/-- The logits of a tile: entry `(p, cc)` of `hidden · w2ᵀ` is the product of row `p` of the hidden block with row
    `cc` of the tile of `w2`. -/
theorem pay06_apply (v3 : Vec Ideal S1024x8 .bf16) (v4 : Vec Ideal S1000x8 .f32) (p : Fin 1024) (cc : Fin 1000) :
    k3_pay6 (F := Ideal) v3 v4 (ix2 p cc)
      = Spec.dotT (fun h : Fin 8 => (v3 (ix2 p h) : EReal)) (fun h : Fin 8 => (v4 (ix2 cc h) : EReal)) := by
  unfold k3_pay6 Spec.dotT
  refine (Ideal.matmul_constant_zero_apply dot_S1024x8_S1000x8_S1024x1000_1_1_0_0_n_n none v3 (truncf .bf16 v4 bitsLt_bf16_f32) (ix2 p cc)).trans ?_
  rw [← Equiv.sum_comp (ValueIdx.contrEquiv1 dot_S1024x8_S1000x8_S1024x1000_1_1_0_0_n_n 8 rfl rfl).symm]
  refine Finset.sum_congr rfl fun k _ => ?_
  have hk := ValueIdx.contrEquiv1_symm_val dot_S1024x8_S1000x8_S1024x1000_1_1_0_0_n_n 8 rfl rfl k
  have el : dot_S1024x8_S1000x8_S1024x1000_1_1_0_0_n_n.lhsIdx (ix2 p cc) ((ValueIdx.contrEquiv1 dot_S1024x8_S1000x8_S1024x1000_1_1_0_0_n_n 8 rfl rfl).symm k) = ix2 p k := funext fun a => Fin.ext (by
    match a with
    | ⟨0, _⟩ => exact lhs_logit_0 _ _
    | ⟨1, _⟩ => exact (lhs_logit_1 _ _).trans hk)
  have er : dot_S1024x8_S1000x8_S1024x1000_1_1_0_0_n_n.rhsIdx (ix2 p cc) ((ValueIdx.contrEquiv1 dot_S1024x8_S1000x8_S1024x1000_1_1_0_0_n_n 8 rfl rfl).symm k) = ix2 cc k := funext fun a => Fin.ext (by
    match a with
    | ⟨0, _⟩ => exact rhs_logit_0 _ _
    | ⟨1, _⟩ => exact (rhs_logit_1 _ _).trans hk)
  rw [el, er]
  rfl

/-! ## A row's reductions -/

/-- The index a reduction along the columns inserts: the row's index with the column put back. -/
theorem lift_row {a b : ℕ} (hr : (⟨2, ![a, b]⟩ : Shape).Reduces [1] ⟨1, ![a]⟩) (p : Fin a) (k : Fin b) :
    hr.lift (ix1 p) k = ix2 p k :=
  funext fun c => Fin.ext (by
    match c with
    | ⟨0, _⟩ => rfl
    | ⟨1, _⟩ => rfl)

/-- A sum along the columns, kept as a column, read at a row. -/
theorem rowSum_apply {a b : ℕ} (src : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hφ : FKind.Formats .f32)
    (hacc : (0x00000000#32 : BitVec 32) = FKind.add.neutral .f32 hφ) (p : Fin a) :
    shapeCast ⟨2, ![a, 1]⟩ (multiReduction .add [1] ⟨1, ![a]⟩ src 0x00000000#32 hr hφ hacc) hc (ix2 p (0 : Fin 1))
      = ∑ k : Fin b, src (ix2 p k) := by
  refine (shapeCast_a_a3_apply _ hc p 0).trans ?_
  refine (Ideal.multiReduction_add_single src 0x00000000#32 hr hφ hacc (ix1 p)).trans ?_
  exact Finset.sum_congr rfl fun k _ => congrArg src (lift_row hr p k)

/-- A maximum along the columns, kept as a column, read at a row. -/
theorem rowMax_apply {a b : ℕ} (src : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hφ : FKind.Formats .f32)
    (hacc : (0xFF800000#32 : BitVec 32) = FKind.maximumf.neutral .f32 hφ) (p : Fin a) :
    shapeCast ⟨2, ![a, 1]⟩ (multiReduction .maximumf [1] ⟨1, ![a]⟩ src 0xFF800000#32 hr hφ hacc) hc (ix2 p (0 : Fin 1))
      = (Finset.univ : Finset (Fin b)).fold max (⊥ : EReal) (fun k => src (ix2 p k)) := by
  refine (shapeCast_a_a3_apply _ hc p 0).trans ?_
  refine (Ideal.multiReduction_maximumf_single src 0xFF800000#32 hr hφ hacc (ix1 p)).trans ?_
  have e : (src ∘ hr.lift (ix1 p)) = fun k : Fin b => src (ix2 p k) := funext fun k => congrArg src (lift_row hr p k)
  rw [e]
  exact congrArg (fun z => (Finset.univ : Finset (Fin b)).fold max z (fun k => src (ix2 p k))) ofBits_neg_inf_f32

/-- The product of the hidden row with the gathered row of `w2`. -/
theorem pay05_apply (v39 : Vec Ideal S8x512 .f32) (v41 : Vec Ideal S1024x512 .bf16) (v48 : Vec Ideal S1024x8 .f32) (p : Fin 1024) :
    k3_pay5 (F := Ideal) v39 v41 v48 (ix2 p (0 : Fin 1))
      = Spec.dotT (fun h : Fin 8 => k3_pay4 (F := Ideal) v39 v41 (ix2 p h)) (fun h : Fin 8 => (v48 (ix2 p h) : EReal)) := by
  unfold k3_pay5 Spec.dotT
  rw [shapeCast_self, shapeCast_self]
  refine (rowSum_apply _ reduces_S1024x8_S1024 shapeCasts_S1024_S1024x1 (.inl rfl) rfl p).trans ?_
  refine Finset.sum_congr rfl fun h _ => ?_
  unfold k3_pay4
  rw [shapeCast_self]
  rfl

/-- The logits of row `p` against a tile of `w2`. -/
def logit (v3 : Vec Ideal S1024x8 .bf16) (v4 : Vec Ideal S1000x8 .f32) (p : Fin 1024) : Fin 1000 → EReal :=
  fun cc => Spec.dotT (fun h : Fin 8 => (v3 (ix2 p h) : EReal)) (fun h : Fin 8 => (v4 (ix2 cc h) : EReal))

/-- The new running maximum: the old one against the tile's row maximum. -/
theorem pay07_apply (v3 : Vec Ideal S1024x8 .bf16) (v4 : Vec Ideal S1000x8 .f32) (v9 : Vec Ideal S1024x1 .f32) (p : Fin 1024) :
    k3_pay7 (F := Ideal) v3 v4 v9 (ix2 p (0 : Fin 1))
      = max (v9 (ix2 p (0 : Fin 1)) : EReal) ((Finset.univ : Finset (Fin 1000)).fold max (⊥ : EReal) (logit v3 v4 p)) := by
  unfold k3_pay7
  refine (maximumf_apply _ _ _).trans ?_
  refine congrArg (max (v9 (ix2 p (0 : Fin 1)) : EReal)) ?_
  refine (rowMax_apply _ reduces_S1024x1000_S1024 shapeCasts_S1024_S1024x1 (.inl rfl) rfl p).trans ?_
  exact congrArg (fun f => (Finset.univ : Finset (Fin 1000)).fold max (⊥ : EReal) f) (funext fun cc => pay06_apply v3 v4 p cc)

/-- The stored running maximum is the new one. -/
theorem pay09_apply (v3 : Vec Ideal S1024x8 .bf16) (v4 : Vec Ideal S1000x8 .f32) (v9 : Vec Ideal S1024x1 .f32) (p : Fin 1024) :
    k3_pay9 (F := Ideal) v3 v4 v9 (ix2 p (0 : Fin 1))
      = max (v9 (ix2 p (0 : Fin 1)) : EReal) ((Finset.univ : Finset (Fin 1000)).fold max (⊥ : EReal) (logit v3 v4 p)) := by
  unfold k3_pay9
  rw [shapeCast_self]
  exact pay07_apply v3 v4 v9 p

/-- The new running sum: the old one rescaled to the new maximum, plus the tile's shifted exponential sum. -/
theorem pay08_apply (v3 : Vec Ideal S1024x8 .bf16) (v4 : Vec Ideal S1000x8 .f32) (v9 v11 v17 : Vec Ideal S1024x1 .f32) (p : Fin 1024) :
    k3_pay8 (F := Ideal) v3 v4 v9 v11 v17 (ix2 p (0 : Fin 1))
      = Ideal.exp ((v11 (ix2 p (0 : Fin 1)) : EReal)
            - max (v9 (ix2 p (0 : Fin 1)) : EReal) ((Finset.univ : Finset (Fin 1000)).fold max (⊥ : EReal) (logit v3 v4 p)))
          * (v17 (ix2 p (0 : Fin 1)) : EReal)
        + ∑ cc : Fin 1000, Ideal.exp (logit v3 v4 p cc
            - max (v9 (ix2 p (0 : Fin 1)) : EReal) ((Finset.univ : Finset (Fin 1000)).fold max (⊥ : EReal) (logit v3 v4 p))) := by
  unfold k3_pay8
  rw [shapeCast_self]
  refine (addf_apply _ _ _).trans ?_
  refine congrArg₂ (· + ·) ?_ ?_
  · show Ideal.exp ((v11 (ix2 p (0 : Fin 1)) : EReal) - k3_pay7 (F := Ideal) v3 v4 v9 (ix2 p (0 : Fin 1))) * (v17 (ix2 p (0 : Fin 1)) : EReal) = _
    rw [pay07_apply]
  · refine (rowSum_apply _ reduces_S1024x1000_S1024 shapeCasts_S1024_S1024x1 (.inl rfl) rfl p).trans ?_
    refine Finset.sum_congr rfl fun cc _ => ?_
    show Ideal.exp (k3_pay6 (F := Ideal) v3 v4 (ix2 p cc)
        - broadcastTo S1024x1000 (k3_pay7 (F := Ideal) v3 v4 v9) broadcasts_S1024x1_S1024x1000 (ix2 p cc)) = _
    rw [broadcastTo_a3_ab_apply, pay07_apply, pay06_apply]
    rfl

/-- The output: the gathered product less the log-sum-exp `m + log l`. -/
theorem pay10_apply (v31 v32 v35 : Vec Ideal S1024x1 .f32) (p : Fin 1024) :
    k3_pay10 (F := Ideal) v31 v32 v35 (ix2 p (0 : Fin 1))
      = (v35 (ix2 p (0 : Fin 1)) : EReal) - ((v31 (ix2 p (0 : Fin 1)) : EReal) + Ideal.log (v32 (ix2 p (0 : Fin 1)) : EReal)) := rfl

/-! ## The running pair, one tile at a time -/

/-- The logits of a row against a tile, from what the hidden row and the tile's rows are. -/
theorem logit_congr (v3 : Vec Ideal S1024x8 .bf16) (v4 : Vec Ideal S1000x8 .f32) (p : Fin 1024)
    (a : Fin 8 → EReal) (b : Fin 1000 → Fin 8 → EReal)
    (h3 : ∀ h : Fin 8, (v3 (ix2 p h) : EReal) = a h) (h4 : ∀ (cc : Fin 1000) (h : Fin 8), (v4 (ix2 cc h) : EReal) = b cc h) :
    logit v3 v4 p = fun cc => Spec.dotT a (b cc) := by
  funext cc
  unfold logit
  rw [show (fun h : Fin 8 => (v3 (ix2 p h) : EReal)) = a from funext h3,
    show (fun h : Fin 8 => (v4 (ix2 cc h) : EReal)) = b cc from funext (h4 cc)]

/-- The first tile of a row tile: from the reset values the pair is the recursion's after one tile. -/
theorem step_first (v3 : Vec Ideal S1024x8 .bf16) (v4 : Vec Ideal S1000x8 .f32) (p : Fin 1024)
    (z : ℕ → Fin 1000 → EReal) (hz : z 0 = logit v3 v4 p) :
    k3_pay9 (F := Ideal) v3 v4 (k3_pay1 (F := Ideal)) (ix2 p (0 : Fin 1)) = (Softmax.onl z 1).1
      ∧ k3_pay8 (F := Ideal) v3 v4 (k3_pay1 (F := Ideal)) (k3_pay1 (F := Ideal)) (k3_pay2 (F := Ideal)) (ix2 p (0 : Fin 1))
          = (Softmax.onl z 1).2 := by
  rw [pay09_apply, pay08_apply, pay01_apply, pay02_apply, Softmax.onl_succ, Softmax.onl_zero, hz]
  exact ⟨rfl, rfl⟩

/-- A later tile: from the pair after `j` tiles, the pair after `j + 1`. -/
theorem step_next (v3 : Vec Ideal S1024x8 .bf16) (v4 : Vec Ideal S1000x8 .f32) (v9 v17 : Vec Ideal S1024x1 .f32) (p : Fin 1024)
    (z : ℕ → Fin 1000 → EReal) (j : ℕ) (hz : z j = logit v3 v4 p)
    (hm : (v9 (ix2 p (0 : Fin 1)) : EReal) = (Softmax.onl z j).1) (hl : (v17 (ix2 p (0 : Fin 1)) : EReal) = (Softmax.onl z j).2) :
    k3_pay9 (F := Ideal) v3 v4 v9 (ix2 p (0 : Fin 1)) = (Softmax.onl z (j + 1)).1
      ∧ k3_pay8 (F := Ideal) v3 v4 v9 v9 v17 (ix2 p (0 : Fin 1)) = (Softmax.onl z (j + 1)).2 := by
  rw [pay09_apply, pay08_apply, hm, hl, Softmax.onl_succ, hz]
  exact ⟨rfl, rfl⟩

/-! ## Finite data: the recursion over all the tiles is the one-shot log-sum-exp -/

/-- A product of two real vectors is the real product. -/
theorem dotT_coe {K : ℕ} (a b : Fin K → ℝ) :
    Spec.dotT (fun k => (a k : EReal)) (fun k => (b k : EReal)) = ((∑ k, a k * b k : ℝ) : EReal) := by
  unfold Spec.dotT
  rw [Softmax.coe_finset_sum]
  exact Finset.sum_congr rfl fun k _ => (EReal.coe_mul _ _).symm

/-- So a product of two vectors of finite entries is finite. -/
theorem dotT_real {K : ℕ} (a b : Fin K → EReal) (ha : ∀ k, ∃ r : ℝ, a k = r) (hb : ∀ k, ∃ r : ℝ, b k = r) :
    ∃ r : ℝ, Spec.dotT a b = r := by
  choose ra hra using ha
  choose rb hrb using hb
  refine ⟨∑ k, ra k * rb k, ?_⟩
  rw [show a = fun k => (ra k : EReal) from funext hra, show b = fun k => (rb k : EReal) from funext hrb]
  exact dotT_coe ra rb

/-- The cluster's logits of a hidden row, tile by tile: tile `j`, column `cc` is column `j * 1000 + cc` of the cluster. -/
def ztile (hd : Fin 8 → EReal) (W2 : Fin 50000 → Fin 8 → EReal) (j : ℕ) (cc : Fin 1000) : EReal :=
  Spec.dotT hd (W2 ⟨(j * 1000 + cc.val) % 50000, Nat.mod_lt _ (by norm_num)⟩)

/-- On finite data the gathered product less the log-sum-exp of the pair after all nine tiles is the cluster's output. -/
theorem tailOut_of_onl (hd gw : Fin 8 → EReal) (W2 : Fin 50000 → Fin 8 → EReal)
    (hhd : ∀ h, ∃ r : ℝ, hd h = r) (hw2 : ∀ cc h, ∃ r : ℝ, W2 cc h = r) :
    Spec.dotT hd gw - ((Softmax.onl (ztile hd W2) 50).1 + Ideal.log (Softmax.onl (ztile hd W2) 50).2)
      = Spec.tailOut hd gw W2 := by
  have hg : ∀ c : Fin 50000, ∃ r : ℝ, Spec.dotT hd (W2 c) = r := fun c => dotT_real _ _ hhd (hw2 c)
  choose g hgc using hg
  have hflat := Softmax.onl_flat (T := 50) (C := 1000) (by norm_num) (by norm_num) g (ztile hd W2) (fun j hj c => by
    unfold ztile
    have hlt : j * 1000 + c.val < 50000 := by have := c.isLt; omega
    rw [← hgc]
    exact congrArg (fun k => Spec.dotT hd (W2 k)) (Fin.ext (Nat.mod_eq_of_lt hlt)))
  rw [hflat]
  unfold Spec.tailOut Spec.lsmK Spec.lse Spec.rowMax
  rw [show (fun c : Fin 50000 => Spec.dotT hd (W2 c)) = fun c => (g c : EReal) from funext hgc]

/-! ## The invariant of a row along its row tile's points -/

/-- What the four scratch buffers hold at row `p` after column tile `j` of a row tile whose hidden row is `hd`: the hidden
    row itself, the recursion's pair after `j + 1` tiles, and the product with the gathered row `gw`. -/
def RowInv (hid : Vec Ideal S1024x8 .bf16) (m l val : Vec Ideal S1024x1 .f32) (p : Fin 1024)
    (hd : Fin 8 → EReal) (W2 : Fin 50000 → Fin 8 → EReal) (gw : Fin 8 → EReal) (j : ℕ) : Prop :=
  (∀ h : Fin 8, (hid (ix2 p h) : EReal) = hd h)
    ∧ (m (ix2 p (0 : Fin 1)) : EReal) = (Softmax.onl (ztile hd W2) (j + 1)).1
    ∧ (l (ix2 p (0 : Fin 1)) : EReal) = (Softmax.onl (ztile hd W2) (j + 1)).2
    ∧ (val (ix2 p (0 : Fin 1)) : EReal) = Spec.dotT hd gw

/-- The first column tile fills the four buffers from the point's blocks. -/
theorem rowInv_first (x0 : Vec Ideal S1024x512 .bf16) (x1 : Vec Ideal S8x512 .f32) (x2 : Vec Ideal S1000x8 .f32)
    (x3 : Vec Ideal S1024x8 .f32) (p : Fin 1024)
    (X : Fin 512 → EReal) (W1 : Fin 8 → Fin 512 → EReal) (W2 : Fin 50000 → Fin 8 → EReal) (gw : Fin 8 → EReal)
    (h0 : ∀ d : Fin 512, (x0 (ix2 p d) : EReal) = X d) (h1 : ∀ (h : Fin 8) (d : Fin 512), (x1 (ix2 h d) : EReal) = W1 h d)
    (h2 : ∀ (cc : Fin 1000) (h : Fin 8), (x2 (ix2 cc h) : EReal) = W2 ⟨(0 * 1000 + cc.val) % 50000, Nat.mod_lt _ (by norm_num)⟩ h)
    (h3 : ∀ h : Fin 8, (x3 (ix2 p h) : EReal) = gw h) :
    RowInv (k3_pay4 (F := Ideal) x1 x0) (k3_pay9 (F := Ideal) (k3_pay4 (F := Ideal) x1 x0) x2 (k3_pay1 (F := Ideal)))
      (k3_pay8 (F := Ideal) (k3_pay4 (F := Ideal) x1 x0) x2 (k3_pay1 (F := Ideal)) (k3_pay1 (F := Ideal)) (k3_pay2 (F := Ideal)))
      (k3_pay5 (F := Ideal) x1 x0 x3) p (fun h => Spec.dotT X (W1 h)) W2 gw 0 := by
  have hhid : ∀ h : Fin 8, (k3_pay4 (F := Ideal) x1 x0 (ix2 p h) : EReal) = Spec.dotT X (W1 h) := fun h => by
    rw [pay04_apply, show (fun d : Fin 512 => (x0 (ix2 p d) : EReal)) = X from funext h0,
      show (fun d : Fin 512 => (x1 (ix2 h d) : EReal)) = W1 h from funext (h1 h)]
  have hz : ztile (fun h => Spec.dotT X (W1 h)) W2 0 = logit (k3_pay4 (F := Ideal) x1 x0) x2 p :=
    (logit_congr _ _ p _ _ hhid h2).symm
  obtain ⟨e1, e2⟩ := step_first (k3_pay4 (F := Ideal) x1 x0) x2 p _ hz
  refine ⟨hhid, e1, e2, ?_⟩
  rw [pay05_apply, show (fun h : Fin 8 => (k3_pay4 (F := Ideal) x1 x0 (ix2 p h) : EReal)) = fun h => Spec.dotT X (W1 h) from funext hhid,
    show (fun h : Fin 8 => (x3 (ix2 p h) : EReal)) = gw from funext h3]

/-- A later column tile updates the pair and keeps the hidden row and the gathered product. -/
theorem rowInv_next (xs7 : Vec Ideal S1024x8 .bf16) (xs8 xs9 xs10 : Vec Ideal S1024x1 .f32) (x2 : Vec Ideal S1000x8 .f32)
    (p : Fin 1024) (hd : Fin 8 → EReal) (W2 : Fin 50000 → Fin 8 → EReal) (gw : Fin 8 → EReal) (j : ℕ)
    (ih : RowInv xs7 xs8 xs9 xs10 p hd W2 gw j)
    (h2 : ∀ (cc : Fin 1000) (h : Fin 8), (x2 (ix2 cc h) : EReal) = W2 ⟨((j + 1) * 1000 + cc.val) % 50000, Nat.mod_lt _ (by norm_num)⟩ h) :
    RowInv xs7 (k3_pay9 (F := Ideal) xs7 x2 xs8) (k3_pay8 (F := Ideal) xs7 x2 xs8 xs8 xs9) xs10 p hd W2 gw (j + 1) := by
  obtain ⟨hh, hm, hl, hv⟩ := ih
  have hz : ztile hd W2 (j + 1) = logit xs7 x2 p := (logit_congr _ _ p _ _ hh h2).symm
  obtain ⟨e1, e2⟩ := step_next xs7 x2 xs8 xs9 p _ (j + 1) hz hm hl
  exact ⟨hh, e1, e2, hv⟩

/-- The stored output at a row, from the buffers after the last column tile. -/
theorem out_of_rowInv (hid : Vec Ideal S1024x8 .bf16) (m l val : Vec Ideal S1024x1 .f32) (p : Fin 1024)
    (hd : Fin 8 → EReal) (W2 : Fin 50000 → Fin 8 → EReal) (gw : Fin 8 → EReal) (j : ℕ)
    (h : RowInv hid m l val p hd W2 gw j) :
    k3_pay10 (F := Ideal) m l val (ix2 p (0 : Fin 1))
      = Spec.dotT hd gw - ((Softmax.onl (ztile hd W2) (j + 1)).1 + Ideal.log (Softmax.onl (ztile hd W2) (j + 1)).2) := by
  obtain ⟨-, hm, hl, hv⟩ := h
  rw [pay10_apply, hm, hl, hv]

/-! ## The windows' blocks, read off the arrays -/

section Blocks
variable (V : (c : Dev nD) → (b : Ref sig .tc) → Buf (Elt Ideal) ((c : Thread nD τ).loc b))

/-- The arrays the region reads, at their literal types: `x` (rounded), `w1`, `w2` and the gathered rows of `w2`. -/
abbrev xarr (c : Dev nD) : Vec Ideal S2048x512 .bf16 := V c main_v0
abbrev w1arr (c : Dev nD) : Vec Ideal S8x512 .f32 := V c main_arg7
abbrev w2arr (c : Dev nD) : Vec Ideal S50000x8 .f32 := V c main_arg8
abbrev gwarr (c : Dev nD) : Vec Ideal S2048x8 .f32 := V c main_v62

/-- The printed index maps over the grid: point `t` is row tile `t / 50`, column tile `t % 50`. -/
theorem idx_facts3 : ∀ t : Fin cfg3.N,
    win3_0.index t (0 : Fin 2) = t.val / 50 ∧ win3_0.index t (1 : Fin 2) = 0
    ∧ win3_1.index t (0 : Fin 2) = 0 ∧ win3_1.index t (1 : Fin 2) = 0
    ∧ win3_2.index t (0 : Fin 2) = t.val % 50 ∧ win3_2.index t (1 : Fin 2) = 0
    ∧ win3_3.index t (0 : Fin 2) = t.val / 50 ∧ win3_3.index t (1 : Fin 2) = 0
    ∧ win3_4.index t (0 : Fin 2) = t.val / 50 ∧ win3_4.index t (1 : Fin 2) = 0 :=
  (by decide +kernel : ∀ t : Fin grid3.N, _)

/-- Row `p` of the `x` block at point `t` is row `1024 · (t / 50) + p` of `x`. -/
theorem xblk_apply (c : Dev nD) (t : Fin cfg3.N) (p : Fin 1024) (d : Fin 512) (n : Fin 2048)
    (hn : n.val = 1024 * (t.val / 50) + p.val) :
    ((iblk3 V c 0 t) : Vec Ideal S1024x512 .bf16) (ix2 p d) = xarr V c (ix2 n d) := by
  unfold iblk3
  rw [View.read_apply]
  show V c main_v0 (((cfg3.win 0).blk t).view.emb (ix2 p d)) = V c main_v0 _
  refine congrArg (V c main_v0) (funext fun a => Fin.ext ?_)
  obtain ⟨e0, e1, -⟩ := idx_facts3 t
  match a with
  | ⟨0, _⟩ => show win3_0.index t (0 : Fin 2) * 1024 + 1 * p.val = n.val; rw [e0, hn]; omega
  | ⟨1, _⟩ => show win3_0.index t (1 : Fin 2) * 512 + 1 * d.val = d.val; rw [e1]; omega

/-- The `w1` block is all of `w1` at every point. -/
theorem w1blk_apply (c : Dev nD) (t : Fin cfg3.N) (h : Fin 8) (d : Fin 512) :
    ((iblk3 V c 1 t) : Vec Ideal S8x512 .f32) (ix2 h d) = w1arr V c (ix2 h d) := by
  unfold iblk3
  rw [View.read_apply]
  show V c main_arg7 (((cfg3.win 1).blk t).view.emb (ix2 h d)) = V c main_arg7 _
  refine congrArg (V c main_arg7) (funext fun a => Fin.ext ?_)
  obtain ⟨-, -, e0, e1, -⟩ := idx_facts3 t
  match a with
  | ⟨0, _⟩ => show win3_1.index t (0 : Fin 2) * 8 + 1 * h.val = h.val; rw [e0]; omega
  | ⟨1, _⟩ => show win3_1.index t (1 : Fin 2) * 512 + 1 * d.val = d.val; rw [e1]; omega

/-- Row `cc` of the `w2` tile at point `t` is row `(t % 50) · 1000 + cc` of `w2`. -/
theorem w2blk_apply (c : Dev nD) (t : Fin cfg3.N) (cc : Fin 1000) (h : Fin 8) (k : Fin 50000)
    (hk : k.val = (t.val % 50) * 1000 + cc.val) :
    ((iblk3 V c 2 t) : Vec Ideal S1000x8 .f32) (ix2 cc h) = w2arr V c (ix2 k h) := by
  unfold iblk3
  rw [View.read_apply]
  show V c main_arg8 (((cfg3.win 2).blk t).view.emb (ix2 cc h)) = V c main_arg8 _
  refine congrArg (V c main_arg8) (funext fun a => Fin.ext ?_)
  obtain ⟨-, -, -, -, e0, e1, -⟩ := idx_facts3 t
  match a with
  | ⟨0, _⟩ => show win3_2.index t (0 : Fin 2) * 1000 + 1 * cc.val = k.val; rw [e0, hk]; omega
  | ⟨1, _⟩ => show win3_2.index t (1 : Fin 2) * 8 + 1 * h.val = h.val; rw [e1]; omega

/-- Row `p` of the gathered block at point `t` is row `1024 · (t / 50) + p` of the gathered array. -/
theorem gwblk_apply (c : Dev nD) (t : Fin cfg3.N) (p : Fin 1024) (h : Fin 8) (n : Fin 2048)
    (hn : n.val = 1024 * (t.val / 50) + p.val) :
    ((iblk3 V c 3 t) : Vec Ideal S1024x8 .f32) (ix2 p h) = gwarr V c (ix2 n h) := by
  unfold iblk3
  rw [View.read_apply]
  show V c main_v62 (((cfg3.win 3).blk t).view.emb (ix2 p h)) = V c main_v62 _
  refine congrArg (V c main_v62) (funext fun a => Fin.ext ?_)
  obtain ⟨-, -, -, -, -, -, e0, e1, -⟩ := idx_facts3 t
  match a with
  | ⟨0, _⟩ => show win3_3.index t (0 : Fin 2) * 1024 + 1 * p.val = n.val; rw [e0, hn]; omega
  | ⟨1, _⟩ => show win3_3.index t (1 : Fin 2) * 8 + 1 * h.val = h.val; rw [e1]; omega

/-- Row `p` of the output block at point `t` sits at row `1024 · (t / 50) + p` of the output array. -/
theorem oblk_emb (t : Fin cfg3.N) (p : Fin 1024) (u : Fin 1) (n : Fin 2048) (hn : n.val = 1024 * (t.val / 50) + p.val) :
    (((cfg3.win 4).blk t).view.emb (ix2 p u) : S2048x1.Idx) = ix2 n (0 : Fin 1) := by
  refine funext fun a => Fin.ext ?_
  obtain ⟨-, -, -, -, -, -, -, -, e0, e1⟩ := idx_facts3 t
  match a with
  | ⟨0, _⟩ => show win3_4.index t (0 : Fin 2) * 1024 + 1 * p.val = n.val; rw [e0, hn]; omega
  | ⟨1, _⟩ => show win3_4.index t (1 : Fin 2) * 1 + 1 * u.val = 0; rw [e1]; omega

end Blocks

/-! ## The accumulation along the grid, row by row -/

section Region
variable (V : (c : Dev nD) → (b : Ref sig .tc) → Buf (Elt Ideal) ((c : Thread nD τ).loc b))

/-- The point's input blocks at their literal types. -/
abbrev xb (c : Dev nD) (t : Fin cfg3.N) : Vec Ideal S1024x512 .bf16 := iblk3 V c 0 t
abbrev w1b (c : Dev nD) (t : Fin cfg3.N) : Vec Ideal S8x512 .f32 := iblk3 V c 1 t
abbrev w2b (c : Dev nD) (t : Fin cfg3.N) : Vec Ideal S1000x8 .f32 := iblk3 V c 2 t
abbrev gwb (c : Dev nD) (t : Fin cfg3.N) : Vec Ideal S1024x8 .f32 := iblk3 V c 3 t

/-- Row `n` of `x`, the rows of `w1` and of `w2`, row `n` of the gathered array, and the hidden row of sample `n`. -/
def xRow (c : Dev nD) (n : Fin 2048) : Fin 512 → EReal := fun d => (xarr V c (ix2 n d) : EReal)
def w1Rows (c : Dev nD) : Fin 8 → Fin 512 → EReal := fun h d => (w1arr V c (ix2 h d) : EReal)
def w2Rows (c : Dev nD) : Fin 50000 → Fin 8 → EReal := fun cc h => (w2arr V c (ix2 cc h) : EReal)
def gwRow (c : Dev nD) (n : Fin 2048) : Fin 8 → EReal := fun h => (gwarr V c (ix2 n h) : EReal)
def hidRow (c : Dev nD) (n : Fin 2048) : Fin 8 → EReal := fun h => Spec.dotT (xRow V c n) (w1Rows V c h)

/-- The invariant after point `t`: every row `p` of the row tile `t / 50`, which is row `n = 1024 · (t / 50) + p` of the
    arrays, has its hidden row, the recursion's pair after `t % 50 + 1` column tiles and its gathered product. -/
def Inv (c : Dev nD) (t : ℕ) (o : Outs3 Ideal) : Prop :=
  ∀ (p : Fin 1024) (n : Fin 2048), n.val = 1024 * (t / 50) + p.val →
    RowInv o.2.1 o.2.2.1 o.2.2.2.1 o.2.2.2.2 p (hidRow V c n) (w2Rows V c) (gwRow V c n) (t % 50)

/-- The tile of `w2` at point `t`, in the spelling of the tile-by-tile logits. -/
theorem w2b_tile (c : Dev nD) (t : Fin cfg3.N) (j : ℕ) (hj : j = t.val % 50) (cc : Fin 1000) (h : Fin 8) :
    (w2b V c t (ix2 cc h) : EReal) = w2Rows V c ⟨(j * 1000 + cc.val) % 50000, Nat.mod_lt _ (by norm_num)⟩ h := by
  subst hj
  exact w2blk_apply V c t cc h _ (by
    show (t.val % 50 * 1000 + cc.val) % 50000 = t.val % 50 * 1000 + cc.val
    have := cc.isLt; omega)

theorem inv_A (c : Dev nD) (t : Fin cfg3.N) (h0 : t.val % 50 = 0) (h1 : ¬t.val % 50 = 49) :
    Inv V c t.val (caseA3 V c t h0 h1) := by
  intro p n hn
  unfold caseA3
  dsimp only
  rw [R3P.sout3_A_7_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
    R3P.sout3_A_8_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
    R3P.sout3_A_9_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t),
    R3P.sout3_A_10_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) ((hcond3_0 t).mpr h0) (fun h => h1 ((hcond3_1 t).mp h)) (iblk3 V c 0 t) (iblk3 V c 1 t) (iblk3 V c 2 t) (iblk3 V c 3 t), h0]
  exact rowInv_first (xb V c t) (w1b V c t) (w2b V c t) (gwb V c t) p (xRow V c n) (w1Rows V c) (w2Rows V c) (gwRow V c n)
    (fun d => xblk_apply V c t p d n hn) (fun h d => w1blk_apply V c t h d)
    (fun cc h => w2b_tile V c t 0 h0.symm cc h) (fun h => gwblk_apply V c t p h n hn)

/-- A later column tile of a row tile, in the buffers' terms: over what the point before left. -/
theorem rowInv_later (c : Dev nD) (t : Fin cfg3.N) (h0 : ¬t.val % 50 = 0) (o : Outs3 Ideal) (ih : Inv V c (t.val - 1) o)
    (p : Fin 1024) (n : Fin 2048) (hn : n.val = 1024 * (t.val / 50) + p.val) :
    RowInv o.2.1 (k3_pay9 (F := Ideal) o.2.1 (w2b V c t) o.2.2.1)
      (k3_pay8 (F := Ideal) o.2.1 (w2b V c t) o.2.2.1 o.2.2.1 o.2.2.2.1) o.2.2.2.2 p
      (hidRow V c n) (w2Rows V c) (gwRow V c n) (t.val % 50) := by
  have ih' := ih p n (by omega)
  have ej : (t.val - 1) % 50 + 1 = t.val % 50 := by omega
  rw [← ej]
  exact rowInv_next o.2.1 o.2.2.1 o.2.2.2.1 o.2.2.2.2 (w2b V c t) p (hidRow V c n) (w2Rows V c) (gwRow V c n) ((t.val - 1) % 50) ih'
    (fun cc h => w2b_tile V c t ((t.val - 1) % 50 + 1) ej cc h)

theorem inv_B (c : Dev nD) (t : Fin cfg3.N) (h0 : ¬t.val % 50 = 0) (h1 : ¬t.val % 50 = 49) (o : Outs3 Ideal)
    (ih : Inv V c (t.val - 1) o) : Inv V c t.val (caseB3 V c t h0 h1 o) := by
  intro p n hn
  unfold caseB3
  dsimp only
  rw [R3P.sout3_B_8_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) o.2.1 o.2.2.1 o.2.2.2.1 o.2.2.2.2,
    R3P.sout3_B_9_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) (fun h => h1 ((hcond3_1 t).mp h)) (iblk3 V c 0 t) (iblk3 V c 1 t) (iblk3 V c 2 t) (iblk3 V c 3 t) o.2.1 o.2.2.1 o.2.2.2.1 o.2.2.2.2]
  exact rowInv_later V c t h0 o ih p n hn

theorem inv_C (c : Dev nD) (t : Fin cfg3.N) (h0 : ¬t.val % 50 = 0) (h1 : t.val % 50 = 49) (o : Outs3 Ideal)
    (ih : Inv V c (t.val - 1) o) : Inv V c t.val (caseC3 V c t h0 h1 o) := by
  intro p n hn
  unfold caseC3
  dsimp only
  rw [R3P.sout3_C_8_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) o.2.1 o.2.2.1 o.2.2.2.1 o.2.2.2.2,
    R3P.sout3_C_9_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) o.2.1 o.2.2.1 o.2.2.2.1 o.2.2.2.2]
  exact rowInv_later V c t h0 o ih p n hn

/-- THE INVARIANT, by induction on the point. -/
theorem inv3 (c : Dev nD) : ∀ (t : ℕ) (ht : t < cfg3.N), Inv V c t (outsAt3 V c t ht)
  | 0, ht => by
    have h1 : ¬(0 : ℕ) % 50 = 49 := by decide
    rw [outsAt3_A V c ⟨0, ht⟩ (Nat.zero_mod _) h1]
    exact inv_A V c ⟨0, ht⟩ (Nat.zero_mod _) h1
  | n + 1, ht => by
    have ih := inv3 c n (Nat.lt_of_succ_lt ht)
    by_cases h0 : (n + 1) % 50 = 0
    · have h1 : ¬(n + 1) % 50 = 49 := by omega
      rw [outsAt3_A V c ⟨n + 1, ht⟩ h0 h1]
      exact inv_A V c ⟨n + 1, ht⟩ h0 h1
    · by_cases h1 : (n + 1) % 50 = 49
      · rw [outsAt3_C V c ⟨n + 1, ht⟩ h0 h1]
        exact inv_C V c ⟨n + 1, ht⟩ h0 h1 _ ih
      · rw [outsAt3_B V c ⟨n + 1, ht⟩ h0 h1]
        exact inv_B V c ⟨n + 1, ht⟩ h0 h1 _ ih

/-! ## The output array -/

/-- The stored output block at a point of the last column tile, row by row: the gathered product less the log-sum-exp
    of the pair after all nine tiles. -/
theorem out_C (c : Dev nD) (t : Fin cfg3.N) (h0 : ¬t.val % 50 = 0) (h1 : t.val % 50 = 49) (p : Fin 1024) (n : Fin 2048)
    (hn : n.val = 1024 * (t.val / 50) + p.val) :
    ((outsAt3 V c t.val t.isLt).1 (ix2 p (0 : Fin 1)) : EReal)
      = Spec.dotT (hidRow V c n) (gwRow V c n)
          - ((Softmax.onl (ztile (hidRow V c n) (w2Rows V c)) 50).1
              + Ideal.log (Softmax.onl (ztile (hidRow V c n) (w2Rows V c)) 50).2) := by
  have ih := inv3 V c (t.val - 1) (Nat.lt_of_le_of_lt (Nat.sub_le _ _) t.isLt)
  have hR := rowInv_later V c t h0 _ ih p n hn
  rw [h1] at hR
  rw [outsAt3_C V c t h0 h1]
  unfold caseC3
  dsimp only
  rw [R3P.out3_C_4_eq (F := Ideal) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) scM3_3 (Memref.isWhole_whole _) (fun h => h0 ((hcond3_0 t).mp h)) ((hcond3_1 t).mpr h1) (iblk3 V c 0 t) (iblk3 V c 1 t) (iblk3 V c 2 t) (iblk3 V c 3 t) _ _ _ _]
  exact out_of_rowInv _ _ _ _ p _ _ _ 49 hR

/-- What the output array holds where the region has written: row by row the cluster's output. -/
def G3 (c : Dev nD) : Vec Ideal S2048x1 .f32 :=
  fun idx => Spec.tailOut (hidRow V c ⟨(idx 0).val, idx2_lt0 idx⟩) (gwRow V c ⟨(idx 0).val, idx2_lt0 idx⟩) (w2Rows V c)

/-- On finite data, what a point of the last column tile writes back is its block of that function. -/
theorem flushed3_eq (c : Dev nD) (hx : ∀ idx, ∃ r : ℝ, (xarr V c idx : EReal) = r) (hw1 : ∀ idx, ∃ r : ℝ, (w1arr V c idx : EReal) = r)
    (hw2 : ∀ idx, ∃ r : ℝ, (w2arr V c idx : EReal) = r) (t : Fin cfg3.N) (hf : (cfg3.win 4).flush t = true) :
    (dat3 V c).flushed 4 t = ((cfg3.win 4).blk t).view.read (Elt Ideal) (G3 V c) := by
  have h1 : t.val % 50 = 49 := (flush3_4 t).mp hf
  have h0 : ¬t.val % 50 = 0 := by omega
  have hN : t.val < 100 := lt_of_lt_of_eq t.isLt (show cfg3.N = 100 from rfl)
  show (cfg3.win 4).cut (grid3.coords t) ((dat3 V c).after 4 t) = _
  rw [after3_4]
  funext y
  obtain ⟨p, u, rfl⟩ : ∃ (p : Fin 1024) (u : Fin 1), y = ix2 p u := ⟨y 0, y 1, eq_ix2 y⟩
  obtain rfl : u = 0 := Subsingleton.elim _ _
  rw [View.read_apply, oblk_emb t p 0 ⟨1024 * (t.val / 50) + p.val, by omega⟩ rfl]
  show ((outsAt3 V c t.val t.isLt).1 (ix2 p (0 : Fin 1)) : EReal) = G3 V c (ix2 (⟨1024 * (t.val / 50) + p.val, by omega⟩ : Fin 2048) (0 : Fin 1))
  rw [out_C V c t h0 h1 p ⟨1024 * (t.val / 50) + p.val, by omega⟩ rfl]
  exact tailOut_of_onl _ _ _ (fun h => dotT_real _ _ (fun d => hx _) (fun d => hw1 _)) (fun cc h => hw2 _)

/-- An index of the output array is in point `t`'s block iff each coordinate is in the block's range on its axis. -/
theorem mem_blk4 (t : Fin cfg3.N) (i : S2048x1.Idx) :
    i ∈ ((cfg3.win 4).blk t).view.set ↔ ∀ a : Fin 2, win3_4.index t a * S1024x1.size a ≤ (i a).val ∧ (i a).val < win3_4.index t a * S1024x1.size a + S1024x1.size a := by
  show i ∈ ((View.whole main_v63).slice (win3_4.rect t)).set ↔ _
  rw [View.set_slice_whole, Rect.mem_set_unit]
  exact Iff.rfl

/-- Every row of the output array is in the block some point of the last column tile writes back. -/
theorem cover4 (i : S2048x1.Idx) : ∃ t : Fin cfg3.N, (cfg3.win 4).flush t = true ∧ i ∈ ((cfg3.win 4).blk t).view.set := by
  have hi0 : (i 0).val < 2048 := idx2_lt0 i
  have hi1 : (i 1).val < 1 := idx2_lt1 i
  refine ⟨⟨50 * ((i 0).val / 1024) + 49, lt_of_lt_of_eq (by omega) (show 100 = cfg3.N from rfl)⟩, (flush3_4 _).mpr (by show (50 * ((i 0).val / 1024) + 49) % 50 = 49; omega), ?_⟩
  rw [mem_blk4]
  obtain ⟨-, -, -, -, -, -, -, -, e0, e1⟩ := idx_facts3 ⟨50 * ((i 0).val / 1024) + 49, lt_of_lt_of_eq (by omega) (show 100 = cfg3.N from rfl)⟩
  intro a
  match a with
  | ⟨0, _⟩ =>
    show win3_4.index _ (0 : Fin 2) * 1024 ≤ (i 0).val ∧ (i 0).val < win3_4.index _ (0 : Fin 2) * 1024 + 1024
    rw [e0]; show (50 * ((i 0).val / 1024) + 49) / 50 * 1024 ≤ (i 0).val ∧ (i 0).val < (50 * ((i 0).val / 1024) + 49) / 50 * 1024 + 1024
    omega
  | ⟨1, _⟩ =>
    show win3_4.index _ (1 : Fin 2) * 1 ≤ (i 1).val ∧ (i 1).val < win3_4.index _ (1 : Fin 2) * 1 + 1
    rw [e1]; omega

/-- THE OUTPUT ARRAY after the region, on finite data: every sample's entry is the cluster's output. -/
theorem arr3_eq (c : Dev nD) (hx : ∀ idx, ∃ r : ℝ, (xarr V c idx : EReal) = r) (hw1 : ∀ idx, ∃ r : ℝ, (w1arr V c idx : EReal) = r)
    (hw2 : ∀ idx, ∃ r : ℝ, (w2arr V c idx : EReal) = r) (n : Fin 2048) :
    ((dat3 (F := Ideal) V c).arrAt 4 cfg3.N (ix2 n (0 : Fin 1)) : EReal)
      = Spec.tailOut (fun h : Fin 8 => Spec.dotT (fun d : Fin 512 => (xarr V c (ix2 n d) : EReal)) (fun d : Fin 512 => (w1arr V c (ix2 h d) : EReal)))
          (fun h : Fin 8 => (gwarr V c (ix2 n h) : EReal)) (fun (cc : Fin 50000) (h : Fin 8) => (w2arr V c (ix2 cc h) : EReal)) :=
  congrFun ((dat3 (F := Ideal) V c).arrAt_eq_of_cover 4 (G3 V c) (fun t hf => flushed3_eq V c hx hw1 hw2 t hf) cover4) (ix2 n (0 : Fin 1))

end Region

end Cert.Proof.Val.R3

end
-- ==== Proof.Val.KFinal.lean ====
/-
  THE LAUNCHED PROGRAM'S RESULT IS THE SPECIFICATION. The run ends with the result buffer at the last valuation of the chain
  of valuations taken at the four regions' proof data. That chain is the item-by-item chain of valuations at the unknowns
  "what each region leaves", and each of those is the region's output array after its last grid point: the head region's
  is `Spec.headOut` of the head logits row by row, a tail region's is `Spec.tailOut` of the hidden row, the gathered row
  and the cluster's second weight matrix, the region being entered from finite operands (the launched arrays, carried
  unchanged through the host stretches, are finite under the precondition). With the host stretches' words read back,
  the result at sample n is the kernel's spelling of the adaptive-softmax log-probability, which on finite inputs is
  `Spec.G`.
-/
import proofs.«416376_j65790309040722_2_alg».proof.Proof.Val.KVal
import proofs.«416376_j65790309040722_2_alg».proof.Proof.Val.R0Arr
import proofs.«416376_j65790309040722_2_alg».proof.Proof.Val.R1Val
import proofs.«416376_j65790309040722_2_alg».proof.Proof.Val.R2Val
import proofs.«416376_j65790309040722_2_alg».proof.Proof.Val.R3Val
import proofs.«416376_j65790309040722_2_alg».proof.Proof.KI.Inst

set_option maxRecDepth 16384

noncomputable section

namespace Cert.Proof.Val.KFinal

open Idealize.ShloMosaic Idealize.ShloMosaic.ValueIdx Idealize.ShloMosaic.TcCoe Idealize.SL.Sem
open Cert.KernelIdeal Cert.KernelIdeal.Gen Cert.KernelIdeal.Hand
open Cert.Proof.Val

variable [hPre : Cert.Pre_finite_inputs.Facts]
variable (m : (ℓ : Loc nD τ sig) → Buf (Elt Ideal) ℓ) (c : Dev nD)

/-! ## Finiteness carried to the tail regions' operands -/

section Finite
variable (outs : Outs (F := Ideal))
variable (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = (fun _ => 1#1))
include hpre

/-- The samples' rows, as each tail region finds them, are finite: they are the launched rows. -/
theorem fin7_v0 (idx : S2048x512.Idx) : ∃ r : ℝ, (V7 m outs c main_v0 : S2048x512.Idx → EReal) idx = (r : EReal) := by
  obtain ⟨a, b, rfl⟩ : ∃ a b, idx = ix2 a b := ⟨idx 0, idx 1, eq_ix2 idx⟩
  obtain ⟨r, hr⟩ := PreFacts.fin_arg0 _ _ _ _ _ _ _ _ _ hpre (ix2 a b)
  exact ⟨r, (KHost.V7_v0_apply m outs c a b).trans hr⟩
theorem fin13_v0 (idx : S2048x512.Idx) : ∃ r : ℝ, (V13 m outs c main_v0 : S2048x512.Idx → EReal) idx = (r : EReal) := by
  obtain ⟨a, b, rfl⟩ : ∃ a b, idx = ix2 a b := ⟨idx 0, idx 1, eq_ix2 idx⟩
  obtain ⟨r, hr⟩ := PreFacts.fin_arg0 _ _ _ _ _ _ _ _ _ hpre (ix2 a b)
  exact ⟨r, (KHost.V13_v0_apply m outs c a b).trans hr⟩
theorem fin19_v0 (idx : S2048x512.Idx) : ∃ r : ℝ, (V19 m outs c main_v0 : S2048x512.Idx → EReal) idx = (r : EReal) := by
  obtain ⟨a, b, rfl⟩ : ∃ a b, idx = ix2 a b := ⟨idx 0, idx 1, eq_ix2 idx⟩
  obtain ⟨r, hr⟩ := PreFacts.fin_arg0 _ _ _ _ _ _ _ _ _ hpre (ix2 a b)
  exact ⟨r, (KHost.V19_v0_apply m outs c a b).trans hr⟩
/-- … and so are the clusters' weights. -/
theorem fin7_arg3 (idx : S128x512.Idx) : ∃ r : ℝ, (V7 m outs c main_arg3 : S128x512.Idx → EReal) idx = (r : EReal) := by
  obtain ⟨r, hr⟩ := PreFacts.fin_arg3 _ _ _ _ _ _ _ _ _ hpre idx
  exact ⟨r, (KHost.V7_arg3_apply m outs c idx).trans hr⟩
theorem fin7_arg4 (idx : S9000x128.Idx) : ∃ r : ℝ, (V7 m outs c main_arg4 : S9000x128.Idx → EReal) idx = (r : EReal) := by
  obtain ⟨r, hr⟩ := PreFacts.fin_arg4 _ _ _ _ _ _ _ _ _ hpre idx
  exact ⟨r, (KHost.V7_arg4_apply m outs c idx).trans hr⟩
theorem fin13_arg5 (idx : S32x512.Idx) : ∃ r : ℝ, (V13 m outs c main_arg5 : S32x512.Idx → EReal) idx = (r : EReal) := by
  obtain ⟨r, hr⟩ := PreFacts.fin_arg5 _ _ _ _ _ _ _ _ _ hpre idx
  exact ⟨r, (KHost.V13_arg5_apply m outs c idx).trans hr⟩
theorem fin13_arg6 (idx : S40000x32.Idx) : ∃ r : ℝ, (V13 m outs c main_arg6 : S40000x32.Idx → EReal) idx = (r : EReal) := by
  obtain ⟨r, hr⟩ := PreFacts.fin_arg6 _ _ _ _ _ _ _ _ _ hpre idx
  exact ⟨r, (KHost.V13_arg6_apply m outs c idx).trans hr⟩
theorem fin19_arg7 (idx : S8x512.Idx) : ∃ r : ℝ, (V19 m outs c main_arg7 : S8x512.Idx → EReal) idx = (r : EReal) := by
  obtain ⟨r, hr⟩ := PreFacts.fin_arg7 _ _ _ _ _ _ _ _ _ hpre idx
  exact ⟨r, (KHost.V19_arg7_apply m outs c idx).trans hr⟩
theorem fin19_arg8 (idx : S50000x8.Idx) : ∃ r : ℝ, (V19 m outs c main_arg8 : S50000x8.Idx → EReal) idx = (r : EReal) := by
  obtain ⟨r, hr⟩ := PreFacts.fin_arg8 _ _ _ _ _ _ _ _ _ hpre idx
  exact ⟨r, (KHost.V19_arg8_apply m outs c idx).trans hr⟩

end Finite

/-! ## The launched program's result -/

/-- THE RESULT BUFFER OF THE LAUNCHED PROGRAM, at sample n, is the specification of the arguments at launch. -/
theorem kernel_final
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = (fun _ => 1#1)) (n : Fin 2048) :
    (resultAt (F := Ideal) m c : S2048.Idx → EReal) (ix1 n)
      = Spec.G (KVal.X m c) (KVal.TG m c) (KVal.HW m c) (KVal.W10 m c) (KVal.W20 m c) (KVal.W11 m c) (KVal.W21 m c)
          (KVal.W12 m c) (KVal.W22 m c) n := by
  -- the regions' outputs as the unknowns of the item-by-item valuations
  have e22 := V22_eq (F := Ideal) dat0 dat1 dat2 dat3 m c
  have e7 := V7_eq (F := Ideal) dat0 dat1 dat2 dat3 m c
  have e13 := V13_eq (F := Ideal) dat0 dat1 dat2 dat3 m c
  have e19 := V19_eq (F := Ideal) dat0 dat1 dat2 dat3 m c
  have o2 := outs_2 (F := Ideal) dat0 dat1 dat2 dat3 m c
  have o8 := outs_8 (F := Ideal) dat0 dat1 dat2 dat3 m c
  have o14 := outs_14 (F := Ideal) dat0 dat1 dat2 dat3 m c
  have o20 := outs_20 (F := Ideal) dat0 dat1 dat2 dat3 m c
  generalize Hand.outs (F := Ideal) dat0 dat1 dat2 dat3 m = outs at e22 e7 e13 e19 o2 o8 o14 o20
  show (W22 (F := Ideal) dat0 dat1 dat2 dat3 m c main_v73 : S2048.Idx → EReal) (ix1 n) = _
  rw [← e22]
  refine KVal.kernel_apply_G m outs c ?_ ?_ ?_ ?_ hpre n
  · -- the head region's array
    intro n k
    rw [o2]
    exact R0.arr0_eq (fun c b => V1 m c b) c n k
  · -- a tail region's array, entered from the valuation after the host stretches before it
    intro n
    have fx : ∀ idx : S2048x512.Idx, ∃ r : ℝ, (W7 (F := Ideal) dat0 m c main_v0 : S2048x512.Idx → EReal) idx = (r : EReal) :=
      e7 ▸ fin7_v0 m c outs hpre
    have f1 : ∀ idx : S128x512.Idx, ∃ r : ℝ, (W7 (F := Ideal) dat0 m c main_arg3 : S128x512.Idx → EReal) idx = (r : EReal) :=
      e7 ▸ fin7_arg3 m c outs hpre
    have f2 : ∀ idx : S9000x128.Idx, ∃ r : ℝ, (W7 (F := Ideal) dat0 m c main_arg4 : S9000x128.Idx → EReal) idx = (r : EReal) :=
      e7 ▸ fin7_arg4 m c outs hpre
    have h := R1.arr1_eq (fun c b => W7 (F := Ideal) dat0 m c b) c fx f1 f2 n
    rw [o8, e7]
    exact h
  · intro n
    have fx : ∀ idx : S2048x512.Idx, ∃ r : ℝ, (W13 (F := Ideal) dat0 dat1 m c main_v0 : S2048x512.Idx → EReal) idx = (r : EReal) :=
      e13 ▸ fin13_v0 m c outs hpre
    have f1 : ∀ idx : S32x512.Idx, ∃ r : ℝ, (W13 (F := Ideal) dat0 dat1 m c main_arg5 : S32x512.Idx → EReal) idx = (r : EReal) :=
      e13 ▸ fin13_arg5 m c outs hpre
    have f2 : ∀ idx : S40000x32.Idx, ∃ r : ℝ, (W13 (F := Ideal) dat0 dat1 m c main_arg6 : S40000x32.Idx → EReal) idx = (r : EReal) :=
      e13 ▸ fin13_arg6 m c outs hpre
    have h := R2.arr2_eq (fun c b => W13 (F := Ideal) dat0 dat1 m c b) c fx f1 f2 n
    rw [o14, e13]
    exact h
  · intro n
    have fx : ∀ idx : S2048x512.Idx, ∃ r : ℝ, (W19 (F := Ideal) dat0 dat1 dat2 m c main_v0 : S2048x512.Idx → EReal) idx = (r : EReal) :=
      e19 ▸ fin19_v0 m c outs hpre
    have f1 : ∀ idx : S8x512.Idx, ∃ r : ℝ, (W19 (F := Ideal) dat0 dat1 dat2 m c main_arg7 : S8x512.Idx → EReal) idx = (r : EReal) :=
      e19 ▸ fin19_arg7 m c outs hpre
    have f2 : ∀ idx : S50000x8.Idx, ∃ r : ℝ, (W19 (F := Ideal) dat0 dat1 dat2 m c main_arg8 : S50000x8.Idx → EReal) idx = (r : EReal) :=
      e19 ▸ fin19_arg8 m c outs hpre
    have h := R3.arr3_eq (fun c b => W19 (F := Ideal) dat0 dat1 dat2 m c b) c fx f1 f2 n
    rw [o20, e19]
    exact h

end Cert.Proof.Val.KFinal

end
-- ==== Proof.Val.RefValLib.lean ====
/-
  The reference program's non-pointwise operations read at one sample, over the library alone.

  The reference computes a log-softmax the textbook way: a row maximum (a host reduce with a maximum body from the
  pattern of `−∞`), the shifted entries, the sum of their exponentials (a host reduce with an add body from zero), its
  logarithm. It then picks ONE entry per row with a gather whose start indices are the two-column array
  `[row, column]` (a concatenation of two one-column arrays), each start read signed and clamped into its axis.
  This file reads each of these at a row `n`:

  * `reduce_max_row`: the maximum-reduce over the columns at row `n` is the fold of `max` over that row's entries;
  * `gather_pick_apply`: the gather at `n` is the operand at (start row clamped, start column clamped);
  * `concat_col0` / `concat_col1`: the two-column concatenation at `(n, 0)` and `(n, 1)`;
  * `lsm_of_stages`: the stages' composition at a column is the specification's log-softmax `Spec.lsm`;
  * `select_eq_ite`: a select on a bit that says `P` is `if P`.
-/
import proofs.«416376_j65790309040722_2_alg».proof.Proof.Val.Spec
import Idealize.ShloMosaic.Lib.ValueIdx
import Idealize.ShloMosaic.Lib.Pipeline.Value
import Idealize.ShloMosaic.PureOps.Ideal.Laws

noncomputable section

namespace Cert.Proof.Val.Ref

open Idealize.ShloMosaic Idealize.ShloMosaic.ValueIdx
open scoped BigOperators

/-! ## A select on a decided bit -/

/-- A select whose condition bit is set exactly when `P` holds is `if P`. -/
theorem select_eq_ite {α : Type} {c : BitVec 1} {P : Prop} [Decidable P] (h : c = 1#1 ↔ P) (a b : α) :
    Scalar.select c a b = if P then a else b := by
  by_cases hp : P
  · rw [h.mpr hp, select_one, if_pos hp]
  · rw [eq_zero_of_ne_one (fun hc => hp (h.mp hc)), select_zero, if_neg hp]

/-! ## The pattern of `−∞` -/

/-- The f32 pattern `0xFF800000` denotes `−∞`. -/
theorem ofBits_neg_inf : Ideal.ofBits .f32 0xFF800000#32 = ⊥ := by simp [Ideal.ofBits, Ideal.ieee]

/-! ## The maximum-reduce over the columns, at a row -/

/-- The reduced index `n` with column `k` put back is `(n, k)`. -/
theorem lift_col {R C : ℕ} (h : (⟨2, ![R, C]⟩ : Shape).Reduces [1] (⟨1, ![R]⟩ : Shape)) (n : Fin R)
    (k : Fin ((⟨2, ![R, C]⟩ : Shape).size 1)) : h.lift (ix1 n) k = ix2 n (⟨k.val, k.isLt⟩ : Fin C) := by
  funext c; apply Fin.ext
  match c with
  | ⟨0, _⟩ => rfl
  | ⟨1, _⟩ => rfl

/-- The host's reduce with a maximum body over the columns of an `R × C` array is, at row `n`, the fold of `max` from the
    initial value over that row's entries. -/
theorem reduce_max_row {R C : ℕ} (x : FVec Ideal ⟨2, ![R, C]⟩ .f32) (init : FVec Ideal ⟨0, ![]⟩ .f32)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (n : Fin R) :
    Host.reduce FloatOps.maximumf x init h' hu (ix1 n)
      = (Finset.univ : Finset (Fin C)).fold max (init (Shape.Idx.first hu)) (fun k => x (ix2 n k)) := by
  rw [Host.reduce_eq_fold_single FloatOps.maximumf x init h' h hu]
  have hf : (x ∘ h.lift (ix1 n)) = fun k : Fin C => x (ix2 n k) := funext fun k => congrArg x (lift_col h n k)
  exact congrArg (fun f => Finset.fold max (init (Shape.Idx.first hu)) f (Finset.univ : Finset (Fin C))) hf

/-! ## The gather of one entry per row

`operand[rows, cols]` lowers to a gather of an `R × C` operand at an `R × 2` array of start indices, index vector along
axis 1, both operand axes collapsed, slice sizes `1 × 1`: result element `n` is the operand at the start index
`(idx[n, 0], idx[n, 1])`, each component read signed and clamped into its axis. -/

/-- Those dimension numbers. -/
abbrev pickDims (R C : ℕ)
    (wf : GatherDims.WF ⟨2, ![R, C]⟩ ⟨2, ![R, 2]⟩ ⟨1, ![R]⟩ [] [0, 1] [] [0, 1] [] 1 ![1, 1]) :
    GatherDims ⟨2, ![R, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

section Pick
variable {R C w : ℕ} (wf : GatherDims.WF ⟨2, ![R, C]⟩ ⟨2, ![R, 2]⟩ ⟨1, ![R]⟩ [] [0, 1] [] [0, 1] [] 1 ![1, 1])
  (idx : IVec ⟨2, ![R, 2]⟩ w) (n : Fin R)

/-- The operand row the gather reads at `n`: the start index's first component, read signed, clamped below `R`. -/
theorem pick_coord0 :
    ((pickDims R C wf).operandIdx (ix1 n) idx 0).val = min (idx (ix2 n (0 : Fin 2))).toInt.toNat (R - 1) := by
  show (pickDims R C wf).start (ix1 n) idx 0 + (pickDims R C wf).batchCoord (ix1 n) 0 + (pickDims R C wf).offCoord (ix1 n) 0 = _
  rw [GatherDims.batchCoord_eq_zero _ _ _ List.not_mem_nil,
    GatherDims.offCoord_eq_zero _ _ _ (fun h => ((GatherDims.mem_sKept _ _).mp h).1 (List.mem_cons.mpr (Or.inl rfl)))]
  simp only [Nat.add_zero]
  unfold GatherDims.start
  rw [dif_pos (show (0 : Fin 2) ∈ (pickDims R C wf).startIndexMap from (List.mem_cons.mpr (Or.inl rfl)))]
  have hsi : (pickDims R C wf).siIdx (ix1 n) ⟨List.idxOf (0 : Fin 2) (pickDims R C wf).startIndexMap,
      List.idxOf_lt_length_iff.2 (List.mem_cons.mpr (Or.inl rfl))⟩ = ix2 n (0 : Fin 2) := by
    funext b; refine Fin.ext ?_
    match b with
    | ⟨0, _⟩ => rfl
    | ⟨1, _⟩ => rfl
  rw [hsi]
  rfl

/-- The operand column the gather reads at `n`: the start index's second component, read signed, clamped below `C`. -/
theorem pick_coord1 :
    ((pickDims R C wf).operandIdx (ix1 n) idx 1).val = min (idx (ix2 n (1 : Fin 2))).toInt.toNat (C - 1) := by
  show (pickDims R C wf).start (ix1 n) idx 1 + (pickDims R C wf).batchCoord (ix1 n) 1 + (pickDims R C wf).offCoord (ix1 n) 1 = _
  rw [GatherDims.batchCoord_eq_zero _ _ _ List.not_mem_nil,
    GatherDims.offCoord_eq_zero _ _ _ (fun h => ((GatherDims.mem_sKept _ _).mp h).1 (List.mem_cons.mpr (Or.inr (List.mem_cons.mpr (Or.inl rfl)))))]
  simp only [Nat.add_zero]
  unfold GatherDims.start
  rw [dif_pos (show (1 : Fin 2) ∈ (pickDims R C wf).startIndexMap from (List.mem_cons.mpr (Or.inr (List.mem_cons.mpr (Or.inl rfl)))))]
  have hsi : (pickDims R C wf).siIdx (ix1 n) ⟨List.idxOf (1 : Fin 2) (pickDims R C wf).startIndexMap,
      List.idxOf_lt_length_iff.2 (List.mem_cons.mpr (Or.inr (List.mem_cons.mpr (Or.inl rfl))))⟩ = ix2 n (1 : Fin 2) := by
    funext b; refine Fin.ext ?_
    match b with
    | ⟨0, _⟩ => rfl
    | ⟨1, _⟩ => rfl
  rw [hsi]
  rfl

/-- THE GATHER READ AT `n`: the operand at the start index `(idx[n, 0], idx[n, 1])`, each component read signed and clamped
    into its axis. -/
theorem gather_pick_apply {α : Type} (hR : 0 < R) (hC : 0 < C) (x : (⟨2, ![R, C]⟩ : Shape).Idx → α) :
    Host.gather (pickDims R C wf) x idx (ix1 n)
      = x (ix2 (⟨min (idx (ix2 n (0 : Fin 2))).toInt.toNat (R - 1), by omega⟩ : Fin R)
               (⟨min (idx (ix2 n (1 : Fin 2))).toInt.toNat (C - 1), by omega⟩ : Fin C)) := by
  unfold Host.gather
  congr 1
  funext a
  refine Fin.ext ?_
  match a with
  | ⟨0, _⟩ => exact pick_coord0 wf idx n
  | ⟨1, _⟩ => exact pick_coord1 wf idx n

/-- The same with the row and the column NAMED: whatever the two clamped components are known to be. -/
theorem gather_pick_eq {α : Type} (hR : 0 < R) (hC : 0 < C) (x : (⟨2, ![R, C]⟩ : Shape).Idx → α) (r : Fin R) (c : Fin C)
    (hr : min (idx (ix2 n (0 : Fin 2))).toInt.toNat (R - 1) = r.val)
    (hc : min (idx (ix2 n (1 : Fin 2))).toInt.toNat (C - 1) = c.val) :
    Host.gather (pickDims R C wf) x idx (ix1 n) = x (ix2 r c) := by
  rw [gather_pick_apply wf idx n hR hC x]
  exact congrArg x (congrArg₂ ix2 (Fin.ext hr) (Fin.ext hc))

end Pick

/-! ## The two-column array of start indices -/

section Concat
variable {α : Type} {R : ℕ} (a b : (⟨2, ![R, 1]⟩ : Shape).Idx → α)
  (h : Shape.Concatenates [(⟨2, ![R, 1]⟩ : Shape), (⟨2, ![R, 1]⟩ : Shape)] (⟨2, ![R, 2]⟩ : Shape) 1) (n : Fin R)

/-- Column 0 of the concatenation along axis 1 of two one-column arrays is the first. -/
theorem concat_col0 :
    concatenate (⟨2, ![R, 2]⟩ : Shape) 1 [⟨(⟨2, ![R, 1]⟩ : Shape), a⟩, ⟨(⟨2, ![R, 1]⟩ : Shape), b⟩] h (ix2 n (0 : Fin 2))
      = a (ix2 n (0 : Fin 1)) :=
  concatenate_pair_apply_left 1 a b h (ix2 n (0 : Fin 2)) rfl (ix2 n (0 : Fin 1))
    (fun c => match c with | ⟨0, _⟩ => rfl | ⟨1, _⟩ => rfl)

/-- Column 1 is the second. -/
theorem concat_col1 :
    concatenate (⟨2, ![R, 2]⟩ : Shape) 1 [⟨(⟨2, ![R, 1]⟩ : Shape), a⟩, ⟨(⟨2, ![R, 1]⟩ : Shape), b⟩] h (ix2 n (1 : Fin 2))
      = b (ix2 n (0 : Fin 1)) :=
  concatenate_pair_apply_right 1 a b h (ix2 n (1 : Fin 2)) rfl rfl (ix2 n (0 : Fin 1))
    (fun c hc => match c, hc with | ⟨0, _⟩, _ => rfl | ⟨1, _⟩, hc => absurd rfl hc) rfl

end Concat

/-! ## The log-softmax from its stages -/

/-- The reference's stages at a column: the entry less the row maximum (itself joined with `−∞`), less the logarithm of
    zero plus the sum of the shifted exponentials. This is the specification's `lsm`. -/
theorem lsm_of_stages {C : ℕ} (z : Fin C → EReal) (c : Fin C) :
    (z c - max ⊥ ((Finset.univ : Finset (Fin C)).fold max ⊥ z))
        - Ideal.log (0 + ∑ k, Ideal.exp (z k - max ⊥ ((Finset.univ : Finset (Fin C)).fold max ⊥ z)))
      = Spec.lsm z c := by
  simp only [Spec.lsm, Spec.lse, Spec.rowMax, max_bot_left, zero_add]

end Cert.Proof.Val.Ref

end
-- ==== Proof.Val.RefHead.lean ====
import proofs.«416376_j65790309040722_2_alg».proof.Proof.RefRead
import proofs.«416376_j65790309040722_2_alg».proof.Proof.Val.Spec
import proofs.«416376_j65790309040722_2_alg».proof.Proof.Val.RefValLib
import proofs.«416376_j65790309040722_2_alg».proof.Proof.Val.Words

/-!
# The reference's head stages read at an index

The reference computes the head's log-softmax the textbook way (row maximum from `−∞`, shifted
entries, the logarithm of the sum of their exponentials) and then picks one entry per row: for a
target in the shortlist the entry at the target's column, else `0`; the three extra columns are
sliced out for the tail clusters. Read at a sample `n`, each of these is the specification's
`Spec.lsm` of the head's logits row at the corresponding column.
-/

noncomputable section

namespace Cert.Proof.Val.RefHead

open Cert.ReferenceIdeal Cert.ReferenceIdeal.Gen Cert.ReferenceIdeal.ReadP
open Idealize.ShloMosaic Idealize.ShloMosaic.ValueIdx Idealize.ShloMosaic.StableHlo
open Cert.Proof.Val

section Stages
variable (x0 : (⟨S2048x512, .f32⟩ : BufTy).Contents (Elt Ideal)) (x1 : (⟨S2048, .i32⟩ : BufTy).Contents (Elt Ideal))
  (x2 : (⟨S1003x512, .f32⟩ : BufTy).Contents (Elt Ideal))

/-- The head's logits of all samples, from the program's arguments read at coordinates. -/
local notation "ZZ" => Spec.headZ (fun n d => x0 (ix2 n d)) (fun cc d => x2 (ix2 cc d))

/-! ## (a) The log-softmax stage -/

/-- The product stage at `(n, c)` is the head's logit. -/
theorem v2_at (n : Fin 2048) (c : Fin 1003) : val_main_v2 (F := Ideal) x0 x2 (ix2 n c) = ZZ n c := by
  rw [val_main_v2_apply]
  unfold Spec.headZ Spec.dotT
  refine Finset.sum_congr rfl (fun k _ => ?_)
  rw [val_main_v1_apply]
  have e1 : lidx_main_v2 (ix2 n c) k = ix2 n k := by
    funext a; match a with | ⟨0, _⟩ => rfl | ⟨1, _⟩ => rfl
  have e2 : idx_main_v1 (ridx_main_v2 (ix2 n c) k) = ix2 c k := by
    funext a; match a with | ⟨0, _⟩ => rfl | ⟨1, _⟩ => rfl
  rw [e1, e2]

/-- The row-maximum stage at `n`: the fold of `max` from `−∞`, joined once more with `−∞`. -/
theorem rowmax_at (n : Fin 2048) :
    val_main_call0_v2 (F := Ideal) x0 x2 (ix1 n) = max ⊥ ((Finset.univ : Finset (Fin 1003)).fold max ⊥ (ZZ n)) := by
  rw [val_main_call0_v2_apply, val_main_call0_v1_apply, val_main_call0_cst_0_apply]
  unfold val_main_call0_v0
  rw [Ref.reduce_max_row _ _ reducesTo_S2048x1003_S2048_d1 (by decide) h_S_ n, val_main_call0_cst_apply]
  have hb : (FloatOps.ofBits .f32 0xFF800000#32 : Ideal .f32) = (⊥ : EReal) := Ref.ofBits_neg_inf
  have hf : (fun k : Fin 1003 => val_main_v2 (F := Ideal) x0 x2 (ix2 n k)) = ZZ n := funext (fun k => v2_at x0 x2 n k)
  rw [hb, hf]
  rfl

/-- The shifted entry at `(n, c)`. -/
theorem v5_at (n : Fin 2048) (c : Fin 1003) :
    val_main_call0_v5 (F := Ideal) x0 x2 (ix2 n c)
      = ZZ n c - max ⊥ ((Finset.univ : Finset (Fin 1003)).fold max ⊥ (ZZ n)) := by
  have e : idx_main_call0_v3 (idx_main_call0_v4 (ix2 n c)) = ix1 n := by
    funext a; match a with | ⟨0, _⟩ => rfl
  rw [val_main_call0_v5_apply, val_main_call0_v4_apply, val_main_call0_v3_apply, e, rowmax_at, v2_at]
  rfl

/-- The sum stage at `n`: zero plus the sum of the exponentials of the shifted entries. -/
theorem v7_at (n : Fin 2048) :
    val_main_call0_v7 (F := Ideal) x0 x2 (ix1 n)
      = 0 + ∑ k : Fin 1003, Ideal.exp (ZZ n k - max ⊥ ((Finset.univ : Finset (Fin 1003)).fold max ⊥ (ZZ n))) := by
  rw [val_main_call0_v7_apply, val_main_call0_cst_1_apply]
  have h0 : (FloatOps.ofBits .f32 0x00000000#32 : Ideal .f32) = (0 : EReal) := Ideal.ofBits_zero_f32
  rw [h0]
  refine congrArg (0 + ·) (Finset.sum_congr rfl (fun k _ => ?_))
  have e : idx_main_call0_v7 (ix1 n) k = ix2 n k := by
    funext a; match a with | ⟨0, _⟩ => rfl | ⟨1, _⟩ => rfl
  rw [e, val_main_call0_v6_apply, v5_at]
  rfl

/-- (a) The log-softmax stage at `(n, c)` is the specification's log-softmax of the logits row. -/
theorem v3_at (n : Fin 2048) (c : Fin 1003) :
    val_main_v3 (F := Ideal) x0 x2 (ix2 n c) = Spec.lsm (ZZ n) c := by
  have e : idx_main_call0_v8 (idx_main_call0_v10 (ix2 n c)) = ix1 n := by
    funext a; match a with | ⟨0, _⟩ => rfl
  rw [val_main_v3_apply, val_main_call0_v10_apply, val_main_call0_v9_apply, val_main_call0_v8_apply, e, v7_at, v5_at]
  exact Ref.lsm_of_stages (ZZ n) c

/-! ## (b) The shortlist stage -/

/-- The row index column of the gather's start indices: the sample's own number. -/
theorem v12_at (n : Fin 2048) : val_main_v12 (F := Ideal) (ix1 n) = BitVec.ofNat 32 n.val := by
  rw [val_main_v12_apply, val_main_v9_apply, val_main_v8_apply, val_main_c_1_apply, val_main_v0_apply]
  have hn : n.val < 2048 := n.isLt
  exact Words.select_norm_ofNat (j := n.val) (by omega) _

/-- The column of the gather's start indices: the target clipped at `999`. -/
theorem v17_at (n : Fin 2048) (ht : (x1 (ix1 n)).toNat < 2 ^ 31) :
    val_main_v17 (F := Ideal) x1 (ix1 n) = IntOp.minsi (x1 (ix1 n)) 999#32 := by
  rw [val_main_v17_apply, val_main_v14_apply, val_main_v13_apply, val_main_c_3_apply, val_main_v7_apply,
    val_main_v6_apply, val_main_c_0_apply]
  exact Words.select_norm (Words.minsi_ofNat_lt ht (k := 999) (by omega)) _

/-- The gather stage at `n`: the log-softmax at the target's column clipped at `999`. -/
theorem v21_at (n : Fin 2048) (ht : (x1 (ix1 n)).toNat < 2 ^ 31) :
    val_main_v21 (F := Ideal) x0 x1 x2 (ix1 n)
      = Spec.lsm (ZZ n) ⟨min (x1 (ix1 n)).toNat 999, by omega⟩ := by
  unfold val_main_v21 val_main_v20
  have e18 : idx_main_v18 (ix2 n (0 : Fin 1)) = ix1 n := by
    funext a; match a with | ⟨0, _⟩ => rfl
  have e19 : idx_main_v19 (ix2 n (0 : Fin 1)) = ix1 n := by
    funext a; match a with | ⟨0, _⟩ => rfl
  have hn : n.val < 2048 := n.isLt
  rw [← v3_at]
  refine Ref.gather_pick_eq gather_S2048x1003_S2048x2_S2048_n_01_n_n_01_1_11_wf _ n (by decide) (by decide) _ n
    ⟨min (x1 (ix1 n)).toNat 999, by omega⟩ ?_ ?_
  · rw [Ref.concat_col0, val_main_v18_apply, e18, v12_at]
    exact Words.clamp_ofNat (by omega) (by omega)
  · rw [Ref.concat_col1, val_main_v19_apply, e19, v17_at x1 n ht]
    exact Words.clamp_minsi ht (k := 999) (by omega) (by omega)

/-- (b) The shortlist stage at `n`: for a target in the shortlist the log-softmax at its column, else `0`. -/
theorem v22_at (n : Fin 2048) (ht : (x1 (ix1 n)).toNat < 2 ^ 31) :
    val_main_v22 (F := Ideal) x0 x1 x2 (ix1 n)
      = if (x1 (ix1 n)).toNat < 1000 then Spec.lsm (ZZ n) (Spec.col 1003 (by norm_num) (x1 (ix1 n)).toNat) else 0 := by
  rw [val_main_v22_apply, val_main_v5_apply, val_main_v4_apply, val_main_c_apply,
    Words.select_slt ht (k := 1000) (by omega), v21_at x0 x1 x2 n ht, val_main_call1_v1_apply, val_main_call1_v0_apply,
    val_main_cst_apply]
  have h0 : (FloatOps.ofBits .f32 0x00000000#32 : Ideal .f32) = (0 : EReal) := Ideal.ofBits_zero_f32
  rw [h0]
  by_cases h : (x1 (ix1 n)).toNat < 1000
  · rw [if_pos h, if_pos h]
    congr 1
    exact Fin.ext (by
      show min (x1 (ix1 n)).toNat 999 = min (x1 (ix1 n)).toNat (1003 - 1)
      omega)
  · rw [if_neg h, if_neg h]

/-! ## (c) The three extra columns -/

theorem v31_at (n : Fin 2048) :
    val_main_v31 (F := Ideal) x0 x2 (ix2 n (0 : Fin 1)) = Spec.lsm (ZZ n) ⟨1000, by norm_num⟩ := by
  have e : idx_main_v31 (ix2 n (0 : Fin 1)) = ix2 n (⟨1000, by norm_num⟩ : Fin 1003) := by
    funext a; match a with | ⟨0, _⟩ => rfl | ⟨1, _⟩ => rfl
  rw [val_main_v31_apply, e, v3_at]

theorem v32_at (n : Fin 2048) :
    val_main_v32 (F := Ideal) x0 x2 (ix1 n) = Spec.lsm (ZZ n) ⟨1000, by norm_num⟩ := by
  have e : idx_main_v32 (ix1 n) = ix2 n (0 : Fin 1) := by
    funext a; match a with | ⟨0, _⟩ => exact Fin.ext (Nat.div_one _) | ⟨1, _⟩ => rfl
  rw [val_main_v32_apply, e, v31_at]

theorem v62_at (n : Fin 2048) :
    val_main_v62 (F := Ideal) x0 x2 (ix2 n (0 : Fin 1)) = Spec.lsm (ZZ n) ⟨1001, by norm_num⟩ := by
  have e : idx_main_v62 (ix2 n (0 : Fin 1)) = ix2 n (⟨1001, by norm_num⟩ : Fin 1003) := by
    funext a; match a with | ⟨0, _⟩ => rfl | ⟨1, _⟩ => rfl
  rw [val_main_v62_apply, e, v3_at]

theorem v63_at (n : Fin 2048) :
    val_main_v63 (F := Ideal) x0 x2 (ix1 n) = Spec.lsm (ZZ n) ⟨1001, by norm_num⟩ := by
  have e : idx_main_v63 (ix1 n) = ix2 n (0 : Fin 1) := by
    funext a; match a with | ⟨0, _⟩ => exact Fin.ext (Nat.div_one _) | ⟨1, _⟩ => rfl
  rw [val_main_v63_apply, e, v62_at]

theorem v93_at (n : Fin 2048) :
    val_main_v93 (F := Ideal) x0 x2 (ix2 n (0 : Fin 1)) = Spec.lsm (ZZ n) ⟨1002, by norm_num⟩ := by
  have e : idx_main_v93 (ix2 n (0 : Fin 1)) = ix2 n (⟨1002, by norm_num⟩ : Fin 1003) := by
    funext a; match a with | ⟨0, _⟩ => rfl | ⟨1, _⟩ => rfl
  rw [val_main_v93_apply, e, v3_at]

theorem v94_at (n : Fin 2048) :
    val_main_v94 (F := Ideal) x0 x2 (ix1 n) = Spec.lsm (ZZ n) ⟨1002, by norm_num⟩ := by
  have e : idx_main_v94 (ix1 n) = ix2 n (0 : Fin 1) := by
    funext a; match a with | ⟨0, _⟩ => exact Fin.ext (Nat.div_one _) | ⟨1, _⟩ => rfl
  rw [val_main_v94_apply, e, v93_at]

end Stages

end Cert.Proof.Val.RefHead
-- ==== Proof.Val.RefC0.lean ====
/-
  The reference's tail cluster 0 (classes 1000 ≤ τ < 10000; hidden width 128; 9000 columns), read at one sample `n`.

  The reference forms the cluster's logits as the two products `(x · w1ᵀ) · w2ᵀ`, takes their log-softmax the textbook way
  (row maximum, shifted entries, sum of exponentials, logarithm), and picks the entry at column `clip(t − 1000, 0, 8999)`
  by a gather whose start index is `[row, column]`. Stage by stage this file identifies: the hidden activation with
  `Spec.hid`, the logits with `Spec.tailZ`, the log-softmax with `Spec.lsm`, the gather's start row with `n` and its start
  column with `Spec.col 9000 _ (τ − 1000)`; so the picked entry is `Spec.lsm (Spec.tailZ …) (Spec.col 9000 _ (τ − 1000))`
  (`pick`), the cluster's value adds the head's log-probability of the cluster (`val`), and the cluster's mask is the test
  `1000 ≤ τ ∧ τ < 10000` (`mask`). The target word is assumed below 2³¹ (a signed reading that is not negative).
-/
import proofs.«416376_j65790309040722_2_alg».proof.Proof.RefRead
import proofs.«416376_j65790309040722_2_alg».proof.Proof.Val.Spec
import proofs.«416376_j65790309040722_2_alg».proof.Proof.Val.RefValLib
import proofs.«416376_j65790309040722_2_alg».proof.Proof.Val.Words

noncomputable section

namespace Cert.Proof.Val.Ref.C0

open Cert.ReferenceIdeal Cert.ReferenceIdeal.Gen Cert.ReferenceIdeal.ReadP Idealize.ShloMosaic Idealize.ShloMosaic.ValueIdx
open Cert.Proof.Val Cert.Proof.Val.Ref
open scoped BigOperators

variable (x0 : (⟨S2048x512, .f32⟩ : BufTy).Contents (Elt Ideal)) (x1 : (⟨S2048, .i32⟩ : BufTy).Contents (Elt Ideal))
  (x2 : (⟨S1003x512, .f32⟩ : BufTy).Contents (Elt Ideal))
  (x3 : (⟨S128x512, .f32⟩ : BufTy).Contents (Elt Ideal)) (x4 : (⟨S9000x128, .f32⟩ : BufTy).Contents (Elt Ideal))

local notation "X" => (fun (n : Fin 2048) (d : Fin 512) => x0 (ix2 n d))
local notation "W1" => (fun (h : Fin 128) (d : Fin 512) => x3 (ix2 h d))
local notation "W2" => (fun (cc : Fin 9000) (h : Fin 128) => x4 (ix2 cc h))

/-! ## The two products -/

theorem lidxA (n : Fin 2048) (h : Fin 128) (k : Fin 512) : lidx_main_v24 (ix2 n h) k = ix2 n k :=
  funext fun a => by match a with | ⟨0, _⟩ => rfl | ⟨1, _⟩ => rfl
theorem ridxA (n : Fin 2048) (h : Fin 128) (k : Fin 512) : idx_main_v23 (ridx_main_v24 (ix2 n h) k) = ix2 h k :=
  funext fun a => by match a with | ⟨0, _⟩ => rfl | ⟨1, _⟩ => rfl

/-- The hidden activation: row `n` of `x · w1ᵀ`. -/
theorem hid (n : Fin 2048) (h : Fin 128) :
    val_main_v24 (F := Ideal) x0 x3 (ix2 n h) = Spec.hid X W1 n h := by
  rw [val_main_v24_apply]
  show _ = ∑ k : Fin 512, x0 (ix2 n k) * x3 (ix2 h k)
  refine Finset.sum_congr rfl fun k _ => ?_
  rw [val_main_v23_apply, lidxA, ridxA]

theorem lidxB (n : Fin 2048) (c : Fin 9000) (k : Fin 128) : lidx_main_v26 (ix2 n c) k = ix2 n k :=
  funext fun a => by match a with | ⟨0, _⟩ => rfl | ⟨1, _⟩ => rfl
theorem ridxB (n : Fin 2048) (c : Fin 9000) (k : Fin 128) : idx_main_v25 (ridx_main_v26 (ix2 n c) k) = ix2 c k :=
  funext fun a => by match a with | ⟨0, _⟩ => rfl | ⟨1, _⟩ => rfl

/-- The cluster's logits: row `n` of `(x · w1ᵀ) · w2ᵀ`. -/
theorem logits (n : Fin 2048) (c : Fin 9000) :
    val_main_v26 (F := Ideal) x0 x3 x4 (ix2 n c) = Spec.tailZ X W1 W2 n c := by
  rw [val_main_v26_apply]
  show _ = ∑ k : Fin 128, Spec.hid X W1 n k * x4 (ix2 c k)
  refine Finset.sum_congr rfl fun k _ => ?_
  rw [val_main_v25_apply, lidxB, ridxB, hid]

/-! ## The log-softmax -/

/-- The row maximum the reference's log-softmax subtracts. -/
theorem rowmax (n : Fin 2048) :
    val_main_call2_v2 (F := Ideal) x0 x3 x4 (ix1 n)
      = max ⊥ ((Finset.univ : Finset (Fin 9000)).fold max ⊥ (Spec.tailZ X W1 W2 n)) := by
  rw [val_main_call2_v2_apply, val_main_call2_v1_apply, val_main_call2_cst_0_apply]
  unfold val_main_call2_v0
  rw [reduce_max_row (val_main_v26 (F := Ideal) x0 x3 x4) (val_main_call2_cst (F := Ideal)) reducesTo_S2048x9000_S2048_d1 (by decide) h_S_ n]
  rw [val_main_call2_cst_apply]
  simp only [Ideal.maximumf_def, Ideal.ofBits_def, ofBits_neg_inf]
  refine congrArg (fun f => max ⊥ (Finset.fold max ⊥ f (Finset.univ : Finset (Fin 9000)))) (funext fun k => ?_)
  exact logits x0 x3 x4 n k

theorem idxMax (n : Fin 2048) (c : Fin 9000) : idx_main_call2_v3 (idx_main_call2_v4 (ix2 n c)) = ix1 n :=
  funext fun a => by match a with | ⟨0, _⟩ => rfl
theorem idxLog (n : Fin 2048) (c : Fin 9000) : idx_main_call2_v8 (idx_main_call2_v10 (ix2 n c)) = ix1 n :=
  funext fun a => by match a with | ⟨0, _⟩ => rfl
theorem idxSum (n : Fin 2048) (k : Fin 9000) : idx_main_call2_v7 (ix1 n) k = ix2 n k :=
  funext fun a => by match a with | ⟨0, _⟩ => rfl | ⟨1, _⟩ => rfl

/-- The shifted entry. -/
theorem shift (n : Fin 2048) (c : Fin 9000) :
    val_main_call2_v5 (F := Ideal) x0 x3 x4 (ix2 n c)
      = Spec.tailZ X W1 W2 n c - max ⊥ ((Finset.univ : Finset (Fin 9000)).fold max ⊥ (Spec.tailZ X W1 W2 n)) := by
  rw [val_main_call2_v5_apply, val_main_call2_v4_apply, val_main_call2_v3_apply, idxMax, rowmax, logits, Ideal.subf_def]

/-- The sum of the shifted exponentials, from zero. -/
theorem expsum (n : Fin 2048) :
    val_main_call2_v7 (F := Ideal) x0 x3 x4 (ix1 n)
      = 0 + ∑ k : Fin 9000, Ideal.exp (Spec.tailZ X W1 W2 n k
          - max ⊥ ((Finset.univ : Finset (Fin 9000)).fold max ⊥ (Spec.tailZ X W1 W2 n))) := by
  rw [val_main_call2_v7_apply, val_main_call2_cst_1_apply]
  refine congrArg₂ (· + ·) Ideal.ofBits_zero_f32 (Finset.sum_congr rfl fun k _ => ?_)
  rw [idxSum, val_main_call2_v6_apply, shift, Ideal.hostUnary_exp_def]

/-- The cluster's log-softmax is the specification's. -/
theorem lp (n : Fin 2048) (c : Fin 9000) :
    val_main_v27 (F := Ideal) x0 x3 x4 (ix2 n c) = Spec.lsm (Spec.tailZ X W1 W2 n) c := by
  rw [val_main_v27_apply, shift, val_main_call2_v10_apply, val_main_call2_v9_apply, val_main_call2_v8_apply, idxLog, expsum,
    Ideal.subf_def, Ideal.hostUnary_log_def]
  exact lsm_of_stages (Spec.tailZ X W1 W2 n) c

/-! ## The picked entry -/

theorem idxRow (n : Fin 2048) : idx_main_v43 (ix2 n (0 : Fin 1)) = ix1 n :=
  funext fun a => by match a with | ⟨0, _⟩ => rfl
theorem idxCol (n : Fin 2048) : idx_main_v44 (ix2 n (0 : Fin 1)) = ix1 n :=
  funext fun a => by match a with | ⟨0, _⟩ => rfl

/-- The gather's start row at `n`: the row counter, normalised, read signed and clamped, is `n`. -/
theorem start_row (n : Fin 2048) :
    min (val_main_v45 (F := Ideal) x1 (ix2 n (0 : Fin 2))).toInt.toNat (2048 - 1) = n.val := by
  unfold val_main_v45
  rw [concat_col0 (val_main_v43 (F := Ideal)) (val_main_v44 (F := Ideal) x1) concatenates_S2048x1_S2048x1_S2048x2_d1 n]
  rw [val_main_v43_apply, idxRow, val_main_v37_apply, val_main_v34_apply, val_main_v36_apply, val_main_v33_apply,
    val_main_c_8_apply, val_main_v35_apply, val_main_c_9_apply, val_main_v0_apply]
  show min (Scalar.select (IntOp.cmpi .slt (BitVec.ofNat 32 n.val) 0#32) (IntOp.addi (BitVec.ofNat 32 n.val) 2048#32)
    (BitVec.ofNat 32 n.val)).toInt.toNat (2048 - 1) = n.val
  rw [Words.select_norm_ofNat (by omega) 2048#32]
  exact Words.clamp_ofNat (by omega) (by omega)

/-- The gather's start column at `n`: the target less the cluster's first class, clipped into the cluster, normalised,
    read signed and clamped. -/
theorem start_col (n : Fin 2048) (ht : (x1 (ix1 n)).toNat < 2 ^ 31) :
    min (val_main_v45 (F := Ideal) x1 (ix2 n (1 : Fin 2))).toInt.toNat (9000 - 1)
      = (Spec.col 9000 (by norm_num) ((x1 (ix1 n)).toNat - 1000)).val := by
  unfold val_main_v45
  rw [concat_col1 (val_main_v43 (F := Ideal)) (val_main_v44 (F := Ideal) x1) concatenates_S2048x1_S2048x1_S2048x2_d1 n]
  rw [val_main_v44_apply, idxCol, val_main_v42_apply, val_main_v39_apply, val_main_v41_apply, val_main_v38_apply,
    val_main_c_10_apply, val_main_v40_apply, val_main_c_11_apply, val_main_v30_apply, val_main_call3_v4_apply,
    val_main_call3_v3_apply, val_main_c_7_apply, val_main_call3_v2_apply, val_main_call3_v1_apply, val_main_call3_v0_apply,
    val_main_c_6_apply, val_main_v29_apply, val_main_v28_apply, val_main_c_5_apply]
  rw [Words.norm_clip_sub ht (by omega) (by omega) 9000#32]
  exact Words.clamp_ofNat (by omega) (by omega)

/-- The picked entry of the cluster's log-softmax. -/
theorem pick (n : Fin 2048) (ht : (x1 (ix1 n)).toNat < 2 ^ 31) :
    val_main_v46 (F := Ideal) x0 x1 x3 x4 (ix1 n)
      = Spec.lsm (Spec.tailZ X W1 W2 n) (Spec.col 9000 (by norm_num) ((x1 (ix1 n)).toNat - 1000)) := by
  unfold val_main_v46
  refine (gather_pick_eq gather_S2048x9000_S2048x2_S2048_n_01_n_n_01_1_11_wf (val_main_v45 (F := Ideal) x1) n (by decide) (by decide)
    (val_main_v27 (F := Ideal) x0 x3 x4) n (Spec.col 9000 (by norm_num) ((x1 (ix1 n)).toNat - 1000))
    (start_row x1 n) (start_col x1 n ht)).trans ?_
  exact lp x0 x3 x4 n _

/-! ## The cluster's value and mask -/

/-- The cluster's value: the head's log-probability of the cluster plus the picked entry. -/
theorem val (n : Fin 2048) (ht : (x1 (ix1 n)).toNat < 2 ^ 31) :
    val_main_v47 (F := Ideal) x0 x1 x2 x3 x4 (ix1 n)
      = val_main_v32 (F := Ideal) x0 x2 (ix1 n)
        + Spec.lsm (Spec.tailZ X W1 W2 n) (Spec.col 9000 (by norm_num) ((x1 (ix1 n)).toNat - 1000)) := by
  rw [val_main_v47_apply, pick x0 x1 x3 x4 n ht, Ideal.addf_def]

/-- The cluster's mask: the target is one of the cluster's classes. -/
theorem mask {α : Type} (n : Fin 2048) (ht : (x1 (ix1 n)).toNat < 2 ^ 31) (a b : α) :
    Scalar.select (val_main_v52 (F := Ideal) x1 (ix1 n)) a b
      = if 1000 ≤ (x1 (ix1 n)).toNat ∧ (x1 (ix1 n)).toNat < 10000 then a else b := by
  rw [val_main_v52_apply, val_main_v49_apply, val_main_v51_apply, val_main_v48_apply, val_main_c_12_apply,
    val_main_v50_apply, val_main_c_13_apply]
  exact Words.select_band ht (by omega) (by omega) a b

end Cert.Proof.Val.Ref.C0

end
-- ==== Proof.Val.RefC1.lean ====
/-
  The reference's tail cluster 1 (classes 10000 ≤ τ < 50000; hidden width 32; 40000 columns), read at one sample `n`.

  The reference forms the cluster's logits as the two products `(x · w1ᵀ) · w2ᵀ`, takes their log-softmax the textbook way
  (row maximum, shifted entries, sum of exponentials, logarithm), and picks the entry at column `clip(t − 10000, 0, 39999)`
  by a gather whose start index is `[row, column]`. Stage by stage this file identifies: the hidden activation with
  `Spec.hid`, the logits with `Spec.tailZ`, the log-softmax with `Spec.lsm`, the gather's start row with `n` and its start
  column with `Spec.col 40000 _ (τ − 10000)`; so the picked entry is `Spec.lsm (Spec.tailZ …) (Spec.col 40000 _ (τ − 10000))`
  (`pick`), the cluster's value adds the head's log-probability of the cluster (`val`), and the cluster's mask is the test
  `10000 ≤ τ ∧ τ < 50000` (`mask`). The target word is assumed below 2³¹ (a signed reading that is not negative).
-/
import proofs.«416376_j65790309040722_2_alg».proof.Proof.RefRead
import proofs.«416376_j65790309040722_2_alg».proof.Proof.Val.Spec
import proofs.«416376_j65790309040722_2_alg».proof.Proof.Val.RefValLib
import proofs.«416376_j65790309040722_2_alg».proof.Proof.Val.Words

noncomputable section

namespace Cert.Proof.Val.Ref.C1

open Cert.ReferenceIdeal Cert.ReferenceIdeal.Gen Cert.ReferenceIdeal.ReadP Idealize.ShloMosaic Idealize.ShloMosaic.ValueIdx
open Cert.Proof.Val Cert.Proof.Val.Ref
open scoped BigOperators

variable (x0 : (⟨S2048x512, .f32⟩ : BufTy).Contents (Elt Ideal)) (x1 : (⟨S2048, .i32⟩ : BufTy).Contents (Elt Ideal))
  (x2 : (⟨S1003x512, .f32⟩ : BufTy).Contents (Elt Ideal))
  (x5 : (⟨S32x512, .f32⟩ : BufTy).Contents (Elt Ideal)) (x6 : (⟨S40000x32, .f32⟩ : BufTy).Contents (Elt Ideal))

local notation "X" => (fun (n : Fin 2048) (d : Fin 512) => x0 (ix2 n d))
local notation "W1" => (fun (h : Fin 32) (d : Fin 512) => x5 (ix2 h d))
local notation "W2" => (fun (cc : Fin 40000) (h : Fin 32) => x6 (ix2 cc h))

/-! ## The two products -/

theorem lidxA (n : Fin 2048) (h : Fin 32) (k : Fin 512) : lidx_main_v55 (ix2 n h) k = ix2 n k :=
  funext fun a => by match a with | ⟨0, _⟩ => rfl | ⟨1, _⟩ => rfl
theorem ridxA (n : Fin 2048) (h : Fin 32) (k : Fin 512) : idx_main_v54 (ridx_main_v55 (ix2 n h) k) = ix2 h k :=
  funext fun a => by match a with | ⟨0, _⟩ => rfl | ⟨1, _⟩ => rfl

/-- The hidden activation: row `n` of `x · w1ᵀ`. -/
theorem hid (n : Fin 2048) (h : Fin 32) :
    val_main_v55 (F := Ideal) x0 x5 (ix2 n h) = Spec.hid X W1 n h := by
  rw [val_main_v55_apply]
  show _ = ∑ k : Fin 512, x0 (ix2 n k) * x5 (ix2 h k)
  refine Finset.sum_congr rfl fun k _ => ?_
  rw [val_main_v54_apply, lidxA, ridxA]

theorem lidxB (n : Fin 2048) (c : Fin 40000) (k : Fin 32) : lidx_main_v57 (ix2 n c) k = ix2 n k :=
  funext fun a => by match a with | ⟨0, _⟩ => rfl | ⟨1, _⟩ => rfl
theorem ridxB (n : Fin 2048) (c : Fin 40000) (k : Fin 32) : idx_main_v56 (ridx_main_v57 (ix2 n c) k) = ix2 c k :=
  funext fun a => by match a with | ⟨0, _⟩ => rfl | ⟨1, _⟩ => rfl

/-- The cluster's logits: row `n` of `(x · w1ᵀ) · w2ᵀ`. -/
theorem logits (n : Fin 2048) (c : Fin 40000) :
    val_main_v57 (F := Ideal) x0 x5 x6 (ix2 n c) = Spec.tailZ X W1 W2 n c := by
  rw [val_main_v57_apply]
  show _ = ∑ k : Fin 32, Spec.hid X W1 n k * x6 (ix2 c k)
  refine Finset.sum_congr rfl fun k _ => ?_
  rw [val_main_v56_apply, lidxB, ridxB, hid]

/-! ## The log-softmax -/

/-- The row maximum the reference's log-softmax subtracts. -/
theorem rowmax (n : Fin 2048) :
    val_main_call5_v2 (F := Ideal) x0 x5 x6 (ix1 n)
      = max ⊥ ((Finset.univ : Finset (Fin 40000)).fold max ⊥ (Spec.tailZ X W1 W2 n)) := by
  rw [val_main_call5_v2_apply, val_main_call5_v1_apply, val_main_call5_cst_0_apply]
  unfold val_main_call5_v0
  rw [reduce_max_row (val_main_v57 (F := Ideal) x0 x5 x6) (val_main_call5_cst (F := Ideal)) reducesTo_S2048x40000_S2048_d1 (by decide) h_S_ n]
  rw [val_main_call5_cst_apply]
  simp only [Ideal.maximumf_def, Ideal.ofBits_def, ofBits_neg_inf]
  refine congrArg (fun f => max ⊥ (Finset.fold max ⊥ f (Finset.univ : Finset (Fin 40000)))) (funext fun k => ?_)
  exact logits x0 x5 x6 n k

theorem idxMax (n : Fin 2048) (c : Fin 40000) : idx_main_call5_v3 (idx_main_call5_v4 (ix2 n c)) = ix1 n :=
  funext fun a => by match a with | ⟨0, _⟩ => rfl
theorem idxLog (n : Fin 2048) (c : Fin 40000) : idx_main_call5_v8 (idx_main_call5_v10 (ix2 n c)) = ix1 n :=
  funext fun a => by match a with | ⟨0, _⟩ => rfl
theorem idxSum (n : Fin 2048) (k : Fin 40000) : idx_main_call5_v7 (ix1 n) k = ix2 n k :=
  funext fun a => by match a with | ⟨0, _⟩ => rfl | ⟨1, _⟩ => rfl

/-- The shifted entry. -/
theorem shift (n : Fin 2048) (c : Fin 40000) :
    val_main_call5_v5 (F := Ideal) x0 x5 x6 (ix2 n c)
      = Spec.tailZ X W1 W2 n c - max ⊥ ((Finset.univ : Finset (Fin 40000)).fold max ⊥ (Spec.tailZ X W1 W2 n)) := by
  rw [val_main_call5_v5_apply, val_main_call5_v4_apply, val_main_call5_v3_apply, idxMax, rowmax, logits, Ideal.subf_def]

/-- The sum of the shifted exponentials, from zero. -/
theorem expsum (n : Fin 2048) :
    val_main_call5_v7 (F := Ideal) x0 x5 x6 (ix1 n)
      = 0 + ∑ k : Fin 40000, Ideal.exp (Spec.tailZ X W1 W2 n k
          - max ⊥ ((Finset.univ : Finset (Fin 40000)).fold max ⊥ (Spec.tailZ X W1 W2 n))) := by
  rw [val_main_call5_v7_apply, val_main_call5_cst_1_apply]
  refine congrArg₂ (· + ·) Ideal.ofBits_zero_f32 (Finset.sum_congr rfl fun k _ => ?_)
  rw [idxSum, val_main_call5_v6_apply, shift, Ideal.hostUnary_exp_def]

/-- The cluster's log-softmax is the specification's. -/
theorem lp (n : Fin 2048) (c : Fin 40000) :
    val_main_v58 (F := Ideal) x0 x5 x6 (ix2 n c) = Spec.lsm (Spec.tailZ X W1 W2 n) c := by
  rw [val_main_v58_apply, shift, val_main_call5_v10_apply, val_main_call5_v9_apply, val_main_call5_v8_apply, idxLog, expsum,
    Ideal.subf_def, Ideal.hostUnary_log_def]
  exact lsm_of_stages (Spec.tailZ X W1 W2 n) c

/-! ## The picked entry -/

theorem idxRow (n : Fin 2048) : idx_main_v74 (ix2 n (0 : Fin 1)) = ix1 n :=
  funext fun a => by match a with | ⟨0, _⟩ => rfl
theorem idxCol (n : Fin 2048) : idx_main_v75 (ix2 n (0 : Fin 1)) = ix1 n :=
  funext fun a => by match a with | ⟨0, _⟩ => rfl

/-- The gather's start row at `n`: the row counter, normalised, read signed and clamped, is `n`. -/
theorem start_row (n : Fin 2048) :
    min (val_main_v76 (F := Ideal) x1 (ix2 n (0 : Fin 2))).toInt.toNat (2048 - 1) = n.val := by
  unfold val_main_v76
  rw [concat_col0 (val_main_v74 (F := Ideal)) (val_main_v75 (F := Ideal) x1) concatenates_S2048x1_S2048x1_S2048x2_d1 n]
  rw [val_main_v74_apply, idxRow, val_main_v68_apply, val_main_v65_apply, val_main_v67_apply, val_main_v64_apply,
    val_main_c_17_apply, val_main_v66_apply, val_main_c_18_apply, val_main_v0_apply]
  show min (Scalar.select (IntOp.cmpi .slt (BitVec.ofNat 32 n.val) 0#32) (IntOp.addi (BitVec.ofNat 32 n.val) 2048#32)
    (BitVec.ofNat 32 n.val)).toInt.toNat (2048 - 1) = n.val
  rw [Words.select_norm_ofNat (by omega) 2048#32]
  exact Words.clamp_ofNat (by omega) (by omega)

/-- The gather's start column at `n`: the target less the cluster's first class, clipped into the cluster, normalised,
    read signed and clamped. -/
theorem start_col (n : Fin 2048) (ht : (x1 (ix1 n)).toNat < 2 ^ 31) :
    min (val_main_v76 (F := Ideal) x1 (ix2 n (1 : Fin 2))).toInt.toNat (40000 - 1)
      = (Spec.col 40000 (by norm_num) ((x1 (ix1 n)).toNat - 10000)).val := by
  unfold val_main_v76
  rw [concat_col1 (val_main_v74 (F := Ideal)) (val_main_v75 (F := Ideal) x1) concatenates_S2048x1_S2048x1_S2048x2_d1 n]
  rw [val_main_v75_apply, idxCol, val_main_v73_apply, val_main_v70_apply, val_main_v72_apply, val_main_v69_apply,
    val_main_c_19_apply, val_main_v71_apply, val_main_c_20_apply, val_main_v61_apply, val_main_call6_v4_apply,
    val_main_call6_v3_apply, val_main_c_16_apply, val_main_call6_v2_apply, val_main_call6_v1_apply, val_main_call6_v0_apply,
    val_main_c_15_apply, val_main_v60_apply, val_main_v59_apply, val_main_c_14_apply]
  rw [Words.norm_clip_sub ht (by omega) (by omega) 40000#32]
  exact Words.clamp_ofNat (by omega) (by omega)

/-- The picked entry of the cluster's log-softmax. -/
theorem pick (n : Fin 2048) (ht : (x1 (ix1 n)).toNat < 2 ^ 31) :
    val_main_v77 (F := Ideal) x0 x1 x5 x6 (ix1 n)
      = Spec.lsm (Spec.tailZ X W1 W2 n) (Spec.col 40000 (by norm_num) ((x1 (ix1 n)).toNat - 10000)) := by
  unfold val_main_v77
  refine (gather_pick_eq gather_S2048x40000_S2048x2_S2048_n_01_n_n_01_1_11_wf (val_main_v76 (F := Ideal) x1) n (by decide) (by decide)
    (val_main_v58 (F := Ideal) x0 x5 x6) n (Spec.col 40000 (by norm_num) ((x1 (ix1 n)).toNat - 10000))
    (start_row x1 n) (start_col x1 n ht)).trans ?_
  exact lp x0 x5 x6 n _

/-! ## The cluster's value and mask -/

/-- The cluster's value: the head's log-probability of the cluster plus the picked entry. -/
theorem val (n : Fin 2048) (ht : (x1 (ix1 n)).toNat < 2 ^ 31) :
    val_main_v78 (F := Ideal) x0 x1 x2 x5 x6 (ix1 n)
      = val_main_v63 (F := Ideal) x0 x2 (ix1 n)
        + Spec.lsm (Spec.tailZ X W1 W2 n) (Spec.col 40000 (by norm_num) ((x1 (ix1 n)).toNat - 10000)) := by
  rw [val_main_v78_apply, pick x0 x1 x5 x6 n ht, Ideal.addf_def]

/-- The cluster's mask: the target is one of the cluster's classes. -/
theorem mask {α : Type} (n : Fin 2048) (ht : (x1 (ix1 n)).toNat < 2 ^ 31) (a b : α) :
    Scalar.select (val_main_v83 (F := Ideal) x1 (ix1 n)) a b
      = if 10000 ≤ (x1 (ix1 n)).toNat ∧ (x1 (ix1 n)).toNat < 50000 then a else b := by
  rw [val_main_v83_apply, val_main_v80_apply, val_main_v82_apply, val_main_v79_apply, val_main_c_21_apply,
    val_main_v81_apply, val_main_c_22_apply]
  exact Words.select_band ht (by omega) (by omega) a b

end Cert.Proof.Val.Ref.C1

end
-- ==== Proof.Val.RefC2.lean ====
/-
  The reference's tail cluster 2 (classes 50000 ≤ τ < 100000; hidden width 8; 50000 columns), read at one sample `n`.

  The reference forms the cluster's logits as the two products `(x · w1ᵀ) · w2ᵀ`, takes their log-softmax the textbook way
  (row maximum, shifted entries, sum of exponentials, logarithm), and picks the entry at column `clip(t − 50000, 0, 49999)`
  by a gather whose start index is `[row, column]`. Stage by stage this file identifies: the hidden activation with
  `Spec.hid`, the logits with `Spec.tailZ`, the log-softmax with `Spec.lsm`, the gather's start row with `n` and its start
  column with `Spec.col 50000 _ (τ − 50000)`; so the picked entry is `Spec.lsm (Spec.tailZ …) (Spec.col 50000 _ (τ − 50000))`
  (`pick`), the cluster's value adds the head's log-probability of the cluster (`val`), and the cluster's mask is the test
  `50000 ≤ τ ∧ τ < 100000` (`mask`). The target word is assumed below 2³¹ (a signed reading that is not negative).
-/
import proofs.«416376_j65790309040722_2_alg».proof.Proof.RefRead
import proofs.«416376_j65790309040722_2_alg».proof.Proof.Val.Spec
import proofs.«416376_j65790309040722_2_alg».proof.Proof.Val.RefValLib
import proofs.«416376_j65790309040722_2_alg».proof.Proof.Val.Words

noncomputable section

namespace Cert.Proof.Val.Ref.C2

open Cert.ReferenceIdeal Cert.ReferenceIdeal.Gen Cert.ReferenceIdeal.ReadP Idealize.ShloMosaic Idealize.ShloMosaic.ValueIdx
open Cert.Proof.Val Cert.Proof.Val.Ref
open scoped BigOperators

variable (x0 : (⟨S2048x512, .f32⟩ : BufTy).Contents (Elt Ideal)) (x1 : (⟨S2048, .i32⟩ : BufTy).Contents (Elt Ideal))
  (x2 : (⟨S1003x512, .f32⟩ : BufTy).Contents (Elt Ideal))
  (x7 : (⟨S8x512, .f32⟩ : BufTy).Contents (Elt Ideal)) (x8 : (⟨S50000x8, .f32⟩ : BufTy).Contents (Elt Ideal))

local notation "X" => (fun (n : Fin 2048) (d : Fin 512) => x0 (ix2 n d))
local notation "W1" => (fun (h : Fin 8) (d : Fin 512) => x7 (ix2 h d))
local notation "W2" => (fun (cc : Fin 50000) (h : Fin 8) => x8 (ix2 cc h))

/-! ## The two products -/

theorem lidxA (n : Fin 2048) (h : Fin 8) (k : Fin 512) : lidx_main_v86 (ix2 n h) k = ix2 n k :=
  funext fun a => by match a with | ⟨0, _⟩ => rfl | ⟨1, _⟩ => rfl
theorem ridxA (n : Fin 2048) (h : Fin 8) (k : Fin 512) : idx_main_v85 (ridx_main_v86 (ix2 n h) k) = ix2 h k :=
  funext fun a => by match a with | ⟨0, _⟩ => rfl | ⟨1, _⟩ => rfl

/-- The hidden activation: row `n` of `x · w1ᵀ`. -/
theorem hid (n : Fin 2048) (h : Fin 8) :
    val_main_v86 (F := Ideal) x0 x7 (ix2 n h) = Spec.hid X W1 n h := by
  rw [val_main_v86_apply]
  show _ = ∑ k : Fin 512, x0 (ix2 n k) * x7 (ix2 h k)
  refine Finset.sum_congr rfl fun k _ => ?_
  rw [val_main_v85_apply, lidxA, ridxA]

theorem lidxB (n : Fin 2048) (c : Fin 50000) (k : Fin 8) : lidx_main_v88 (ix2 n c) k = ix2 n k :=
  funext fun a => by match a with | ⟨0, _⟩ => rfl | ⟨1, _⟩ => rfl
theorem ridxB (n : Fin 2048) (c : Fin 50000) (k : Fin 8) : idx_main_v87 (ridx_main_v88 (ix2 n c) k) = ix2 c k :=
  funext fun a => by match a with | ⟨0, _⟩ => rfl | ⟨1, _⟩ => rfl

/-- The cluster's logits: row `n` of `(x · w1ᵀ) · w2ᵀ`. -/
theorem logits (n : Fin 2048) (c : Fin 50000) :
    val_main_v88 (F := Ideal) x0 x7 x8 (ix2 n c) = Spec.tailZ X W1 W2 n c := by
  rw [val_main_v88_apply]
  show _ = ∑ k : Fin 8, Spec.hid X W1 n k * x8 (ix2 c k)
  refine Finset.sum_congr rfl fun k _ => ?_
  rw [val_main_v87_apply, lidxB, ridxB, hid]

/-! ## The log-softmax -/

/-- The row maximum the reference's log-softmax subtracts. -/
theorem rowmax (n : Fin 2048) :
    val_main_call8_v2 (F := Ideal) x0 x7 x8 (ix1 n)
      = max ⊥ ((Finset.univ : Finset (Fin 50000)).fold max ⊥ (Spec.tailZ X W1 W2 n)) := by
  rw [val_main_call8_v2_apply, val_main_call8_v1_apply, val_main_call8_cst_0_apply]
  unfold val_main_call8_v0
  rw [reduce_max_row (val_main_v88 (F := Ideal) x0 x7 x8) (val_main_call8_cst (F := Ideal)) reducesTo_S2048x50000_S2048_d1 (by decide) h_S_ n]
  rw [val_main_call8_cst_apply]
  simp only [Ideal.maximumf_def, Ideal.ofBits_def, ofBits_neg_inf]
  refine congrArg (fun f => max ⊥ (Finset.fold max ⊥ f (Finset.univ : Finset (Fin 50000)))) (funext fun k => ?_)
  exact logits x0 x7 x8 n k

theorem idxMax (n : Fin 2048) (c : Fin 50000) : idx_main_call8_v3 (idx_main_call8_v4 (ix2 n c)) = ix1 n :=
  funext fun a => by match a with | ⟨0, _⟩ => rfl
theorem idxLog (n : Fin 2048) (c : Fin 50000) : idx_main_call8_v8 (idx_main_call8_v10 (ix2 n c)) = ix1 n :=
  funext fun a => by match a with | ⟨0, _⟩ => rfl
theorem idxSum (n : Fin 2048) (k : Fin 50000) : idx_main_call8_v7 (ix1 n) k = ix2 n k :=
  funext fun a => by match a with | ⟨0, _⟩ => rfl | ⟨1, _⟩ => rfl

/-- The shifted entry. -/
theorem shift (n : Fin 2048) (c : Fin 50000) :
    val_main_call8_v5 (F := Ideal) x0 x7 x8 (ix2 n c)
      = Spec.tailZ X W1 W2 n c - max ⊥ ((Finset.univ : Finset (Fin 50000)).fold max ⊥ (Spec.tailZ X W1 W2 n)) := by
  rw [val_main_call8_v5_apply, val_main_call8_v4_apply, val_main_call8_v3_apply, idxMax, rowmax, logits, Ideal.subf_def]

/-- The sum of the shifted exponentials, from zero. -/
theorem expsum (n : Fin 2048) :
    val_main_call8_v7 (F := Ideal) x0 x7 x8 (ix1 n)
      = 0 + ∑ k : Fin 50000, Ideal.exp (Spec.tailZ X W1 W2 n k
          - max ⊥ ((Finset.univ : Finset (Fin 50000)).fold max ⊥ (Spec.tailZ X W1 W2 n))) := by
  rw [val_main_call8_v7_apply, val_main_call8_cst_1_apply]
  refine congrArg₂ (· + ·) Ideal.ofBits_zero_f32 (Finset.sum_congr rfl fun k _ => ?_)
  rw [idxSum, val_main_call8_v6_apply, shift, Ideal.hostUnary_exp_def]

/-- The cluster's log-softmax is the specification's. -/
theorem lp (n : Fin 2048) (c : Fin 50000) :
    val_main_v89 (F := Ideal) x0 x7 x8 (ix2 n c) = Spec.lsm (Spec.tailZ X W1 W2 n) c := by
  rw [val_main_v89_apply, shift, val_main_call8_v10_apply, val_main_call8_v9_apply, val_main_call8_v8_apply, idxLog, expsum,
    Ideal.subf_def, Ideal.hostUnary_log_def]
  exact lsm_of_stages (Spec.tailZ X W1 W2 n) c

/-! ## The picked entry -/

theorem idxRow (n : Fin 2048) : idx_main_v105 (ix2 n (0 : Fin 1)) = ix1 n :=
  funext fun a => by match a with | ⟨0, _⟩ => rfl
theorem idxCol (n : Fin 2048) : idx_main_v106 (ix2 n (0 : Fin 1)) = ix1 n :=
  funext fun a => by match a with | ⟨0, _⟩ => rfl

/-- The gather's start row at `n`: the row counter, normalised, read signed and clamped, is `n`. -/
theorem start_row (n : Fin 2048) :
    min (val_main_v107 (F := Ideal) x1 (ix2 n (0 : Fin 2))).toInt.toNat (2048 - 1) = n.val := by
  unfold val_main_v107
  rw [concat_col0 (val_main_v105 (F := Ideal)) (val_main_v106 (F := Ideal) x1) concatenates_S2048x1_S2048x1_S2048x2_d1 n]
  rw [val_main_v105_apply, idxRow, val_main_v99_apply, val_main_v96_apply, val_main_v98_apply, val_main_v95_apply,
    val_main_c_26_apply, val_main_v97_apply, val_main_c_27_apply, val_main_v0_apply]
  show min (Scalar.select (IntOp.cmpi .slt (BitVec.ofNat 32 n.val) 0#32) (IntOp.addi (BitVec.ofNat 32 n.val) 2048#32)
    (BitVec.ofNat 32 n.val)).toInt.toNat (2048 - 1) = n.val
  rw [Words.select_norm_ofNat (by omega) 2048#32]
  exact Words.clamp_ofNat (by omega) (by omega)

/-- The gather's start column at `n`: the target less the cluster's first class, clipped into the cluster, normalised,
    read signed and clamped. -/
theorem start_col (n : Fin 2048) (ht : (x1 (ix1 n)).toNat < 2 ^ 31) :
    min (val_main_v107 (F := Ideal) x1 (ix2 n (1 : Fin 2))).toInt.toNat (50000 - 1)
      = (Spec.col 50000 (by norm_num) ((x1 (ix1 n)).toNat - 50000)).val := by
  unfold val_main_v107
  rw [concat_col1 (val_main_v105 (F := Ideal)) (val_main_v106 (F := Ideal) x1) concatenates_S2048x1_S2048x1_S2048x2_d1 n]
  rw [val_main_v106_apply, idxCol, val_main_v104_apply, val_main_v101_apply, val_main_v103_apply, val_main_v100_apply,
    val_main_c_28_apply, val_main_v102_apply, val_main_c_29_apply, val_main_v92_apply, val_main_call9_v4_apply,
    val_main_call9_v3_apply, val_main_c_25_apply, val_main_call9_v2_apply, val_main_call9_v1_apply, val_main_call9_v0_apply,
    val_main_c_24_apply, val_main_v91_apply, val_main_v90_apply, val_main_c_23_apply]
  rw [Words.norm_clip_sub ht (by omega) (by omega) 50000#32]
  exact Words.clamp_ofNat (by omega) (by omega)

/-- The picked entry of the cluster's log-softmax. -/
theorem pick (n : Fin 2048) (ht : (x1 (ix1 n)).toNat < 2 ^ 31) :
    val_main_v108 (F := Ideal) x0 x1 x7 x8 (ix1 n)
      = Spec.lsm (Spec.tailZ X W1 W2 n) (Spec.col 50000 (by norm_num) ((x1 (ix1 n)).toNat - 50000)) := by
  unfold val_main_v108
  refine (gather_pick_eq gather_S2048x50000_S2048x2_S2048_n_01_n_n_01_1_11_wf (val_main_v107 (F := Ideal) x1) n (by decide) (by decide)
    (val_main_v89 (F := Ideal) x0 x7 x8) n (Spec.col 50000 (by norm_num) ((x1 (ix1 n)).toNat - 50000))
    (start_row x1 n) (start_col x1 n ht)).trans ?_
  exact lp x0 x7 x8 n _

/-! ## The cluster's value and mask -/

/-- The cluster's value: the head's log-probability of the cluster plus the picked entry. -/
theorem val (n : Fin 2048) (ht : (x1 (ix1 n)).toNat < 2 ^ 31) :
    val_main_v109 (F := Ideal) x0 x1 x2 x7 x8 (ix1 n)
      = val_main_v94 (F := Ideal) x0 x2 (ix1 n)
        + Spec.lsm (Spec.tailZ X W1 W2 n) (Spec.col 50000 (by norm_num) ((x1 (ix1 n)).toNat - 50000)) := by
  rw [val_main_v109_apply, pick x0 x1 x7 x8 n ht, Ideal.addf_def]

/-- The cluster's mask: the target is one of the cluster's classes. -/
theorem mask {α : Type} (n : Fin 2048) (ht : (x1 (ix1 n)).toNat < 2 ^ 31) (a b : α) :
    Scalar.select (val_main_v114 (F := Ideal) x1 (ix1 n)) a b
      = if 50000 ≤ (x1 (ix1 n)).toNat ∧ (x1 (ix1 n)).toNat < 100000 then a else b := by
  rw [val_main_v114_apply, val_main_v111_apply, val_main_v113_apply, val_main_v110_apply, val_main_c_30_apply,
    val_main_v112_apply, val_main_c_31_apply]
  exact Words.select_band ht (by omega) (by omega) a b

end Cert.Proof.Val.Ref.C2

end
-- ==== Proof.Val.RefVal.lean ====
/-
  THE REFERENCE IS G: the reference program's result, read at a sample `n`, is the specification `Spec.G` of the
  argument arrays, for targets whose words are below 2³¹ (a signed reading that is not negative).

  The result is three nested selects, one per tail cluster, over the shortlist's select. Each cluster's mask is the test
  `lo ≤ τ ∧ τ < hi` on the target read as a natural number, its value is the head's log-probability of the cluster plus
  the cluster's log-softmax at the column `τ − lo` (clipped), and the shortlist's value is the head's log-softmax at the
  column `τ`, or `0` beyond the shortlist: stage for stage the nested `if`s of `Spec.G`.
-/
import proofs.«416376_j65790309040722_2_alg».proof.Proof.RefRead
import proofs.«416376_j65790309040722_2_alg».proof.Proof.Val.Spec
import proofs.«416376_j65790309040722_2_alg».proof.Proof.Val.RefHead
import proofs.«416376_j65790309040722_2_alg».proof.Proof.Val.RefC0
import proofs.«416376_j65790309040722_2_alg».proof.Proof.Val.RefC1
import proofs.«416376_j65790309040722_2_alg».proof.Proof.Val.RefC2

noncomputable section

namespace Cert.Proof.Val.Ref

open Cert.ReferenceIdeal Cert.ReferenceIdeal.Gen Cert.ReferenceIdeal.ReadP Idealize.ShloMosaic Idealize.ShloMosaic.ValueIdx
open Idealize.ShloMosaic.TcCoe Idealize.SL.Sem
open Cert.Proof.Val

section Stage
variable (x0 : (⟨S2048x512, .f32⟩ : BufTy).Contents (Elt Ideal)) (x1 : (⟨S2048, .i32⟩ : BufTy).Contents (Elt Ideal))
  (x2 : (⟨S1003x512, .f32⟩ : BufTy).Contents (Elt Ideal))
  (x3 : (⟨S128x512, .f32⟩ : BufTy).Contents (Elt Ideal)) (x4 : (⟨S9000x128, .f32⟩ : BufTy).Contents (Elt Ideal))
  (x5 : (⟨S32x512, .f32⟩ : BufTy).Contents (Elt Ideal)) (x6 : (⟨S40000x32, .f32⟩ : BufTy).Contents (Elt Ideal))
  (x7 : (⟨S8x512, .f32⟩ : BufTy).Contents (Elt Ideal)) (x8 : (⟨S50000x8, .f32⟩ : BufTy).Contents (Elt Ideal))

/-- The reference's last stage at sample `n` is the specification of the argument arrays. -/
theorem val_apply (ht : ∀ i, (x1 i).toNat < 2 ^ 31) (n : Fin 2048) :
    val_main_v115 (F := Ideal) x0 x1 x2 x3 x4 x5 x6 x7 x8 (ix1 n)
      = Spec.G (fun n d => x0 (ix2 n d)) (fun n => (x1 (ix1 n)).toNat) (fun cc d => x2 (ix2 cc d))
          (fun h d => x3 (ix2 h d)) (fun cc h => x4 (ix2 cc h)) (fun h d => x5 (ix2 h d)) (fun cc h => x6 (ix2 cc h))
          (fun h d => x7 (ix2 h d)) (fun cc h => x8 (ix2 cc h)) n := by
  have h := ht (ix1 n)
  rw [val_main_v115_apply, C2.mask x1 n h, C2.val x0 x1 x2 x7 x8 n h, RefHead.v94_at x0 x2 n,
    val_main_v84_apply, C1.mask x1 n h, C1.val x0 x1 x2 x5 x6 n h, RefHead.v63_at x0 x2 n,
    val_main_v53_apply, C0.mask x1 n h, C0.val x0 x1 x2 x3 x4 n h, RefHead.v32_at x0 x2 n,
    RefHead.v22_at x0 x1 x2 n h]
  rfl

end Stage

/-- THE REFERENCE IS G: the run's composed term for the result, read at sample `n`, is the specification of the
    arguments' launch contents. -/
theorem ref_apply (m : (ℓ : Loc nD τ sig) → Buf (Elt Ideal) ℓ) (c : Dev nD)
    (ht : ∀ i, (((m ((c.tc : Thread nD τ).loc main_arg1)) : (⟨S2048, .i32⟩ : BufTy).Contents (Elt Ideal)) i).toNat < 2 ^ 31) (n : Fin 2048) :
    (Cert.ReferenceIdeal.ValueP.res_out0 (F := Ideal) m c : (⟨S2048, .f32⟩ : BufTy).Contents (Elt Ideal)) (ix1 n)
      = Spec.G (fun n d => ((m ((c.tc : Thread nD τ).loc main_arg0)) : (⟨S2048x512, .f32⟩ : BufTy).Contents (Elt Ideal)) (ix2 n d)) (fun n => (((m ((c.tc : Thread nD τ).loc main_arg1)) : (⟨S2048, .i32⟩ : BufTy).Contents (Elt Ideal)) (ix1 n)).toNat) (fun cc d => ((m ((c.tc : Thread nD τ).loc main_arg2)) : (⟨S1003x512, .f32⟩ : BufTy).Contents (Elt Ideal)) (ix2 cc d))
          (fun h d => ((m ((c.tc : Thread nD τ).loc main_arg3)) : (⟨S128x512, .f32⟩ : BufTy).Contents (Elt Ideal)) (ix2 h d)) (fun cc h => ((m ((c.tc : Thread nD τ).loc main_arg4)) : (⟨S9000x128, .f32⟩ : BufTy).Contents (Elt Ideal)) (ix2 cc h)) (fun h d => ((m ((c.tc : Thread nD τ).loc main_arg5)) : (⟨S32x512, .f32⟩ : BufTy).Contents (Elt Ideal)) (ix2 h d)) (fun cc h => ((m ((c.tc : Thread nD τ).loc main_arg6)) : (⟨S40000x32, .f32⟩ : BufTy).Contents (Elt Ideal)) (ix2 cc h))
          (fun h d => ((m ((c.tc : Thread nD τ).loc main_arg7)) : (⟨S8x512, .f32⟩ : BufTy).Contents (Elt Ideal)) (ix2 h d)) (fun cc h => ((m ((c.tc : Thread nD τ).loc main_arg8)) : (⟨S50000x8, .f32⟩ : BufTy).Contents (Elt Ideal)) (ix2 cc h)) n :=
  (congrFun (val_main_v115_eq (F := Ideal) m c) (ix1 n)).trans
    (val_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) ht n)

end Cert.Proof.Val.Ref

end
-- ==== Proof.lean ====
/-
  The proof of `Cert.Claim`: an adaptive-softmax target log-probability computed by four kernel regions (the head's
  log-softmax block by block; three tail clusters, each a low-rank product whose log-sum-exp is accumulated tile by tile
  as a running maximum and a rescaled running sum) against the same quantity computed whole on the host.

  * The three frames: each kernel program is run as the list of its host stretches and its four regions, every region
    from its own proof data (Proof/KI, Proof/KB: the head region one case; a tail region three cases by the column
    tile, its hidden block, running maximum, running sum and gathered product carried in scratch between grid points);
    the reference is its host run with the result dropped.
  * `preserves`: a widening of a narrowing is the identity on the extended reals, six times.
  * `algebraic`: the kernel program's result buffer, index by index, is the specification `Spec.G` of the arguments
    (Val/KFinal: the regions' arrays read as values, the host stretches read at an index, the running maximum and sum
    over all tiles equal to the one-shot maximum and shifted sum on finite rows, the two spellings of log-softmax equal
    on finite rows, the signed word tests read as tests on natural numbers for targets that are not negative), and so
    is the reference's (Val/RefVal); the arguments agree.
-/
import proofs.«416376_j65790309040722_2_alg».proof.Defs
import proofs.«416376_j65790309040722_2_alg».proof.Proof.Gen.Kernel
import proofs.«416376_j65790309040722_2_alg».proof.Proof.Gen.KernelIdeal
import proofs.«416376_j65790309040722_2_alg».proof.Proof.Gen.ReferenceIdeal
import proofs.«416376_j65790309040722_2_alg».proof.Proof.Gen.Pre_finite_inputs
import proofs.«416376_j65790309040722_2_alg».proof.Proof.KB.Inst
import proofs.«416376_j65790309040722_2_alg».proof.Proof.KI.Inst
import proofs.«416376_j65790309040722_2_alg».proof.Proof.RefRun
import proofs.«416376_j65790309040722_2_alg».proof.Proof.Val.KFinal
import proofs.«416376_j65790309040722_2_alg».proof.Proof.Val.RefVal
import Idealize.ShloMosaic.Adequacy
import Idealize.ShloMosaic.Init

noncomputable section

namespace Cert.Proof

open Idealize.ShloMosaic Idealize.SL.Sem Idealize.ShloMosaic.ValueIdx

section Claims

variable [hK : Cert.Kernel.Facts] [hKI : Cert.KernelIdeal.Facts] [hR : Cert.ReferenceIdeal.Facts] [hP : Cert.Pre_finite_inputs.Facts]

/-- The word-level program runs to the end and leaves its arguments as launched. -/
theorem frame_k : Cert.frame_Kernel := fun m ρ _ =>
  (θ_run Cert.Kernel.defs _ _).mono (fun _ h c => (h c).2) (Cert.Kernel.Hand.run_inst (F := Bits) m ρ)

/-- So does the idealized program. -/
theorem frame_ki : Cert.frame_KernelIdeal := fun m ρ _ =>
  (θ_run Cert.KernelIdeal.defs _ _).mono (fun _ h c => (h c).2) (Cert.KernelIdeal.Hand.run_inst (F := Ideal) m ρ)

/-- The reference's frame is its host run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Widening a narrowed vector is the identity on the extended reals: the six rewritten sites. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both programs end with the specification's value at every sample: the kernel program's result buffer by the
    regions' values and the host stretches, the reference's by its stages; the arguments agree. -/
theorem algebraic : Cert.algebraic_KernelIdeal_ReferenceIdeal := by
  intro m ρ m' ρ' hpre hagree
  refine ⟨fun c => Cert.KernelIdeal.Hand.resultAt (F := Ideal) m c, Cert.KernelIdeal.Hand.run_inst (F := Ideal) m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨n, rfl⟩ : ∃ n : Fin 2048, i = ix1 n := ⟨_, eq_ix1 i⟩
  have ht : ∀ j, (m' ((c.tc : Thread Cert.ReferenceIdeal.nD Cert.ReferenceIdeal.τ).loc Cert.ReferenceIdeal.main_arg1) j).toNat < 2 ^ 31 := by
    intro j
    rw [(hagree c).2.1]
    exact (Cert.Proof.Val.PreFacts.targets_toNat_of_pre _ _ _ _ _ _ _ _ _ (hpre c) j).1
  refine (Cert.Proof.Val.Ref.ref_apply m' c ht n).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Proof.Val.KFinal.kernel_final m c (hpre c) n).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
